-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x64 : Shape := ⟨2, ![8192, 64]⟩
abbrev S2x1024 : Shape := ⟨2, ![2, 1024]⟩
abbrev S2x1088x4096 : Shape := ⟨3, ![2, 1088, 4096]⟩
abbrev S2x4096 : Shape := ⟨2, ![2, 4096]⟩
abbrev S2x4096x4096 : Shape := ⟨3, ![2, 4096, 4096]⟩
abbrev S2x4096x2048 : Shape := ⟨3, ![2, 4096, 2048]⟩
abbrev S2x2048 : Shape := ⟨2, ![2, 2048]⟩
abbrev S_ : Shape := ⟨0, ![]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S2x1088x4096 : S_.BroadcastsInDim S2x1088x4096 (![] : Fin 0 → Fin S2x1088x4096.rank)
  reducesTo_S2x1088x4096_S_d0_1_2 : S2x1088x4096.ReducesTo [0, 1, 2] S_
  bcast_S_S2x4096 : S_.BroadcastsInDim S2x4096 (![] : Fin 0 → Fin S2x4096.rank)
  reducesTo_S2x4096_S_d0_1 : S2x4096.ReducesTo [0, 1] S_
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S2x4096x2048 : S_.BroadcastsInDim S2x4096x2048 (![] : Fin 0 → Fin S2x4096x2048.rank)
  reducesTo_S2x4096x2048_S_d0_1_2 : S2x4096x2048.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2x1024 : S_.BroadcastsInDim S2x1024 (![] : Fin 0 → Fin S2x1024.rank)
  reducesTo_S2x1024_S_d0_1 : S2x1024.ReducesTo [0, 1] S_
  slices_S2x1024_S1x1024_0_0 : S2x1024.Slices ![0, 0] S1x1024
  shapeCasts_S1x1024_S1024 : S1x1024.ShapeCasts S1024
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  reducesTo_S1024x1024_S_d0_1 : S1024x1024.ReducesTo [0, 1] S_
  slices_S2x1024_S1x1024_1_0 : S2x1024.Slices ![1, 0] S1x1024

variable [Facts]

def fn_part4 {F : FTy → Type} [FloatOps F] (main_v68 : IVec S_ 1) (main_v70 : IVec S1024 32) (main_v71 : IVec S1024 32) (main_v72 : IVec S1024x1 32) : IVec S_ 1 :=
  let main_v73 : IVec S1x1024 32 := broadcastInDim S1x1024 ![1] bcast_S1024_S1x1024_1 main_v70
  let main_v74 : IVec S1024x1024 32 := broadcastInDim S1024x1024 ![0, 1] bcast_S1024x1_S1024x1024_0_1 main_v72
  let main_v75 : IVec S1024x1024 32 := broadcastInDim S1024x1024 ![0, 1] bcast_S1x1024_S1024x1024_0_1 main_v73
  let main_v76 : IVec S1024x1024 1 := cmpi .ne main_v74 main_v75
  let main_v77 : IVec S1024x1 32 := broadcastInDim S1024x1 ![0] bcast_S1024_S1024x1_0 main_v71
  let main_v78 : IVec S1x1024 32 := broadcastInDim S1x1024 ![1] bcast_S1024_S1x1024_1 main_v71
  let main_v79 : IVec S1024x1024 32 := broadcastInDim S1024x1024 ![0, 1] bcast_S1024x1_S1024x1024_0_1 main_v77
  let main_v80 : IVec S1024x1024 32 := broadcastInDim S1024x1024 ![0, 1] bcast_S1x1024_S1024x1024_0_1 main_v78
  let main_v81 : IVec S1024x1024 1 := cmpi .eq main_v79 main_v80
  let main_v82 : IVec S1024x1024 1 := ori main_v76 main_v81
  let main_c_21 : IVec S_ 1 := constantI S_ 1 1#1
  let main_v83 : IVec S_ 1 := (fun x v => Host.reduce IntOp.andi x v reducesTo_S1024x1024_S_d0_1 h_S_) main_v82 main_c_21
  let main_v84 : IVec S_ 1 := andi main_v68 main_v83
  main_v84

def fn_part3 {F : FTy → Type} [FloatOps F] (main_arg3 : IVec S2x1024 32) (main_v45 : IVec S_ 1) (main_v50 : IVec S2x1024 1) : IVec S_ 1 :=
  let main_c_19 : IVec S_ 1 := constantI S_ 1 1#1
  let main_v51 : IVec S_ 1 := (fun x v => Host.reduce IntOp.andi x v reducesTo_S2x1024_S_d0_1 h_S_) main_v50 main_c_19
  let main_v52 : IVec S_ 1 := andi main_v45 main_v51
  let main_v53 : IVec S1x1024 32 := (extractStridedSlice S1x1024 ![0, 0] · slices_S2x1024_S1x1024_0_0) main_arg3
  let main_v54 : IVec S1024 32 := shapeCast S1024 main_v53 shapeCasts_S1x1024_S1024
  let main_v55 : IVec S1024 32 := iotaInDim S1024 32 0
  let main_v56 : IVec S1024x1 32 := broadcastInDim S1024x1 ![0] bcast_S1024_S1024x1_0 main_v54
  let main_v57 : IVec S1x1024 32 := broadcastInDim S1x1024 ![1] bcast_S1024_S1x1024_1 main_v54
  let main_v58 : IVec S1024x1024 32 := broadcastInDim S1024x1024 ![0, 1] bcast_S1024x1_S1024x1024_0_1 main_v56
  let main_v59 : IVec S1024x1024 32 := broadcastInDim S1024x1024 ![0, 1] bcast_S1x1024_S1024x1024_0_1 main_v57
  let main_v60 : IVec S1024x1024 1 := cmpi .ne main_v58 main_v59
  let main_v61 : IVec S1024x1 32 := broadcastInDim S1024x1 ![0] bcast_S1024_S1024x1_0 main_v55
  let main_v62 : IVec S1x1024 32 := broadcastInDim S1x1024 ![1] bcast_S1024_S1x1024_1 main_v55
  let main_v63 : IVec S1024x1024 32 := broadcastInDim S1024x1024 ![0, 1] bcast_S1024x1_S1024x1024_0_1 main_v61
  let main_v64 : IVec S1024x1024 32 := broadcastInDim S1024x1024 ![0, 1] bcast_S1x1024_S1024x1024_0_1 main_v62
  let main_v65 : IVec S1024x1024 1 := cmpi .eq main_v63 main_v64
  let main_v66 : IVec S1024x1024 1 := ori main_v60 main_v65
  let main_c_20 : IVec S_ 1 := constantI S_ 1 1#1
  let main_v67 : IVec S_ 1 := (fun x v => Host.reduce IntOp.andi x v reducesTo_S1024x1024_S_d0_1 h_S_) main_v66 main_c_20
  let main_v68 : IVec S_ 1 := andi main_v52 main_v67
  let main_v69 : IVec S1x1024 32 := (extractStridedSlice S1x1024 ![1, 0] · slices_S2x1024_S1x1024_1_0) main_arg3
  let main_v70 : IVec S1024 32 := shapeCast S1024 main_v69 shapeCasts_S1x1024_S1024
  let main_v71 : IVec S1024 32 := iotaInDim S1024 32 0
  let main_v72 : IVec S1024x1 32 := broadcastInDim S1024x1 ![0] bcast_S1024_S1024x1_0 main_v70
  fn_part4 (F := F) main_v68 main_v70 main_v71 main_v72

def fn_part2 {F : FTy → Type} [FloatOps F] (main_arg2 : IVec S2x1024 32) (main_arg3 : IVec S2x1024 32) (main_arg9 : FVec F S2x2048 .f32) (main_v33 : IVec S_ 1) : IVec S_ 1 :=
  let main_v34 : FVec F S2x2048 .f32 := Host.absf main_arg9
  let main_cst_12 : FVec F S_ .f32 := constant S_ .f32 0x7F800000#32
  let main_v35 : FVec F S2x2048 .f32 := broadcastInDim S2x2048 ![] bcast_S_S2x2048 main_cst_12
  let main_v36 : IVec S2x2048 1 := cmpf .olt main_v34 main_v35
  let main_c_13 : IVec S_ 1 := constantI S_ 1 1#1
  let main_v37 : IVec S_ 1 := (fun x v => Host.reduce IntOp.andi x v reducesTo_S2x2048_S_d0_1 h_S_) main_v36 main_c_13
  let main_v38 : IVec S_ 1 := andi main_v33 main_v37
  let main_c_14 : IVec S_ 32 := constantI S_ 32 0#32
  let main_v39 : IVec S2x1024 32 := broadcastInDim S2x1024 ![] bcast_S_S2x1024 main_c_14
  let main_v40 : IVec S2x1024 1 := cmpi .sge main_arg2 main_v39
  let main_c_15 : IVec S_ 32 := constantI S_ 32 2048#32
  let main_v41 : IVec S2x1024 32 := broadcastInDim S2x1024 ![] bcast_S_S2x1024 main_c_15
  let main_v42 : IVec S2x1024 1 := cmpi .slt main_arg2 main_v41
  let main_v43 : IVec S2x1024 1 := andi main_v40 main_v42
  let main_c_16 : IVec S_ 1 := constantI S_ 1 1#1
  let main_v44 : IVec S_ 1 := (fun x v => Host.reduce IntOp.andi x v reducesTo_S2x1024_S_d0_1 h_S_) main_v43 main_c_16
  let main_v45 : IVec S_ 1 := andi main_v38 main_v44
  let main_c_17 : IVec S_ 32 := constantI S_ 32 0#32
  let main_v46 : IVec S2x1024 32 := broadcastInDim S2x1024 ![] bcast_S_S2x1024 main_c_17
  let main_v47 : IVec S2x1024 1 := cmpi .sge main_arg3 main_v46
  let main_c_18 : IVec S_ 32 := constantI S_ 32 2048#32
  let main_v48 : IVec S2x1024 32 := broadcastInDim S2x1024 ![] bcast_S_S2x1024 main_c_18
  let main_v49 : IVec S2x1024 1 := cmpi .slt main_arg3 main_v48
  let main_v50 : IVec S2x1024 1 := andi main_v47 main_v49
  fn_part3 (F := F) main_arg3 main_v45 main_v50

def fn_part1 {F : FTy → Type} [FloatOps F] (main_arg2 : IVec S2x1024 32) (main_arg3 : IVec S2x1024 32) (main_arg6 : FVec F S2x4096x4096 .f32) (main_arg7 : FVec F S2x4096 .f32) (main_arg8 : FVec F S2x4096x2048 .f32) (main_arg9 : FVec F S2x2048 .f32) (main_v13 : IVec S_ 1) (main_v16 : IVec S2x4096 1) : IVec S_ 1 :=
  let main_c_5 : IVec S_ 1 := constantI S_ 1 1#1
  let main_v17 : IVec S_ 1 := (fun x v => Host.reduce IntOp.andi x v reducesTo_S2x4096_S_d0_1 h_S_) main_v16 main_c_5
  let main_v18 : IVec S_ 1 := andi main_v13 main_v17
  let main_v19 : FVec F S2x4096x4096 .f32 := Host.absf main_arg6
  let main_cst_6 : FVec F S_ .f32 := constant S_ .f32 0x7F800000#32
  let main_v20 : FVec F S2x4096x4096 .f32 := broadcastInDim S2x4096x4096 ![] bcast_S_S2x4096x4096 main_cst_6
  let main_v21 : IVec S2x4096x4096 1 := cmpf .olt main_v19 main_v20
  let main_c_7 : IVec S_ 1 := constantI S_ 1 1#1
  let main_v22 : IVec S_ 1 := (fun x v => Host.reduce IntOp.andi x v reducesTo_S2x4096x4096_S_d0_1_2 h_S_) main_v21 main_c_7
  let main_v23 : IVec S_ 1 := andi main_v18 main_v22
  let main_v24 : FVec F S2x4096 .f32 := Host.absf main_arg7
  let main_cst_8 : FVec F S_ .f32 := constant S_ .f32 0x7F800000#32
  let main_v25 : FVec F S2x4096 .f32 := broadcastInDim S2x4096 ![] bcast_S_S2x4096 main_cst_8
  let main_v26 : IVec S2x4096 1 := cmpf .olt main_v24 main_v25
  let main_c_9 : IVec S_ 1 := constantI S_ 1 1#1
  let main_v27 : IVec S_ 1 := (fun x v => Host.reduce IntOp.andi x v reducesTo_S2x4096_S_d0_1 h_S_) main_v26 main_c_9
  let main_v28 : IVec S_ 1 := andi main_v23 main_v27
  let main_v29 : FVec F S2x4096x2048 .f32 := Host.absf main_arg8
  let main_cst_10 : FVec F S_ .f32 := constant S_ .f32 0x7F800000#32
  let main_v30 : FVec F S2x4096x2048 .f32 := broadcastInDim S2x4096x2048 ![] bcast_S_S2x4096x2048 main_cst_10
  let main_v31 : IVec S2x4096x2048 1 := cmpf .olt main_v29 main_v30
  let main_c_11 : IVec S_ 1 := constantI S_ 1 1#1
  let main_v32 : IVec S_ 1 := (fun x v => Host.reduce IntOp.andi x v reducesTo_S2x4096x2048_S_d0_1_2 h_S_) main_v31 main_c_11
  let main_v33 : IVec S_ 1 := andi main_v28 main_v32
  fn_part2 (F := F) main_arg2 main_arg3 main_arg9 main_v33

def fn {F : FTy → Type} [FloatOps F] (main_arg0 : FVec F S8192x2048 .f32) (main_arg1 : FVec F S8192x64 .f32) (main_arg2 : IVec S2x1024 32) (main_arg3 : IVec S2x1024 32) (main_arg4 : FVec F S2x1088x4096 .f32) (main_arg5 : FVec F S2x4096 .f32) (main_arg6 : FVec F S2x4096x4096 .f32) (main_arg7 : FVec F S2x4096 .f32) (main_arg8 : FVec F S2x4096x2048 .f32) (main_arg9 : FVec F S2x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S2x1088x4096 .f32 := Host.absf main_arg4
  let main_cst_2 : FVec F S_ .f32 := constant S_ .f32 0x7F800000#32
  let main_v10 : FVec F S2x1088x4096 .f32 := broadcastInDim S2x1088x4096 ![] bcast_S_S2x1088x4096 main_cst_2
  let main_v11 : IVec S2x1088x4096 1 := cmpf .olt main_v9 main_v10
  let main_c_3 : IVec S_ 1 := constantI S_ 1 1#1
  let main_v12 : IVec S_ 1 := (fun x v => Host.reduce IntOp.andi x v reducesTo_S2x1088x4096_S_d0_1_2 h_S_) main_v11 main_c_3
  let main_v13 : IVec S_ 1 := andi main_v8 main_v12
  let main_v14 : FVec F S2x4096 .f32 := Host.absf main_arg5
  let main_cst_4 : FVec F S_ .f32 := constant S_ .f32 0x7F800000#32
  let main_v15 : FVec F S2x4096 .f32 := broadcastInDim S2x4096 ![] bcast_S_S2x4096 main_cst_4
  let main_v16 : IVec S2x4096 1 := cmpf .olt main_v14 main_v15
  fn_part1 (F := F) main_arg2 main_arg3 main_arg6 main_arg7 main_arg8 main_arg9 main_v13 main_v16
-- ==== Kernel.lean ====
abbrev S8192x2048 : Shape := ⟨2, ![8192, 2048]⟩
abbrev S8192x64 : Shape := ⟨2, ![8192, 64]⟩
abbrev S2x1024 : Shape := ⟨2, ![2, 1024]⟩
abbrev S2x1088x4096 : Shape := ⟨3, ![2, 1088, 4096]⟩
abbrev S2x4096 : Shape := ⟨2, ![2, 4096]⟩
abbrev S2x4096x4096 : Shape := ⟨3, ![2, 4096, 4096]⟩
abbrev S2x4096x2048 : Shape := ⟨3, ![2, 4096, 2048]⟩
abbrev S2x2048 : Shape := ⟨2, ![2, 2048]⟩
abbrev S_ : Shape := ⟨0, ![]⟩
abbrev S8192x1 : Shape := ⟨2, ![8192, 1]⟩
abbrev S2048x1024 : Shape := ⟨2, ![2048, 1024]⟩
abbrev S1x1024 : Shape := ⟨2, ![1, 1024]⟩
abbrev S1024 : Shape := ⟨1, ![1024]⟩
abbrev S2048 : Shape := ⟨1, ![2048]⟩
abbrev S1x2048 : Shape := ⟨2, ![1, 2048]⟩
abbrev S1x4096x2048 : Shape := ⟨3, ![1, 4096, 2048]⟩
abbrev S4096x2048 : Shape := ⟨2, ![4096, 2048]⟩
abbrev S4096x1024x2 : Shape := ⟨3, ![4096, 1024, 2]⟩
abbrev S4096x1024x1 : Shape := ⟨3, ![4096, 1024, 1]⟩
abbrev S4096x1024 : Shape := ⟨2, ![4096, 1024]⟩
abbrev S1024x2 : Shape := ⟨2, ![1024, 2]⟩
abbrev S1024x1 : Shape := ⟨2, ![1024, 1]⟩
abbrev S1x1088x4096 : Shape := ⟨3, ![1, 1088, 4096]⟩
abbrev S1088x4096 : Shape := ⟨2, ![1088, 4096]⟩
abbrev S1x4096 : Shape := ⟨2, ![1, 4096]⟩
abbrev S4096 : Shape := ⟨1, ![4096]⟩
abbrev S8192x4096 : Shape := ⟨2, ![8192, 4096]⟩
abbrev S512x2048 : Shape := ⟨2, ![512, 2048]⟩
abbrev S512x64 : Shape := ⟨2, ![512, 64]⟩
abbrev S1088x2048 : Shape := ⟨2, ![1088, 2048]⟩
abbrev S512x1024 : Shape := ⟨2, ![512, 1024]⟩
abbrev S512x1088 : Shape := ⟨2, ![512, 1088]⟩
abbrev S1x4096x4096 : Shape := ⟨3, ![1, 4096, 4096]⟩
abbrev S4096x4096 : Shape := ⟨2, ![4096, 4096]⟩
abbrev S512x4096 : Shape := ⟨2, ![512, 4096]⟩
abbrev S256x4096 : Shape := ⟨2, ![256, 4096]⟩
abbrev S256x2048 : Shape := ⟨2, ![256, 2048]⟩
abbrev S256x1 : Shape := ⟨2, ![256, 1]⟩
abbrev S256x1024 : Shape := ⟨2, ![256, 1024]⟩
abbrev S256 : Shape := ⟨1, ![256]⟩

abbrev nBuf : Space → Nat
  | .hbm => 111
  | .vmem => 62
  | .smem => 0
  | _ => 0

abbrev bufTy : (tb : Table) → Fin (tcTables nBuf tb) → BufTy
  | .hbm, ⟨0, _⟩ => ⟨S8192x2048, .f32⟩
  | .hbm, ⟨1, _⟩ => ⟨S8192x64, .f32⟩
  | .hbm, ⟨2, _⟩ => ⟨S2x1024, .i32⟩
  | .hbm, ⟨3, _⟩ => ⟨S2x1024, .i32⟩
  | .hbm, ⟨4, _⟩ => ⟨S2x1088x4096, .f32⟩
  | .hbm, ⟨5, _⟩ => ⟨S2x4096, .f32⟩
  | .hbm, ⟨6, _⟩ => ⟨S2x4096x4096, .f32⟩
  | .hbm, ⟨7, _⟩ => ⟨S2x4096, .f32⟩
  | .hbm, ⟨8, _⟩ => ⟨S2x4096x2048, .f32⟩
  | .hbm, ⟨9, _⟩ => ⟨S2x2048, .f32⟩
  | .hbm, ⟨10, _⟩ => ⟨S_, .f32⟩
  | .hbm, ⟨11, _⟩ => ⟨S8192x1, .f32⟩
  | .hbm, ⟨12, _⟩ => ⟨S2048x1024, .i32⟩
  | .hbm, ⟨13, _⟩ => ⟨S1x1024, .i32⟩
  | .hbm, ⟨14, _⟩ => ⟨S1024, .i32⟩
  | .hbm, ⟨15, _⟩ => ⟨S1x1024, .i32⟩
  | .hbm, ⟨16, _⟩ => ⟨S2048x1024, .i32⟩
  | .hbm, ⟨17, _⟩ => ⟨S2048x1024, .i1⟩
  | .hbm, ⟨18, _⟩ => ⟨S2048x1024, .bf16⟩
  | .hbm, ⟨19, _⟩ => ⟨S1x1024, .i32⟩
  | .hbm, ⟨20, _⟩ => ⟨S1024, .i32⟩
  | .hbm, ⟨21, _⟩ => ⟨S1x1024, .i32⟩
  | .hbm, ⟨22, _⟩ => ⟨S2048x1024, .i32⟩
  | .hbm, ⟨23, _⟩ => ⟨S2048x1024, .i1⟩
  | .hbm, ⟨24, _⟩ => ⟨S2048x1024, .bf16⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S1x4096x2048, .f32⟩
  | .hbm, ⟨30, _⟩ => ⟨S4096x2048, .f32⟩
  | .hbm, ⟨31, _⟩ => ⟨S4096x1024x2, .f32⟩
  | .hbm, ⟨32, _⟩ => ⟨S4096x1024x1, .f32⟩
  | .hbm, ⟨33, _⟩ => ⟨S4096x1024, .f32⟩
  | .hbm, ⟨34, _⟩ => ⟨S4096x1024x1, .f32⟩
  | .hbm, ⟨35, _⟩ => ⟨S4096x1024, .f32⟩
  | .hbm, ⟨36, _⟩ => ⟨S4096x2048, .f32⟩
  | .hbm, ⟨37, _⟩ => ⟨S4096x2048, .bf16⟩
  | .hbm, ⟨38, _⟩ => ⟨S1x2048, .f32⟩
  | .hbm, ⟨39, _⟩ => ⟨S2048, .f32⟩
  | .hbm, ⟨40, _⟩ => ⟨S1024x2, .f32⟩
  | .hbm, ⟨41, _⟩ => ⟨S1024x1, .f32⟩
  | .hbm, ⟨42, _⟩ => ⟨S1024, .f32⟩
  | .hbm, ⟨43, _⟩ => ⟨S1024x1, .f32⟩
  | .hbm, ⟨44, _⟩ => ⟨S1024, .f32⟩
  | .hbm, ⟨45, _⟩ => ⟨S2048, .f32⟩
  | .hbm, ⟨46, _⟩ => ⟨S1x2048, .f32⟩
  | .hbm, ⟨47, _⟩ => ⟨S1x1088x4096, .f32⟩
  | .hbm, ⟨48, _⟩ => ⟨S1088x4096, .f32⟩
  | .hbm, ⟨49, _⟩ => ⟨S1x4096, .f32⟩
  | .hbm, ⟨50, _⟩ => ⟨S4096, .f32⟩
  | .hbm, ⟨51, _⟩ => ⟨S1x4096, .f32⟩
  | .hbm, ⟨52, _⟩ => ⟨S8192x4096, .bf16⟩
  | .hbm, ⟨53, _⟩ => ⟨S1x4096x4096, .f32⟩
  | .hbm, ⟨54, _⟩ => ⟨S4096x4096, .f32⟩
  | .hbm, ⟨55, _⟩ => ⟨S1x4096, .f32⟩
  | .hbm, ⟨56, _⟩ => ⟨S4096, .f32⟩
  | .hbm, ⟨57, _⟩ => ⟨S1x4096, .f32⟩
  | .hbm, ⟨58, _⟩ => ⟨S8192x4096, .bf16⟩
  | .hbm, ⟨59, _⟩ => ⟨S8192x2048, .f32⟩
  | .hbm, ⟨60, _⟩ => ⟨S8192x1, .f32⟩
  | .hbm, ⟨61, _⟩ => ⟨S8192x1, .f32⟩
  | .hbm, ⟨62, _⟩ => ⟨S1x1024, .i32⟩
  | .hbm, ⟨63, _⟩ => ⟨S1024, .i32⟩
  | .hbm, ⟨64, _⟩ => ⟨S1x1024, .i32⟩
  | .hbm, ⟨65, _⟩ => ⟨S2048x1024, .i32⟩
  | .hbm, ⟨66, _⟩ => ⟨S2048x1024, .i1⟩
  | .hbm, ⟨67, _⟩ => ⟨S2048x1024, .bf16⟩
  | .hbm, ⟨68, _⟩ => ⟨S1x1024, .i32⟩
  | .hbm, ⟨69, _⟩ => ⟨S1024, .i32⟩
  | .hbm, ⟨70, _⟩ => ⟨S1x1024, .i32⟩
  | .hbm, ⟨71, _⟩ => ⟨S2048x1024, .i32⟩
  | .hbm, ⟨72, _⟩ => ⟨S2048x1024, .i1⟩
  | .hbm, ⟨73, _⟩ => ⟨S2048x1024, .bf16⟩
  | .hbm, ⟨74, _⟩ => ⟨S2048x1024, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S1x4096x2048, .f32⟩
  | .hbm, ⟨79, _⟩ => ⟨S4096x2048, .f32⟩
  | .hbm, ⟨80, _⟩ => ⟨S4096x1024x2, .f32⟩
  | .hbm, ⟨81, _⟩ => ⟨S4096x1024x1, .f32⟩
  | .hbm, ⟨82, _⟩ => ⟨S4096x1024, .f32⟩
  | .hbm, ⟨83, _⟩ => ⟨S4096x1024x1, .f32⟩
  | .hbm, ⟨84, _⟩ => ⟨S4096x1024, .f32⟩
  | .hbm, ⟨85, _⟩ => ⟨S4096x2048, .f32⟩
  | .hbm, ⟨86, _⟩ => ⟨S4096x2048, .bf16⟩
  | .hbm, ⟨87, _⟩ => ⟨S1x2048, .f32⟩
  | .hbm, ⟨88, _⟩ => ⟨S2048, .f32⟩
  | .hbm, ⟨89, _⟩ => ⟨S1024x2, .f32⟩
  | .hbm, ⟨90, _⟩ => ⟨S1024x1, .f32⟩
  | .hbm, ⟨91, _⟩ => ⟨S1024, .f32⟩
  | .hbm, ⟨92, _⟩ => ⟨S1024x1, .f32⟩
  | .hbm, ⟨93, _⟩ => ⟨S1024, .f32⟩
  | .hbm, ⟨94, _⟩ => ⟨S2048, .f32⟩
  | .hbm, ⟨95, _⟩ => ⟨S1x2048, .f32⟩
  | .hbm, ⟨96, _⟩ => ⟨S1x1088x4096, .f32⟩
  | .hbm, ⟨97, _⟩ => ⟨S1088x4096, .f32⟩
  | .hbm, ⟨98, _⟩ => ⟨S1x4096, .f32⟩
  | .hbm, ⟨99, _⟩ => ⟨S4096, .f32⟩
  | .hbm, ⟨100, _⟩ => ⟨S1x4096, .f32⟩
  | .hbm, ⟨101, _⟩ => ⟨S8192x4096, .bf16⟩
  | .hbm, ⟨102, _⟩ => ⟨S1x4096x4096, .f32⟩
  | .hbm, ⟨103, _⟩ => ⟨S4096x4096, .f32⟩
  | .hbm, ⟨104, _⟩ => ⟨S1x4096, .f32⟩
  | .hbm, ⟨105, _⟩ => ⟨S4096, .f32⟩
  | .hbm, ⟨106, _⟩ => ⟨S1x4096, .f32⟩
  | .hbm, ⟨107, _⟩ => ⟨S8192x4096, .bf16⟩
  | .hbm, ⟨108, _⟩ => ⟨S8192x2048, .f32⟩
  | .hbm, ⟨109, _⟩ => ⟨S8192x1, .f32⟩
  | .hbm, ⟨110, _⟩ => ⟨S8192x1, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S512x64, .f32⟩
  | .local _ .vmem, ⟨4, _⟩ => ⟨S512x64, .f32⟩
  | .local _ .vmem, ⟨5, _⟩ => ⟨S1088x2048, .f32⟩
  | .local _ .vmem, ⟨6, _⟩ => ⟨S1088x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .bf16⟩
  | .local _ .vmem, ⟨10, _⟩ => ⟨S512x2048, .bf16⟩
  | .local _ .vmem, ⟨11, _⟩ => ⟨S512x4096, .bf16⟩
  | .local _ .vmem, ⟨12, _⟩ => ⟨S512x4096, .bf16⟩
  | .local _ .vmem, ⟨13, _⟩ => ⟨S4096x1024, .f32⟩
  | .local _ .vmem, ⟨14, _⟩ => ⟨S4096x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S256x4096, .bf16⟩
  | .local _ .vmem, ⟨20, _⟩ => ⟨S256x4096, .bf16⟩
  | .local _ .vmem, ⟨21, _⟩ => ⟨S4096x2048, .bf16⟩
  | .local _ .vmem, ⟨22, _⟩ => ⟨S1x2048, .f32⟩
  | .local _ .vmem, ⟨23, _⟩ => ⟨S256x2048, .f32⟩
  | .local _ .vmem, ⟨24, _⟩ => ⟨S256x2048, .f32⟩
  | .local _ .vmem, ⟨25, _⟩ => ⟨S2048x1024, .bf16⟩
  | .local _ .vmem, ⟨26, _⟩ => ⟨S1x2048, .f32⟩
  | .local _ .vmem, ⟨27, _⟩ => ⟨S256x2048, .f32⟩
  | .local _ .vmem, ⟨28, _⟩ => ⟨S256x2048, .f32⟩
  | .local _ .vmem, ⟨29, _⟩ => ⟨S256x1, .f32⟩
  | .local _ .vmem, ⟨30, _⟩ => ⟨S256x1, .f32⟩
  | .local _ .vmem, ⟨31, _⟩ => ⟨S512x2048, .f32⟩
  | .local _ .vmem, ⟨32, _⟩ => ⟨S512x2048, .f32⟩
  | .local _ .vmem, ⟨33, _⟩ => ⟨S2048x1024, .bf16⟩
  | .local _ .vmem, ⟨34, _⟩ => ⟨S512x64, .f32⟩
  | .local _ .vmem, ⟨35, _⟩ => ⟨S512x64, .f32⟩
  | .local _ .vmem, ⟨36, _⟩ => ⟨S1088x2048, .f32⟩
  | .local _ .vmem, ⟨37, _⟩ => ⟨S1088x2048, .f32⟩
  | .local _ .vmem, ⟨38, _⟩ => ⟨S1x2048, .f32⟩
  | .local _ .vmem, ⟨39, _⟩ => ⟨S1x2048, .f32⟩
  | .local _ .vmem, ⟨40, _⟩ => ⟨S512x2048, .bf16⟩
  | .local _ .vmem, ⟨41, _⟩ => ⟨S512x2048, .bf16⟩
  | .local _ .vmem, ⟨42, _⟩ => ⟨S512x4096, .bf16⟩
  | .local _ .vmem, ⟨43, _⟩ => ⟨S512x4096, .bf16⟩
  | .local _ .vmem, ⟨44, _⟩ => ⟨S4096x1024, .f32⟩
  | .local _ .vmem, ⟨45, _⟩ => ⟨S4096x1024, .f32⟩
  | .local _ .vmem, ⟨46, _⟩ => ⟨S1x1024, .f32⟩
  | .local _ .vmem, ⟨47, _⟩ => ⟨S1x1024, .f32⟩
  | .local _ .vmem, ⟨48, _⟩ => ⟨S512x1024, .bf16⟩
  | .local _ .vmem, ⟨49, _⟩ => ⟨S512x1024, .bf16⟩
  | .local _ .vmem, ⟨50, _⟩ => ⟨S256x4096, .bf16⟩
  | .local _ .vmem, ⟨51, _⟩ => ⟨S256x4096, .bf16⟩
  | .local _ .vmem, ⟨52, _⟩ => ⟨S4096x2048, .bf16⟩
  | .local _ .vmem, ⟨53, _⟩ => ⟨S1x2048, .f32⟩
  | .local _ .vmem, ⟨54, _⟩ => ⟨S256x2048, .f32⟩
  | .local _ .vmem, ⟨55, _⟩ => ⟨S256x2048, .f32⟩
  | .local _ .vmem, ⟨56, _⟩ => ⟨S2048x1024, .bf16⟩
  | .local _ .vmem, ⟨57, _⟩ => ⟨S1x2048, .f32⟩
  | .local _ .vmem, ⟨58, _⟩ => ⟨S256x2048, .f32⟩
  | .local _ .vmem, ⟨59, _⟩ => ⟨S256x2048, .f32⟩
  | .local _ .vmem, ⟨60, _⟩ => ⟨S256x1, .f32⟩
  | .local _ .vmem, ⟨61, _⟩ => ⟨S256x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_1 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94_0 : Ref sig .tc := ⟨.hbm, 108, rfl⟩
abbrev main_v94_1 : Ref sig .tc := ⟨.hbm, 109, rfl⟩
abbrev main_v95 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc5_stg7_0 : Ref sig .tc := ⟨.vmem, 60, rfl⟩
abbrev cc5_stg7_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27
abbrev cc2_sem6_1 : DmaSem sig := 28
abbrev cc2_sem7_0 : DmaSem sig := 29
abbrev cc2_sem7_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem3_1 : DmaSem sig := 55
abbrev cc5_sem4_0 : DmaSem sig := 56
abbrev cc5_sem5_0 : DmaSem sig := 57
abbrev cc5_sem6_0 : DmaSem sig := 58
abbrev cc5_sem6_1 : DmaSem sig := 59
abbrev cc5_sem7_0 : DmaSem sig := 60
abbrev cc5_sem7_1 : DmaSem sig := 61

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S2048x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![2, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S512x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1088x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S512x2048 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![4, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S4096x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S256x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S2048x1024 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x2048 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S256x2048 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  bcast_S_S8192x1 : S_.BroadcastsInDim S8192x1 (![] : Fin 0 → Fin S8192x1.rank)
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bitsLt_bf16_f32 : FTy.bits .bf16 < FTy.bits .f32
  reducesTo_S2048x1024_S2048_d1 : S2048x1024.ReducesTo [1] S2048
  h_S_ : 0 < S_.numel
  shapeCasts_S2048_S1x2048 : S2048.ShapeCasts S1x2048
  slices_S2x4096x2048_S1x4096x2048_0_0_0 : S2x4096x2048.Slices ![0, 0, 0] S1x4096x2048
  shapeCasts_S1x4096x2048_S4096x2048 : S1x4096x2048.ShapeCasts S4096x2048
  shapeCasts_S4096x2048_S4096x1024x2 : S4096x2048.ShapeCasts S4096x1024x2
  slices_S4096x1024x2_S4096x1024x1_0_0_0 : S4096x1024x2.Slices ![0, 0, 0] S4096x1024x1
  shapeCasts_S4096x1024x1_S4096x1024 : S4096x1024x1.ShapeCasts S4096x1024
  slices_S4096x1024x2_S4096x1024x1_0_0_1 : S4096x1024x2.Slices ![0, 0, 1] S4096x1024x1
  concatenates_S4096x1024_S4096x1024_S4096x2048_d1 : Shape.Concatenates [S4096x1024, S4096x1024] S4096x2048 1
  slices_S2x2048_S1x2048_0_0 : S2x2048.Slices ![0, 0] S1x2048
  shapeCasts_S1x2048_S2048 : S1x2048.ShapeCasts S2048
  shapeCasts_S2048_S1024x2 : S2048.ShapeCasts S1024x2
  slices_S1024x2_S1024x1_0_0 : S1024x2.Slices ![0, 0] S1024x1
  shapeCasts_S1024x1_S1024 : S1024x1.ShapeCasts S1024
  slices_S1024x2_S1024x1_0_1 : S1024x2.Slices ![0, 1] S1024x1
  concatenates_S1024_S1024_S2048_d0 : Shape.Concatenates [S1024, S1024] S2048 0
  slices_S2x1088x4096_S1x1088x4096_0_0_0 : S2x1088x4096.Slices ![0, 0, 0] S1x1088x4096
  shapeCasts_S1x1088x4096_S1088x4096 : S1x1088x4096.ShapeCasts S1088x4096
  slices_S2x4096_S1x4096_0_0 : S2x4096.Slices ![0, 0] S1x4096
  shapeCasts_S1x4096_S4096 : S1x4096.ShapeCasts S4096
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x64_S512x64_0_0 : ∀ a, (![0, 0] : Fin 2 → Nat) a + S512x64.size a ≤ S512x64.size a
  h_S512x64 : 0 < S512x64.numel
  concatenates_S512x1024_S512x64_S512x1088_d1 : Shape.Concatenates [S512x1024, S512x64] S512x1088 1
  inb_S1088x2048_S1088x2048_0_0 : ∀ a, (![0, 0] : Fin 2 → Nat) a + S1088x2048.size a ≤ S1088x2048.size a
  h_S1088x2048 : 0 < S1088x2048.numel
  shapeCasts_S1088x2048_S1088x2048 : S1088x2048.ShapeCasts S1088x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  slices_S2x4096x4096_S1x4096x4096_0_0_0 : S2x4096x4096.Slices ![0, 0, 0] S1x4096x4096
  shapeCasts_S1x4096x4096_S4096x4096 : S1x4096x4096.ShapeCasts S4096x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S256x2048_S256x2048_0_0 : ∀ a, (![0, 0] : Fin 2 → Nat) a + S256x2048.size a ≤ S256x2048.size a
  h_S256x2048 : 0 < S256x2048.numel
  reduces_S256x1024_S256 : S256x1024.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  slices_S2x1024_S1x1024_1_0 : S2x1024.Slices ![1, 0] S1x1024
  slices_S2x4096x2048_S1x4096x2048_1_0_0 : S2x4096x2048.Slices ![1, 0, 0] S1x4096x2048
  slices_S2x2048_S1x2048_1_0 : S2x2048.Slices ![1, 0] S1x2048
  slices_S2x1088x4096_S1x1088x4096_1_0_0 : S2x1088x4096.Slices ![1, 0, 0] S1x1088x4096
  slices_S2x4096_S1x4096_1_0 : S2x4096.Slices ![1, 0] S1x4096
  shapeCasts_S512x2048_S512x2048 : S512x2048.ShapeCasts S512x2048
  slices_S2x4096x4096_S1x4096x4096_1_0_0 : S2x4096x4096.Slices ![1, 0, 0] S1x4096x4096
  shapeCasts_S256x2048_S256x2048 : S256x2048.ShapeCasts S256x2048
  dot_S512x2048_S2048x1024_S512x1024_1_0_0_1_n_n_wf : DotDims.WF S512x2048 S2048x1024 S512x1024 [1] [0] [0] [1] [] []
  dot_S512x1088_S1088x2048_S512x2048_1_0_0_1_n_n_wf : DotDims.WF S512x1088 S1088x2048 S512x2048 [1] [0] [0] [1] [] []
  dot_S512x4096_S4096x1024_S512x1024_1_0_0_1_n_n_wf : DotDims.WF S512x4096 S4096x1024 S512x1024 [1] [0] [0] [1] [] []
  dot_S256x4096_S4096x2048_S256x2048_1_0_0_1_n_n_wf : DotDims.WF S256x4096 S4096x2048 S256x2048 [1] [0] [0] [1] [] []
  dot_S256x2048_S2048x1024_S256x1024_1_0_0_1_n_n_wf : DotDims.WF S256x2048 S2048x1024 S256x1024 [1] [0] [0] [1] [] []
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .f32 = 32 ∨ (Rect.block (s := S8192x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1088x2048.size a ≤ S1088x4096.size a
  hwx0_3 : ∀ i : grid0.Coords, EltTy.bits .f32 = 32 ∨ (Rect.block (s := S1088x4096) S1088x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x4096.size a
  hwx0_5 : ∀ i : grid0.Coords, EltTy.bits .bf16 = 32 ∨ (Rect.block (s := S8192x4096) S512x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .f32 = 32 ∨ (Rect.block (s := S4096x4096) S4096x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .bf16 = 32 ∨ (Rect.block (s := S8192x4096) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .bf16 = 32 ∨ (Rect.block (s := S8192x4096) S256x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x2048.size a ≤ S4096x2048.size a
  hwx2_1 : ∀ i : grid2.Coords, EltTy.bits .bf16 = 32 ∨ (Rect.block (s := S4096x2048) S4096x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S8192x2048.size a
  hwx2_3 : ∀ i : grid2.Coords, EltTy.bits .f32 = 32 ∨ (Rect.block (s := S8192x2048) S256x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x1024.size a ≤ S2048x1024.size a
  hwx2_4 : ∀ i : grid2.Coords, EltTy.bits .bf16 = 32 ∨ (Rect.block (s := S2048x1024) S2048x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x2048.size a
  hwx2_5 : ∀ i : grid2.Coords, EltTy.bits .f32 = 32 ∨ (Rect.block (s := S1x2048) S1x2048.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x2048.size a ≤ S8192x2048.size a
  hwx2_6 : ∀ i : grid2.Coords, EltTy.bits .f32 = 32 ∨ (Rect.block (s := S8192x2048) S256x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x1.size a ≤ S8192x1.size a
  hwx2_7 : ∀ i : grid2.Coords, EltTy.bits .f32 = 32 ∨ (Rect.block (s := S8192x1) S256x1.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S8192x2048.size a
  hwx3_0 : ∀ i : grid3.Coords, EltTy.bits .f32 = 32 ∨ (Rect.block (s := S8192x2048) S512x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S2048x1024.size a
  hwx3_1 : ∀ i : grid3.Coords, EltTy.bits .bf16 = 32 ∨ (Rect.block (s := S2048x1024) S2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x64.size a ≤ S8192x64.size a
  hwx3_2 : ∀ i : grid3.Coords, EltTy.bits .f32 = 32 ∨ (Rect.block (s := S8192x64) S512x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1088x2048.size a ≤ S1088x4096.size a
  hwx3_3 : ∀ i : grid3.Coords, EltTy.bits .f32 = 32 ∨ (Rect.block (s := S1088x4096) S1088x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2048.size a ≤ S1x4096.size a
  hwx3_4 : ∀ i : grid3.Coords, EltTy.bits .f32 = 32 ∨ (Rect.block (s := S1x4096) S1x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x2048.size a ≤ S8192x4096.size a
  hwx3_5 : ∀ i : grid3.Coords, EltTy.bits .bf16 = 32 ∨ (Rect.block (s := S8192x4096) S512x2048.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S8192x4096.size a
  hwx4_0 : ∀ i : grid4.Coords, EltTy.bits .bf16 = 32 ∨ (Rect.block (s := S8192x4096) S512x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1024.size a ≤ S4096x4096.size a
  hwx4_1 : ∀ i : grid4.Coords, EltTy.bits .f32 = 32 ∨ (Rect.block (s := S4096x4096) S4096x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x4096.size a
  hwx4_2 : ∀ i : grid4.Coords, EltTy.bits .f32 = 32 ∨ (Rect.block (s := S1x4096) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x4096.size a
  hwx4_3 : ∀ i : grid4.Coords, EltTy.bits .bf16 = 32 ∨ (Rect.block (s := S8192x4096) S512x1024.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x4096.size a ≤ S8192x4096.size a
  hwx5_0 : ∀ i : grid5.Coords, EltTy.bits .bf16 = 32 ∨ (Rect.block (s := S8192x4096) S256x4096.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x2048.size a ≤ S4096x2048.size a
  hwx5_1 : ∀ i : grid5.Coords, EltTy.bits .bf16 = 32 ∨ (Rect.block (s := S4096x2048) S4096x2048.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2048.size a ≤ S1x2048.size a
  hwx5_2 : ∀ i : grid5.Coords, EltTy.bits .f32 = 32 ∨ (Rect.block (s := S1x2048) S1x2048.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x2048.size a ≤ S8192x2048.size a
  hwx5_3 : ∀ i : grid5.Coords, EltTy.bits .f32 = 32 ∨ (Rect.block (s := S8192x2048) S256x2048.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2048x1024.size a ≤ S2048x1024.size a
  hwx5_4 : ∀ i : grid5.Coords, EltTy.bits .bf16 = 32 ∨ (Rect.block (s := S2048x1024) S2048x1024.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x2048.size a ≤ S1x2048.size a
  hwx5_5 : ∀ i : grid5.Coords, EltTy.bits .f32 = 32 ∨ (Rect.block (s := S1x2048) S1x2048.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S256x2048.size a ≤ S8192x2048.size a
  hwx5_6 : ∀ i : grid5.Coords, EltTy.bits .f32 = 32 ∨ (Rect.block (s := S8192x2048) S256x2048.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S256x1.size a ≤ S8192x1.size a
  hwx5_7 : ∀ i : grid5.Coords, EltTy.bits .f32 = 32 ∨ (Rect.block (s := S8192x1) S256x1.size (cc5_transform_7 i) (hinb5_7 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1088_S1088x2048_S512x2048_1_0_0_1_n_n : DotDims S512x1088 S1088x2048 S512x2048 where
  lhsContracting := [1]
  rhsContracting := [0]
  lhsNonContracting := [0]
  rhsNonContracting := [1]
  lhsBatch := []
  rhsBatch := []
  wf := dot_S512x1088_S1088x2048_S512x2048_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1088x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4096x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13) S2048x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47_0) S256x2048.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47_1) S256x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47_0) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S512x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1088x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x2048.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v87) S512x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v87) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S4096x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v93) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v93) S256x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S4096x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v47_0) S256x2048.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v60) S2048x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v63) S1x2048.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v94_0) S256x2048.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v94_1) S256x1.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S8192x2048 : Shape := ⟨2, ![8192, 2048]⟩
abbrev S8192x64 : Shape := ⟨2, ![8192, 64]⟩
abbrev S2x1024 : Shape := ⟨2, ![2, 1024]⟩
abbrev S2x1088x4096 : Shape := ⟨3, ![2, 1088, 4096]⟩
abbrev S2x4096 : Shape := ⟨2, ![2, 4096]⟩
abbrev S2x4096x4096 : Shape := ⟨3, ![2, 4096, 4096]⟩
abbrev S2x4096x2048 : Shape := ⟨3, ![2, 4096, 2048]⟩
abbrev S2x2048 : Shape := ⟨2, ![2, 2048]⟩
abbrev S_ : Shape := ⟨0, ![]⟩
abbrev S8192x1 : Shape := ⟨2, ![8192, 1]⟩
abbrev S1x1024 : Shape := ⟨2, ![1, 1024]⟩
abbrev S1024 : Shape := ⟨1, ![1024]⟩
abbrev S1024x1 : Shape := ⟨2, ![1024, 1]⟩
abbrev S8192x1024 : Shape := ⟨2, ![8192, 1024]⟩
abbrev S8192x1088 : Shape := ⟨2, ![8192, 1088]⟩
abbrev S1x1088x4096 : Shape := ⟨3, ![1, 1088, 4096]⟩
abbrev S1088x4096 : Shape := ⟨2, ![1088, 4096]⟩
abbrev S8192x4096 : Shape := ⟨2, ![8192, 4096]⟩
abbrev S1x4096 : Shape := ⟨2, ![1, 4096]⟩
abbrev S4096 : Shape := ⟨1, ![4096]⟩
abbrev S1x4096x4096 : Shape := ⟨3, ![1, 4096, 4096]⟩
abbrev S4096x4096 : Shape := ⟨2, ![4096, 4096]⟩
abbrev S1x4096x2048 : Shape := ⟨3, ![1, 4096, 2048]⟩
abbrev S4096x2048 : Shape := ⟨2, ![4096, 2048]⟩
abbrev S1x2048 : Shape := ⟨2, ![1, 2048]⟩
abbrev S2048 : Shape := ⟨1, ![2048]⟩
abbrev S8192x1024x2 : Shape := ⟨3, ![8192, 1024, 2]⟩
abbrev S8192x1024x1 : Shape := ⟨3, ![8192, 1024, 1]⟩
abbrev S8192 : Shape := ⟨1, ![8192]⟩

abbrev nBuf : Space → Nat
  | .hbm => 164
  | .vmem => 0
  | .smem => 0
  | _ => 0

abbrev hbmTy0_0 (i : Nat) : BufTy := match i % 128 with
  | 0 => ⟨S8192x2048, .f32⟩
  | 1 => ⟨S8192x64, .f32⟩
  | 2 => ⟨S2x1024, .i32⟩
  | 3 => ⟨S2x1024, .i32⟩
  | 4 => ⟨S2x1088x4096, .f32⟩
  | 5 => ⟨S2x4096, .f32⟩
  | 6 => ⟨S2x4096x4096, .f32⟩
  | 7 => ⟨S2x4096, .f32⟩
  | 8 => ⟨S2x4096x2048, .f32⟩
  | 9 => ⟨S2x2048, .f32⟩
  | 10 => ⟨S_, .f32⟩
  | 11 => ⟨S8192x1, .f32⟩
  | 12 => ⟨S1x1024, .i32⟩
  | 13 => ⟨S1024, .i32⟩
  | 14 => ⟨S_, .i32⟩
  | 15 => ⟨S1024, .i32⟩
  | 16 => ⟨S1024, .i1⟩
  | 17 => ⟨S_, .i32⟩
  | 18 => ⟨S1024, .i32⟩
  | 19 => ⟨S1024, .i32⟩
  | 20 => ⟨S1024, .i32⟩
  | 21 => ⟨S1024x1, .i32⟩
  | 22 => ⟨S8192x1024, .f32⟩
  | 23 => ⟨S8192x1088, .f32⟩
  | 24 => ⟨S1x1088x4096, .f32⟩
  | 25 => ⟨S1088x4096, .f32⟩
  | 26 => ⟨S8192x4096, .f32⟩
  | 27 => ⟨S1x4096, .f32⟩
  | 28 => ⟨S4096, .f32⟩
  | 29 => ⟨S1x4096, .f32⟩
  | 30 => ⟨S8192x4096, .f32⟩
  | 31 => ⟨S8192x4096, .f32⟩
  | 32 => ⟨S_, .f32⟩
  | 33 => ⟨S8192x4096, .f32⟩
  | 34 => ⟨S8192x4096, .f32⟩
  | 35 => ⟨S1x4096x4096, .f32⟩
  | 36 => ⟨S4096x4096, .f32⟩
  | 37 => ⟨S8192x4096, .f32⟩
  | 38 => ⟨S1x4096, .f32⟩
  | 39 => ⟨S4096, .f32⟩
  | 40 => ⟨S1x4096, .f32⟩
  | 41 => ⟨S8192x4096, .f32⟩
  | 42 => ⟨S8192x4096, .f32⟩
  | 43 => ⟨S_, .f32⟩
  | 44 => ⟨S8192x4096, .f32⟩
  | 45 => ⟨S8192x4096, .f32⟩
  | 46 => ⟨S1x4096x2048, .f32⟩
  | 47 => ⟨S4096x2048, .f32⟩
  | 48 => ⟨S8192x2048, .f32⟩
  | 49 => ⟨S1x2048, .f32⟩
  | 50 => ⟨S2048, .f32⟩
  | 51 => ⟨S1x2048, .f32⟩
  | 52 => ⟨S8192x2048, .f32⟩
  | 53 => ⟨S8192x2048, .f32⟩
  | 54 => ⟨S8192x1024x2, .f32⟩
  | 55 => ⟨S8192x1024x1, .f32⟩
  | 56 => ⟨S8192x1024, .f32⟩
  | 57 => ⟨S8192x1024x1, .f32⟩
  | 58 => ⟨S8192x1024, .f32⟩
  | 59 => ⟨S1x1024, .i32⟩
  | 60 => ⟨S1024, .i32⟩
  | 61 => ⟨S1x1024, .i32⟩
  | 62 => ⟨S1024, .i32⟩
  | 63 => ⟨S_, .i32⟩
  | 64 => ⟨S1024, .i32⟩
  | 65 => ⟨S1024, .i1⟩
  | 66 => ⟨S_, .i32⟩
  | 67 => ⟨S1024, .i32⟩
  | 68 => ⟨S1024, .i32⟩
  | 69 => ⟨S1024, .i32⟩
  | 70 => ⟨S1024x1, .i32⟩
  | 71 => ⟨S8192x1024, .f32⟩
  | 72 => ⟨S8192x1024, .f32⟩
  | 73 => ⟨S8192x1024, .f32⟩
  | 74 => ⟨S8192x1024, .f32⟩
  | 75 => ⟨S_, .i32⟩
  | 76 => ⟨S1024, .i32⟩
  | 77 => ⟨S1024, .i1⟩
  | 78 => ⟨S_, .i32⟩
  | 79 => ⟨S1024, .i32⟩
  | 80 => ⟨S1024, .i32⟩
  | 81 => ⟨S1024, .i32⟩
  | 82 => ⟨S1024x1, .i32⟩
  | 83 => ⟨S8192x2048, .f32⟩
  | 84 => ⟨S_, .f32⟩
  | 85 => ⟨S8192, .f32⟩
  | 86 => ⟨S8192x1, .f32⟩
  | 87 => ⟨S8192x1, .f32⟩
  | 88 => ⟨S1x1024, .i32⟩
  | 89 => ⟨S1024, .i32⟩
  | 90 => ⟨S_, .i32⟩
  | 91 => ⟨S1024, .i32⟩
  | 92 => ⟨S1024, .i1⟩
  | 93 => ⟨S_, .i32⟩
  | 94 => ⟨S1024, .i32⟩
  | 95 => ⟨S1024, .i32⟩
  | 96 => ⟨S1024, .i32⟩
  | 97 => ⟨S1024x1, .i32⟩
  | 98 => ⟨S8192x1024, .f32⟩
  | 99 => ⟨S8192x1088, .f32⟩
  | 100 => ⟨S1x1088x4096, .f32⟩
  | 101 => ⟨S1088x4096, .f32⟩
  | 102 => ⟨S8192x4096, .f32⟩
  | 103 => ⟨S1x4096, .f32⟩
  | 104 => ⟨S4096, .f32⟩
  | 105 => ⟨S1x4096, .f32⟩
  | 106 => ⟨S8192x4096, .f32⟩
  | 107 => ⟨S8192x4096, .f32⟩
  | 108 => ⟨S_, .f32⟩
  | 109 => ⟨S8192x4096, .f32⟩
  | 110 => ⟨S8192x4096, .f32⟩
  | 111 => ⟨S1x4096x4096, .f32⟩
  | 112 => ⟨S4096x4096, .f32⟩
  | 113 => ⟨S8192x4096, .f32⟩
  | 114 => ⟨S1x4096, .f32⟩
  | 115 => ⟨S4096, .f32⟩
  | 116 => ⟨S1x4096, .f32⟩
  | 117 => ⟨S8192x4096, .f32⟩
  | 118 => ⟨S8192x4096, .f32⟩
  | 119 => ⟨S_, .f32⟩
  | 120 => ⟨S8192x4096, .f32⟩
  | 121 => ⟨S8192x4096, .f32⟩
  | 122 => ⟨S1x4096x2048, .f32⟩
  | 123 => ⟨S4096x2048, .f32⟩
  | 124 => ⟨S8192x2048, .f32⟩
  | 125 => ⟨S1x2048, .f32⟩
  | 126 => ⟨S2048, .f32⟩
  | 127 => ⟨S1x2048, .f32⟩
  | _ => ⟨S8192x2048, .f32⟩

abbrev hbmTy0_1 (i : Nat) : BufTy := match i % 128 with
  | 0 => ⟨S8192x2048, .f32⟩
  | 1 => ⟨S8192x2048, .f32⟩
  | 2 => ⟨S8192x1024x2, .f32⟩
  | 3 => ⟨S8192x1024x1, .f32⟩
  | 4 => ⟨S8192x1024, .f32⟩
  | 5 => ⟨S8192x1024x1, .f32⟩
  | 6 => ⟨S8192x1024, .f32⟩
  | 7 => ⟨S1x1024, .i32⟩
  | 8 => ⟨S1024, .i32⟩
  | 9 => ⟨S1x1024, .i32⟩
  | 10 => ⟨S1024, .i32⟩
  | 11 => ⟨S_, .i32⟩
  | 12 => ⟨S1024, .i32⟩
  | 13 => ⟨S1024, .i1⟩
  | 14 => ⟨S_, .i32⟩
  | 15 => ⟨S1024, .i32⟩
  | 16 => ⟨S1024, .i32⟩
  | 17 => ⟨S1024, .i32⟩
  | 18 => ⟨S1024x1, .i32⟩
  | 19 => ⟨S8192x1024, .f32⟩
  | 20 => ⟨S8192x1024, .f32⟩
  | 21 => ⟨S8192x1024, .f32⟩
  | 22 => ⟨S8192x1024, .f32⟩
  | 23 => ⟨S_, .i32⟩
  | 24 => ⟨S1024, .i32⟩
  | 25 => ⟨S1024, .i1⟩
  | 26 => ⟨S_, .i32⟩
  | 27 => ⟨S1024, .i32⟩
  | 28 => ⟨S1024, .i32⟩
  | 29 => ⟨S1024, .i32⟩
  | 30 => ⟨S1024x1, .i32⟩
  | 31 => ⟨S8192x2048, .f32⟩
  | 32 => ⟨S_, .f32⟩
  | 33 => ⟨S8192, .f32⟩
  | 34 => ⟨S8192x1, .f32⟩
  | 35 => ⟨S8192x1, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_1 : Ref sig .tc := ⟨.hbm, 63, rfl⟩
abbrev main_v46 : Ref sig .tc := ⟨.hbm, 64, rfl⟩
abbrev main_v47 : Ref sig .tc := ⟨.hbm, 65, rfl⟩
abbrev main_c_2 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_3 : Ref sig .tc := ⟨.hbm, 75, rfl⟩
abbrev main_v56 : Ref sig .tc := ⟨.hbm, 76, rfl⟩
abbrev main_v57 : Ref sig .tc := ⟨.hbm, 77, rfl⟩
abbrev main_c_4 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_5 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_6 : Ref sig .tc := ⟨.hbm, 90, rfl⟩
abbrev main_v68 : Ref sig .tc := ⟨.hbm, 91, rfl⟩
abbrev main_v69 : Ref sig .tc := ⟨.hbm, 92, rfl⟩
abbrev main_c_7 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_call2_cst : Ref sig .tc := ⟨.hbm, 108, rfl⟩
abbrev main_call2_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_call3_cst : Ref sig .tc := ⟨.hbm, 119, rfl⟩
abbrev main_call3_v0 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_c_8 : Ref sig .tc := ⟨.hbm, 139, rfl⟩
abbrev main_v111 : Ref sig .tc := ⟨.hbm, 140, rfl⟩
abbrev main_v112 : Ref sig .tc := ⟨.hbm, 141, rfl⟩
abbrev main_c_9 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_c_10 : Ref sig .tc := ⟨.hbm, 151, rfl⟩
abbrev main_v121 : Ref sig .tc := ⟨.hbm, 152, rfl⟩
abbrev main_v122 : Ref sig .tc := ⟨.hbm, 153, rfl⟩
abbrev main_c_11 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_12 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  concatenates_S8192x1024_S8192x64_S8192x1088_d1 : Shape.Concatenates [S8192x1024, S8192x64] S8192x1088 1
  slices_S2x1088x4096_S1x1088x4096_0_0_0 : S2x1088x4096.Slices ![0, 0, 0] S1x1088x4096
  shapeCasts_S1x1088x4096_S1088x4096 : S1x1088x4096.ShapeCasts S1088x4096
  slices_S2x4096_S1x4096_0_0 : S2x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S2x4096x4096_S1x4096x4096_0_0_0 : S2x4096x4096.Slices ![0, 0, 0] S1x4096x4096
  shapeCasts_S1x4096x4096_S4096x4096 : S1x4096x4096.ShapeCasts S4096x4096
  slices_S2x4096x2048_S1x4096x2048_0_0_0 : S2x4096x2048.Slices ![0, 0, 0] S1x4096x2048
  shapeCasts_S1x4096x2048_S4096x2048 : S1x4096x2048.ShapeCasts S4096x2048
  slices_S2x2048_S1x2048_0_0 : S2x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  shapeCasts_S8192x2048_S8192x1024x2 : S8192x2048.ShapeCasts S8192x1024x2
  slices_S8192x1024x2_S8192x1024x1_0_0_0 : S8192x1024x2.Slices ![0, 0, 0] S8192x1024x1
  shapeCasts_S8192x1024x1_S8192x1024 : S8192x1024x1.ShapeCasts S8192x1024
  slices_S8192x1024x2_S8192x1024x1_0_0_1 : S8192x1024x2.Slices ![0, 0, 1] S8192x1024x1
  reducesTo_S8192x1024_S8192_d1 : S8192x1024.ReducesTo [1] S8192
  h_S_ : 0 < S_.numel
  bcast_S8192_S8192x1_0 : S8192.BroadcastsInDim S8192x1 (![0] : Fin 1 → Fin S8192x1.rank)
  slices_S2x1024_S1x1024_1_0 : S2x1024.Slices ![1, 0] S1x1024
  slices_S2x1088x4096_S1x1088x4096_1_0_0 : S2x1088x4096.Slices ![1, 0, 0] S1x1088x4096
  slices_S2x4096_S1x4096_1_0 : S2x4096.Slices ![1, 0] S1x4096
  slices_S2x4096x4096_S1x4096x4096_1_0_0 : S2x4096x4096.Slices ![1, 0, 0] S1x4096x4096
  slices_S2x4096x2048_S1x4096x2048_1_0_0 : S2x4096x2048.Slices ![1, 0, 0] S1x4096x2048
  slices_S2x2048_S1x2048_1_0 : S2x2048.Slices ![1, 0] S1x2048
  gather_S8192x2048_S1024x1_S8192x1024_0_1_n_n_1_1_81921_wf : GatherDims.WF S8192x2048 S1024x1 S8192x1024 [0] [1] [] [1] [] 1 ![8192, 1]
  dot_S8192x1088_S1088x4096_S8192x4096_1_0_0_1_n_n_wf : DotDims.WF S8192x1088 S1088x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x2048_S8192x2048_1_0_0_1_n_n_wf : DotDims.WF S8192x4096 S4096x2048 S8192x2048 [1] [0] [0] [1] [] []
  scatter_S8192x2048_S1024x1_S8192x1024_0_1_1_1_wf : ScatterDims.WF S8192x2048 S1024x1 S8192x1024 [0] [1] [1] 1

variable [Facts₀]

def gather_S8192x2048_S1024x1_S8192x1024_0_1_n_n_1_1_81921 : GatherDims S8192x2048 S1024x1 S8192x1024 where
  offsetDims := [0]
  collapsedSliceDims := [1]
  operandBatchingDims := []
  startIndicesBatchingDims := []
  startIndexMap := [1]
  indexVectorDim := 1
  sliceSizes := ![8192, 1]
  wf := gather_S8192x2048_S1024x1_S8192x1024_0_1_n_n_1_1_81921_wf
def dot_S8192x1088_S1088x4096_S8192x4096_1_0_0_1_n_n : DotDims S8192x1088 S1088x4096 S8192x4096 where
  lhsContracting := [1]
  rhsContracting := [0]
  lhsNonContracting := [0]
  rhsNonContracting := [1]
  lhsBatch := []
  rhsBatch := []
  wf := dot_S8192x1088_S1088x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def scatter_S8192x2048_S1024x1_S8192x1024_0_1_1_1 : ScatterDims S8192x2048 S1024x1 S8192x1024 where
  updateWindowDims := [0]
  insertedWindowDims := [1]
  scatterDimsToOperandDims := [1]
  indexVectorDim := 1
  wf := scatter_S8192x2048_S1024x1_S8192x1024_0_1_1_1_wf

class Facts : Prop extends Facts₀ where

variable [Facts]
-- ==== Proof.Spec.lean ====
/-
  The affine coupling layer as ONE function of its arguments, index by index, over the extended reals.

  One block i ∈ {0, 1} takes the current activations x [8192 × 2048] and
    * gathers the 1024 "identity" columns x[b, id i q] and appends the 64 condition columns: hin [8192 × 1088];
    * runs a three-layer perceptron: h1 = relu (hin · W1ᵢ + b1ᵢ), h2 = relu (h1 · W2ᵢ + b2ᵢ), o = h2 · W3ᵢ + b3ᵢ;
    * reads the scale logits and the translations off o's even and odd columns: S[b, q] = o[b, 2q], T[b, q] = o[b, 2q + 1];
    * replaces each "transformed" column tr i q of x by x[b, tr i q] · exp S[b, q] + T[b, q] and keeps every other column;
    * adds ∑ q, S[b, q] to the log-determinant.
  The layer is block 0 followed by block 1. The index maps id i, tr i : Fin 1024 → Fin 2048 are parameters here;
  tr i is injective wherever the new activations are used, so "the q with tr i q = r" is unique when it exists.
-/
import Idealize.ShloMosaic.PureOps.Ideal
import Idealize.ShloMosaic.Lib.ValueIdx

noncomputable section

namespace Cert.Coupling

open Idealize.ShloMosaic Idealize.ShloMosaic.ValueIdx

/-- An extended-real matrix of literal extents. -/
abbrev Mat (n0 n1 : Nat) := (⟨2, ![n0, n1]⟩ : Shape).Idx → EReal
/-- A stack of matrices (one per block). -/
abbrev Mat3 (n0 n1 n2 : Nat) := (⟨3, ![n0, n1, n2]⟩ : Shape).Idx → EReal

/-- The perceptron's input at row b, column k: a gathered column of x for k < 1024, else a condition column. -/
def hinAt (x : Mat 8192 2048) (cond : Mat 8192 64) (sel : Fin 1024 → Fin 2048) (b : Fin 8192) (k : Fin 1088) : EReal :=
  if h : k.val < 1024 then x (ix2 b (sel ⟨k.val, h⟩)) else cond (ix2 b ⟨k.val - 1024, by have := k.isLt; omega⟩)

/-- First layer at (b, n). -/
def h1At (x : Mat 8192 2048) (cond : Mat 8192 64) (sel : Fin 1024 → Fin 2048) (W1 : Mat3 2 1088 4096) (b1 : Mat 2 4096)
    (i : Fin 2) (b : Fin 8192) (n : Fin 4096) : EReal :=
  max ((∑ k : Fin 1088, hinAt x cond sel b k * W1 (ix3 i k n)) + b1 (ix2 i n)) 0

/-- Second layer at (b, n), over any first-layer activations. -/
def h2At (h1 : Fin 8192 → Fin 4096 → EReal) (W2 : Mat3 2 4096 4096) (b2 : Mat 2 4096) (i : Fin 2) (b : Fin 8192) (n : Fin 4096) : EReal :=
  max ((∑ k : Fin 4096, h1 b k * W2 (ix3 i k n)) + b2 (ix2 i n)) 0

/-- Third layer (no relu) at (b, n). -/
def oAt (h2 : Fin 8192 → Fin 4096 → EReal) (W3 : Mat3 2 4096 2048) (b3 : Mat 2 2048) (i : Fin 2) (b : Fin 8192) (n : Fin 2048) : EReal :=
  (∑ k : Fin 4096, h2 b k * W3 (ix3 i k n)) + b3 (ix2 i n)

/-- Scale logit: the even column 2q of the third layer. -/
def sAt (o : Fin 8192 → Fin 2048 → EReal) (b : Fin 8192) (q : Fin 1024) : EReal := o b ⟨2 * q.val, by have := q.isLt; omega⟩
/-- Translation: the odd column 2q + 1 of the third layer. -/
def tAt (o : Fin 8192 → Fin 2048 → EReal) (b : Fin 8192) (q : Fin 1024) : EReal := o b ⟨2 * q.val + 1, by have := q.isLt; omega⟩

/-- The transformed value written to column tr q. -/
def nvAt (x : Mat 8192 2048) (tr : Fin 1024 → Fin 2048) (o : Fin 8192 → Fin 2048 → EReal) (b : Fin 8192) (q : Fin 1024) : EReal :=
  x (ix2 b (tr q)) * Ideal.exp (sAt o b q) + tAt o b q

/-- The new activations at (b, r): the transformed value if r is some tr q, else the old entry. -/
def xnewAt (x : Mat 8192 2048) (tr : Fin 1024 → Fin 2048) (o : Fin 8192 → Fin 2048 → EReal) (b : Fin 8192) (r : Fin 2048) : EReal :=
  if h : ∃ q, tr q = r then nvAt x tr o b h.choose else x (ix2 b r)

/-- The block's contribution to the log-determinant at row b. -/
def ldAt (o : Fin 8192 → Fin 2048 → EReal) (b : Fin 8192) : EReal := ∑ q : Fin 1024, sAt o b q

section Layer
variable (cond : Mat 8192 64) (W1 : Mat3 2 1088 4096) (b1 : Mat 2 4096) (W2 : Mat3 2 4096 4096) (b2 : Mat 2 4096)
  (W3 : Mat3 2 4096 2048) (b3 : Mat 2 2048) (id tr : Fin 2 → Fin 1024 → Fin 2048)

/-- The third layer of block i on activations x. -/
def blockO (x : Mat 8192 2048) (i : Fin 2) : Fin 8192 → Fin 2048 → EReal :=
  oAt (h2At (h1At x cond (id i) W1 b1 i) W2 b2 i) W3 b3 i

/-- The activations after block i. -/
def blockX (x : Mat 8192 2048) (i : Fin 2) : Mat 8192 2048 :=
  fun j => xnewAt x (tr i) (blockO cond W1 b1 W2 b2 W3 b3 id x i) (j 0) (j 1)

/-- The layer's activations: block 0, then block 1. -/
def layerX (z : Mat 8192 2048) : Mat 8192 2048 :=
  blockX cond W1 b1 W2 b2 W3 b3 id tr (blockX cond W1 b1 W2 b2 W3 b3 id tr z 0) 1

/-- The layer's log-determinant [8192 × 1]: (0 + block 0's) + block 1's, in the order both programs add them. -/
def layerLd (z : Mat 8192 2048) : Mat 8192 1 :=
  fun j => (0 + ldAt (blockO cond W1 b1 W2 b2 W3 b3 id z 0) (j 0))
    + ldAt (blockO cond W1 b1 W2 b2 W3 b3 id (blockX cond W1 b1 W2 b2 W3 b3 id tr z 0) 1) (j 0)

end Layer

end Cert.Coupling

end
-- ==== Proof.RegionSpec.lean ====
/-
  What each of the three kernels computes, as ONE function of its operand arrays (extended reals; a change of float
  format is the identity there, so the bf16 casts do not appear).

  * mm1: relu ((x · P ‖ cond) · w + bias): the selection product x · P for the first 1024 input columns, the 64 condition
    columns appended, one dense layer.
  * mm2: relu (a · w + bias).
  * mm3: acc = a · w + bias [8192 × 2048]; S = acc's columns 0 … 1023, T = its columns 1024 … 2047;
    nv = (x · P) ∘ exp S + T; the new activations x ∘ (1 − mask) + nv · Pᵀ; and the row sums of S.
-/
import proofs.«427001_j89833535963578_2_alg».proof.Proof.Spec

noncomputable section

namespace Cert.Coupling

open Idealize.ShloMosaic Idealize.ShloMosaic.ValueIdx

/-- The selection product (x · P) at (b, q). -/
def selAt (x : Mat 8192 2048) (P : Mat 2048 1024) (b : Fin 8192) (q : Fin 1024) : EReal :=
  ∑ r : Fin 2048, x (ix2 b r) * P (ix2 r q)

/-- mm1's matmul input at (b, k): the selection product for k < 1024, else a condition column. -/
def mm1In (x : Mat 8192 2048) (P : Mat 2048 1024) (cond : Mat 8192 64) (b : Fin 8192) (k : Fin 1088) : EReal :=
  if h : k.val < 1024 then selAt x P b ⟨k.val, h⟩ else cond (ix2 b ⟨k.val - 1024, by have := k.isLt; omega⟩)

/-- The first kernel's output array. -/
def mm1 (x : Mat 8192 2048) (P : Mat 2048 1024) (cond : Mat 8192 64) (w : Mat 1088 4096) (bias : Mat 1 4096) : Mat 8192 4096 :=
  fun j => max ((∑ k : Fin 1088, mm1In x P cond (j 0) k * w (ix2 k (j 1))) + bias (ix2 0 (j 1))) 0

/-- The second kernel's output array. -/
def mm2 (a : Mat 8192 4096) (w : Mat 4096 4096) (bias : Mat 1 4096) : Mat 8192 4096 :=
  fun j => max ((∑ k : Fin 4096, a (ix2 (j 0) k) * w (ix2 k (j 1))) + bias (ix2 0 (j 1))) 0

/-- The third kernel's accumulator a · w + bias at (b, n). -/
def mm3Acc (a : Mat 8192 4096) (w : Mat 4096 2048) (bias : Mat 1 2048) (b : Fin 8192) (n : Fin 2048) : EReal :=
  (∑ k : Fin 4096, a (ix2 b k) * w (ix2 k n)) + bias (ix2 0 n)

/-- Its scale half S at (b, q): column q. -/
def mm3S (a : Mat 8192 4096) (w : Mat 4096 2048) (bias : Mat 1 2048) (b : Fin 8192) (q : Fin 1024) : EReal :=
  mm3Acc a w bias b ⟨q.val, by have := q.isLt; omega⟩
/-- Its translation half T at (b, q): column 1024 + q. -/
def mm3T (a : Mat 8192 4096) (w : Mat 4096 2048) (bias : Mat 1 2048) (b : Fin 8192) (q : Fin 1024) : EReal :=
  mm3Acc a w bias b ⟨q.val + 1024, by have := q.isLt; omega⟩

/-- The transformed values (x · P) ∘ exp S + T at (b, q). -/
def mm3Nv (a : Mat 8192 4096) (w : Mat 4096 2048) (bias : Mat 1 2048) (x : Mat 8192 2048) (P : Mat 2048 1024)
    (b : Fin 8192) (q : Fin 1024) : EReal :=
  selAt x P b q * Ideal.exp (mm3S a w bias b q) + mm3T a w bias b q

/-- The third kernel's first output: x ∘ (1 − mask) + nv · Pᵀ. -/
def mm3X (a : Mat 8192 4096) (w : Mat 4096 2048) (bias : Mat 1 2048) (x : Mat 8192 2048) (P : Mat 2048 1024)
    (mask : Mat 1 2048) : Mat 8192 2048 :=
  fun j => x (ix2 (j 0) (j 1)) * (1 - mask (ix2 0 (j 1))) + ∑ q : Fin 1024, mm3Nv a w bias x P (j 0) q * P (ix2 (j 1) q)

/-- The third kernel's second output [8192 × 1]: the row sums of S. -/
def mm3Ld (a : Mat 8192 4096) (w : Mat 4096 2048) (bias : Mat 1 2048) : Mat 8192 1 :=
  fun j => ∑ q : Fin 1024, mm3S a w bias (j 0) q

end Cert.Coupling

end
-- ==== Proof.Region0.lean ====
/-
  What the first pallas_call of a block leaves in its output array, as one function of its operand arrays.

  The grid is 2 × 16. The point with coordinates (n, m) computes the output block of rows 512·m … 512·m + 511 and columns
  2048·n … 2048·n + 2047 from the same rows of the activations and of the condition columns, the whole selection matrix, and the
  same columns of the weights and of the bias. At (p, q) of that block the body's result is
  relu ((x · P ‖ cond) · w + bias) at (512·m + p, 2048·n + q): each of the two contractions is the sum over its one contracted
  axis, the concatenation is a case split at column 1024, every change of float format is the identity. The 32 blocks tile the
  output array, so the array ends holding that function at every index.
-/
import proofs.«427001_j89833535963578_2_alg».proof.Proof.Gen.KernelIdeal.Frame
import proofs.«427001_j89833535963578_2_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Coupling

/-! ## The two contractions, read at an index -/

/-- The selection product's left operand is read at the output's row … -/
theorem region0_selL_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
/-- … and at the contracted column; -/
theorem region0_selL_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- its right operand at the contracted row … -/
theorem region0_selR_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- … and at the output's column. -/
theorem region0_selR_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The selection product into a zero accumulator at (p, q): the sum over the 2048 input columns. -/
theorem region0_sel_apply (l : FVec Ideal S512x2048 .bf16) (r : FVec Ideal S2048x1024 .bf16) (p : Fin 512) (q : Fin 1024) :
    matmul dot_S512x2048_S2048x1024_S512x1024_1_0_0_1_n_n none l r (constant (F := Ideal) S512x1024 .f32 0x00000000#32) (ix2 p q)
      = ∑ k : Fin 2048, l (ix2 p k) * r (ix2 k q) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k := funext fun a => Fin.ext (by
    match a with
    | ⟨0, _⟩ => exact region0_selL_0 _ _
    | ⟨1, _⟩ => exact (region0_selL_1 _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q := funext fun a => Fin.ext (by
    match a with
    | ⟨0, _⟩ => exact (region0_selR_0 _ _).trans hk
    | ⟨1, _⟩ => exact region0_selR_1 _ _)
  rw [el, er]

/-- The dense layer's left operand is read at the output's row … -/
theorem region0_denL_0 (i : S512x2048.Idx) (q : dot_S512x1088_S1088x2048_S512x2048_1_0_0_1_n_n.contr.Idx) :
    (dot_S512x1088_S1088x2048_S512x2048_1_0_0_1_n_n.lhsIdx i q 0).val = (i 0).val := by
  unfold DotDims.lhsIdx
  rw [dif_neg (show ¬(0 : Fin S512x1088.rank) ∈ dot_S512x1088_S1088x2048_S512x2048_1_0_0_1_n_n.lhsBatch by decide), dif_pos (show (0 : Fin S512x1088.rank) ∈ dot_S512x1088_S1088x2048_S512x2048_1_0_0_1_n_n.lhsNonContracting by decide)]
  rfl
/-- … and at the contracted column; -/
theorem region0_denL_1 (i : S512x2048.Idx) (q : dot_S512x1088_S1088x2048_S512x2048_1_0_0_1_n_n.contr.Idx) :
    (dot_S512x1088_S1088x2048_S512x2048_1_0_0_1_n_n.lhsIdx i q 1).val = (q ⟨0, by decide⟩).val :=
  dot_S512x1088_S1088x2048_S512x2048_1_0_0_1_n_n.lhsIdx_val_of_single rfl i q
/-- its right operand at the contracted row … -/
theorem region0_denR_0 (i : S512x2048.Idx) (q : dot_S512x1088_S1088x2048_S512x2048_1_0_0_1_n_n.contr.Idx) :
    (dot_S512x1088_S1088x2048_S512x2048_1_0_0_1_n_n.rhsIdx i q 0).val = (q ⟨0, by decide⟩).val :=
  dot_S512x1088_S1088x2048_S512x2048_1_0_0_1_n_n.rhsIdx_val_of_single rfl i q
/-- … and at the output's column. -/
theorem region0_denR_1 (i : S512x2048.Idx) (q : dot_S512x1088_S1088x2048_S512x2048_1_0_0_1_n_n.contr.Idx) :
    (dot_S512x1088_S1088x2048_S512x2048_1_0_0_1_n_n.rhsIdx i q 1).val = (i 1).val := by
  unfold DotDims.rhsIdx
  rw [dif_neg (show ¬(1 : Fin S1088x2048.rank) ∈ dot_S512x1088_S1088x2048_S512x2048_1_0_0_1_n_n.rhsBatch by decide), dif_pos (show (1 : Fin S1088x2048.rank) ∈ dot_S512x1088_S1088x2048_S512x2048_1_0_0_1_n_n.rhsNonContracting by decide)]
  rfl

/-- The dense layer's product into a zero accumulator at (p, q): the sum over its 1088 input columns. -/
theorem region0_den_apply (l : FVec Ideal S512x1088 .bf16) (r : FVec Ideal S1088x2048 .bf16) (p : Fin 512) (q : Fin 2048) :
    matmul dot_S512x1088_S1088x2048_S512x2048_1_0_0_1_n_n none l r (constant (F := Ideal) S512x2048 .f32 0x00000000#32) (ix2 p q)
      = ∑ k : Fin 1088, l (ix2 p k) * r (ix2 k q) := by
  simp only [matmul]
  rw [Ideal.matmul_constant_zero_apply, ← Equiv.sum_comp (contrEquiv1 dot_S512x1088_S1088x2048_S512x2048_1_0_0_1_n_n 1088 rfl rfl).symm]
  refine Finset.sum_congr rfl fun k _ => ?_
  have hk := contrEquiv1_symm_val dot_S512x1088_S1088x2048_S512x2048_1_0_0_1_n_n 1088 rfl rfl k
  have el : dot_S512x1088_S1088x2048_S512x2048_1_0_0_1_n_n.lhsIdx (ix2 p q) ((contrEquiv1 dot_S512x1088_S1088x2048_S512x2048_1_0_0_1_n_n 1088 rfl rfl).symm k) = ix2 p k := funext fun a => Fin.ext (by
    match a with
    | ⟨0, _⟩ => exact region0_denL_0 _ _
    | ⟨1, _⟩ => exact (region0_denL_1 _ _).trans hk)
  have er : dot_S512x1088_S1088x2048_S512x2048_1_0_0_1_n_n.rhsIdx (ix2 p q) ((contrEquiv1 dot_S512x1088_S1088x2048_S512x2048_1_0_0_1_n_n 1088 rfl rfl).symm k) = ix2 k q := funext fun a => Fin.ext (by
    match a with
    | ⟨0, _⟩ => exact (region0_denR_0 _ _).trans hk
    | ⟨1, _⟩ => exact region0_denR_1 _ _)
  rw [el, er]

/-! ## The body's arithmetic at an index of its block -/

/-- Appending the 64 condition columns to the 1024 selected ones: column k reads the first piece below 1024, the second,
    1024 columns to the left, from there on. -/
theorem region0_cat_apply (u : FVec Ideal S512x1024 .bf16) (w : FVec Ideal S512x64 .bf16)
    (hc : Shape.Concatenates [S512x1024, S512x64] S512x1088 1) (p : Fin 512) (k : Fin 1088) :
    concatenate S512x1088 1 [⟨S512x1024, u⟩, ⟨S512x64, w⟩] hc (ix2 p k)
      = if h : k.val < 1024 then u (ix2 p ⟨k.val, h⟩) else w (ix2 p ⟨k.val - 1024, by have := k.isLt; omega⟩) := by
  by_cases h : k.val < 1024
  · rw [dif_pos h]
    refine concatenate_pair_apply_left (1 : Fin S512x1088.rank) u w hc (ix2 p k) rfl (ix2 p ⟨k.val, h⟩) fun b => ?_
    match b with
    | ⟨0, _⟩ => rfl
    | ⟨1, _⟩ => rfl
  · rw [dif_neg h]
    refine concatenate_pair_apply_right (1 : Fin S512x1088.rank) u w hc (ix2 p k) rfl rfl (ix2 p ⟨k.val - 1024, by have := k.isLt; omega⟩) (fun b hb => ?_) ?_
    · match b with
      | ⟨0, _⟩ => rfl
      | ⟨1, _⟩ => exact absurd rfl hb
    · show k.val - 1024 + 1024 = k.val
      omega

/-- The body's result at (p, q) of its block: relu of the dense layer on the row's selected and condition columns. -/
theorem region0_pay_apply (x0 : Vec Ideal S512x2048 .f32) (x1 : Vec Ideal S2048x1024 .bf16) (x2 : Vec Ideal S512x64 .f32)
    (x3 : Vec Ideal S1088x2048 .f32) (x4 : Vec Ideal S1x2048 .f32) (p : Fin 512) (q : Fin 2048) :
    k0_pay1 (F := Ideal) x0 x1 x2 x3 x4 (ix2 p q)
      = max ((∑ k : Fin 1088,
              (if h : k.val < 1024 then ∑ r : Fin 2048, x0 (ix2 p r) * x1 (ix2 r ⟨k.val, h⟩)
                else x2 (ix2 p ⟨k.val - 1024, by have := k.isLt; omega⟩)) * x3 (ix2 k q))
            + x4 (ix2 (0 : Fin 1) q)) 0 := by
  unfold k0_pay1
  simp only [shapeCast_self]
  rw [truncf_apply, maximumf_apply, addf_apply, broadcast_apply, region0_den_apply, broadcastTo_1b_ab_apply]
  simp only [region0_cat_apply, truncf_apply, region0_sel_apply, shapeCast_self]
  rw [show (Scalar.ofBits .f32 0x00000000#32 : Ideal .f32) = 0 from Ideal.ofBits_zero_f32]

/-- The same entry, with each operand block read off its array: when the block's row p is row R of the activations and of
    the condition columns, and its column q is column C of the weights and of the bias, the body's result at (p, q) is the
    first kernel's whole-array function at (R, C). -/
theorem region0_point (A0 : Mat 8192 2048) (A1 : Mat 2048 1024) (A2 : Mat 8192 64) (A3 : Mat 1088 4096) (A4 : Mat 1 4096)
    (x0 : Vec Ideal S512x2048 .f32) (x1 : Vec Ideal S2048x1024 .bf16) (x2 : Vec Ideal S512x64 .f32)
    (x3 : Vec Ideal S1088x2048 .f32) (x4 : Vec Ideal S1x2048 .f32) (p : Fin 512) (q : Fin 2048) (R : Fin 8192) (C : Fin 4096)
    (h0 : ∀ r : Fin 2048, x0 (ix2 p r) = A0 (ix2 R r))
    (h1 : ∀ (r : Fin 2048) (k : Fin 1024), x1 (ix2 r k) = A1 (ix2 r k))
    (h2 : ∀ k : Fin 64, x2 (ix2 p k) = A2 (ix2 R k))
    (h3 : ∀ k : Fin 1088, x3 (ix2 k q) = A3 (ix2 k C))
    (h4 : x4 (ix2 (0 : Fin 1) q) = A4 (ix2 (0 : Fin 1) C)) :
    k0_pay1 (F := Ideal) x0 x1 x2 x3 x4 (ix2 p q) = mm1 A0 A1 A2 A3 A4 (ix2 R C) := by
  rw [region0_pay_apply]
  show _ = max ((∑ k : Fin 1088, mm1In A0 A1 A2 R k * A3 (ix2 k C)) + A4 (ix2 (0 : Fin 1) C)) 0
  rw [h4]
  refine congrArg (fun s => max (s + A4 (ix2 (0 : Fin 1) C)) 0) (Finset.sum_congr rfl fun k _ => ?_)
  rw [h3]
  refine congrArg (· * A3 (ix2 k C)) ?_
  unfold mm1In selAt
  by_cases h : k.val < 1024
  · rw [dif_pos h, dif_pos h]
    exact Finset.sum_congr rfl fun r _ => by rw [h0, h1]
  · rw [dif_neg h, dif_neg h, h2]

/-! ## From the blocks to the array -/

/-- The zero offsets of a whole-block access, however spelt. -/
theorem region0_hz : (![0, 0] : Fin 2 → Nat) = fun _ => 0 := funext fun a => by fin_cases a <;> rfl

/-- The printed index maps, decided over the 2 × 16 grid: the activations' and the condition columns' row block is the
    output's, the weights' and the bias's column block is the output's, every other block index is 0, and the output's
    block indices stay in their ranges. -/
theorem region0_idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 15 ∧ win0_5.index t (1 : Fin 2) ≤ 1 :=
  (by decide +kernel : ∀ t : Fin grid0.N, _)

/-- Every block of the output array is some grid point's. -/
theorem region0_idx_onto : ∀ (q0 : Fin 16) (q1 : Fin 2), ∃ t : Fin cfg0.N, win0_5.index t = ![q0.val, q1.val] :=
  (by decide +kernel : ∀ (q0 : Fin 16) (q1 : Fin 2), ∃ t : Fin grid0.N, win0_5.index t = ![q0.val, q1.val])

variable (V : (c : Dev nD) → (b : Ref sig .tc) → Buf (Elt Ideal) ((c : Thread nD τ).loc b))

/-- The activations' block at grid point t: rows of the output's row block, every column. -/
theorem region0_blk_x (c : Dev nD) (t : Fin cfg0.N) (p : Fin 512) (r : Fin 2048) (R : Fin 8192)
    (hR : R.val = win0_5.index t (0 : Fin 2) * 512 + p.val) :
    (iblk0 V c 0 t : Vec Ideal S512x2048 .f32) (ix2 p r) = (V c (Pipeline.arrRef spec0 0) : Mat 8192 2048) (ix2 R r) := by
  obtain ⟨e00, e01, -⟩ := region0_idx_facts t
  show V c (Pipeline.arrRef spec0 0) (((cfg0.win 0).blk t).view.emb (ix2 p r)) = _
  refine congrArg _ (funext fun a => Fin.ext ?_)
  match a with
  | ⟨0, _⟩ => show win0_0.index t (0 : Fin 2) * 512 + 1 * p.val = R.val; omega
  | ⟨1, _⟩ => show win0_0.index t (1 : Fin 2) * 2048 + 1 * r.val = r.val; omega

/-- The selection matrix's block at every grid point is the whole matrix. -/
theorem region0_blk_sel (c : Dev nD) (t : Fin cfg0.N) (r : Fin 2048) (k : Fin 1024) :
    (iblk0 V c 1 t : Vec Ideal S2048x1024 .bf16) (ix2 r k) = (V c (Pipeline.arrRef spec0 1) : Mat 2048 1024) (ix2 r k) := by
  obtain ⟨-, -, e10, e11, -⟩ := region0_idx_facts t
  show V c (Pipeline.arrRef spec0 1) (((cfg0.win 1).blk t).view.emb (ix2 r k)) = _
  refine congrArg _ (funext fun a => Fin.ext ?_)
  match a with
  | ⟨0, _⟩ => show win0_1.index t (0 : Fin 2) * 2048 + 1 * r.val = r.val; omega
  | ⟨1, _⟩ => show win0_1.index t (1 : Fin 2) * 1024 + 1 * k.val = k.val; omega

/-- The condition columns' block at grid point t: rows of the output's row block, every column. -/
theorem region0_blk_cond (c : Dev nD) (t : Fin cfg0.N) (p : Fin 512) (k : Fin 64) (R : Fin 8192)
    (hR : R.val = win0_5.index t (0 : Fin 2) * 512 + p.val) :
    (iblk0 V c 2 t : Vec Ideal S512x64 .f32) (ix2 p k) = (V c (Pipeline.arrRef spec0 2) : Mat 8192 64) (ix2 R k) := by
  obtain ⟨-, -, -, -, e20, e21, -⟩ := region0_idx_facts t
  show V c (Pipeline.arrRef spec0 2) (((cfg0.win 2).blk t).view.emb (ix2 p k)) = _
  refine congrArg _ (funext fun a => Fin.ext ?_)
  match a with
  | ⟨0, _⟩ => show win0_2.index t (0 : Fin 2) * 512 + 1 * p.val = R.val; omega
  | ⟨1, _⟩ => show win0_2.index t (1 : Fin 2) * 64 + 1 * k.val = k.val; omega

/-- The weights' block at grid point t: every row, columns of the output's column block. -/
theorem region0_blk_w (c : Dev nD) (t : Fin cfg0.N) (k : Fin 1088) (q : Fin 2048) (C : Fin 4096)
    (hC : C.val = win0_5.index t (1 : Fin 2) * 2048 + q.val) :
    (iblk0 V c 3 t : Vec Ideal S1088x2048 .f32) (ix2 k q) = (V c (Pipeline.arrRef spec0 3) : Mat 1088 4096) (ix2 k C) := by
  obtain ⟨-, -, -, -, -, -, e30, e31, -⟩ := region0_idx_facts t
  show V c (Pipeline.arrRef spec0 3) (((cfg0.win 3).blk t).view.emb (ix2 k q)) = _
  refine congrArg _ (funext fun a => Fin.ext ?_)
  match a with
  | ⟨0, _⟩ => show win0_3.index t (0 : Fin 2) * 1088 + 1 * k.val = k.val; omega
  | ⟨1, _⟩ => show win0_3.index t (1 : Fin 2) * 2048 + 1 * q.val = C.val; omega

/-- The bias's block at grid point t: its one row, columns of the output's column block. -/
theorem region0_blk_bias (c : Dev nD) (t : Fin cfg0.N) (q : Fin 2048) (C : Fin 4096)
    (hC : C.val = win0_5.index t (1 : Fin 2) * 2048 + q.val) :
    (iblk0 V c 4 t : Vec Ideal S1x2048 .f32) (ix2 (0 : Fin 1) q) = (V c (Pipeline.arrRef spec0 4) : Mat 1 4096) (ix2 (0 : Fin 1) C) := by
  obtain ⟨-, -, -, -, -, -, -, -, e40, e41, -⟩ := region0_idx_facts t
  show V c (Pipeline.arrRef spec0 4) (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * q.val = C.val; omega

/-- What grid point t writes back is block t of ANY whole-array function G that the body's result, on the operand blocks at t,
    agrees with entry by entry: entry (p, q) of the block against entry (512·m + p, 2048·n + q) of G, (m, n) the output's block. -/
theorem region0_flushed_of (c : Dev nD) (t : Fin cfg0.N) (G : Mat 8192 4096)
    (hG : ∀ (p : Fin 512) (q : Fin 2048) (R : Fin 8192) (C : Fin 4096),
      R.val = win0_5.index t (0 : Fin 2) * 512 + p.val → C.val = win0_5.index t (1 : Fin 2) * 2048 + q.val →
      k0_pay1 (F := Ideal) (iblk0 V c 0 t) (iblk0 V c 1 t) (iblk0 V c 2 t) (iblk0 V c 3 t) (iblk0 V c 4 t) (ix2 p q) = G (ix2 R C)) :
    (dat0 (F := Ideal) V c).flushed 5 t = ((cfg0.win 5).blk t).view.read (Elt Ideal) G := by
  show (cfg0.win 5).cut (grid0.coords t) ((dat0 (F := Ideal) V c).after 5 t) = _
  rw [after0_5]
  unfold out0_5
  rw [View.canon_unit_zero region0_hz]
  simp only [View.ld_unit_zero (S := S512x2048) region0_hz, View.ld_unit_zero (S := S2048x1024) region0_hz,
    View.ld_unit_zero (S := S512x64) region0_hz, View.ld_unit_zero (S := S1088x2048) region0_hz,
    View.ld_unit_zero (S := S1x2048) region0_hz]
  obtain ⟨-, -, -, -, -, -, -, -, -, -, b0, b1⟩ := region0_idx_facts t
  funext j
  have hp : (j 0).val < 512 := (j 0).isLt
  have hq : (j 1).val < 2048 := (j 1).isLt
  have hj : (cfg0.win 5).xinj (grid0.coords t) j = ix2 (⟨(j 0).val, hp⟩ : Fin 512) (⟨(j 1).val, hq⟩ : Fin 2048) :=
    funext fun a => by
      match a with
      | ⟨0, _⟩ => rfl
      | ⟨1, _⟩ => rfl
  have hemb : ((cfg0.win 5).blk t).view.emb j
      = ix2 (⟨win0_5.index t (0 : Fin 2) * 512 + (j 0).val, by omega⟩ : Fin 8192)
          (⟨win0_5.index t (1 : Fin 2) * 2048 + (j 1).val, by omega⟩ : Fin 4096) := by
    funext a; apply Fin.ext
    match a with
    | ⟨0, _⟩ => show win0_5.index t (0 : Fin 2) * 512 + 1 * (j 0).val = win0_5.index t (0 : Fin 2) * 512 + (j 0).val; omega
    | ⟨1, _⟩ => show win0_5.index t (1 : Fin 2) * 2048 + 1 * (j 1).val = win0_5.index t (1 : Fin 2) * 2048 + (j 1).val; omega
  refine (congrArg (k0_pay1 (F := Ideal) (iblk0 V c 0 t) (iblk0 V c 1 t) (iblk0 V c 2 t) (iblk0 V c 3 t) (iblk0 V c 4 t)) hj).trans ?_
  show _ = G (((cfg0.win 5).blk t).view.emb j)
  rw [hemb]
  exact hG _ _ _ _ rfl rfl

/-- What grid point t writes back is block t of the first kernel's whole-array function of the operand arrays. -/
theorem region0_flushed_eq (c : Dev nD) (t : Fin cfg0.N) :
    (dat0 (F := Ideal) V c).flushed 5 t = ((cfg0.win 5).blk t).view.read (Elt Ideal)
      (mm1 (V c (Pipeline.arrRef spec0 0)) (V c (Pipeline.arrRef spec0 1)) (V c (Pipeline.arrRef spec0 2))
          (V c (Pipeline.arrRef spec0 3)) (V c (Pipeline.arrRef spec0 4))) :=
  region0_flushed_of V c t _ fun p q R C hR hC =>
    region0_point _ _ _ _ _ _ _ _ _ _ p q R C
      (fun r => region0_blk_x V c t p r R hR) (fun r k => region0_blk_sel V c t r k)
      (fun k => region0_blk_cond V c t p k R hR) (fun k => region0_blk_w V c t k q C hC)
      (region0_blk_bias V c t q C hC)

/-- An index of the output array is in grid point t's block iff each coordinate is in the block's range on its axis. -/
theorem region0_mem_blk (t : Fin cfg0.N) (i : S8192x4096.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole (Pipeline.arrRef spec0 5)).slice (win0_5.rect t)).set ↔ _
  rw [View.set_slice_whole, Rect.mem_set_unit]
  exact Iff.rfl

/-- Every index of the output array is in the block of the grid point whose output block holds its row and its column. -/
theorem region0_cover (i : S8192x4096.Idx) :
    ∃ t : Fin cfg0.N, (cfg0.win 5).flush t = true ∧ i ∈ ((cfg0.win 5).blk t).view.set := by
  have hi0 : (i 0).val < 8192 := idx2_lt0 i
  have hi1 : (i 1).val < 4096 := idx2_lt1 i
  obtain ⟨t, ht⟩ := region0_idx_onto ⟨(i 0).val / 512, by omega⟩ ⟨(i 1).val / 2048, by omega⟩
  have q0 : win0_5.index t (0 : Fin 2) = (i 0).val / 512 := congrFun ht 0
  have q1 : win0_5.index t (1 : Fin 2) = (i 1).val / 2048 := congrFun ht 1
  refine ⟨t, flush0_5 t, ?_⟩
  rw [region0_mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- Region 0 (a block's first kernel), entered at contents V: its output array after the run. -/
theorem region0_value (c : Dev nD) :
    ((dat0 (F := Ideal) V c).arrAt 5 cfg0.N : Mat 8192 4096)
      = mm1 (V c (Pipeline.arrRef spec0 0)) (V c (Pipeline.arrRef spec0 1)) (V c (Pipeline.arrRef spec0 2))
          (V c (Pipeline.arrRef spec0 3)) (V c (Pipeline.arrRef spec0 4)) := by
  exact (dat0 (F := Ideal) V c).arrAt_eq_of_cover 5 _ (fun t _ => region0_flushed_eq V c t) region0_cover

end Cert.KernelIdeal.Val

end
-- ==== Proof.Region1.lean ====
/-
  What the second pallas_call of a block leaves in its output array, as one function of its operand arrays.
-/
import proofs.«427001_j89833535963578_2_alg».proof.Proof.Gen.KernelIdeal.Frame
import proofs.«427001_j89833535963578_2_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Coupling

variable (V : (c : Dev nD) → (b : Ref sig .tc) → Buf (Elt Ideal) ((c : Thread nD τ).loc b))

/-! ## The matrix product's operand indices, axis by axis -/

theorem region1_lhs_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem region1_lhs_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem region1_rhs_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem region1_rhs_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The matrix product of a row block with a column block of the weights, into a zero accumulator, at (p, q):
    the sum over the 4096 shared columns. -/
theorem region1_matmul (a : FVec Ideal S512x4096 .bf16) (w : FVec Ideal S4096x1024 .bf16) (p : Fin 512) (q : Fin 1024) :
    matmul dot_S512x4096_S4096x1024_S512x1024_1_0_0_1_n_n none a w (constant (F := Ideal) S512x1024 .f32 0x00000000#32) (ix2 p q)
      = ∑ k : Fin 4096, a (ix2 p k) * w (ix2 k q) := by
  simp only [matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p q) ((contrEquiv1 dot_S512x4096_S4096x1024_S512x1024_1_0_0_1_n_n 4096 rfl rfl).symm k) = ix2 p k := funext fun a => Fin.ext (by
    match a with
    | ⟨0, _⟩ => exact region1_lhs_0 _ _
    | ⟨1, _⟩ => exact (region1_lhs_1 _ _).trans hk)
  have er : dot_S512x4096_S4096x1024_S512x1024_1_0_0_1_n_n.rhsIdx (ix2 p q) ((contrEquiv1 dot_S512x4096_S4096x1024_S512x1024_1_0_0_1_n_n 4096 rfl rfl).symm k) = ix2 k q := funext fun a => Fin.ext (by
    match a with
    | ⟨0, _⟩ => exact (region1_rhs_0 _ _).trans hk
    | ⟨1, _⟩ => exact region1_rhs_1 _ _)
  rw [el, er]

/-- The kernel's arithmetic at (p, q) of its output block: the row block times the weights' column block, plus the
    bias row, clamped at zero from below. A change of float format is the identity on the extended reals. -/
theorem region1_pay (w : Vec Ideal S4096x1024 .f32) (a : Vec Ideal S512x4096 .bf16) (bias : Vec Ideal S1x1024 .f32)
    (p : Fin 512) (q : Fin 1024) :
    k1_pay1 (F := Ideal) w a bias (ix2 p q)
      = max ((∑ k : Fin 4096, (a (ix2 p k) : EReal) * (w (ix2 k q) : EReal)) + (bias (ix2 0 q) : EReal)) 0 := by
  unfold k1_pay1
  simp only [shapeCast_self]
  rw [truncf_apply, maximumf_apply, addf_apply, broadcast_apply, region1_matmul]
  rw [broadcastTo_apply bias broadcasts_S1x1024_S512x1024 (ix2 p q) (ix2 0 q) (fun a => by match a with | ⟨0, _⟩ => rfl | ⟨1, _⟩ => rfl)]
  simp only [truncf_apply]
  show max _ (Ideal.ofBits .f32 0x00000000#32) = _
  rw [Ideal.ofBits_zero_f32]

/-! ## The grid: which block each window stages at a point -/

theorem region1_hz : (![0, 0] : Fin 2 → Nat) = fun _ => 0 := funext fun a => by fin_cases a <;> rfl

/-- The kernel's index maps over the 64 grid points: the row block of the activations is the output's row
    block, the column block of the weights and of the bias is the output's column block, every other block index is 0,
    and the output's block indices stay in range. -/
theorem region1_idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) ≤ 15 ∧ win1_3.index t (1 : Fin 2) ≤ 3 :=
  (by decide +kernel : ∀ t : Fin grid1.N, _)

/-- Every (row block, column block) pair is some point's output block. -/
theorem region1_idx_onto : ∀ (q0 : Fin 16) (q1 : Fin 4), ∃ t : Fin cfg1.N, win1_3.index t = ![q0.val, q1.val] :=
  (by decide +kernel : ∀ (q0 : Fin 16) (q1 : Fin 4), ∃ t : Fin grid1.N, win1_3.index t = ![q0.val, q1.val])

/-! ## Each staged block as entries of its array -/

/-- The activations' block at a point: rows 512 m … 512 m + 511, every column. -/
theorem region1_blk0 (c : Dev nD) (t : Fin cfg1.N) (p : Fin 512) (k : Fin 4096) (r : Fin 8192)
    (hr : r.val = win1_3.index t (0 : Fin 2) * 512 + p.val) :
    (iblk1 (F := Ideal) V c 0 t : Vec Ideal S512x4096 .bf16) (ix2 p k) = (V c (Pipeline.arrRef spec1 0) : Mat 8192 4096) (ix2 r k) := by
  obtain ⟨e0, e1, e2, e3, e4, e5, e6, e7⟩ := region1_idx_facts t
  unfold iblk1
  rw [View.read_apply]
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 512 + 1 * p.val = r.val; omega
  | ⟨1, _⟩ => show win1_0.index t (1 : Fin 2) * 4096 + 1 * k.val = k.val; omega

/-- The weights' block at a point: every row, columns 1024 n … 1024 n + 1023. -/
theorem region1_blk1 (c : Dev nD) (t : Fin cfg1.N) (k : Fin 4096) (q : Fin 1024) (s : Fin 4096)
    (hs : s.val = win1_3.index t (1 : Fin 2) * 1024 + q.val) :
    (iblk1 (F := Ideal) V c 1 t : Vec Ideal S4096x1024 .f32) (ix2 k q) = (V c (Pipeline.arrRef spec1 1) : Mat 4096 4096) (ix2 k s) := by
  obtain ⟨e0, e1, e2, e3, e4, e5, e6, e7⟩ := region1_idx_facts t
  unfold iblk1
  rw [View.read_apply]
  show V c (Pipeline.arrRef spec1 1) (((cfg1.win 1).blk t).view.emb (ix2 k q)) = V c (Pipeline.arrRef spec1 1) (ix2 k s)
  refine congrArg _ (funext fun a => Fin.ext ?_)
  match a with
  | ⟨0, _⟩ => show win1_1.index t (0 : Fin 2) * 4096 + 1 * k.val = k.val; omega
  | ⟨1, _⟩ => show win1_1.index t (1 : Fin 2) * 1024 + 1 * q.val = s.val; omega

/-- The bias's block at a point: its one row, columns 1024 n … 1024 n + 1023. -/
theorem region1_blk2 (c : Dev nD) (t : Fin cfg1.N) (q : Fin 1024) (s : Fin 4096)
    (hs : s.val = win1_3.index t (1 : Fin 2) * 1024 + q.val) :
    (iblk1 (F := Ideal) V c 2 t : Vec Ideal S1x1024 .f32) (ix2 0 q) = (V c (Pipeline.arrRef spec1 2) : Mat 1 4096) (ix2 0 s) := by
  obtain ⟨e0, e1, e2, e3, e4, e5, e6, e7⟩ := region1_idx_facts t
  unfold iblk1
  rw [View.read_apply]
  show V c (Pipeline.arrRef spec1 2) (((cfg1.win 2).blk t).view.emb (ix2 0 q)) = V c (Pipeline.arrRef spec1 2) (ix2 0 s)
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * q.val = s.val; omega

/-! ## From blocks to the array -/

/-- The kernel's arithmetic on three blocks that hold the arrays' entries of row r and column s is the whole-array
    function at (r, s). -/
theorem region1_entry (A : Mat 8192 4096) (W : Mat 4096 4096) (B : Mat 1 4096)
    (a : Vec Ideal S512x4096 .bf16) (w : Vec Ideal S4096x1024 .f32) (bias : Vec Ideal S1x1024 .f32)
    (p : Fin 512) (q : Fin 1024) (r : Fin 8192) (s : Fin 4096)
    (h0 : ∀ k : Fin 4096, a (ix2 p k) = A (ix2 r k))
    (h1 : ∀ k : Fin 4096, w (ix2 k q) = W (ix2 k s))
    (h2 : bias (ix2 0 q) = B (ix2 0 s)) :
    k1_pay1 (F := Ideal) w a bias (ix2 p q) = mm2 A W B (ix2 r s) := by
  rw [region1_pay]
  show _ = max ((∑ k : Fin 4096, A (ix2 r k) * W (ix2 k s)) + B (ix2 0 s)) 0
  rw [h2]
  exact congrArg (fun z => max (z + B (ix2 0 s)) 0) (Finset.sum_congr rfl fun k _ => by rw [h0 k, h1 k])

/-- Entry (p, q) of the output block at row block m and column block n sits in the array at row 512 m + p and
    column 1024 n + q. -/
theorem region1_emb3 (t : Fin cfg1.N) (p : Fin 512) (q : Fin 1024) :
    ∃ (r : Fin 8192) (s : Fin 4096), ((cfg1.win 3).blk t).view.emb (ix2 p q) = ix2 r s
      ∧ r.val = win1_3.index t (0 : Fin 2) * 512 + p.val ∧ s.val = win1_3.index t (1 : Fin 2) * 1024 + q.val :=
  ⟨(((cfg1.win 3).blk t).view.emb (ix2 p q)) 0, (((cfg1.win 3).blk t).view.emb (ix2 p q)) 1, eq_ix2 _,
    (by show win1_3.index t (0 : Fin 2) * 512 + 1 * p.val = _; omega),
    (by show win1_3.index t (1 : Fin 2) * 1024 + 1 * q.val = _; omega)⟩

set_option maxHeartbeats 1000000 in
/-- What a point writes back is its block of the whole-array function: entry (p, q) of the block at row block m and
    column block n is entry (512 m + p, 1024 n + q) of relu (a · w + bias). -/
theorem region1_flushed_eq (c : Dev nD) (t : Fin cfg1.N) :
    (dat1 (F := Ideal) V c).flushed 3 t = ((cfg1.win 3).blk t).view.read (Elt Ideal)
      (mm2 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero region1_hz]
  simp only [View.ld_unit_zero (S := S4096x1024) region1_hz, View.ld_unit_zero (S := S512x4096) region1_hz,
    View.ld_unit_zero (S := S1x1024) region1_hz]
  funext j
  obtain ⟨p, q, rfl⟩ : ∃ (p : Fin 512) (q : Fin 1024), j = ix2 p q := ⟨j 0, j 1, eq_ix2 j⟩
  rw [View.read_apply]
  obtain ⟨r, s, he, hr, hs⟩ := region1_emb3 t p q
  rw [he]
  exact region1_entry (V c (Pipeline.arrRef spec1 0)) (V c (Pipeline.arrRef spec1 1)) (V c (Pipeline.arrRef spec1 2))
    (iblk1 (F := Ideal) V c 0 t) (iblk1 (F := Ideal) V c 1 t) (iblk1 (F := Ideal) V c 2 t) p q r s
    (fun k => region1_blk0 V c t p k r hr) (fun k => region1_blk1 V c t k q s hs) (region1_blk2 V c t q s hs)

/-- An entry of the output array is in a point's block iff each coordinate is in the block's range on its axis. -/
theorem region1_mem_blk (t : Fin cfg1.N) (i : S8192x4096.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole (Pipeline.arrRef spec1 3)).slice (win1_3.rect t)).set ↔ _
  rw [View.set_slice_whole, Rect.mem_set_unit]
  exact Iff.rfl

/-- The 64 output blocks tile the array: entry (r, s) is in the block of row block r / 512 and column block s / 1024. -/
theorem region1_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := region1_idx_onto ⟨(i 0).val / 512, by omega⟩ ⟨(i 1).val / 1024, by omega⟩
  have q0 : win1_3.index t (0 : Fin 2) = (i 0).val / 512 := congrFun ht 0
  have q1 : win1_3.index t (1 : Fin 2) = (i 1).val / 1024 := congrFun ht 1
  refine ⟨t, flush1_3 t, ?_⟩
  rw [region1_mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- Region 1 (a block's second kernel), entered at contents V: its output array after the run. -/
theorem region1_value (c : Dev nD) :
    ((dat1 (F := Ideal) V c).arrAt 3 cfg1.N : Mat 8192 4096)
      = mm2 (V c (Pipeline.arrRef spec1 0)) (V c (Pipeline.arrRef spec1 1)) (V c (Pipeline.arrRef spec1 2)) := by
  show (dat1 (F := Ideal) V c).arrAt 3 cfg1.N = _
  exact (dat1 (F := Ideal) V c).arrAt_eq_of_cover 3 _ (fun t _ => region1_flushed_eq V c t) region1_cover

end Cert.KernelIdeal.Val

end
-- ==== Proof.Region2.lean ====
/-
  What the third pallas_call of a block leaves in its two output arrays, as functions of its operand arrays.

  The body's arithmetic read at an index (three products, the two halves of the accumulator, the masked update, the
  row sum); a stored block as a row block of the whole-array functions when each loaded block is the matching block of
  its array; the 32 row blocks of 256 rows cover the 8192 rows.
-/
import proofs.«427001_j89833535963578_2_alg».proof.Proof.Gen.KernelIdeal.Frame
import proofs.«427001_j89833535963578_2_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Coupling

variable (V : (c : Dev nD) → (b : Ref sig .tc) → Buf (Elt Ideal) ((c : Thread nD τ).loc b))

/-! ## The first product, a · w, and the accumulator -/

/-- The first product's operand indices, axis by axis. -/
theorem region2_lhs_acc_0 (i : S256x2048.Idx) (q : dot_S256x4096_S4096x2048_S256x2048_1_0_0_1_n_n.contr.Idx) :
    (dot_S256x4096_S4096x2048_S256x2048_1_0_0_1_n_n.lhsIdx i q 0).val = (i 0).val := by
  unfold DotDims.lhsIdx
  rw [dif_neg (show ¬(0 : Fin S256x4096.rank) ∈ dot_S256x4096_S4096x2048_S256x2048_1_0_0_1_n_n.lhsBatch by decide), dif_pos (show (0 : Fin S256x4096.rank) ∈ dot_S256x4096_S4096x2048_S256x2048_1_0_0_1_n_n.lhsNonContracting by decide)]
  rfl
theorem region2_lhs_acc_1 (i : S256x2048.Idx) (q : dot_S256x4096_S4096x2048_S256x2048_1_0_0_1_n_n.contr.Idx) :
    (dot_S256x4096_S4096x2048_S256x2048_1_0_0_1_n_n.lhsIdx i q 1).val = (q ⟨0, by decide⟩).val :=
  dot_S256x4096_S4096x2048_S256x2048_1_0_0_1_n_n.lhsIdx_val_of_single rfl i q
theorem region2_rhs_acc_0 (i : S256x2048.Idx) (q : dot_S256x4096_S4096x2048_S256x2048_1_0_0_1_n_n.contr.Idx) :
    (dot_S256x4096_S4096x2048_S256x2048_1_0_0_1_n_n.rhsIdx i q 0).val = (q ⟨0, by decide⟩).val :=
  dot_S256x4096_S4096x2048_S256x2048_1_0_0_1_n_n.rhsIdx_val_of_single rfl i q
theorem region2_rhs_acc_1 (i : S256x2048.Idx) (q : dot_S256x4096_S4096x2048_S256x2048_1_0_0_1_n_n.contr.Idx) :
    (dot_S256x4096_S4096x2048_S256x2048_1_0_0_1_n_n.rhsIdx i q 1).val = (i 1).val := by
  unfold DotDims.rhsIdx
  rw [dif_neg (show ¬(1 : Fin S4096x2048.rank) ∈ dot_S256x4096_S4096x2048_S256x2048_1_0_0_1_n_n.rhsBatch by decide), dif_pos (show (1 : Fin S4096x2048.rank) ∈ dot_S256x4096_S4096x2048_S256x2048_1_0_0_1_n_n.rhsNonContracting by decide)]
  rfl

/-- a · w into a zero accumulator at (p, n): the sum over the 4096 contracted columns. -/
theorem region2_matmul_acc_apply (l : FVec Ideal S256x4096 .bf16) (r : FVec Ideal S4096x2048 .bf16) (p : Fin 256) (n : Fin 2048) :
    matmul dot_S256x4096_S4096x2048_S256x2048_1_0_0_1_n_n none l r (constant (F := Ideal) S256x2048 .f32 0x00000000#32) (ix2 p n)
      = ∑ k : Fin 4096, l (ix2 p k) * r (ix2 k n) := by
  simp only [matmul]
  rw [Ideal.matmul_constant_zero_apply, ← Equiv.sum_comp (contrEquiv1 dot_S256x4096_S4096x2048_S256x2048_1_0_0_1_n_n 4096 rfl rfl).symm]
  refine Finset.sum_congr rfl fun k _ => ?_
  have hk := contrEquiv1_symm_val dot_S256x4096_S4096x2048_S256x2048_1_0_0_1_n_n 4096 rfl rfl k
  have el : dot_S256x4096_S4096x2048_S256x2048_1_0_0_1_n_n.lhsIdx (ix2 p n) ((contrEquiv1 dot_S256x4096_S4096x2048_S256x2048_1_0_0_1_n_n 4096 rfl rfl).symm k) = ix2 p k := funext fun a => Fin.ext (by
    match a with
    | ⟨0, _⟩ => exact region2_lhs_acc_0 _ _
    | ⟨1, _⟩ => exact (region2_lhs_acc_1 _ _).trans hk)
  have er : dot_S256x4096_S4096x2048_S256x2048_1_0_0_1_n_n.rhsIdx (ix2 p n) ((contrEquiv1 dot_S256x4096_S4096x2048_S256x2048_1_0_0_1_n_n 4096 rfl rfl).symm k) = ix2 k n := funext fun a => Fin.ext (by
    match a with
    | ⟨0, _⟩ => exact (region2_rhs_acc_0 _ _).trans hk
    | ⟨1, _⟩ => exact region2_rhs_acc_1 _ _)
  rw [el, er]

/-- A [1, 2048] row broadcast down the 256 rows reads its column. -/
theorem region2_bcast_row_apply (v : FVec Ideal S1x2048 .f32) (h : S1x2048.Broadcasts S256x2048) (p : Fin 256) (n : Fin 2048) :
    broadcastTo S256x2048 v h (ix2 p n) = v (ix2 0 n) :=
  broadcastTo_apply v h (ix2 p n) (ix2 0 n) (fun a => by
    match a with
    | ⟨0, _⟩ => rfl
    | ⟨1, _⟩ => rfl)

/-- The kernel's accumulator a · w + bias at (p, n). -/
theorem region2_acc_apply (a : Vec Ideal S256x4096 .bf16) (w : Vec Ideal S4096x2048 .bf16) (bias : Vec Ideal S1x2048 .f32)
    (p : Fin 256) (n : Fin 2048) :
    k2_pay1 (F := Ideal) a w bias (ix2 p n) = (∑ k : Fin 4096, a (ix2 p k) * w (ix2 k n)) + bias (ix2 0 n) := by
  unfold k2_pay1
  simp only [shapeCast_self, addf_apply, region2_matmul_acc_apply, region2_bcast_row_apply]

/-! ## The second product, x · P -/

theorem region2_lhs_sel_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem region2_lhs_sel_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q

theorem region2_rhs_sel_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem region2_rhs_sel_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- x · P into a zero accumulator at (p, q): the sum over the 2048 contracted columns. -/
theorem region2_matmul_sel_apply (l : FVec Ideal S256x2048 .bf16) (r : FVec Ideal S2048x1024 .bf16) (p : Fin 256) (q : Fin 1024) :
    matmul dot_S256x2048_S2048x1024_S256x1024_1_0_0_1_n_n none l r (constant (F := Ideal) S256x1024 .f32 0x00000000#32) (ix2 p q)
      = ∑ s : Fin 2048, l (ix2 p s) * r (ix2 s q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact region2_lhs_sel_0 _ _
    | ⟨1, _⟩ => exact (region2_lhs_sel_1 _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (region2_rhs_sel_0 _ _).trans hk
    | ⟨1, _⟩ => exact region2_rhs_sel_1 _ _)
  rw [el, er]

/-! ## The third product, nv · Pᵀ: both operands contract their axis 1 -/

theorem region2_lhs_back_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem region2_lhs_back_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q

theorem region2_rhs_back_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem region2_rhs_back_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- nv · Pᵀ into a zero accumulator at (p, r): the sum over the 1024 contracted columns of both operands. -/
theorem region2_matmul_back_apply (l : FVec Ideal S256x1024 .bf16) (r : FVec Ideal S2048x1024 .bf16) (p : Fin 256) (n : Fin 2048) :
    matmul dot_S256x1024_S2048x1024_S256x2048_1_1_0_0_n_n none l r (constant (F := Ideal) S256x2048 .f32 0x00000000#32) (ix2 p n)
      = ∑ q : Fin 1024, l (ix2 p q) * r (ix2 n q) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p n) ((contrEquiv1 dot_S256x1024_S2048x1024_S256x2048_1_1_0_0_n_n 1024 rfl rfl).symm k) = ix2 p k := funext fun a => Fin.ext (by
    match a with
    | ⟨0, _⟩ => exact region2_lhs_back_0 _ _
    | ⟨1, _⟩ => exact (region2_lhs_back_1 _ _).trans hk)
  have er : dot_S256x1024_S2048x1024_S256x2048_1_1_0_0_n_n.rhsIdx (ix2 p n) ((contrEquiv1 dot_S256x1024_S2048x1024_S256x2048_1_1_0_0_n_n 1024 rfl rfl).symm k) = ix2 n k := funext fun a => Fin.ext (by
    match a with
    | ⟨0, _⟩ => exact region2_rhs_back_0 _ _
    | ⟨1, _⟩ => exact (region2_rhs_back_1 _ _).trans hk)
  rw [el, er]

/-! ## The two halves of the accumulator -/

/-- Columns 0 … 1023 of a [256, 2048] value. -/
theorem region2_slice_lo_apply (v : FVec Ideal S256x2048 .f32) (h : S256x2048.Slices ![0, 0] S256x1024) (p : Fin 256) (q : Fin 1024) :
    extractStridedSlice S256x1024 ![0, 0] v h (ix2 p q) = v (ix2 p ⟨q.val, by have := q.isLt; omega⟩) :=
  extractStridedSlice_apply _ v h (ix2 p q) (ix2 p ⟨q.val, by have := q.isLt; omega⟩) (fun a => by
    match a with
    | ⟨0, _⟩ => show p.val = 0 + p.val; omega
    | ⟨1, _⟩ => show q.val = 0 + q.val; omega)

/-- Columns 1024 … 2047 of a [256, 2048] value. -/
theorem region2_slice_hi_apply (v : FVec Ideal S256x2048 .f32) (h : S256x2048.Slices ![0, 1024] S256x1024) (p : Fin 256) (q : Fin 1024) :
    extractStridedSlice S256x1024 ![0, 1024] v h (ix2 p q) = v (ix2 p ⟨q.val + 1024, by have := q.isLt; omega⟩) :=
  extractStridedSlice_apply _ v h (ix2 p q) (ix2 p ⟨q.val + 1024, by have := q.isLt; omega⟩) (fun a => by
    match a with
    | ⟨0, _⟩ => show p.val = 0 + p.val; omega
    | ⟨1, _⟩ => show q.val + 1024 = 1024 + q.val; omega)

/-- The scale half S at (p, q) is the accumulator's column q. -/
theorem region2_scale_apply (a : Vec Ideal S256x4096 .bf16) (w : Vec Ideal S4096x2048 .bf16) (bias : Vec Ideal S1x2048 .f32)
    (p : Fin 256) (q : Fin 1024) :
    k2_pay2 (F := Ideal) a w bias (ix2 p q) = k2_pay1 (F := Ideal) a w bias (ix2 p ⟨q.val, by have := q.isLt; omega⟩) := by
  unfold k2_pay2
  exact region2_slice_lo_apply _ _ p q

/-- The f32 word 0x3F800000 is the extended real one. -/
theorem region2_one_word : Ideal.ofBits .f32 0x3F800000#32 = 1 := by
  rw [show (1 : EReal) = ((1 : ℝ) : EReal) by norm_cast]
  simp [Ideal.ofBits, Ideal.ieee, -EReal.coe_mul]; norm_num

/-- A [1, 2048] row of 1 − mask broadcast down the rows. -/
theorem region2_one_sub_apply (mask : FVec Ideal S1x2048 .f32) (h : S1x2048.Broadcasts S256x2048) (p : Fin 256) (n : Fin 2048) :
    broadcastTo S256x2048 (subf (broadcast S1x2048 (Scalar.ofBits (F := Ideal) .f32 0x3F800000#32)) mask) h (ix2 p n)
      = 1 - mask (ix2 0 n) := by
  rw [region2_bcast_row_apply, subf_apply, broadcast_apply]
  exact congrArg (· - mask (ix2 0 n)) region2_one_word

/-- The kernel's first stored value at (p, r): x ∘ (1 − mask) + ((x · P) ∘ exp S + T) · Pᵀ, over the loaded blocks. -/
theorem region2_newx_apply (a : Vec Ideal S256x4096 .bf16) (w : Vec Ideal S4096x2048 .bf16) (bias : Vec Ideal S1x2048 .f32)
    (x : Vec Ideal S256x2048 .f32) (P P' : Vec Ideal S2048x1024 .bf16) (mask : Vec Ideal S1x2048 .f32)
    (p : Fin 256) (r : Fin 2048) :
    k2_pay3 (F := Ideal) a w bias x P P' mask (ix2 p r)
      = x (ix2 p r) * (1 - mask (ix2 0 r))
        + ∑ q : Fin 1024, ((∑ s : Fin 2048, x (ix2 p s) * P (ix2 s q)) * Ideal.exp (k2_pay2 (F := Ideal) a w bias (ix2 p q))
            + k2_pay1 (F := Ideal) a w bias (ix2 p ⟨q.val + 1024, by have := q.isLt; omega⟩)) * P' (ix2 r q) := by
  unfold k2_pay3
  simp only [shapeCast_self, addf_apply, mulf_apply, region2_matmul_back_apply, region2_matmul_sel_apply, truncf_apply, region2_one_sub_apply,
    region2_slice_hi_apply]
  rfl

/-- A lane sum of a [256, 1024] value at row p. -/
theorem region2_rowsum_red (v : FVec Ideal S256x1024 .f32) (h : S256x1024.Reduces [1] S256) (hφ : FKind.Formats .f32)
    (hacc : (0x00000000#32 : BitVec FTy.f32.bits) = FKind.add.neutral .f32 hφ) (p : Fin 256) :
    multiReduction (F := Ideal) .add [1] S256 v 0x00000000#32 h hφ hacc (ix1 p) = ∑ q : Fin 1024, v (ix2 p q) :=
  (Ideal.multiReduction_add_single v _ h hφ hacc (ix1 p)).trans
    (Finset.sum_congr rfl fun q _ => congrArg v (funext fun a => Fin.ext (by
      match a with
      | ⟨0, _⟩ => rfl
      | ⟨1, _⟩ => rfl)))

/-- The kernel's second stored value at (p, 0): the row sum of S. -/
theorem region2_rowsum_apply (a : Vec Ideal S256x4096 .bf16) (w : Vec Ideal S4096x2048 .bf16) (bias : Vec Ideal S1x2048 .f32)
    (p : Fin 256) (z : Fin 1) :
    k2_pay4 (F := Ideal) a w bias (ix2 p z) = ∑ q : Fin 1024, k2_pay2 (F := Ideal) a w bias (ix2 p q) := by
  unfold k2_pay4
  refine (shapeCast_apply _ _ (ix2 p z) (ix1 p) ?_).trans ?_
  · rw [Shape.rowMajor_val_one, Shape.rowMajor_val_two]
    show p.val = p.val * 1 + z.val
    omega
  · exact region2_rowsum_red _ _ _ _ p

/-! ## A stored block as a row block of the whole-array functions -/

section Blocks
variable (A : Mat 8192 4096) (W : Mat 4096 2048) (B : Mat 1 2048) (X : Mat 8192 2048) (P : Mat 2048 1024) (M : Mat 1 2048)
  (a : Vec Ideal S256x4096 .bf16) (w : Vec Ideal S4096x2048 .bf16) (bias : Vec Ideal S1x2048 .f32)
  (x : Vec Ideal S256x2048 .f32) (pm : Vec Ideal S2048x1024 .bf16) (mask : Vec Ideal S1x2048 .f32)
  (row : Fin 256 → Fin 8192)
  (ha : ∀ p k, a (ix2 p k) = A (ix2 (row p) k)) (hw : ∀ k n, w (ix2 k n) = W (ix2 k n))
  (hb : ∀ n, bias (ix2 0 n) = B (ix2 0 n))
  (hx : ∀ p r, x (ix2 p r) = X (ix2 (row p) r)) (hP : ∀ s q, pm (ix2 s q) = P (ix2 s q))
  (hm : ∀ n, mask (ix2 0 n) = M (ix2 0 n))
include ha hw hb

/-- When the loaded blocks are rows row p of a and all of w and bias, the accumulator is mm3Acc at those rows. -/
theorem region2_acc_block (p : Fin 256) (n : Fin 2048) : k2_pay1 (F := Ideal) a w bias (ix2 p n) = mm3Acc A W B (row p) n := by
  rw [region2_acc_apply, hb]
  exact congrArg (· + B (ix2 0 n)) (Finset.sum_congr rfl fun k _ => by rw [ha, hw])

/-- The scale half likewise. -/
theorem region2_scale_block (p : Fin 256) (q : Fin 1024) : k2_pay2 (F := Ideal) a w bias (ix2 p q) = mm3S A W B (row p) q := by
  rw [region2_scale_apply]
  exact region2_acc_block A W B a w bias row ha hw hb p _

/-- The row sums of S. -/
theorem region2_rowsum_block (p : Fin 256) (z : Fin 1) : k2_pay4 (F := Ideal) a w bias (ix2 p z) = mm3Ld A W B (ix2 (row p) z) := by
  rw [region2_rowsum_apply]
  exact Finset.sum_congr rfl fun q _ => region2_scale_block A W B a w bias row ha hw hb p q

include hx hP hm
/-- The new activations. -/
theorem region2_newx_block (p : Fin 256) (r : Fin 2048) :
    k2_pay3 (F := Ideal) a w bias x pm pm mask (ix2 p r) = mm3X A W B X P M (ix2 (row p) r) := by
  rw [region2_newx_apply, hx, hm]
  show _ = X (ix2 (row p) r) * (1 - M (ix2 0 r)) + ∑ q : Fin 1024, (selAt X P (row p) q * Ideal.exp (mm3S A W B (row p) q) + mm3T A W B (row p) q) * P (ix2 r q)
  refine congrArg _ (Finset.sum_congr rfl fun q _ => ?_)
  rw [hP r q, region2_scale_block A W B a w bias row ha hw hb p q, region2_acc_block A W B a w bias row ha hw hb p _]
  unfold selAt
  refine congrArg (fun z => (z * Ideal.exp (mm3S A W B (row p) q) + mm3T A W B (row p) q) * P (ix2 r q)) ?_
  exact Finset.sum_congr rfl fun s _ => by rw [hx, hP]

end Blocks

/-! ## The grid: 32 row blocks of 256 rows -/

theorem region2_hz : (![0, 0] : Fin 2 → Nat) = fun _ => 0 := funext fun a => by fin_cases a <;> rfl

/-- The printed index maps, decided over the grid: the row-blocked windows (a, x and the two outputs) sit at block row t,
    the whole-array windows (w, bias, P, mask) at block (0, 0). -/
theorem region2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem region2_pt_lt (t : Fin cfg2.N) : t.val < 32 := lt_of_lt_of_eq t.isLt (by decide : grid2.N = 32)

/-- Row p of row block t. -/
def region2_rowAt (t : Fin cfg2.N) (p : Fin 256) : Fin 8192 :=
  ⟨t.val * 256 + p.val, by have := region2_pt_lt t; have := p.isLt; omega⟩

/-! ## Each input window's block, read where the output's rows say -/

section Reads
variable (c : Dev nD) (t : Fin cfg2.N)

/-- Window 0's block at point t: rows 256 t … 256 t + 255 of a. -/
theorem region2_read_a (p : Fin 256) (k : Fin 4096) :
    (iblk2 (F := Ideal) V c 0 t : Vec Ideal S256x4096 .bf16) (ix2 p k)
      = (V c (Pipeline.arrRef spec2 0) : Mat 8192 4096) (ix2 (region2_rowAt t p) k) := by
  obtain ⟨e0, e1, -⟩ := region2_idx_facts t
  show (V c (Pipeline.arrRef spec2 0) : Mat 8192 4096) (((cfg2.win 0).blk t).view.emb (ix2 p k)) = _
  refine congrArg (V c (Pipeline.arrRef spec2 0) : Mat 8192 4096) (funext fun a => Fin.ext ?_)
  match a with
  | ⟨0, _⟩ => show win2_0.index t (0 : Fin 2) * 256 + 1 * p.val = t.val * 256 + p.val; rw [e0]; omega
  | ⟨1, _⟩ => show win2_0.index t (1 : Fin 2) * 4096 + 1 * k.val = k.val; rw [e1]; omega

/-- Window 1's block is all of w. -/
theorem region2_read_w (k : Fin 4096) (n : Fin 2048) :
    (iblk2 (F := Ideal) V c 1 t : Vec Ideal S4096x2048 .bf16) (ix2 k n)
      = (V c (Pipeline.arrRef spec2 1) : Mat 4096 2048) (ix2 k n) := by
  obtain ⟨-, -, e0, e1, -⟩ := region2_idx_facts t
  show (V c (Pipeline.arrRef spec2 1) : Mat 4096 2048) (((cfg2.win 1).blk t).view.emb (ix2 k n)) = _
  refine congrArg (V c (Pipeline.arrRef spec2 1) : Mat 4096 2048) (funext fun a => Fin.ext ?_)
  match a with
  | ⟨0, _⟩ => show win2_1.index t (0 : Fin 2) * 4096 + 1 * k.val = k.val; rw [e0]; omega
  | ⟨1, _⟩ => show win2_1.index t (1 : Fin 2) * 2048 + 1 * n.val = n.val; rw [e1]; omega

/-- Window 2's block is all of bias. -/
theorem region2_read_bias (n : Fin 2048) :
    (iblk2 (F := Ideal) V c 2 t : Vec Ideal S1x2048 .f32) (ix2 0 n)
      = (V c (Pipeline.arrRef spec2 2) : Mat 1 2048) (ix2 0 n) := by
  obtain ⟨-, -, -, -, e0, e1, -⟩ := region2_idx_facts t
  show (V c (Pipeline.arrRef spec2 2) : Mat 1 2048) (((cfg2.win 2).blk t).view.emb (ix2 0 n)) = _
  refine congrArg (V c (Pipeline.arrRef spec2 2) : Mat 1 2048) (funext fun a => Fin.ext ?_)
  match a with
  | ⟨0, _⟩ => show win2_2.index t (0 : Fin 2) * 1 + 1 * 0 = 0; rw [e0]
  | ⟨1, _⟩ => show win2_2.index t (1 : Fin 2) * 2048 + 1 * n.val = n.val; rw [e1]; omega

/-- Window 3's block at point t: rows 256 t … 256 t + 255 of x. -/
theorem region2_read_x (p : Fin 256) (r : Fin 2048) :
    (iblk2 (F := Ideal) V c 3 t : Vec Ideal S256x2048 .f32) (ix2 p r)
      = (V c (Pipeline.arrRef spec2 3) : Mat 8192 2048) (ix2 (region2_rowAt t p) r) := by
  obtain ⟨-, -, -, -, -, -, e0, e1, -⟩ := region2_idx_facts t
  show (V c (Pipeline.arrRef spec2 3) : Mat 8192 2048) (((cfg2.win 3).blk t).view.emb (ix2 p r)) = _
  refine congrArg (V c (Pipeline.arrRef spec2 3) : Mat 8192 2048) (funext fun a => Fin.ext ?_)
  match a with
  | ⟨0, _⟩ => show win2_3.index t (0 : Fin 2) * 256 + 1 * p.val = t.val * 256 + p.val; rw [e0]; omega
  | ⟨1, _⟩ => show win2_3.index t (1 : Fin 2) * 2048 + 1 * r.val = r.val; rw [e1]; omega

/-- Window 4's block is all of P. -/
theorem region2_read_P (s : Fin 2048) (q : Fin 1024) :
    (iblk2 (F := Ideal) V c 4 t : Vec Ideal S2048x1024 .bf16) (ix2 s q)
      = (V c (Pipeline.arrRef spec2 4) : Mat 2048 1024) (ix2 s q) := by
  obtain ⟨-, -, -, -, -, -, -, -, e0, e1, -⟩ := region2_idx_facts t
  show (V c (Pipeline.arrRef spec2 4) : Mat 2048 1024) (((cfg2.win 4).blk t).view.emb (ix2 s q)) = _
  refine congrArg (V c (Pipeline.arrRef spec2 4) : Mat 2048 1024) (funext fun a => Fin.ext ?_)
  match a with
  | ⟨0, _⟩ => show win2_4.index t (0 : Fin 2) * 2048 + 1 * s.val = s.val; rw [e0]; omega
  | ⟨1, _⟩ => show win2_4.index t (1 : Fin 2) * 1024 + 1 * q.val = q.val; rw [e1]; omega

/-- Window 5's block is all of mask. -/
theorem region2_read_mask (n : Fin 2048) :
    (iblk2 (F := Ideal) V c 5 t : Vec Ideal S1x2048 .f32) (ix2 0 n)
      = (V c (Pipeline.arrRef spec2 5) : Mat 1 2048) (ix2 0 n) := by
  obtain ⟨-, -, -, -, -, -, -, -, -, -, e0, e1, -⟩ := region2_idx_facts t
  show (V c (Pipeline.arrRef spec2 5) : Mat 1 2048) (((cfg2.win 5).blk t).view.emb (ix2 0 n)) = _
  refine congrArg (V c (Pipeline.arrRef spec2 5) : Mat 1 2048) (funext fun a => Fin.ext ?_)
  match a with
  | ⟨0, _⟩ => show win2_5.index t (0 : Fin 2) * 1 + 1 * 0 = 0; rw [e0]
  | ⟨1, _⟩ => show win2_5.index t (1 : Fin 2) * 2048 + 1 * n.val = n.val; rw [e1]; omega

end Reads

/-! ## What each point writes back, the cover, and the arrays after the run -/

/-- The new activations as a function of the arrays the region finds. -/
abbrev region2_outX (c : Dev nD) : Mat 8192 2048 :=
  mm3X (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

/-- The log-determinant term as a function of the arrays the region finds. -/
abbrev region2_outLd (c : Dev nD) : Mat 8192 1 :=
  mm3Ld (V c (Pipeline.arrRef spec2 0)) (V c (Pipeline.arrRef spec2 1)) (V c (Pipeline.arrRef spec2 2))

/-- What point t writes back through window 6 is row block t of the new activations. -/
theorem region2_flushed_x (c : Dev nD) (t : Fin cfg2.N) :
    (dat2 (F := Ideal) V c).flushed 6 t = ((cfg2.win 6).blk t).view.read (Elt Ideal) (region2_outX V c) := by
  show (cfg2.win 6).cut (grid2.coords t) ((dat2 (F := Ideal) V c).after 6 t) = _
  rw [after2_6]
  unfold out2_6
  rw [View.canon_unit_zero region2_hz]
  simp only [View.ld_unit_zero (S := S256x4096) region2_hz, View.ld_unit_zero (S := S4096x2048) region2_hz,
    View.ld_unit_zero (S := S1x2048) region2_hz, View.ld_unit_zero (S := S256x2048) region2_hz,
    View.ld_unit_zero (S := S2048x1024) region2_hz]
  obtain ⟨-, -, -, -, -, -, -, -, -, -, -, -, e0, e1, -⟩ := region2_idx_facts t
  funext y
  obtain ⟨p, r, rfl⟩ : ∃ (p : Fin 256) (r : Fin 2048), y = ix2 p r := ⟨y 0, y 1, eq_ix2 y⟩
  show k2_pay3 (F := Ideal) (iblk2 V c 0 t) (iblk2 V c 1 t) (iblk2 V c 2 t) (iblk2 V c 3 t) (iblk2 V c 4 t) (iblk2 V c 4 t) (iblk2 V c 5 t) (ix2 p r)
    = region2_outX V c (((cfg2.win 6).blk t).view.emb (ix2 p r))
  refine (region2_newx_block (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (iblk2 V c 0 t) (iblk2 V c 1 t) (iblk2 V c 2 t) (iblk2 V c 3 t) (iblk2 V c 4 t) (iblk2 V c 5 t) (region2_rowAt t)
    (region2_read_a V c t) (region2_read_w V c t) (region2_read_bias V c t) (region2_read_x V c t) (region2_read_P V c t)
    (region2_read_mask V c t) p r).trans ?_
  refine congrArg (region2_outX V c) (funext fun a => Fin.ext ?_)
  match a with
  | ⟨0, _⟩ => show t.val * 256 + p.val = win2_6.index t (0 : Fin 2) * 256 + 1 * p.val; rw [e0]; omega
  | ⟨1, _⟩ => show r.val = win2_6.index t (1 : Fin 2) * 2048 + 1 * r.val; rw [e1]; omega

/-- What point t writes back through window 7 is row block t of the row sums of S. -/
theorem region2_flushed_ld (c : Dev nD) (t : Fin cfg2.N) :
    (dat2 (F := Ideal) V c).flushed 7 t = ((cfg2.win 7).blk t).view.read (Elt Ideal) (region2_outLd V c) := by
  show (cfg2.win 7).cut (grid2.coords t) ((dat2 (F := Ideal) V c).after 7 t) = _
  rw [after2_7]
  unfold out2_7
  rw [View.canon_unit_zero region2_hz]
  simp only [View.ld_unit_zero (S := S256x4096) region2_hz, View.ld_unit_zero (S := S4096x2048) region2_hz,
    View.ld_unit_zero (S := S1x2048) region2_hz]
  obtain ⟨-, -, -, -, -, -, -, -, -, -, -, -, -, -, e0, e1⟩ := region2_idx_facts t
  funext y
  obtain ⟨p, z, rfl⟩ : ∃ (p : Fin 256) (z : Fin 1), y = ix2 p z := ⟨y 0, y 1, eq_ix2 y⟩
  show k2_pay4 (F := Ideal) (iblk2 V c 0 t) (iblk2 V c 1 t) (iblk2 V c 2 t) (ix2 p z)
    = region2_outLd V c (((cfg2.win 7).blk t).view.emb (ix2 p z))
  refine (region2_rowsum_block (V c (Pipeline.arrRef spec2 0)) (V c (Pipeline.arrRef spec2 1)) (V c (Pipeline.arrRef spec2 2))
    (iblk2 V c 0 t) (iblk2 V c 1 t) (iblk2 V c 2 t) (region2_rowAt t)
    (region2_read_a V c t) (region2_read_w V c t) (region2_read_bias V c t) p z).trans ?_
  refine congrArg (region2_outLd V c) (funext fun a => Fin.ext ?_)
  match a with
  | ⟨0, _⟩ => show t.val * 256 + p.val = win2_7.index t (0 : Fin 2) * 256 + 1 * p.val; rw [e0]; omega
  | ⟨1, _⟩ => show z.val = win2_7.index t (1 : Fin 2) * 1 + 1 * z.val; rw [e1]; omega

/-- An index of the activations is in point t's block iff each coordinate is in the block's range on its axis. -/
theorem region2_mem_blk_x (t : Fin cfg2.N) (i : S8192x2048.Idx) :
    i ∈ ((cfg2.win 6).blk t).view.set ↔ ∀ a : Fin 2, win2_6.index t a * S256x2048.size a ≤ (i a).val ∧ (i a).val < win2_6.index t a * S256x2048.size a + S256x2048.size a := by
  show i ∈ ((View.whole (Pipeline.arrRef spec2 6)).slice (win2_6.rect t)).set ↔ _
  rw [View.set_slice_whole, Rect.mem_set_unit]
  exact Iff.rfl

/-- The same for the [8192, 1] log-determinant array. -/
theorem region2_mem_blk_ld (t : Fin cfg2.N) (i : S8192x1.Idx) :
    i ∈ ((cfg2.win 7).blk t).view.set ↔ ∀ a : Fin 2, win2_7.index t a * S256x1.size a ≤ (i a).val ∧ (i a).val < win2_7.index t a * S256x1.size a + S256x1.size a := by
  show i ∈ ((View.whole (Pipeline.arrRef spec2 7)).slice (win2_7.rect t)).set ↔ _
  rw [View.set_slice_whole, Rect.mem_set_unit]
  exact Iff.rfl

/-- The point whose row block holds row r. -/
def region2_ptOf (r : Nat) (h : r < 8192) : Fin cfg2.N := ⟨r / 256, by rw [show cfg2.N = 32 from (by decide : grid2.N = 32)]; omega⟩

/-- Region 2 (the third kernel of a block), entered at contents V: the new activations after the run. -/
theorem region2_value_x (c : Dev nD) :
    ((dat2 (F := Ideal) V c).arrAt 6 cfg2.N : Mat 8192 2048)
      = mm3X (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 (F := Ideal) V c).arrAt_eq_of_cover 6 (region2_outX V c) (fun t _ => region2_flushed_x V c t) fun (i : S8192x2048.Idx) => by
    have h0 : (i 0).val < 8192 := (i 0).isLt
    have h1 : (i 1).val < 2048 := (i 1).isLt
    refine ⟨region2_ptOf (i 0).val h0, flush2_6 _, ?_⟩
    obtain ⟨-, -, -, -, -, -, -, -, -, -, -, -, e0, e1, -⟩ := region2_idx_facts (region2_ptOf (i 0).val h0)
    rw [region2_mem_blk_x]
    intro a
    match a with
    | ⟨0, _⟩ =>
      show win2_6.index (region2_ptOf (i 0).val h0) (0 : Fin 2) * 256 ≤ (i 0).val ∧ (i 0).val < win2_6.index (region2_ptOf (i 0).val h0) (0 : Fin 2) * 256 + 256
      rw [e0]; show (i 0).val / 256 * 256 ≤ (i 0).val ∧ (i 0).val < (i 0).val / 256 * 256 + 256; omega
    | ⟨1, _⟩ =>
      show win2_6.index (region2_ptOf (i 0).val h0) (1 : Fin 2) * 2048 ≤ (i 1).val ∧ (i 1).val < win2_6.index (region2_ptOf (i 0).val h0) (1 : Fin 2) * 2048 + 2048
      rw [e1]; omega

/-- Region 2, entered at contents V: the log-determinant term after the run. -/
theorem region2_value_ld (c : Dev nD) :
    ((dat2 (F := Ideal) V c).arrAt 7 cfg2.N : Mat 8192 1)
      = mm3Ld (V c (Pipeline.arrRef spec2 0)) (V c (Pipeline.arrRef spec2 1)) (V c (Pipeline.arrRef spec2 2)) :=
  (dat2 (F := Ideal) V c).arrAt_eq_of_cover 7 (region2_outLd V c) (fun t _ => region2_flushed_ld V c t) fun (i : S8192x1.Idx) => by
    have h0 : (i 0).val < 8192 := (i 0).isLt
    have h1 : (i 1).val < 1 := (i 1).isLt
    refine ⟨region2_ptOf (i 0).val h0, flush2_7 _, ?_⟩
    obtain ⟨-, -, -, -, -, -, -, -, -, -, -, -, -, -, e0, e1⟩ := region2_idx_facts (region2_ptOf (i 0).val h0)
    rw [region2_mem_blk_ld]
    intro a
    match a with
    | ⟨0, _⟩ =>
      show win2_7.index (region2_ptOf (i 0).val h0) (0 : Fin 2) * 256 ≤ (i 0).val ∧ (i 0).val < win2_7.index (region2_ptOf (i 0).val h0) (0 : Fin 2) * 256 + 256
      rw [e0]; show (i 0).val / 256 * 256 ≤ (i 0).val ∧ (i 0).val < (i 0).val / 256 * 256 + 256; omega
    | ⟨1, _⟩ =>
      show win2_7.index (region2_ptOf (i 0).val h0) (1 : Fin 2) * 1 ≤ (i 1).val ∧ (i 1).val < win2_7.index (region2_ptOf (i 0).val h0) (1 : Fin 2) * 1 + 1
      rw [e1]; omega

end Cert.KernelIdeal.Val

end
-- ==== Proof.Region3.lean ====
/-
  What the first pallas_call of a block leaves in its output array, as one function of its operand arrays.

  The grid is 2 × 16. The point with coordinates (n, m) computes the output block of rows 512·m … 512·m + 511 and columns
  2048·n … 2048·n + 2047 from the same rows of the activations and of the condition columns, the whole selection matrix, and the
  same columns of the weights and of the bias. At (p, q) of that block the body's result is
  relu ((x · P ‖ cond) · w + bias) at (512·m + p, 2048·n + q): each of the two contractions is the sum over its one contracted
  axis, the concatenation is a case split at column 1024, every change of float format is the identity. The 32 blocks tile the
  output array, so the array ends holding that function at every index.
-/
import proofs.«427001_j89833535963578_2_alg».proof.Proof.Gen.KernelIdeal.Frame
import proofs.«427001_j89833535963578_2_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Coupling

/-! ## The two contractions, read at an index -/

/-- The selection product's left operand is read at the output's row … -/
theorem region3_selL_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
/-- … and at the contracted column; -/
theorem region3_selL_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- its right operand at the contracted row … -/
theorem region3_selR_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- … and at the output's column. -/
theorem region3_selR_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The selection product into a zero accumulator at (p, q): the sum over the 2048 input columns. -/
theorem region3_sel_apply (l : FVec Ideal S512x2048 .bf16) (r : FVec Ideal S2048x1024 .bf16) (p : Fin 512) (q : Fin 1024) :
    matmul dot_S512x2048_S2048x1024_S512x1024_1_0_0_1_n_n none l r (constant (F := Ideal) S512x1024 .f32 0x00000000#32) (ix2 p q)
      = ∑ k : Fin 2048, l (ix2 p k) * r (ix2 k q) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k := funext fun a => Fin.ext (by
    match a with
    | ⟨0, _⟩ => exact region3_selL_0 _ _
    | ⟨1, _⟩ => exact (region3_selL_1 _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q := funext fun a => Fin.ext (by
    match a with
    | ⟨0, _⟩ => exact (region3_selR_0 _ _).trans hk
    | ⟨1, _⟩ => exact region3_selR_1 _ _)
  rw [el, er]

/-- The dense layer's left operand is read at the output's row … -/
theorem region3_denL_0 (i : S512x2048.Idx) (q : dot_S512x1088_S1088x2048_S512x2048_1_0_0_1_n_n.contr.Idx) :
    (dot_S512x1088_S1088x2048_S512x2048_1_0_0_1_n_n.lhsIdx i q 0).val = (i 0).val := by
  unfold DotDims.lhsIdx
  rw [dif_neg (show ¬(0 : Fin S512x1088.rank) ∈ dot_S512x1088_S1088x2048_S512x2048_1_0_0_1_n_n.lhsBatch by decide), dif_pos (show (0 : Fin S512x1088.rank) ∈ dot_S512x1088_S1088x2048_S512x2048_1_0_0_1_n_n.lhsNonContracting by decide)]
  rfl
/-- … and at the contracted column; -/
theorem region3_denL_1 (i : S512x2048.Idx) (q : dot_S512x1088_S1088x2048_S512x2048_1_0_0_1_n_n.contr.Idx) :
    (dot_S512x1088_S1088x2048_S512x2048_1_0_0_1_n_n.lhsIdx i q 1).val = (q ⟨0, by decide⟩).val :=
  dot_S512x1088_S1088x2048_S512x2048_1_0_0_1_n_n.lhsIdx_val_of_single rfl i q
/-- its right operand at the contracted row … -/
theorem region3_denR_0 (i : S512x2048.Idx) (q : dot_S512x1088_S1088x2048_S512x2048_1_0_0_1_n_n.contr.Idx) :
    (dot_S512x1088_S1088x2048_S512x2048_1_0_0_1_n_n.rhsIdx i q 0).val = (q ⟨0, by decide⟩).val :=
  dot_S512x1088_S1088x2048_S512x2048_1_0_0_1_n_n.rhsIdx_val_of_single rfl i q
/-- … and at the output's column. -/
theorem region3_denR_1 (i : S512x2048.Idx) (q : dot_S512x1088_S1088x2048_S512x2048_1_0_0_1_n_n.contr.Idx) :
    (dot_S512x1088_S1088x2048_S512x2048_1_0_0_1_n_n.rhsIdx i q 1).val = (i 1).val := by
  unfold DotDims.rhsIdx
  rw [dif_neg (show ¬(1 : Fin S1088x2048.rank) ∈ dot_S512x1088_S1088x2048_S512x2048_1_0_0_1_n_n.rhsBatch by decide), dif_pos (show (1 : Fin S1088x2048.rank) ∈ dot_S512x1088_S1088x2048_S512x2048_1_0_0_1_n_n.rhsNonContracting by decide)]
  rfl

/-- The dense layer's product into a zero accumulator at (p, q): the sum over its 1088 input columns. -/
theorem region3_den_apply (l : FVec Ideal S512x1088 .bf16) (r : FVec Ideal S1088x2048 .bf16) (p : Fin 512) (q : Fin 2048) :
    matmul dot_S512x1088_S1088x2048_S512x2048_1_0_0_1_n_n none l r (constant (F := Ideal) S512x2048 .f32 0x00000000#32) (ix2 p q)
      = ∑ k : Fin 1088, l (ix2 p k) * r (ix2 k q) := by
  simp only [matmul]
  rw [Ideal.matmul_constant_zero_apply, ← Equiv.sum_comp (contrEquiv1 dot_S512x1088_S1088x2048_S512x2048_1_0_0_1_n_n 1088 rfl rfl).symm]
  refine Finset.sum_congr rfl fun k _ => ?_
  have hk := contrEquiv1_symm_val dot_S512x1088_S1088x2048_S512x2048_1_0_0_1_n_n 1088 rfl rfl k
  have el : dot_S512x1088_S1088x2048_S512x2048_1_0_0_1_n_n.lhsIdx (ix2 p q) ((contrEquiv1 dot_S512x1088_S1088x2048_S512x2048_1_0_0_1_n_n 1088 rfl rfl).symm k) = ix2 p k := funext fun a => Fin.ext (by
    match a with
    | ⟨0, _⟩ => exact region3_denL_0 _ _
    | ⟨1, _⟩ => exact (region3_denL_1 _ _).trans hk)
  have er : dot_S512x1088_S1088x2048_S512x2048_1_0_0_1_n_n.rhsIdx (ix2 p q) ((contrEquiv1 dot_S512x1088_S1088x2048_S512x2048_1_0_0_1_n_n 1088 rfl rfl).symm k) = ix2 k q := funext fun a => Fin.ext (by
    match a with
    | ⟨0, _⟩ => exact (region3_denR_0 _ _).trans hk
    | ⟨1, _⟩ => exact region3_denR_1 _ _)
  rw [el, er]

/-! ## The body's arithmetic at an index of its block -/

/-- Appending the 64 condition columns to the 1024 selected ones: column k reads the first piece below 1024, the second,
    1024 columns to the left, from there on. -/
theorem region3_cat_apply (u : FVec Ideal S512x1024 .bf16) (w : FVec Ideal S512x64 .bf16)
    (hc : Shape.Concatenates [S512x1024, S512x64] S512x1088 1) (p : Fin 512) (k : Fin 1088) :
    concatenate S512x1088 1 [⟨S512x1024, u⟩, ⟨S512x64, w⟩] hc (ix2 p k)
      = if h : k.val < 1024 then u (ix2 p ⟨k.val, h⟩) else w (ix2 p ⟨k.val - 1024, by have := k.isLt; omega⟩) := by
  by_cases h : k.val < 1024
  · rw [dif_pos h]
    refine concatenate_pair_apply_left (1 : Fin S512x1088.rank) u w hc (ix2 p k) rfl (ix2 p ⟨k.val, h⟩) fun b => ?_
    match b with
    | ⟨0, _⟩ => rfl
    | ⟨1, _⟩ => rfl
  · rw [dif_neg h]
    refine concatenate_pair_apply_right (1 : Fin S512x1088.rank) u w hc (ix2 p k) rfl rfl (ix2 p ⟨k.val - 1024, by have := k.isLt; omega⟩) (fun b hb => ?_) ?_
    · match b with
      | ⟨0, _⟩ => rfl
      | ⟨1, _⟩ => exact absurd rfl hb
    · show k.val - 1024 + 1024 = k.val
      omega

/-- The body's result at (p, q) of its block: relu of the dense layer on the row's selected and condition columns. -/
theorem region3_pay_apply (x0 : Vec Ideal S512x2048 .f32) (x1 : Vec Ideal S2048x1024 .bf16) (x2 : Vec Ideal S512x64 .f32)
    (x3 : Vec Ideal S1088x2048 .f32) (x4 : Vec Ideal S1x2048 .f32) (p : Fin 512) (q : Fin 2048) :
    k3_pay1 (F := Ideal) x0 x1 x2 x3 x4 (ix2 p q)
      = max ((∑ k : Fin 1088,
              (if h : k.val < 1024 then ∑ r : Fin 2048, x0 (ix2 p r) * x1 (ix2 r ⟨k.val, h⟩)
                else x2 (ix2 p ⟨k.val - 1024, by have := k.isLt; omega⟩)) * x3 (ix2 k q))
            + x4 (ix2 (0 : Fin 1) q)) 0 := by
  unfold k3_pay1
  simp only [shapeCast_self]
  rw [truncf_apply, maximumf_apply, addf_apply, broadcast_apply, region3_den_apply, broadcastTo_1b_ab_apply]
  simp only [region3_cat_apply, truncf_apply, region3_sel_apply, shapeCast_self]
  rw [show (Scalar.ofBits .f32 0x00000000#32 : Ideal .f32) = 0 from Ideal.ofBits_zero_f32]

/-- The same entry, with each operand block read off its array: when the block's row p is row R of the activations and of
    the condition columns, and its column q is column C of the weights and of the bias, the body's result at (p, q) is the
    first kernel's whole-array function at (R, C). -/
theorem region3_point (A0 : Mat 8192 2048) (A1 : Mat 2048 1024) (A2 : Mat 8192 64) (A3 : Mat 1088 4096) (A4 : Mat 1 4096)
    (x0 : Vec Ideal S512x2048 .f32) (x1 : Vec Ideal S2048x1024 .bf16) (x2 : Vec Ideal S512x64 .f32)
    (x3 : Vec Ideal S1088x2048 .f32) (x4 : Vec Ideal S1x2048 .f32) (p : Fin 512) (q : Fin 2048) (R : Fin 8192) (C : Fin 4096)
    (h0 : ∀ r : Fin 2048, x0 (ix2 p r) = A0 (ix2 R r))
    (h1 : ∀ (r : Fin 2048) (k : Fin 1024), x1 (ix2 r k) = A1 (ix2 r k))
    (h2 : ∀ k : Fin 64, x2 (ix2 p k) = A2 (ix2 R k))
    (h3 : ∀ k : Fin 1088, x3 (ix2 k q) = A3 (ix2 k C))
    (h4 : x4 (ix2 (0 : Fin 1) q) = A4 (ix2 (0 : Fin 1) C)) :
    k3_pay1 (F := Ideal) x0 x1 x2 x3 x4 (ix2 p q) = mm1 A0 A1 A2 A3 A4 (ix2 R C) := by
  rw [region3_pay_apply]
  show _ = max ((∑ k : Fin 1088, mm1In A0 A1 A2 R k * A3 (ix2 k C)) + A4 (ix2 (0 : Fin 1) C)) 0
  rw [h4]
  refine congrArg (fun s => max (s + A4 (ix2 (0 : Fin 1) C)) 0) (Finset.sum_congr rfl fun k _ => ?_)
  rw [h3]
  refine congrArg (· * A3 (ix2 k C)) ?_
  unfold mm1In selAt
  by_cases h : k.val < 1024
  · rw [dif_pos h, dif_pos h]
    exact Finset.sum_congr rfl fun r _ => by rw [h0, h1]
  · rw [dif_neg h, dif_neg h, h2]

/-! ## From the blocks to the array -/

/-- The zero offsets of a whole-block access, however spelt. -/
theorem region3_hz : (![0, 0] : Fin 2 → Nat) = fun _ => 0 := funext fun a => by fin_cases a <;> rfl

/-- The printed index maps, decided over the 2 × 16 grid: the activations' and the condition columns' row block is the
    output's, the weights' and the bias's column block is the output's, every other block index is 0, and the output's
    block indices stay in their ranges. -/
theorem region3_idx_facts : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = win3_5.index t (0 : Fin 2) ∧ win3_2.index t (1 : Fin 2) = 0
    ∧ win3_3.index t (0 : Fin 2) = 0 ∧ win3_3.index t (1 : Fin 2) = win3_5.index t (1 : Fin 2)
    ∧ win3_4.index t (0 : Fin 2) = 0 ∧ win3_4.index t (1 : Fin 2) = win3_5.index t (1 : Fin 2)
    ∧ win3_5.index t (0 : Fin 2) ≤ 15 ∧ win3_5.index t (1 : Fin 2) ≤ 1 :=
  (by decide +kernel : ∀ t : Fin grid3.N, _)

/-- Every block of the output array is some grid point's. -/
theorem region3_idx_onto : ∀ (q0 : Fin 16) (q1 : Fin 2), ∃ t : Fin cfg3.N, win3_5.index t = ![q0.val, q1.val] :=
  (by decide +kernel : ∀ (q0 : Fin 16) (q1 : Fin 2), ∃ t : Fin grid3.N, win3_5.index t = ![q0.val, q1.val])

variable (V : (c : Dev nD) → (b : Ref sig .tc) → Buf (Elt Ideal) ((c : Thread nD τ).loc b))

/-- The activations' block at grid point t: rows of the output's row block, every column. -/
theorem region3_blk_x (c : Dev nD) (t : Fin cfg3.N) (p : Fin 512) (r : Fin 2048) (R : Fin 8192)
    (hR : R.val = win3_5.index t (0 : Fin 2) * 512 + p.val) :
    (iblk3 V c 0 t : Vec Ideal S512x2048 .f32) (ix2 p r) = (V c (Pipeline.arrRef spec3 0) : Mat 8192 2048) (ix2 R r) := by
  obtain ⟨e00, e01, -⟩ := region3_idx_facts t
  show V c (Pipeline.arrRef spec3 0) (((cfg3.win 0).blk t).view.emb (ix2 p r)) = _
  refine congrArg _ (funext fun a => Fin.ext ?_)
  match a with
  | ⟨0, _⟩ => show win3_0.index t (0 : Fin 2) * 512 + 1 * p.val = R.val; omega
  | ⟨1, _⟩ => show win3_0.index t (1 : Fin 2) * 2048 + 1 * r.val = r.val; omega

/-- The selection matrix's block at every grid point is the whole matrix. -/
theorem region3_blk_sel (c : Dev nD) (t : Fin cfg3.N) (r : Fin 2048) (k : Fin 1024) :
    (iblk3 V c 1 t : Vec Ideal S2048x1024 .bf16) (ix2 r k) = (V c (Pipeline.arrRef spec3 1) : Mat 2048 1024) (ix2 r k) := by
  obtain ⟨-, -, e10, e11, -⟩ := region3_idx_facts t
  show V c (Pipeline.arrRef spec3 1) (((cfg3.win 1).blk t).view.emb (ix2 r k)) = _
  refine congrArg _ (funext fun a => Fin.ext ?_)
  match a with
  | ⟨0, _⟩ => show win3_1.index t (0 : Fin 2) * 2048 + 1 * r.val = r.val; omega
  | ⟨1, _⟩ => show win3_1.index t (1 : Fin 2) * 1024 + 1 * k.val = k.val; omega

/-- The condition columns' block at grid point t: rows of the output's row block, every column. -/
theorem region3_blk_cond (c : Dev nD) (t : Fin cfg3.N) (p : Fin 512) (k : Fin 64) (R : Fin 8192)
    (hR : R.val = win3_5.index t (0 : Fin 2) * 512 + p.val) :
    (iblk3 V c 2 t : Vec Ideal S512x64 .f32) (ix2 p k) = (V c (Pipeline.arrRef spec3 2) : Mat 8192 64) (ix2 R k) := by
  obtain ⟨-, -, -, -, e20, e21, -⟩ := region3_idx_facts t
  show V c (Pipeline.arrRef spec3 2) (((cfg3.win 2).blk t).view.emb (ix2 p k)) = _
  refine congrArg _ (funext fun a => Fin.ext ?_)
  match a with
  | ⟨0, _⟩ => show win3_2.index t (0 : Fin 2) * 512 + 1 * p.val = R.val; omega
  | ⟨1, _⟩ => show win3_2.index t (1 : Fin 2) * 64 + 1 * k.val = k.val; omega

/-- The weights' block at grid point t: every row, columns of the output's column block. -/
theorem region3_blk_w (c : Dev nD) (t : Fin cfg3.N) (k : Fin 1088) (q : Fin 2048) (C : Fin 4096)
    (hC : C.val = win3_5.index t (1 : Fin 2) * 2048 + q.val) :
    (iblk3 V c 3 t : Vec Ideal S1088x2048 .f32) (ix2 k q) = (V c (Pipeline.arrRef spec3 3) : Mat 1088 4096) (ix2 k C) := by
  obtain ⟨-, -, -, -, -, -, e30, e31, -⟩ := region3_idx_facts t
  show V c (Pipeline.arrRef spec3 3) (((cfg3.win 3).blk t).view.emb (ix2 k q)) = _
  refine congrArg _ (funext fun a => Fin.ext ?_)
  match a with
  | ⟨0, _⟩ => show win3_3.index t (0 : Fin 2) * 1088 + 1 * k.val = k.val; omega
  | ⟨1, _⟩ => show win3_3.index t (1 : Fin 2) * 2048 + 1 * q.val = C.val; omega

/-- The bias's block at grid point t: its one row, columns of the output's column block. -/
theorem region3_blk_bias (c : Dev nD) (t : Fin cfg3.N) (q : Fin 2048) (C : Fin 4096)
    (hC : C.val = win3_5.index t (1 : Fin 2) * 2048 + q.val) :
    (iblk3 V c 4 t : Vec Ideal S1x2048 .f32) (ix2 (0 : Fin 1) q) = (V c (Pipeline.arrRef spec3 4) : Mat 1 4096) (ix2 (0 : Fin 1) C) := by
  obtain ⟨-, -, -, -, -, -, -, -, e40, e41, -⟩ := region3_idx_facts t
  show V c (Pipeline.arrRef spec3 4) (((cfg3.win 4).blk t).view.emb (ix2 (0 : Fin 1) q)) = _
  refine congrArg _ (funext fun a => Fin.ext ?_)
  match a with
  | ⟨0, _⟩ => show win3_4.index t (0 : Fin 2) * 1 + 1 * 0 = 0; omega
  | ⟨1, _⟩ => show win3_4.index t (1 : Fin 2) * 2048 + 1 * q.val = C.val; omega

/-- What grid point t writes back is block t of ANY whole-array function G that the body's result, on the operand blocks at t,
    agrees with entry by entry: entry (p, q) of the block against entry (512·m + p, 2048·n + q) of G, (m, n) the output's block. -/
theorem region3_flushed_of (c : Dev nD) (t : Fin cfg3.N) (G : Mat 8192 4096)
    (hG : ∀ (p : Fin 512) (q : Fin 2048) (R : Fin 8192) (C : Fin 4096),
      R.val = win3_5.index t (0 : Fin 2) * 512 + p.val → C.val = win3_5.index t (1 : Fin 2) * 2048 + q.val →
      k3_pay1 (F := Ideal) (iblk3 V c 0 t) (iblk3 V c 1 t) (iblk3 V c 2 t) (iblk3 V c 3 t) (iblk3 V c 4 t) (ix2 p q) = G (ix2 R C)) :
    (dat3 (F := Ideal) V c).flushed 5 t = ((cfg3.win 5).blk t).view.read (Elt Ideal) G := by
  show (cfg3.win 5).cut (grid3.coords t) ((dat3 (F := Ideal) V c).after 5 t) = _
  rw [after3_5]
  unfold out3_5
  rw [View.canon_unit_zero region3_hz]
  simp only [View.ld_unit_zero (S := S512x2048) region3_hz, View.ld_unit_zero (S := S2048x1024) region3_hz,
    View.ld_unit_zero (S := S512x64) region3_hz, View.ld_unit_zero (S := S1088x2048) region3_hz,
    View.ld_unit_zero (S := S1x2048) region3_hz]
  obtain ⟨-, -, -, -, -, -, -, -, -, -, b0, b1⟩ := region3_idx_facts t
  funext j
  have hp : (j 0).val < 512 := (j 0).isLt
  have hq : (j 1).val < 2048 := (j 1).isLt
  have hj : (cfg3.win 5).xinj (grid3.coords t) j = ix2 (⟨(j 0).val, hp⟩ : Fin 512) (⟨(j 1).val, hq⟩ : Fin 2048) :=
    funext fun a => by
      match a with
      | ⟨0, _⟩ => rfl
      | ⟨1, _⟩ => rfl
  have hemb : ((cfg3.win 5).blk t).view.emb j
      = ix2 (⟨win3_5.index t (0 : Fin 2) * 512 + (j 0).val, by omega⟩ : Fin 8192)
          (⟨win3_5.index t (1 : Fin 2) * 2048 + (j 1).val, by omega⟩ : Fin 4096) := by
    funext a; apply Fin.ext
    match a with
    | ⟨0, _⟩ => show win3_5.index t (0 : Fin 2) * 512 + 1 * (j 0).val = win3_5.index t (0 : Fin 2) * 512 + (j 0).val; omega
    | ⟨1, _⟩ => show win3_5.index t (1 : Fin 2) * 2048 + 1 * (j 1).val = win3_5.index t (1 : Fin 2) * 2048 + (j 1).val; omega
  refine (congrArg (k3_pay1 (F := Ideal) (iblk3 V c 0 t) (iblk3 V c 1 t) (iblk3 V c 2 t) (iblk3 V c 3 t) (iblk3 V c 4 t)) hj).trans ?_
  show _ = G (((cfg3.win 5).blk t).view.emb j)
  rw [hemb]
  exact hG _ _ _ _ rfl rfl

/-- What grid point t writes back is block t of the first kernel's whole-array function of the operand arrays. -/
theorem region3_flushed_eq (c : Dev nD) (t : Fin cfg3.N) :
    (dat3 (F := Ideal) V c).flushed 5 t = ((cfg3.win 5).blk t).view.read (Elt Ideal)
      (mm1 (V c (Pipeline.arrRef spec3 0)) (V c (Pipeline.arrRef spec3 1)) (V c (Pipeline.arrRef spec3 2))
          (V c (Pipeline.arrRef spec3 3)) (V c (Pipeline.arrRef spec3 4))) :=
  region3_flushed_of V c t _ fun p q R C hR hC =>
    region3_point _ _ _ _ _ _ _ _ _ _ p q R C
      (fun r => region3_blk_x V c t p r R hR) (fun r k => region3_blk_sel V c t r k)
      (fun k => region3_blk_cond V c t p k R hR) (fun k => region3_blk_w V c t k q C hC)
      (region3_blk_bias V c t q C hC)

/-- An index of the output array is in grid point t's block iff each coordinate is in the block's range on its axis. -/
theorem region3_mem_blk (t : Fin cfg3.N) (i : S8192x4096.Idx) :
    i ∈ ((cfg3.win 5).blk t).view.set ↔ ∀ a : Fin 2, win3_5.index t a * S512x2048.size a ≤ (i a).val ∧ (i a).val < win3_5.index t a * S512x2048.size a + S512x2048.size a := by
  show i ∈ ((View.whole (Pipeline.arrRef spec3 5)).slice (win3_5.rect t)).set ↔ _
  rw [View.set_slice_whole, Rect.mem_set_unit]
  exact Iff.rfl

/-- Every index of the output array is in the block of the grid point whose output block holds its row and its column. -/
theorem region3_cover (i : S8192x4096.Idx) :
    ∃ t : Fin cfg3.N, (cfg3.win 5).flush t = true ∧ i ∈ ((cfg3.win 5).blk t).view.set := by
  have hi0 : (i 0).val < 8192 := idx2_lt0 i
  have hi1 : (i 1).val < 4096 := idx2_lt1 i
  obtain ⟨t, ht⟩ := region3_idx_onto ⟨(i 0).val / 512, by omega⟩ ⟨(i 1).val / 2048, by omega⟩
  have q0 : win3_5.index t (0 : Fin 2) = (i 0).val / 512 := congrFun ht 0
  have q1 : win3_5.index t (1 : Fin 2) = (i 1).val / 2048 := congrFun ht 1
  refine ⟨t, flush3_5 t, ?_⟩
  rw [region3_mem_blk]
  intro a
  match a with
  | ⟨0, _⟩ => show win3_5.index t (0 : Fin 2) * 512 ≤ (i 0).val ∧ (i 0).val < win3_5.index t (0 : Fin 2) * 512 + 512; omega
  | ⟨1, _⟩ => show win3_5.index t (1 : Fin 2) * 2048 ≤ (i 1).val ∧ (i 1).val < win3_5.index t (1 : Fin 2) * 2048 + 2048; omega

/-- Region 3 (a block's first kernel), entered at contents V: its output array after the run. -/
theorem region3_value (c : Dev nD) :
    ((dat3 (F := Ideal) V c).arrAt 5 cfg3.N : Mat 8192 4096)
      = mm1 (V c (Pipeline.arrRef spec3 0)) (V c (Pipeline.arrRef spec3 1)) (V c (Pipeline.arrRef spec3 2))
          (V c (Pipeline.arrRef spec3 3)) (V c (Pipeline.arrRef spec3 4)) := by
  exact (dat3 (F := Ideal) V c).arrAt_eq_of_cover 5 _ (fun t _ => region3_flushed_eq V c t) region3_cover

end Cert.KernelIdeal.Val

end
-- ==== Proof.Region4.lean ====
/-
  What the second pallas_call of a block leaves in its output array, as one function of its operand arrays.
-/
import proofs.«427001_j89833535963578_2_alg».proof.Proof.Gen.KernelIdeal.Frame
import proofs.«427001_j89833535963578_2_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Coupling

variable (V : (c : Dev nD) → (b : Ref sig .tc) → Buf (Elt Ideal) ((c : Thread nD τ).loc b))

/-! ## The matrix product's operand indices, axis by axis -/

theorem region4_lhs_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem region4_lhs_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem region4_rhs_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem region4_rhs_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The matrix product of a row block with a column block of the weights, into a zero accumulator, at (p, q):
    the sum over the 4096 shared columns. -/
theorem region4_matmul (a : FVec Ideal S512x4096 .bf16) (w : FVec Ideal S4096x1024 .bf16) (p : Fin 512) (q : Fin 1024) :
    matmul dot_S512x4096_S4096x1024_S512x1024_1_0_0_1_n_n none a w (constant (F := Ideal) S512x1024 .f32 0x00000000#32) (ix2 p q)
      = ∑ k : Fin 4096, a (ix2 p k) * w (ix2 k q) := by
  simp only [matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p q) ((contrEquiv1 dot_S512x4096_S4096x1024_S512x1024_1_0_0_1_n_n 4096 rfl rfl).symm k) = ix2 p k := funext fun a => Fin.ext (by
    match a with
    | ⟨0, _⟩ => exact region4_lhs_0 _ _
    | ⟨1, _⟩ => exact (region4_lhs_1 _ _).trans hk)
  have er : dot_S512x4096_S4096x1024_S512x1024_1_0_0_1_n_n.rhsIdx (ix2 p q) ((contrEquiv1 dot_S512x4096_S4096x1024_S512x1024_1_0_0_1_n_n 4096 rfl rfl).symm k) = ix2 k q := funext fun a => Fin.ext (by
    match a with
    | ⟨0, _⟩ => exact (region4_rhs_0 _ _).trans hk
    | ⟨1, _⟩ => exact region4_rhs_1 _ _)
  rw [el, er]

/-- The kernel's arithmetic at (p, q) of its output block: the row block times the weights' column block, plus the
    bias row, clamped at zero from below. A change of float format is the identity on the extended reals. -/
theorem region4_pay (w : Vec Ideal S4096x1024 .f32) (a : Vec Ideal S512x4096 .bf16) (bias : Vec Ideal S1x1024 .f32)
    (p : Fin 512) (q : Fin 1024) :
    k4_pay1 (F := Ideal) w a bias (ix2 p q)
      = max ((∑ k : Fin 4096, (a (ix2 p k) : EReal) * (w (ix2 k q) : EReal)) + (bias (ix2 0 q) : EReal)) 0 := by
  unfold k4_pay1
  simp only [shapeCast_self]
  rw [truncf_apply, maximumf_apply, addf_apply, broadcast_apply, region4_matmul]
  rw [broadcastTo_apply bias broadcasts_S1x1024_S512x1024 (ix2 p q) (ix2 0 q) (fun a => by match a with | ⟨0, _⟩ => rfl | ⟨1, _⟩ => rfl)]
  simp only [truncf_apply]
  show max _ (Ideal.ofBits .f32 0x00000000#32) = _
  rw [Ideal.ofBits_zero_f32]

/-! ## The grid: which block each window stages at a point -/

theorem region4_hz : (![0, 0] : Fin 2 → Nat) = fun _ => 0 := funext fun a => by fin_cases a <;> rfl

/-- The kernel's index maps over the 64 grid points: the row block of the activations is the output's row
    block, the column block of the weights and of the bias is the output's column block, every other block index is 0,
    and the output's block indices stay in range. -/
theorem region4_idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = win4_3.index t (1 : Fin 2)
    ∧ win4_2.index t (0 : Fin 2) = 0
    ∧ win4_2.index t (1 : Fin 2) = win4_3.index t (1 : Fin 2)
    ∧ win4_3.index t (0 : Fin 2) ≤ 15 ∧ win4_3.index t (1 : Fin 2) ≤ 3 :=
  (by decide +kernel : ∀ t : Fin grid4.N, _)

/-- Every (row block, column block) pair is some point's output block. -/
theorem region4_idx_onto : ∀ (q0 : Fin 16) (q1 : Fin 4), ∃ t : Fin cfg4.N, win4_3.index t = ![q0.val, q1.val] :=
  (by decide +kernel : ∀ (q0 : Fin 16) (q1 : Fin 4), ∃ t : Fin grid4.N, win4_3.index t = ![q0.val, q1.val])

/-! ## Each staged block as entries of its array -/

/-- The activations' block at a point: rows 512 m … 512 m + 511, every column. -/
theorem region4_blk0 (c : Dev nD) (t : Fin cfg4.N) (p : Fin 512) (k : Fin 4096) (r : Fin 8192)
    (hr : r.val = win4_3.index t (0 : Fin 2) * 512 + p.val) :
    (iblk4 (F := Ideal) V c 0 t : Vec Ideal S512x4096 .bf16) (ix2 p k) = (V c (Pipeline.arrRef spec4 0) : Mat 8192 4096) (ix2 r k) := by
  obtain ⟨e0, e1, e2, e3, e4, e5, e6, e7⟩ := region4_idx_facts t
  unfold iblk4
  rw [View.read_apply]
  show V c (Pipeline.arrRef spec4 0) (((cfg4.win 0).blk t).view.emb (ix2 p k)) = V c (Pipeline.arrRef spec4 0) (ix2 r k)
  refine congrArg _ (funext fun a => Fin.ext ?_)
  match a with
  | ⟨0, _⟩ => show win4_0.index t (0 : Fin 2) * 512 + 1 * p.val = r.val; omega
  | ⟨1, _⟩ => show win4_0.index t (1 : Fin 2) * 4096 + 1 * k.val = k.val; omega

/-- The weights' block at a point: every row, columns 1024 n … 1024 n + 1023. -/
theorem region4_blk1 (c : Dev nD) (t : Fin cfg4.N) (k : Fin 4096) (q : Fin 1024) (s : Fin 4096)
    (hs : s.val = win4_3.index t (1 : Fin 2) * 1024 + q.val) :
    (iblk4 (F := Ideal) V c 1 t : Vec Ideal S4096x1024 .f32) (ix2 k q) = (V c (Pipeline.arrRef spec4 1) : Mat 4096 4096) (ix2 k s) := by
  obtain ⟨e0, e1, e2, e3, e4, e5, e6, e7⟩ := region4_idx_facts t
  unfold iblk4
  rw [View.read_apply]
  show V c (Pipeline.arrRef spec4 1) (((cfg4.win 1).blk t).view.emb (ix2 k q)) = V c (Pipeline.arrRef spec4 1) (ix2 k s)
  refine congrArg _ (funext fun a => Fin.ext ?_)
  match a with
  | ⟨0, _⟩ => show win4_1.index t (0 : Fin 2) * 4096 + 1 * k.val = k.val; omega
  | ⟨1, _⟩ => show win4_1.index t (1 : Fin 2) * 1024 + 1 * q.val = s.val; omega

/-- The bias's block at a point: its one row, columns 1024 n … 1024 n + 1023. -/
theorem region4_blk2 (c : Dev nD) (t : Fin cfg4.N) (q : Fin 1024) (s : Fin 4096)
    (hs : s.val = win4_3.index t (1 : Fin 2) * 1024 + q.val) :
    (iblk4 (F := Ideal) V c 2 t : Vec Ideal S1x1024 .f32) (ix2 0 q) = (V c (Pipeline.arrRef spec4 2) : Mat 1 4096) (ix2 0 s) := by
  obtain ⟨e0, e1, e2, e3, e4, e5, e6, e7⟩ := region4_idx_facts t
  unfold iblk4
  rw [View.read_apply]
  show V c (Pipeline.arrRef spec4 2) (((cfg4.win 2).blk t).view.emb (ix2 0 q)) = V c (Pipeline.arrRef spec4 2) (ix2 0 s)
  refine congrArg _ (funext fun a => Fin.ext ?_)
  match a with
  | ⟨0, _⟩ => show win4_2.index t (0 : Fin 2) * 1 + 1 * 0 = 0; omega
  | ⟨1, _⟩ => show win4_2.index t (1 : Fin 2) * 1024 + 1 * q.val = s.val; omega

/-! ## From blocks to the array -/

/-- The kernel's arithmetic on three blocks that hold the arrays' entries of row r and column s is the whole-array
    function at (r, s). -/
theorem region4_entry (A : Mat 8192 4096) (W : Mat 4096 4096) (B : Mat 1 4096)
    (a : Vec Ideal S512x4096 .bf16) (w : Vec Ideal S4096x1024 .f32) (bias : Vec Ideal S1x1024 .f32)
    (p : Fin 512) (q : Fin 1024) (r : Fin 8192) (s : Fin 4096)
    (h0 : ∀ k : Fin 4096, a (ix2 p k) = A (ix2 r k))
    (h1 : ∀ k : Fin 4096, w (ix2 k q) = W (ix2 k s))
    (h2 : bias (ix2 0 q) = B (ix2 0 s)) :
    k4_pay1 (F := Ideal) w a bias (ix2 p q) = mm2 A W B (ix2 r s) := by
  rw [region4_pay]
  show _ = max ((∑ k : Fin 4096, A (ix2 r k) * W (ix2 k s)) + B (ix2 0 s)) 0
  rw [h2]
  exact congrArg (fun z => max (z + B (ix2 0 s)) 0) (Finset.sum_congr rfl fun k _ => by rw [h0 k, h1 k])

/-- Entry (p, q) of the output block at row block m and column block n sits in the array at row 512 m + p and
    column 1024 n + q. -/
theorem region4_emb3 (t : Fin cfg4.N) (p : Fin 512) (q : Fin 1024) :
    ∃ (r : Fin 8192) (s : Fin 4096), ((cfg4.win 3).blk t).view.emb (ix2 p q) = ix2 r s
      ∧ r.val = win4_3.index t (0 : Fin 2) * 512 + p.val ∧ s.val = win4_3.index t (1 : Fin 2) * 1024 + q.val :=
  ⟨(((cfg4.win 3).blk t).view.emb (ix2 p q)) 0, (((cfg4.win 3).blk t).view.emb (ix2 p q)) 1, eq_ix2 _,
    (by show win4_3.index t (0 : Fin 2) * 512 + 1 * p.val = _; omega),
    (by show win4_3.index t (1 : Fin 2) * 1024 + 1 * q.val = _; omega)⟩

set_option maxHeartbeats 1000000 in
/-- What a point writes back is its block of the whole-array function: entry (p, q) of the block at row block m and
    column block n is entry (512 m + p, 1024 n + q) of relu (a · w + bias). -/
theorem region4_flushed_eq (c : Dev nD) (t : Fin cfg4.N) :
    (dat4 (F := Ideal) V c).flushed 3 t = ((cfg4.win 3).blk t).view.read (Elt Ideal)
      (mm2 (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero region4_hz]
  simp only [View.ld_unit_zero (S := S4096x1024) region4_hz, View.ld_unit_zero (S := S512x4096) region4_hz,
    View.ld_unit_zero (S := S1x1024) region4_hz]
  funext j
  obtain ⟨p, q, rfl⟩ : ∃ (p : Fin 512) (q : Fin 1024), j = ix2 p q := ⟨j 0, j 1, eq_ix2 j⟩
  rw [View.read_apply]
  obtain ⟨r, s, he, hr, hs⟩ := region4_emb3 t p q
  rw [he]
  exact region4_entry (V c (Pipeline.arrRef spec4 0)) (V c (Pipeline.arrRef spec4 1)) (V c (Pipeline.arrRef spec4 2))
    (iblk4 (F := Ideal) V c 0 t) (iblk4 (F := Ideal) V c 1 t) (iblk4 (F := Ideal) V c 2 t) p q r s
    (fun k => region4_blk0 V c t p k r hr) (fun k => region4_blk1 V c t k q s hs) (region4_blk2 V c t q s hs)

/-- An entry of the output array is in a point's block iff each coordinate is in the block's range on its axis. -/
theorem region4_mem_blk (t : Fin cfg4.N) (i : S8192x4096.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole (Pipeline.arrRef spec4 3)).slice (win4_3.rect t)).set ↔ _
  rw [View.set_slice_whole, Rect.mem_set_unit]
  exact Iff.rfl

/-- The 64 output blocks tile the array: entry (r, s) is in the block of row block r / 512 and column block s / 1024. -/
theorem region4_cover (i : S8192x4096.Idx) :
    ∃ t : Fin cfg4.N, (cfg4.win 3).flush t = true ∧ i ∈ ((cfg4.win 3).blk t).view.set := by
  have hi0 : (i 0).val < 8192 := (i 0).isLt
  have hi1 : (i 1).val < 4096 := (i 1).isLt
  obtain ⟨t, ht⟩ := region4_idx_onto ⟨(i 0).val / 512, by omega⟩ ⟨(i 1).val / 1024, by omega⟩
  have q0 : win4_3.index t (0 : Fin 2) = (i 0).val / 512 := congrFun ht 0
  have q1 : win4_3.index t (1 : Fin 2) = (i 1).val / 1024 := congrFun ht 1
  refine ⟨t, flush4_3 t, ?_⟩
  rw [region4_mem_blk]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- Region 4 (a block's second kernel), entered at contents V: its output array after the run. -/
theorem region4_value (c : Dev nD) :
    ((dat4 (F := Ideal) V c).arrAt 3 cfg4.N : Mat 8192 4096)
      = mm2 (V c (Pipeline.arrRef spec4 0)) (V c (Pipeline.arrRef spec4 1)) (V c (Pipeline.arrRef spec4 2)) := by
  show (dat4 (F := Ideal) V c).arrAt 3 cfg4.N = _
  exact (dat4 (F := Ideal) V c).arrAt_eq_of_cover 3 _ (fun t _ => region4_flushed_eq V c t) region4_cover

end Cert.KernelIdeal.Val

end
-- ==== Proof.Region5.lean ====
/-
  What the third pallas_call of a block leaves in its two output arrays, as functions of its operand arrays.

  The body's arithmetic read at an index (three products, the two halves of the accumulator, the masked update, the
  row sum); a stored block as a row block of the whole-array functions when each loaded block is the matching block of
  its array; the 32 row blocks of 256 rows cover the 8192 rows.
-/
import proofs.«427001_j89833535963578_2_alg».proof.Proof.Gen.KernelIdeal.Frame
import proofs.«427001_j89833535963578_2_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Coupling

variable (V : (c : Dev nD) → (b : Ref sig .tc) → Buf (Elt Ideal) ((c : Thread nD τ).loc b))

/-! ## The first product, a · w, and the accumulator -/

/-- The first product's operand indices, axis by axis. -/
theorem region5_lhs_acc_0 (i : S256x2048.Idx) (q : dot_S256x4096_S4096x2048_S256x2048_1_0_0_1_n_n.contr.Idx) :
    (dot_S256x4096_S4096x2048_S256x2048_1_0_0_1_n_n.lhsIdx i q 0).val = (i 0).val := by
  unfold DotDims.lhsIdx
  rw [dif_neg (show ¬(0 : Fin S256x4096.rank) ∈ dot_S256x4096_S4096x2048_S256x2048_1_0_0_1_n_n.lhsBatch by decide), dif_pos (show (0 : Fin S256x4096.rank) ∈ dot_S256x4096_S4096x2048_S256x2048_1_0_0_1_n_n.lhsNonContracting by decide)]
  rfl
theorem region5_lhs_acc_1 (i : S256x2048.Idx) (q : dot_S256x4096_S4096x2048_S256x2048_1_0_0_1_n_n.contr.Idx) :
    (dot_S256x4096_S4096x2048_S256x2048_1_0_0_1_n_n.lhsIdx i q 1).val = (q ⟨0, by decide⟩).val :=
  dot_S256x4096_S4096x2048_S256x2048_1_0_0_1_n_n.lhsIdx_val_of_single rfl i q
theorem region5_rhs_acc_0 (i : S256x2048.Idx) (q : dot_S256x4096_S4096x2048_S256x2048_1_0_0_1_n_n.contr.Idx) :
    (dot_S256x4096_S4096x2048_S256x2048_1_0_0_1_n_n.rhsIdx i q 0).val = (q ⟨0, by decide⟩).val :=
  dot_S256x4096_S4096x2048_S256x2048_1_0_0_1_n_n.rhsIdx_val_of_single rfl i q
theorem region5_rhs_acc_1 (i : S256x2048.Idx) (q : dot_S256x4096_S4096x2048_S256x2048_1_0_0_1_n_n.contr.Idx) :
    (dot_S256x4096_S4096x2048_S256x2048_1_0_0_1_n_n.rhsIdx i q 1).val = (i 1).val := by
  unfold DotDims.rhsIdx
  rw [dif_neg (show ¬(1 : Fin S4096x2048.rank) ∈ dot_S256x4096_S4096x2048_S256x2048_1_0_0_1_n_n.rhsBatch by decide), dif_pos (show (1 : Fin S4096x2048.rank) ∈ dot_S256x4096_S4096x2048_S256x2048_1_0_0_1_n_n.rhsNonContracting by decide)]
  rfl

/-- a · w into a zero accumulator at (p, n): the sum over the 4096 contracted columns. -/
theorem region5_matmul_acc_apply (l : FVec Ideal S256x4096 .bf16) (r : FVec Ideal S4096x2048 .bf16) (p : Fin 256) (n : Fin 2048) :
    matmul dot_S256x4096_S4096x2048_S256x2048_1_0_0_1_n_n none l r (constant (F := Ideal) S256x2048 .f32 0x00000000#32) (ix2 p n)
      = ∑ k : Fin 4096, l (ix2 p k) * r (ix2 k n) := by
  simp only [matmul]
  rw [Ideal.matmul_constant_zero_apply, ← Equiv.sum_comp (contrEquiv1 dot_S256x4096_S4096x2048_S256x2048_1_0_0_1_n_n 4096 rfl rfl).symm]
  refine Finset.sum_congr rfl fun k _ => ?_
  have hk := contrEquiv1_symm_val dot_S256x4096_S4096x2048_S256x2048_1_0_0_1_n_n 4096 rfl rfl k
  have el : dot_S256x4096_S4096x2048_S256x2048_1_0_0_1_n_n.lhsIdx (ix2 p n) ((contrEquiv1 dot_S256x4096_S4096x2048_S256x2048_1_0_0_1_n_n 4096 rfl rfl).symm k) = ix2 p k := funext fun a => Fin.ext (by
    match a with
    | ⟨0, _⟩ => exact region5_lhs_acc_0 _ _
    | ⟨1, _⟩ => exact (region5_lhs_acc_1 _ _).trans hk)
  have er : dot_S256x4096_S4096x2048_S256x2048_1_0_0_1_n_n.rhsIdx (ix2 p n) ((contrEquiv1 dot_S256x4096_S4096x2048_S256x2048_1_0_0_1_n_n 4096 rfl rfl).symm k) = ix2 k n := funext fun a => Fin.ext (by
    match a with
    | ⟨0, _⟩ => exact (region5_rhs_acc_0 _ _).trans hk
    | ⟨1, _⟩ => exact region5_rhs_acc_1 _ _)
  rw [el, er]

/-- A [1, 2048] row broadcast down the 256 rows reads its column. -/
theorem region5_bcast_row_apply (v : FVec Ideal S1x2048 .f32) (h : S1x2048.Broadcasts S256x2048) (p : Fin 256) (n : Fin 2048) :
    broadcastTo S256x2048 v h (ix2 p n) = v (ix2 0 n) :=
  broadcastTo_apply v h (ix2 p n) (ix2 0 n) (fun a => by
    match a with
    | ⟨0, _⟩ => rfl
    | ⟨1, _⟩ => rfl)

/-- The kernel's accumulator a · w + bias at (p, n). -/
theorem region5_acc_apply (a : Vec Ideal S256x4096 .bf16) (w : Vec Ideal S4096x2048 .bf16) (bias : Vec Ideal S1x2048 .f32)
    (p : Fin 256) (n : Fin 2048) :
    k5_pay1 (F := Ideal) a w bias (ix2 p n) = (∑ k : Fin 4096, a (ix2 p k) * w (ix2 k n)) + bias (ix2 0 n) := by
  unfold k5_pay1
  simp only [shapeCast_self, addf_apply, region5_matmul_acc_apply, region5_bcast_row_apply]

/-! ## The second product, x · P -/

theorem region5_lhs_sel_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem region5_lhs_sel_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q

theorem region5_rhs_sel_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem region5_rhs_sel_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- x · P into a zero accumulator at (p, q): the sum over the 2048 contracted columns. -/
theorem region5_matmul_sel_apply (l : FVec Ideal S256x2048 .bf16) (r : FVec Ideal S2048x1024 .bf16) (p : Fin 256) (q : Fin 1024) :
    matmul dot_S256x2048_S2048x1024_S256x1024_1_0_0_1_n_n none l r (constant (F := Ideal) S256x1024 .f32 0x00000000#32) (ix2 p q)
      = ∑ s : Fin 2048, l (ix2 p s) * r (ix2 s q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact region5_lhs_sel_0 _ _
    | ⟨1, _⟩ => exact (region5_lhs_sel_1 _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (region5_rhs_sel_0 _ _).trans hk
    | ⟨1, _⟩ => exact region5_rhs_sel_1 _ _)
  rw [el, er]

/-! ## The third product, nv · Pᵀ: both operands contract their axis 1 -/

theorem region5_lhs_back_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem region5_lhs_back_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q

theorem region5_rhs_back_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem region5_rhs_back_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- nv · Pᵀ into a zero accumulator at (p, r): the sum over the 1024 contracted columns of both operands. -/
theorem region5_matmul_back_apply (l : FVec Ideal S256x1024 .bf16) (r : FVec Ideal S2048x1024 .bf16) (p : Fin 256) (n : Fin 2048) :
    matmul dot_S256x1024_S2048x1024_S256x2048_1_1_0_0_n_n none l r (constant (F := Ideal) S256x2048 .f32 0x00000000#32) (ix2 p n)
      = ∑ q : Fin 1024, l (ix2 p q) * r (ix2 n q) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p n) ((contrEquiv1 dot_S256x1024_S2048x1024_S256x2048_1_1_0_0_n_n 1024 rfl rfl).symm k) = ix2 p k := funext fun a => Fin.ext (by
    match a with
    | ⟨0, _⟩ => exact region5_lhs_back_0 _ _
    | ⟨1, _⟩ => exact (region5_lhs_back_1 _ _).trans hk)
  have er : dot_S256x1024_S2048x1024_S256x2048_1_1_0_0_n_n.rhsIdx (ix2 p n) ((contrEquiv1 dot_S256x1024_S2048x1024_S256x2048_1_1_0_0_n_n 1024 rfl rfl).symm k) = ix2 n k := funext fun a => Fin.ext (by
    match a with
    | ⟨0, _⟩ => exact region5_rhs_back_0 _ _
    | ⟨1, _⟩ => exact (region5_rhs_back_1 _ _).trans hk)
  rw [el, er]

/-! ## The two halves of the accumulator -/

/-- Columns 0 … 1023 of a [256, 2048] value. -/
theorem region5_slice_lo_apply (v : FVec Ideal S256x2048 .f32) (h : S256x2048.Slices ![0, 0] S256x1024) (p : Fin 256) (q : Fin 1024) :
    extractStridedSlice S256x1024 ![0, 0] v h (ix2 p q) = v (ix2 p ⟨q.val, by have := q.isLt; omega⟩) :=
  extractStridedSlice_apply _ v h (ix2 p q) (ix2 p ⟨q.val, by have := q.isLt; omega⟩) (fun a => by
    match a with
    | ⟨0, _⟩ => show p.val = 0 + p.val; omega
    | ⟨1, _⟩ => show q.val = 0 + q.val; omega)

/-- Columns 1024 … 2047 of a [256, 2048] value. -/
theorem region5_slice_hi_apply (v : FVec Ideal S256x2048 .f32) (h : S256x2048.Slices ![0, 1024] S256x1024) (p : Fin 256) (q : Fin 1024) :
    extractStridedSlice S256x1024 ![0, 1024] v h (ix2 p q) = v (ix2 p ⟨q.val + 1024, by have := q.isLt; omega⟩) :=
  extractStridedSlice_apply _ v h (ix2 p q) (ix2 p ⟨q.val + 1024, by have := q.isLt; omega⟩) (fun a => by
    match a with
    | ⟨0, _⟩ => show p.val = 0 + p.val; omega
    | ⟨1, _⟩ => show q.val + 1024 = 1024 + q.val; omega)

/-- The scale half S at (p, q) is the accumulator's column q. -/
theorem region5_scale_apply (a : Vec Ideal S256x4096 .bf16) (w : Vec Ideal S4096x2048 .bf16) (bias : Vec Ideal S1x2048 .f32)
    (p : Fin 256) (q : Fin 1024) :
    k5_pay2 (F := Ideal) a w bias (ix2 p q) = k5_pay1 (F := Ideal) a w bias (ix2 p ⟨q.val, by have := q.isLt; omega⟩) := by
  unfold k5_pay2
  exact region5_slice_lo_apply _ _ p q

/-- The f32 word 0x3F800000 is the extended real one. -/
theorem region5_one_word : Ideal.ofBits .f32 0x3F800000#32 = 1 := by
  rw [show (1 : EReal) = ((1 : ℝ) : EReal) by norm_cast]
  simp [Ideal.ofBits, Ideal.ieee, -EReal.coe_mul]; norm_num

/-- A [1, 2048] row of 1 − mask broadcast down the rows. -/
theorem region5_one_sub_apply (mask : FVec Ideal S1x2048 .f32) (h : S1x2048.Broadcasts S256x2048) (p : Fin 256) (n : Fin 2048) :
    broadcastTo S256x2048 (subf (broadcast S1x2048 (Scalar.ofBits (F := Ideal) .f32 0x3F800000#32)) mask) h (ix2 p n)
      = 1 - mask (ix2 0 n) := by
  rw [region5_bcast_row_apply, subf_apply, broadcast_apply]
  exact congrArg (· - mask (ix2 0 n)) region5_one_word

/-- The kernel's first stored value at (p, r): x ∘ (1 − mask) + ((x · P) ∘ exp S + T) · Pᵀ, over the loaded blocks. -/
theorem region5_newx_apply (a : Vec Ideal S256x4096 .bf16) (w : Vec Ideal S4096x2048 .bf16) (bias : Vec Ideal S1x2048 .f32)
    (x : Vec Ideal S256x2048 .f32) (P P' : Vec Ideal S2048x1024 .bf16) (mask : Vec Ideal S1x2048 .f32)
    (p : Fin 256) (r : Fin 2048) :
    k5_pay3 (F := Ideal) a w bias x P P' mask (ix2 p r)
      = x (ix2 p r) * (1 - mask (ix2 0 r))
        + ∑ q : Fin 1024, ((∑ s : Fin 2048, x (ix2 p s) * P (ix2 s q)) * Ideal.exp (k5_pay2 (F := Ideal) a w bias (ix2 p q))
            + k5_pay1 (F := Ideal) a w bias (ix2 p ⟨q.val + 1024, by have := q.isLt; omega⟩)) * P' (ix2 r q) := by
  unfold k5_pay3
  simp only [shapeCast_self, addf_apply, mulf_apply, region5_matmul_back_apply, region5_matmul_sel_apply, truncf_apply, region5_one_sub_apply,
    region5_slice_hi_apply]
  rfl

/-- A lane sum of a [256, 1024] value at row p. -/
theorem region5_rowsum_red (v : FVec Ideal S256x1024 .f32) (h : S256x1024.Reduces [1] S256) (hφ : FKind.Formats .f32)
    (hacc : (0x00000000#32 : BitVec FTy.f32.bits) = FKind.add.neutral .f32 hφ) (p : Fin 256) :
    multiReduction (F := Ideal) .add [1] S256 v 0x00000000#32 h hφ hacc (ix1 p) = ∑ q : Fin 1024, v (ix2 p q) :=
  (Ideal.multiReduction_add_single v _ h hφ hacc (ix1 p)).trans
    (Finset.sum_congr rfl fun q _ => congrArg v (funext fun a => Fin.ext (by
      match a with
      | ⟨0, _⟩ => rfl
      | ⟨1, _⟩ => rfl)))

/-- The kernel's second stored value at (p, 0): the row sum of S. -/
theorem region5_rowsum_apply (a : Vec Ideal S256x4096 .bf16) (w : Vec Ideal S4096x2048 .bf16) (bias : Vec Ideal S1x2048 .f32)
    (p : Fin 256) (z : Fin 1) :
    k5_pay4 (F := Ideal) a w bias (ix2 p z) = ∑ q : Fin 1024, k5_pay2 (F := Ideal) a w bias (ix2 p q) := by
  unfold k5_pay4
  refine (shapeCast_apply _ _ (ix2 p z) (ix1 p) ?_).trans ?_
  · rw [Shape.rowMajor_val_one, Shape.rowMajor_val_two]
    show p.val = p.val * 1 + z.val
    omega
  · exact region5_rowsum_red _ _ _ _ p

/-! ## A stored block as a row block of the whole-array functions -/

section Blocks
variable (A : Mat 8192 4096) (W : Mat 4096 2048) (B : Mat 1 2048) (X : Mat 8192 2048) (P : Mat 2048 1024) (M : Mat 1 2048)
  (a : Vec Ideal S256x4096 .bf16) (w : Vec Ideal S4096x2048 .bf16) (bias : Vec Ideal S1x2048 .f32)
  (x : Vec Ideal S256x2048 .f32) (pm : Vec Ideal S2048x1024 .bf16) (mask : Vec Ideal S1x2048 .f32)
  (row : Fin 256 → Fin 8192)
  (ha : ∀ p k, a (ix2 p k) = A (ix2 (row p) k)) (hw : ∀ k n, w (ix2 k n) = W (ix2 k n))
  (hb : ∀ n, bias (ix2 0 n) = B (ix2 0 n))
  (hx : ∀ p r, x (ix2 p r) = X (ix2 (row p) r)) (hP : ∀ s q, pm (ix2 s q) = P (ix2 s q))
  (hm : ∀ n, mask (ix2 0 n) = M (ix2 0 n))
include ha hw hb

/-- When the loaded blocks are rows row p of a and all of w and bias, the accumulator is mm3Acc at those rows. -/
theorem region5_acc_block (p : Fin 256) (n : Fin 2048) : k5_pay1 (F := Ideal) a w bias (ix2 p n) = mm3Acc A W B (row p) n := by
  rw [region5_acc_apply, hb]
  exact congrArg (· + B (ix2 0 n)) (Finset.sum_congr rfl fun k _ => by rw [ha, hw])

/-- The scale half likewise. -/
theorem region5_scale_block (p : Fin 256) (q : Fin 1024) : k5_pay2 (F := Ideal) a w bias (ix2 p q) = mm3S A W B (row p) q := by
  rw [region5_scale_apply]
  exact region5_acc_block A W B a w bias row ha hw hb p _

/-- The row sums of S. -/
theorem region5_rowsum_block (p : Fin 256) (z : Fin 1) : k5_pay4 (F := Ideal) a w bias (ix2 p z) = mm3Ld A W B (ix2 (row p) z) := by
  rw [region5_rowsum_apply]
  exact Finset.sum_congr rfl fun q _ => region5_scale_block A W B a w bias row ha hw hb p q

include hx hP hm
/-- The new activations. -/
theorem region5_newx_block (p : Fin 256) (r : Fin 2048) :
    k5_pay3 (F := Ideal) a w bias x pm pm mask (ix2 p r) = mm3X A W B X P M (ix2 (row p) r) := by
  rw [region5_newx_apply, hx, hm]
  show _ = X (ix2 (row p) r) * (1 - M (ix2 0 r)) + ∑ q : Fin 1024, (selAt X P (row p) q * Ideal.exp (mm3S A W B (row p) q) + mm3T A W B (row p) q) * P (ix2 r q)
  refine congrArg _ (Finset.sum_congr rfl fun q _ => ?_)
  rw [hP r q, region5_scale_block A W B a w bias row ha hw hb p q, region5_acc_block A W B a w bias row ha hw hb p _]
  unfold selAt
  refine congrArg (fun z => (z * Ideal.exp (mm3S A W B (row p) q) + mm3T A W B (row p) q) * P (ix2 r q)) ?_
  exact Finset.sum_congr rfl fun s _ => by rw [hx, hP]

end Blocks

/-! ## The grid: 32 row blocks of 256 rows -/

theorem region5_hz : (![0, 0] : Fin 2 → Nat) = fun _ => 0 := funext fun a => by fin_cases a <;> rfl

/-- The printed index maps, decided over the grid: the row-blocked windows (a, x and the two outputs) sit at block row t,
    the whole-array windows (w, bias, P, mask) at block (0, 0). -/
theorem region5_idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0 :=
  (by decide +kernel : ∀ t : Fin grid5.N, _)

theorem region5_pt_lt (t : Fin cfg5.N) : t.val < 32 := lt_of_lt_of_eq t.isLt (by decide : grid5.N = 32)

/-- Row p of row block t. -/
def region5_rowAt (t : Fin cfg5.N) (p : Fin 256) : Fin 8192 :=
  ⟨t.val * 256 + p.val, by have := region5_pt_lt t; have := p.isLt; omega⟩

/-! ## Each input window's block, read where the output's rows say -/

section Reads
variable (c : Dev nD) (t : Fin cfg5.N)

/-- Window 0's block at point t: rows 256 t … 256 t + 255 of a. -/
theorem region5_read_a (p : Fin 256) (k : Fin 4096) :
    (iblk5 (F := Ideal) V c 0 t : Vec Ideal S256x4096 .bf16) (ix2 p k)
      = (V c (Pipeline.arrRef spec5 0) : Mat 8192 4096) (ix2 (region5_rowAt t p) k) := by
  obtain ⟨e0, e1, -⟩ := region5_idx_facts t
  show (V c (Pipeline.arrRef spec5 0) : Mat 8192 4096) (((cfg5.win 0).blk t).view.emb (ix2 p k)) = _
  refine congrArg (V c (Pipeline.arrRef spec5 0) : Mat 8192 4096) (funext fun a => Fin.ext ?_)
  match a with
  | ⟨0, _⟩ => show win5_0.index t (0 : Fin 2) * 256 + 1 * p.val = t.val * 256 + p.val; rw [e0]; omega
  | ⟨1, _⟩ => show win5_0.index t (1 : Fin 2) * 4096 + 1 * k.val = k.val; rw [e1]; omega

/-- Window 1's block is all of w. -/
theorem region5_read_w (k : Fin 4096) (n : Fin 2048) :
    (iblk5 (F := Ideal) V c 1 t : Vec Ideal S4096x2048 .bf16) (ix2 k n)
      = (V c (Pipeline.arrRef spec5 1) : Mat 4096 2048) (ix2 k n) := by
  obtain ⟨-, -, e0, e1, -⟩ := region5_idx_facts t
  show (V c (Pipeline.arrRef spec5 1) : Mat 4096 2048) (((cfg5.win 1).blk t).view.emb (ix2 k n)) = _
  refine congrArg (V c (Pipeline.arrRef spec5 1) : Mat 4096 2048) (funext fun a => Fin.ext ?_)
  match a with
  | ⟨0, _⟩ => show win5_1.index t (0 : Fin 2) * 4096 + 1 * k.val = k.val; rw [e0]; omega
  | ⟨1, _⟩ => show win5_1.index t (1 : Fin 2) * 2048 + 1 * n.val = n.val; rw [e1]; omega

/-- Window 2's block is all of bias. -/
theorem region5_read_bias (n : Fin 2048) :
    (iblk5 (F := Ideal) V c 2 t : Vec Ideal S1x2048 .f32) (ix2 0 n)
      = (V c (Pipeline.arrRef spec5 2) : Mat 1 2048) (ix2 0 n) := by
  obtain ⟨-, -, -, -, e0, e1, -⟩ := region5_idx_facts t
  show (V c (Pipeline.arrRef spec5 2) : Mat 1 2048) (((cfg5.win 2).blk t).view.emb (ix2 0 n)) = _
  refine congrArg (V c (Pipeline.arrRef spec5 2) : Mat 1 2048) (funext fun a => Fin.ext ?_)
  match a with
  | ⟨0, _⟩ => show win5_2.index t (0 : Fin 2) * 1 + 1 * 0 = 0; rw [e0]
  | ⟨1, _⟩ => show win5_2.index t (1 : Fin 2) * 2048 + 1 * n.val = n.val; rw [e1]; omega

/-- Window 3's block at point t: rows 256 t … 256 t + 255 of x. -/
theorem region5_read_x (p : Fin 256) (r : Fin 2048) :
    (iblk5 (F := Ideal) V c 3 t : Vec Ideal S256x2048 .f32) (ix2 p r)
      = (V c (Pipeline.arrRef spec5 3) : Mat 8192 2048) (ix2 (region5_rowAt t p) r) := by
  obtain ⟨-, -, -, -, -, -, e0, e1, -⟩ := region5_idx_facts t
  show (V c (Pipeline.arrRef spec5 3) : Mat 8192 2048) (((cfg5.win 3).blk t).view.emb (ix2 p r)) = _
  refine congrArg (V c (Pipeline.arrRef spec5 3) : Mat 8192 2048) (funext fun a => Fin.ext ?_)
  match a with
  | ⟨0, _⟩ => show win5_3.index t (0 : Fin 2) * 256 + 1 * p.val = t.val * 256 + p.val; rw [e0]; omega
  | ⟨1, _⟩ => show win5_3.index t (1 : Fin 2) * 2048 + 1 * r.val = r.val; rw [e1]; omega

/-- Window 4's block is all of P. -/
theorem region5_read_P (s : Fin 2048) (q : Fin 1024) :
    (iblk5 (F := Ideal) V c 4 t : Vec Ideal S2048x1024 .bf16) (ix2 s q)
      = (V c (Pipeline.arrRef spec5 4) : Mat 2048 1024) (ix2 s q) := by
  obtain ⟨-, -, -, -, -, -, -, -, e0, e1, -⟩ := region5_idx_facts t
  show (V c (Pipeline.arrRef spec5 4) : Mat 2048 1024) (((cfg5.win 4).blk t).view.emb (ix2 s q)) = _
  refine congrArg (V c (Pipeline.arrRef spec5 4) : Mat 2048 1024) (funext fun a => Fin.ext ?_)
  match a with
  | ⟨0, _⟩ => show win5_4.index t (0 : Fin 2) * 2048 + 1 * s.val = s.val; rw [e0]; omega
  | ⟨1, _⟩ => show win5_4.index t (1 : Fin 2) * 1024 + 1 * q.val = q.val; rw [e1]; omega

/-- Window 5's block is all of mask. -/
theorem region5_read_mask (n : Fin 2048) :
    (iblk5 (F := Ideal) V c 5 t : Vec Ideal S1x2048 .f32) (ix2 0 n)
      = (V c (Pipeline.arrRef spec5 5) : Mat 1 2048) (ix2 0 n) := by
  obtain ⟨-, -, -, -, -, -, -, -, -, -, e0, e1, -⟩ := region5_idx_facts t
  show (V c (Pipeline.arrRef spec5 5) : Mat 1 2048) (((cfg5.win 5).blk t).view.emb (ix2 0 n)) = _
  refine congrArg (V c (Pipeline.arrRef spec5 5) : Mat 1 2048) (funext fun a => Fin.ext ?_)
  match a with
  | ⟨0, _⟩ => show win5_5.index t (0 : Fin 2) * 1 + 1 * 0 = 0; rw [e0]
  | ⟨1, _⟩ => show win5_5.index t (1 : Fin 2) * 2048 + 1 * n.val = n.val; rw [e1]; omega

end Reads

/-! ## What each point writes back, the cover, and the arrays after the run -/

/-- The new activations as a function of the arrays the region finds. -/
abbrev region5_outX (c : Dev nD) : Mat 8192 2048 :=
  mm3X (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))

/-- The log-determinant term as a function of the arrays the region finds. -/
abbrev region5_outLd (c : Dev nD) : Mat 8192 1 :=
  mm3Ld (V c (Pipeline.arrRef spec5 0)) (V c (Pipeline.arrRef spec5 1)) (V c (Pipeline.arrRef spec5 2))

/-- What point t writes back through window 6 is row block t of the new activations. -/
theorem region5_flushed_x (c : Dev nD) (t : Fin cfg5.N) :
    (dat5 (F := Ideal) V c).flushed 6 t = ((cfg5.win 6).blk t).view.read (Elt Ideal) (region5_outX V c) := by
  show (cfg5.win 6).cut (grid5.coords t) ((dat5 (F := Ideal) V c).after 6 t) = _
  rw [after5_6]
  unfold out5_6
  rw [View.canon_unit_zero region5_hz]
  simp only [View.ld_unit_zero (S := S256x4096) region5_hz, View.ld_unit_zero (S := S4096x2048) region5_hz,
    View.ld_unit_zero (S := S1x2048) region5_hz, View.ld_unit_zero (S := S256x2048) region5_hz,
    View.ld_unit_zero (S := S2048x1024) region5_hz]
  obtain ⟨-, -, -, -, -, -, -, -, -, -, -, -, e0, e1, -⟩ := region5_idx_facts t
  funext y
  obtain ⟨p, r, rfl⟩ : ∃ (p : Fin 256) (r : Fin 2048), y = ix2 p r := ⟨y 0, y 1, eq_ix2 y⟩
  show k5_pay3 (F := Ideal) (iblk5 V c 0 t) (iblk5 V c 1 t) (iblk5 V c 2 t) (iblk5 V c 3 t) (iblk5 V c 4 t) (iblk5 V c 4 t) (iblk5 V c 5 t) (ix2 p r)
    = region5_outX V c (((cfg5.win 6).blk t).view.emb (ix2 p r))
  refine (region5_newx_block (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (iblk5 V c 0 t) (iblk5 V c 1 t) (iblk5 V c 2 t) (iblk5 V c 3 t) (iblk5 V c 4 t) (iblk5 V c 5 t) (region5_rowAt t)
    (region5_read_a V c t) (region5_read_w V c t) (region5_read_bias V c t) (region5_read_x V c t) (region5_read_P V c t)
    (region5_read_mask V c t) p r).trans ?_
  refine congrArg (region5_outX V c) (funext fun a => Fin.ext ?_)
  match a with
  | ⟨0, _⟩ => show t.val * 256 + p.val = win5_6.index t (0 : Fin 2) * 256 + 1 * p.val; rw [e0]; omega
  | ⟨1, _⟩ => show r.val = win5_6.index t (1 : Fin 2) * 2048 + 1 * r.val; rw [e1]; omega

/-- What point t writes back through window 7 is row block t of the row sums of S. -/
theorem region5_flushed_ld (c : Dev nD) (t : Fin cfg5.N) :
    (dat5 (F := Ideal) V c).flushed 7 t = ((cfg5.win 7).blk t).view.read (Elt Ideal) (region5_outLd V c) := by
  show (cfg5.win 7).cut (grid5.coords t) ((dat5 (F := Ideal) V c).after 7 t) = _
  rw [after5_7]
  unfold out5_7
  rw [View.canon_unit_zero region5_hz]
  simp only [View.ld_unit_zero (S := S256x4096) region5_hz, View.ld_unit_zero (S := S4096x2048) region5_hz,
    View.ld_unit_zero (S := S1x2048) region5_hz]
  obtain ⟨-, -, -, -, -, -, -, -, -, -, -, -, -, -, e0, e1⟩ := region5_idx_facts t
  funext y
  obtain ⟨p, z, rfl⟩ : ∃ (p : Fin 256) (z : Fin 1), y = ix2 p z := ⟨y 0, y 1, eq_ix2 y⟩
  show k5_pay4 (F := Ideal) (iblk5 V c 0 t) (iblk5 V c 1 t) (iblk5 V c 2 t) (ix2 p z)
    = region5_outLd V c (((cfg5.win 7).blk t).view.emb (ix2 p z))
  refine (region5_rowsum_block (V c (Pipeline.arrRef spec5 0)) (V c (Pipeline.arrRef spec5 1)) (V c (Pipeline.arrRef spec5 2))
    (iblk5 V c 0 t) (iblk5 V c 1 t) (iblk5 V c 2 t) (region5_rowAt t)
    (region5_read_a V c t) (region5_read_w V c t) (region5_read_bias V c t) p z).trans ?_
  refine congrArg (region5_outLd V c) (funext fun a => Fin.ext ?_)
  match a with
  | ⟨0, _⟩ => show t.val * 256 + p.val = win5_7.index t (0 : Fin 2) * 256 + 1 * p.val; rw [e0]; omega
  | ⟨1, _⟩ => show z.val = win5_7.index t (1 : Fin 2) * 1 + 1 * z.val; rw [e1]; omega

/-- An index of the activations is in point t's block iff each coordinate is in the block's range on its axis. -/
theorem region5_mem_blk_x (t : Fin cfg5.N) (i : S8192x2048.Idx) :
    i ∈ ((cfg5.win 6).blk t).view.set ↔ ∀ a : Fin 2, win5_6.index t a * S256x2048.size a ≤ (i a).val ∧ (i a).val < win5_6.index t a * S256x2048.size a + S256x2048.size a := by
  show i ∈ ((View.whole (Pipeline.arrRef spec5 6)).slice (win5_6.rect t)).set ↔ _
  rw [View.set_slice_whole, Rect.mem_set_unit]
  exact Iff.rfl

/-- The same for the [8192, 1] log-determinant array. -/
theorem region5_mem_blk_ld (t : Fin cfg5.N) (i : S8192x1.Idx) :
    i ∈ ((cfg5.win 7).blk t).view.set ↔ ∀ a : Fin 2, win5_7.index t a * S256x1.size a ≤ (i a).val ∧ (i a).val < win5_7.index t a * S256x1.size a + S256x1.size a := by
  show i ∈ ((View.whole (Pipeline.arrRef spec5 7)).slice (win5_7.rect t)).set ↔ _
  rw [View.set_slice_whole, Rect.mem_set_unit]
  exact Iff.rfl

/-- The point whose row block holds row r. -/
def region5_ptOf (r : Nat) (h : r < 8192) : Fin cfg5.N := ⟨r / 256, by rw [show cfg5.N = 32 from (by decide : grid5.N = 32)]; omega⟩

/-- Region 5 (the third kernel of a block), entered at contents V: the new activations after the run. -/
theorem region5_value_x (c : Dev nD) :
    ((dat5 (F := Ideal) V c).arrAt 6 cfg5.N : Mat 8192 2048)
      = mm3X (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 (F := Ideal) V c).arrAt_eq_of_cover 6 (region5_outX V c) (fun t _ => region5_flushed_x V c t) fun (i : S8192x2048.Idx) => by
    have h0 : (i 0).val < 8192 := (i 0).isLt
    have h1 : (i 1).val < 2048 := (i 1).isLt
    refine ⟨region5_ptOf (i 0).val h0, flush5_6 _, ?_⟩
    obtain ⟨-, -, -, -, -, -, -, -, -, -, -, -, e0, e1, -⟩ := region5_idx_facts (region5_ptOf (i 0).val h0)
    rw [region5_mem_blk_x]
    intro a
    match a with
    | ⟨0, _⟩ =>
      show win5_6.index (region5_ptOf (i 0).val h0) (0 : Fin 2) * 256 ≤ (i 0).val ∧ (i 0).val < win5_6.index (region5_ptOf (i 0).val h0) (0 : Fin 2) * 256 + 256
      rw [e0]; show (i 0).val / 256 * 256 ≤ (i 0).val ∧ (i 0).val < (i 0).val / 256 * 256 + 256; omega
    | ⟨1, _⟩ =>
      show win5_6.index (region5_ptOf (i 0).val h0) (1 : Fin 2) * 2048 ≤ (i 1).val ∧ (i 1).val < win5_6.index (region5_ptOf (i 0).val h0) (1 : Fin 2) * 2048 + 2048
      rw [e1]; omega

/-- Region 5, entered at contents V: the log-determinant term after the run. -/
theorem region5_value_ld (c : Dev nD) :
    ((dat5 (F := Ideal) V c).arrAt 7 cfg5.N : Mat 8192 1)
      = mm3Ld (V c (Pipeline.arrRef spec5 0)) (V c (Pipeline.arrRef spec5 1)) (V c (Pipeline.arrRef spec5 2)) :=
  (dat5 (F := Ideal) V c).arrAt_eq_of_cover 7 (region5_outLd V c) (fun t _ => region5_flushed_ld V c t) fun (i : S8192x1.Idx) => by
    have h0 : (i 0).val < 8192 := (i 0).isLt
    have h1 : (i 1).val < 1 := (i 1).isLt
    refine ⟨region5_ptOf (i 0).val h0, flush5_7 _, ?_⟩
    obtain ⟨-, -, -, -, -, -, -, -, -, -, -, -, -, -, e0, e1⟩ := region5_idx_facts (region5_ptOf (i 0).val h0)
    rw [region5_mem_blk_ld]
    intro a
    match a with
    | ⟨0, _⟩ =>
      show win5_7.index (region5_ptOf (i 0).val h0) (0 : Fin 2) * 256 ≤ (i 0).val ∧ (i 0).val < win5_7.index (region5_ptOf (i 0).val h0) (0 : Fin 2) * 256 + 256
      rw [e0]; show (i 0).val / 256 * 256 ≤ (i 0).val ∧ (i 0).val < (i 0).val / 256 * 256 + 256; omega
    | ⟨1, _⟩ =>
      show win5_7.index (region5_ptOf (i 0).val h0) (1 : Fin 2) * 1 ≤ (i 1).val ∧ (i 1).val < win5_7.index (region5_ptOf (i 0).val h0) (1 : Fin 2) * 1 + 1
      rw [e1]; omega

end Cert.KernelIdeal.Val

end
-- ==== Proof.Index.lean ====
/-
  How the two integer arguments name columns, and how the third layer's weights are regrouped.

  An index argument a [2 × 1024] of 32-bit words NAMES the column maps f : block → position → column when each word is the
  column's number. The regrouping sends column n of the kernel's third layer to column 2n of the reference's for
  n < 1024 (the scale logits) and to column 2(n − 1024) + 1 otherwise (the translations).
-/
import proofs.«427001_j89833535963578_2_alg».proof.Proof.Spec

noncomputable section

namespace Cert.Coupling

open Idealize.ShloMosaic Idealize.ShloMosaic.ValueIdx

/-- The index array a holds, at (i, q), the number of column f i q. -/
def IdxIs (a : (⟨2, ![2, 1024]⟩ : Shape).Idx → BitVec 32) (f : Fin 2 → Fin 1024 → Fin 2048) : Prop :=
  ∀ (i : Fin 2) (q : Fin 1024), a (ix2 i q) = BitVec.ofNat 32 (f i q).val

/-- The column of the interleaved third layer that column n of the regrouped one holds. -/
def unperm (n : Fin 2048) : Fin 2048 :=
  if h : n.val < 1024 then ⟨2 * n.val, by omega⟩ else ⟨2 * (n.val - 1024) + 1, by have := n.isLt; omega⟩

/-- A 0/1 matrix P [2048 × 1024] selects column sel q in its column q. -/
def IsSel (P : Mat 2048 1024) (sel : Fin 1024 → Fin 2048) : Prop :=
  ∀ (r : Fin 2048) (q : Fin 1024), P (ix2 r q) = if r = sel q then 1 else 0

end Cert.Coupling

end
-- ==== Proof.KernelHost0.lean ====
/-
  The host operations of the kernel program before and inside block 0, read at an index: the selection matrices built from the two index arguments, the mask, the regrouped third-layer weights and bias, and block 0's slices of the other weights — each as a function of the arguments' contents, whatever contents the stretch starts from.
-/
import proofs.«427001_j89833535963578_2_alg».proof.Proof.Gen.KernelIdeal.Launch
import proofs.«427001_j89833535963578_2_alg».proof.Proof.Index
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Coupling

-- the TensorCore's buffers at some contents (a boundary of @main)
variable (W : Valuation τ sig (Elt Ideal))

local notation "W0'" => StableHlo.after (hostOps0 (F := Ideal)) W
local notation "W1'" => StableHlo.after (hostOps1 (F := Ideal)) W

-- a buffer after a stretch, read as the composed operations on the contents the stretch starts from
local macro "read_after" : tactic => `(tactic| (after_results; first | done | rfl))

/-! ## Layout facts over variables -/

section Layout
variable {α : Type}

/-- Block c of a stack of matrices with its unit axis dropped reads, at (k, n), the stack at (c, k, n). -/
theorem stackBlock_apply {n0 n1 n2 : Nat} (o : Nat) (X : (⟨3, ![n0, n1, n2]⟩ : Shape).Idx → α)
    (hs : (⟨3, ![n0, n1, n2]⟩ : Shape).Slices ![o, 0, 0] ⟨3, ![1, n1, n2]⟩)
    (hc : (⟨3, ![1, n1, n2]⟩ : Shape).ShapeCasts ⟨2, ![n1, n2]⟩) (c : Fin n0) (hco : c.val = o) (k : Fin n1) (n : Fin n2) :
    shapeCast ⟨2, ![n1, n2]⟩ (extractStridedSlice ⟨3, ![1, n1, n2]⟩ ![o, 0, 0] X hs) hc (ix2 k n) = X (ix3 c k n) := by
  refine (shapeCast_1ab_ab_apply _ hc k n).trans ?_
  refine extractStridedSlice_apply _ _ _ _ _ (fun ax => ?_)
  match ax with
  | ⟨0, _⟩ => show c.val = o + 0; omega
  | ⟨1, _⟩ => exact (Nat.zero_add _).symm
  | ⟨2, _⟩ => exact (Nat.zero_add _).symm

/-- Row c of a matrix as a vector reads, at i, the matrix at (c, i). -/
theorem rowBlock_apply {n0 n : Nat} (o : Nat) (X : (⟨2, ![n0, n]⟩ : Shape).Idx → α)
    (hs : (⟨2, ![n0, n]⟩ : Shape).Slices ![o, 0] ⟨2, ![1, n]⟩) (h1 : (⟨2, ![1, n]⟩ : Shape).ShapeCasts ⟨1, ![n]⟩)
    (c : Fin n0) (hco : c.val = o) (i : Fin n) :
    shapeCast ⟨1, ![n]⟩ (extractStridedSlice ⟨2, ![1, n]⟩ ![o, 0] X hs) h1 (ix1 i) = X (ix2 c i) :=
  (shapeCast_1a_a_apply _ h1 i).trans (slice2_axis0_apply o X hs 0 i c (by
    have h0 : ((0 : Fin 1) : ℕ) = 0 := rfl
    omega))

/-- … and laid back as a one-row matrix, at (0, i). -/
theorem rowBlock_row_apply {n0 n : Nat} (o : Nat) (X : (⟨2, ![n0, n]⟩ : Shape).Idx → α)
    (hs : (⟨2, ![n0, n]⟩ : Shape).Slices ![o, 0] ⟨2, ![1, n]⟩) (h1 : (⟨2, ![1, n]⟩ : Shape).ShapeCasts ⟨1, ![n]⟩)
    (h2 : (⟨1, ![n]⟩ : Shape).ShapeCasts ⟨2, ![1, n]⟩) (c : Fin n0) (hco : c.val = o) (u : Fin 1) (i : Fin n) :
    shapeCast ⟨2, ![1, n]⟩ (shapeCast ⟨1, ![n]⟩ (extractStridedSlice ⟨2, ![1, n]⟩ ![o, 0] X hs) h1) h2 (ix2 u i) = X (ix2 c i) :=
  (shapeCast_a_1a_apply _ h2 u i).trans (rowBlock_apply o X hs h1 c hco i)

end Layout

/-! ## The selection matrices -/

/-- The 0/1 matrix whose (r, q) entry says whether row number r is the word at (0, q) of an index array. -/
abbrev selOf (a : IVec S2x1024 32) : FVec Ideal S2048x1024 .bf16 :=
  uitofp .bf16 (cmpi .eq (iotaInDim S2048x1024 32 0)
    (broadcastInDim S2048x1024 ![0, 1] bcast_S1x1024_S2048x1024_0_1
      (broadcastInDim S1x1024 ![1] bcast_S1024_S1x1024_1
        (shapeCast S1024 (extractStridedSlice S1x1024 ![0, 0] a slices_S2x1024_S1x1024_0_0) shapeCasts_S1x1024_S1024))))

/-- A one-bit word read as a number is 1 when it is set and 0 otherwise. -/
theorem bit_toReal (b : BitVec 1) : (((b.toNat : ℕ) : ℝ) : EReal) = if b = 1#1 then 1 else 0 := by
  rcases BitVec.eq_zero_or_eq_one b with rfl | rfl
  · rw [if_neg (by decide)]; show (((0 : ℕ) : ℝ) : EReal) = 0; rw [Nat.cast_zero, EReal.coe_zero]
  · rw [if_pos rfl]; show (((1 : ℕ) : ℝ) : EReal) = 1; rw [Nat.cast_one, EReal.coe_one]

/-- Two words that number columns below 2048 are equal exactly when the columns are. -/
theorem ofNat_eq_iff (r s : Fin 2048) : BitVec.ofNat 32 r.val = BitVec.ofNat 32 s.val ↔ r = s := by
  constructor
  · intro h
    have h' := congrArg BitVec.toNat h
    rw [BitVec.toNat_ofNat, BitVec.toNat_ofNat] at h'
    have hr := r.isLt; have hs := s.isLt
    apply Fin.ext
    omega
  · intro h; rw [h]

theorem selOf_apply (a : IVec S2x1024 32) (r : Fin 2048) (q : Fin 1024) :
    (selOf a : Mat 2048 1024) (ix2 r q) = if BitVec.ofNat 32 r.val = a (ix2 0 q) then 1 else 0 := by
  have hb : broadcastInDim S2048x1024 ![0, 1] bcast_S1x1024_S2048x1024_0_1
      (broadcastInDim S1x1024 ![1] bcast_S1024_S1x1024_1
        (shapeCast S1024 (extractStridedSlice S1x1024 ![0, 0] a slices_S2x1024_S1x1024_0_0) shapeCasts_S1x1024_S1024)) (ix2 r q)
      = a (ix2 0 q) := by
    refine (broadcastInDim_apply _ _ _ (ix2 r q) (ix2 (0 : Fin 1) q) (fun ax => ?_)).trans ?_
    · match ax with
      | ⟨0, _⟩ => rfl
      | ⟨1, _⟩ => rfl
    refine (broadcastInDim_apply _ _ _ (ix2 (0 : Fin 1) q) (ix1 q) (fun ax => ?_)).trans ?_
    · match ax with
      | ⟨0, _⟩ => rfl
    exact rowBlock_apply 0 a _ _ 0 rfl q
  show (((IntOp.cmpi .eq (BitVec.ofNat 32 r.val) (broadcastInDim S2048x1024 ![0, 1] bcast_S1x1024_S2048x1024_0_1
      (broadcastInDim S1x1024 ![1] bcast_S1024_S1x1024_1
        (shapeCast S1024 (extractStridedSlice S1x1024 ![0, 0] a slices_S2x1024_S1x1024_0_0) shapeCasts_S1x1024_S1024)) (ix2 r q))).toNat : ℝ) : EReal) = _
  rw [hb, bit_toReal]
  simp only [StableHlo.Predicate.cmpi_eq_iff]

theorem isSel_selOf (a : IVec S2x1024 32) (f : Fin 2 → Fin 1024 → Fin 2048) (hf : IdxIs a f) : IsSel (selOf a) (f 0) := by
  intro r q
  rw [selOf_apply, hf 0 q]
  by_cases h : r = f 0 q
  · rw [if_pos h, if_pos ((ofNat_eq_iff r (f 0 q)).2 h)]
  · rw [if_neg h, if_neg (fun e => h ((ofNat_eq_iff r (f 0 q)).1 e))]

theorem e_v7 : W0' (Proc.devRef .tc main_v7) = selOf (W (Proc.devRef .tc main_arg2)) := by
  show StableHlo.after hostOps0 W (Proc.devRef .tc main_v7) = _
  read_after

theorem e_v13 : W0' (Proc.devRef .tc main_v13) = selOf (W (Proc.devRef .tc main_arg3)) := by
  show StableHlo.after hostOps0 W (Proc.devRef .tc main_v13) = _
  read_after

/-- The first selection matrix: column q selects column id 0 q. -/
theorem ho0_pid (id : Fin 2 → Fin 1024 → Fin 2048) (hid : IdxIs (W (Proc.devRef .tc main_arg2)) id) :
    IsSel (W0' (Proc.devRef .tc main_v7)) (id 0) := by
  rw [e_v7]
  exact isSel_selOf _ id hid

/-- The second selection matrix: column q selects column tr 0 q. -/
theorem ho0_ptr (tr : Fin 2 → Fin 1024 → Fin 2048) (htr : IdxIs (W (Proc.devRef .tc main_arg3)) tr) :
    IsSel (W0' (Proc.devRef .tc main_v13)) (tr 0) := by
  rw [e_v13]
  exact isSel_selOf _ tr htr

/-! ## The mask -/

theorem reduces_S2048x1024_S2048_d1 : S2048x1024.Reduces [1] S2048 := by decide

theorem e_v16 : W0' (Proc.devRef .tc main_v16) =
    shapeCast S1x2048 (Host.reduceAdd (F := Ideal) (extf .f32 (selOf (W (Proc.devRef .tc main_arg3))) bitsLt_bf16_f32)
      (constant (F := Ideal) S_ .f32 0x00000000#32) reducesTo_S2048x1024_S2048_d1 h_S_) shapeCasts_S2048_S1x2048 := by
  show StableHlo.after hostOps0 W (Proc.devRef .tc main_v16) = _
  read_after

/-- The row sums of a matrix, as a one-row matrix. -/
theorem rowSums_apply (P : FVec Ideal S2048x1024 .bf16) (r : Fin 2048) :
    (shapeCast S1x2048 (Host.reduceAdd (F := Ideal) (extf .f32 P bitsLt_bf16_f32)
      (constant (F := Ideal) S_ .f32 0x00000000#32) reducesTo_S2048x1024_S2048_d1 h_S_) shapeCasts_S2048_S1x2048 : Mat 1 2048) (ix2 0 r)
      = @Finset.sum (Fin 1024) EReal _ Finset.univ (fun q => (P : Mat 2048 1024) (ix2 r q)) := by
  refine (shapeCast_a_1a_apply _ _ 0 r).trans ?_
  show Ideal.hostReduceAdd reducesTo_S2048x1024_S2048_d1 (extf .f32 P bitsLt_bf16_f32) (Ideal.ofBits .f32 0x00000000#32) (ix1 r) = _
  rw [Ideal.hostReduceAdd_single reducesTo_S2048x1024_S2048_d1 reduces_S2048x1024_S2048_d1, Ideal.ofBits_zero_f32, zero_add]
  refine Finset.sum_congr rfl (fun q _ => ?_)
  show P (reduces_S2048x1024_S2048_d1.lift (ix1 r) q) = P (ix2 r q)
  congr 1
  funext ax
  match ax with
  | ⟨0, _⟩ => exact Fin.ext rfl
  | ⟨1, _⟩ => exact Fin.ext rfl

/-- The mask is the row sums of the second selection matrix. -/
theorem ho0_mask (r : Fin 2048) :
    (W0' (Proc.devRef .tc main_v16) : Mat 1 2048) (ix2 0 r) = @Finset.sum (Fin 1024) EReal _ Finset.univ (fun q => (W0' (Proc.devRef .tc main_v13) : Mat 2048 1024) (ix2 r q)) := by
  rw [e_v16, e_v13]
  exact rowSums_apply _ r

/-! ## The zero and the row numbers -/

theorem e_v0 : W0' (Proc.devRef .tc main_v0) =
    broadcastInDim S8192x1 ![] bcast_S_S8192x1 (constant (F := Ideal) S_ .f32 0x00000000#32) := by
  show StableHlo.after hostOps0 W (Proc.devRef .tc main_v0) = _
  read_after

/-- The log-determinant starts at zero. -/
theorem ho0_zero (j : (⟨2, ![8192, 1]⟩ : Shape).Idx) : (W0' (Proc.devRef .tc main_v0) : Mat 8192 1) j = (0 : EReal) := by
  rw [e_v0]
  show Ideal.ofBits .f32 0x00000000#32 = 0
  exact Ideal.ofBits_zero_f32

/-- The row-number table the selection matrices are compared against. -/
theorem ho0_iota : W0' (Proc.devRef .tc main_v1) = iotaInDim S2048x1024 32 0 := by
  show StableHlo.after hostOps0 W (Proc.devRef .tc main_v1) = _
  read_after

/-! ## The third layer regrouped: even columns first, then odd columns -/

section Regroup
variable {α : Type}

/-- The columns of parity e of a [4096 × 2048] matrix, as a [4096 × 1024] matrix: at (k, q), the matrix at (k, 2q + e). -/
theorem parityCols_apply (X : (⟨2, ![4096, 2048]⟩ : Shape).Idx → α) (off : Nat) (e : Fin 2) (he : e.val = off)
    (hs : S4096x1024x2.Slices ![0, 0, off] S4096x1024x1) (k : Fin 4096) (q : Fin 1024) (c : Fin 2048) (hc : c.val = 2 * q.val + e.val) :
    shapeCast S4096x1024 (extractStridedSlice S4096x1024x1 ![0, 0, off] (shapeCast S4096x1024x2 X shapeCasts_S4096x2048_S4096x1024x2) hs)
      shapeCasts_S4096x1024x1_S4096x1024 (ix2 k q) = X (ix2 k c) := by
  refine (shapeCast_apply _ _ (ix2 k q) (ix3 k q (0 : Fin 1)) ?_).trans ?_
  · rw [Shape.rowMajor_val_three, Shape.rowMajor_val_two]
    show (k.val * 1024 + q.val) * 1 + 0 = k.val * 1024 + q.val
    omega
  refine (extractStridedSlice_apply _ _ _ (ix3 k q (0 : Fin 1)) (ix3 k q e) (fun ax => ?_)).trans ?_
  · match ax with
    | ⟨0, _⟩ => exact (Nat.zero_add _).symm
    | ⟨1, _⟩ => exact (Nat.zero_add _).symm
    | ⟨2, _⟩ => show e.val = off + 0; omega
  refine shapeCast_apply _ _ (ix3 k q e) (ix2 k c) ?_
  rw [Shape.rowMajor_val_three, Shape.rowMajor_val_two]
  show k.val * 2048 + c.val = (k.val * 1024 + q.val) * 2 + e.val
  omega

/-- The entries of parity e of a vector of 2048, as a vector of 1024: at q, the vector at 2q + e. -/
theorem parityVec_apply (x : (⟨1, ![2048]⟩ : Shape).Idx → α) (off : Nat) (e : Fin 2) (he : e.val = off)
    (hs : S1024x2.Slices ![0, off] S1024x1) (q : Fin 1024) (c : Fin 2048) (hc : c.val = 2 * q.val + e.val) :
    shapeCast S1024 (extractStridedSlice S1024x1 ![0, off] (shapeCast S1024x2 x shapeCasts_S2048_S1024x2) hs)
      shapeCasts_S1024x1_S1024 (ix1 q) = x (ix1 c) := by
  refine (shapeCast_apply _ _ (ix1 q) (ix2 q (0 : Fin 1)) ?_).trans ?_
  · rw [Shape.rowMajor_val_two, Shape.rowMajor_val_one]
    show q.val * 1 + 0 = q.val
    omega
  refine (extractStridedSlice_apply _ _ _ (ix2 q (0 : Fin 1)) (ix2 q e) (fun ax => ?_)).trans ?_
  · match ax with
    | ⟨0, _⟩ => exact (Nat.zero_add _).symm
    | ⟨1, _⟩ => show e.val = off + 0; omega
  refine shapeCast_apply _ _ (ix2 q e) (ix1 c) ?_
  rw [Shape.rowMajor_val_two, Shape.rowMajor_val_one]
  show c.val = q.val * 2 + e.val
  omega

/-- Even columns then odd columns: column n of the result is column unperm n of the matrix. -/
theorem regroupCols_apply (X : (⟨2, ![4096, 2048]⟩ : Shape).Idx → α) (k : Fin 4096) (n : Fin 2048) :
    concatenate S4096x2048 1
      [⟨S4096x1024, shapeCast S4096x1024 (extractStridedSlice S4096x1024x1 ![0, 0, 0] (shapeCast S4096x1024x2 X shapeCasts_S4096x2048_S4096x1024x2)
          slices_S4096x1024x2_S4096x1024x1_0_0_0) shapeCasts_S4096x1024x1_S4096x1024⟩,
       ⟨S4096x1024, shapeCast S4096x1024 (extractStridedSlice S4096x1024x1 ![0, 0, 1] (shapeCast S4096x1024x2 X shapeCasts_S4096x2048_S4096x1024x2)
          slices_S4096x1024x2_S4096x1024x1_0_0_1) shapeCasts_S4096x1024x1_S4096x1024⟩]
      concatenates_S4096x1024_S4096x1024_S4096x2048_d1 (ix2 k n) = X (ix2 k (unperm n)) := by
  have hn := n.isLt
  by_cases h : n.val < 1024
  · refine (concatenate_pair_apply_left (s₁ := S4096x1024) (s₂ := S4096x1024) _ _ _ _ (ix2 k n) rfl (ix2 k (⟨n.val, h⟩ : Fin 1024)) (fun b => ?_)).trans ?_
    · match b with
      | ⟨0, _⟩ => rfl
      | ⟨1, _⟩ => rfl
    refine parityCols_apply X 0 0 rfl _ k ⟨n.val, h⟩ (unperm n) ?_
    unfold unperm
    rw [dif_pos h]
    show 2 * n.val = 2 * n.val + 0
    omega
  · refine (concatenate_pair_apply_right (s₁ := S4096x1024) (s₂ := S4096x1024) _ _ _ _ (ix2 k n) rfl rfl (ix2 k (⟨n.val - 1024, by omega⟩ : Fin 1024)) (fun b => ?_) ?_).trans ?_
    · match b with
      | ⟨0, _⟩ => intro _; rfl
      | ⟨1, _⟩ => intro hne; exact absurd (Fin.ext rfl) hne
    · show n.val - 1024 + 1024 = n.val
      omega
    refine parityCols_apply X 1 1 rfl _ k ⟨n.val - 1024, by omega⟩ (unperm n) ?_
    unfold unperm
    rw [dif_neg h]
    show 2 * (n.val - 1024) + 1 = 2 * (n.val - 1024) + 1
    rfl

/-- Even entries then odd entries: entry n of the result is entry unperm n of the vector. -/
theorem regroupVec_apply (x : (⟨1, ![2048]⟩ : Shape).Idx → α) (n : Fin 2048) :
    concatenate S2048 0
      [⟨S1024, shapeCast S1024 (extractStridedSlice S1024x1 ![0, 0] (shapeCast S1024x2 x shapeCasts_S2048_S1024x2)
          slices_S1024x2_S1024x1_0_0) shapeCasts_S1024x1_S1024⟩,
       ⟨S1024, shapeCast S1024 (extractStridedSlice S1024x1 ![0, 1] (shapeCast S1024x2 x shapeCasts_S2048_S1024x2)
          slices_S1024x2_S1024x1_0_1) shapeCasts_S1024x1_S1024⟩]
      concatenates_S1024_S1024_S2048_d0 (ix1 n) = x (ix1 (unperm n)) := by
  have hn := n.isLt
  by_cases h : n.val < 1024
  · refine (concatenate_pair_apply_left (s₁ := S1024) (s₂ := S1024) _ _ _ _ (ix1 n) rfl (ix1 (⟨n.val, h⟩ : Fin 1024)) (fun b => ?_)).trans ?_
    · match b with
      | ⟨0, _⟩ => rfl
    refine parityVec_apply x 0 0 rfl _ ⟨n.val, h⟩ (unperm n) ?_
    unfold unperm
    rw [dif_pos h]
    show 2 * n.val = 2 * n.val + 0
    omega
  · refine (concatenate_pair_apply_right (s₁ := S1024) (s₂ := S1024) _ _ _ _ (ix1 n) rfl rfl (ix1 (⟨n.val - 1024, by omega⟩ : Fin 1024)) (fun b => ?_) ?_).trans ?_
    · match b with
      | ⟨0, _⟩ => intro hne; exact absurd (Fin.ext rfl) hne
    · show n.val - 1024 + 1024 = n.val
      omega
    refine parityVec_apply x 1 1 rfl _ ⟨n.val - 1024, by omega⟩ (unperm n) ?_
    unfold unperm
    rw [dif_neg h]
    rfl

end Regroup

set_option maxHeartbeats 4000000 in
theorem e_v25 : W0' (Proc.devRef .tc main_v25) =
    truncf (F := Ideal) .bf16 (concatenate S4096x2048 1
      [⟨S4096x1024, shapeCast S4096x1024 (extractStridedSlice S4096x1024x1 ![0, 0, 0] (shapeCast S4096x1024x2
          (shapeCast S4096x2048 (extractStridedSlice S1x4096x2048 ![0, 0, 0] (W (Proc.devRef .tc main_arg8)) slices_S2x4096x2048_S1x4096x2048_0_0_0) shapeCasts_S1x4096x2048_S4096x2048)
          shapeCasts_S4096x2048_S4096x1024x2) slices_S4096x1024x2_S4096x1024x1_0_0_0) shapeCasts_S4096x1024x1_S4096x1024⟩,
       ⟨S4096x1024, shapeCast S4096x1024 (extractStridedSlice S4096x1024x1 ![0, 0, 1] (shapeCast S4096x1024x2
          (shapeCast S4096x2048 (extractStridedSlice S1x4096x2048 ![0, 0, 0] (W (Proc.devRef .tc main_arg8)) slices_S2x4096x2048_S1x4096x2048_0_0_0) shapeCasts_S1x4096x2048_S4096x2048)
          shapeCasts_S4096x2048_S4096x1024x2) slices_S4096x1024x2_S4096x1024x1_0_0_1) shapeCasts_S4096x1024x1_S4096x1024⟩]
      concatenates_S4096x1024_S4096x1024_S4096x2048_d1) bitsLt_bf16_f32 := by
  show StableHlo.after hostOps0 W (Proc.devRef .tc main_v25) = _
  read_after

/-- The regrouped third-layer weights of block 0. -/
theorem ho0_w3 (k : Fin 4096) (n : Fin 2048) :
    (W0' (Proc.devRef .tc main_v25) : Mat 4096 2048) (ix2 k n) = (W (Proc.devRef .tc main_arg8) : Mat3 2 4096 2048) (ix3 0 k (unperm n)) := by
  rw [e_v25]
  refine (regroupCols_apply _ k n).trans ?_
  exact stackBlock_apply 0 _ _ _ 0 rfl k (unperm n)

set_option maxHeartbeats 4000000 in
theorem e_v34 : W0' (Proc.devRef .tc main_v34) =
    shapeCast S1x2048 (concatenate S2048 0
      [⟨S1024, shapeCast S1024 (extractStridedSlice S1024x1 ![0, 0] (shapeCast S1024x2
          (shapeCast S2048 (extractStridedSlice S1x2048 ![0, 0] (W (Proc.devRef .tc main_arg9)) slices_S2x2048_S1x2048_0_0) shapeCasts_S1x2048_S2048)
          shapeCasts_S2048_S1024x2) slices_S1024x2_S1024x1_0_0) shapeCasts_S1024x1_S1024⟩,
       ⟨S1024, shapeCast S1024 (extractStridedSlice S1024x1 ![0, 1] (shapeCast S1024x2
          (shapeCast S2048 (extractStridedSlice S1x2048 ![0, 0] (W (Proc.devRef .tc main_arg9)) slices_S2x2048_S1x2048_0_0) shapeCasts_S1x2048_S2048)
          shapeCasts_S2048_S1024x2) slices_S1024x2_S1024x1_0_1) shapeCasts_S1024x1_S1024⟩]
      concatenates_S1024_S1024_S2048_d0) shapeCasts_S2048_S1x2048 := by
  show StableHlo.after hostOps0 W (Proc.devRef .tc main_v34) = _
  read_after

/-- The regrouped third-layer bias of block 0. -/
theorem ho0_b3 (n : Fin 2048) :
    (W0' (Proc.devRef .tc main_v34) : Mat 1 2048) (ix2 0 n) = (W (Proc.devRef .tc main_arg9) : Mat 2 2048) (ix2 0 (unperm n)) := by
  rw [e_v34]
  refine (shapeCast_a_1a_apply _ _ 0 n).trans ?_
  refine (regroupVec_apply _ n).trans ?_
  exact rowBlock_apply 0 _ _ _ 0 rfl (unperm n)

/-! ## Block 0's first layer -/

theorem e_v36 : W0' (Proc.devRef .tc main_v36) =
    shapeCast S1088x4096 (extractStridedSlice S1x1088x4096 ![0, 0, 0] (W (Proc.devRef .tc main_arg4)) slices_S2x1088x4096_S1x1088x4096_0_0_0) shapeCasts_S1x1088x4096_S1088x4096 := by
  show StableHlo.after hostOps0 W (Proc.devRef .tc main_v36) = _
  read_after

theorem e_v39 : W0' (Proc.devRef .tc main_v39) =
    shapeCast S1x4096 (shapeCast S4096 (extractStridedSlice S1x4096 ![0, 0] (W (Proc.devRef .tc main_arg5)) slices_S2x4096_S1x4096_0_0) shapeCasts_S1x4096_S4096) shapeCasts_S4096_S1x4096 := by
  show StableHlo.after hostOps0 W (Proc.devRef .tc main_v39) = _
  read_after

/-- Block 0's first-layer weights. -/
theorem ho0_w1 (k : Fin 1088) (n : Fin 4096) :
    (W0' (Proc.devRef .tc main_v36) : Mat 1088 4096) (ix2 k n) = (W (Proc.devRef .tc main_arg4) : Mat3 2 1088 4096) (ix3 0 k n) := by
  rw [e_v36]
  exact stackBlock_apply 0 _ _ _ 0 rfl k n

/-- Block 0's first-layer bias, as a row. -/
theorem ho0_b1 (n : Fin 4096) :
    (W0' (Proc.devRef .tc main_v39) : Mat 1 4096) (ix2 0 n) = (W (Proc.devRef .tc main_arg5) : Mat 2 4096) (ix2 0 n) := by
  rw [e_v39]
  exact rowBlock_row_apply 0 _ _ _ _ 0 rfl 0 n

/-! ## Block 0's second layer -/

theorem e_v42 : W1' (Proc.devRef .tc main_v42) =
    shapeCast S4096x4096 (extractStridedSlice S1x4096x4096 ![0, 0, 0] (W (Proc.devRef .tc main_arg6)) slices_S2x4096x4096_S1x4096x4096_0_0_0) shapeCasts_S1x4096x4096_S4096x4096 := by
  show StableHlo.after hostOps1 W (Proc.devRef .tc main_v42) = _
  read_after

theorem e_v45 : W1' (Proc.devRef .tc main_v45) =
    shapeCast S1x4096 (shapeCast S4096 (extractStridedSlice S1x4096 ![0, 0] (W (Proc.devRef .tc main_arg7)) slices_S2x4096_S1x4096_0_0) shapeCasts_S1x4096_S4096) shapeCasts_S4096_S1x4096 := by
  show StableHlo.after hostOps1 W (Proc.devRef .tc main_v45) = _
  read_after

/-- Block 0's second-layer weights. -/
theorem ho1_w2 (k : Fin 4096) (n : Fin 4096) :
    (W1' (Proc.devRef .tc main_v42) : Mat 4096 4096) (ix2 k n) = (W (Proc.devRef .tc main_arg6) : Mat3 2 4096 4096) (ix3 0 k n) := by
  rw [e_v42]
  exact stackBlock_apply 0 _ _ _ 0 rfl k n

/-- Block 0's second-layer bias, as a row. -/
theorem ho1_b2 (n : Fin 4096) :
    (W1' (Proc.devRef .tc main_v45) : Mat 1 4096) (ix2 0 n) = (W (Proc.devRef .tc main_arg7) : Mat 2 4096) (ix2 0 n) := by
  rw [e_v45]
  exact rowBlock_row_apply 0 _ _ _ _ 0 rfl 0 n

end Cert.KernelIdeal.Val

end
-- ==== Proof.KernelHost1.lean ====
/-
  The host operations of the kernel program between block 0 and the end, read at an index: block 1's selection matrices, mask, regrouped third-layer weights and bias and weight slices, and the two additions that accumulate the log-determinant — each as a function of the contents the stretch starts from.
-/
import proofs.«427001_j89833535963578_2_alg».proof.Proof.Gen.KernelIdeal.Launch
import proofs.«427001_j89833535963578_2_alg».proof.Proof.Index
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Coupling

/-! ## Layout facts over variables -/

section Generic
variable {α : Type}

/-- Row 1 of a two-row matrix, kept as a one-row matrix. -/
theorem slice_row1_2 {n : Nat} (X : (⟨2, ![2, n]⟩ : Shape).Idx → α)
    (h : (⟨2, ![2, n]⟩ : Shape).Slices ![1, 0] ⟨2, ![1, n]⟩) (u : Fin 1) (q : Fin n) :
    extractStridedSlice ⟨2, ![1, n]⟩ ![1, 0] X h (ix2 u q) = X (ix2 (1 : Fin 2) q) :=
  slice2_axis0_apply 1 X h u q (1 : Fin 2) (by have := u.isLt; show 1 = 1 + u.val; omega)

/-- Matrix 1 of a stack of two, kept as a stack of one. -/
theorem slice_row1_3 {a b : Nat} (X : (⟨3, ![2, a, b]⟩ : Shape).Idx → α)
    (h : (⟨3, ![2, a, b]⟩ : Shape).Slices ![1, 0, 0] ⟨3, ![1, a, b]⟩) (u : Fin 1) (i : Fin a) (j : Fin b) :
    extractStridedSlice ⟨3, ![1, a, b]⟩ ![1, 0, 0] X h (ix3 u i j) = X (ix3 (1 : Fin 2) i j) :=
  extractStridedSlice_apply _ _ _ _ _ (fun ax => by
    match ax with
    | ⟨0, _⟩ => have := u.isLt; show 1 = 1 + u.val; omega
    | ⟨1, _⟩ => exact (Nat.zero_add _).symm
    | ⟨2, _⟩ => exact (Nat.zero_add _).symm)

/-- Matrix 1 of a stack of two, as a matrix. -/
theorem mat1_apply {a b : Nat} (X : (⟨3, ![2, a, b]⟩ : Shape).Idx → α)
    (h : (⟨3, ![2, a, b]⟩ : Shape).Slices ![1, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![1, 0, 0] X h) hc (ix2 i j) = X (ix3 (1 : Fin 2) i j) :=
  (shapeCast_1ab_ab_apply _ hc i j).trans (slice_row1_3 X h 0 i j)

/-- Row 1 of a two-row matrix, as a vector. -/
theorem row1_apply {n : Nat} (X : (⟨2, ![2, n]⟩ : Shape).Idx → α)
    (h : (⟨2, ![2, n]⟩ : Shape).Slices ![1, 0] ⟨2, ![1, n]⟩)
    (hc : (⟨2, ![1, n]⟩ : Shape).ShapeCasts ⟨1, ![n]⟩) (q : Fin n) :
    shapeCast ⟨1, ![n]⟩ (extractStridedSlice ⟨2, ![1, n]⟩ ![1, 0] X h) hc (ix1 q) = X (ix2 (1 : Fin 2) q) :=
  (shapeCast_1a_a_apply _ hc q).trans (slice_row1_2 X h 0 q)

/-- Row 1 of a two-row matrix, as a vector and back as a one-row matrix. -/
theorem row1_row_apply {n : Nat} (X : (⟨2, ![2, n]⟩ : Shape).Idx → α)
    (h : (⟨2, ![2, n]⟩ : Shape).Slices ![1, 0] ⟨2, ![1, n]⟩)
    (hc : (⟨2, ![1, n]⟩ : Shape).ShapeCasts ⟨1, ![n]⟩) (hc' : (⟨1, ![n]⟩ : Shape).ShapeCasts ⟨2, ![1, n]⟩) (u : Fin 1) (q : Fin n) :
    shapeCast ⟨2, ![1, n]⟩ (shapeCast ⟨1, ![n]⟩ (extractStridedSlice ⟨2, ![1, n]⟩ ![1, 0] X h) hc) hc' (ix2 u q) = X (ix2 (1 : Fin 2) q) :=
  (shapeCast_a_1a_apply _ hc' u q).trans (row1_apply X h hc q)

end Generic

/-! ## The regrouping: even columns first, then odd columns -/

section Regroup
variable {α : Type}

/-- Column `o` of a vector of 2048 read as 1024 pairs: entry q is entry 2q + o of the vector. -/
theorem deint_vec (o : Nat) (ho : o < 2) (Z : (⟨1, ![2048]⟩ : Shape).Idx → α)
    (hc1 : (⟨1, ![2048]⟩ : Shape).ShapeCasts ⟨2, ![1024, 2]⟩)
    (hs : (⟨2, ![1024, 2]⟩ : Shape).Slices ![0, o] ⟨2, ![1024, 1]⟩)
    (hc2 : (⟨2, ![1024, 1]⟩ : Shape).ShapeCasts ⟨1, ![1024]⟩)
    (q : Fin 1024) (m : Fin 2048) (hm : m.val = 2 * q.val + o) :
    shapeCast ⟨1, ![1024]⟩ (extractStridedSlice ⟨2, ![1024, 1]⟩ ![0, o] (shapeCast ⟨2, ![1024, 2]⟩ Z hc1) hs) hc2 (ix1 q)
      = Z (ix1 m) := by
  refine (shapeCast_apply _ hc2 (ix1 q) (ix2 q (0 : Fin 1)) ?_).trans ?_
  · rw [Shape.rowMajor_val_two, Shape.rowMajor_val_one]
    show q.val * 1 + 0 = q.val
    omega
  refine (slice2_axis1_apply o _ hs q (0 : Fin 1) (⟨o, ho⟩ : Fin 2) (by show o = o + 0; omega)).trans ?_
  refine shapeCast_apply Z hc1 (ix2 q (⟨o, ho⟩ : Fin 2)) (ix1 m) ?_
  rw [Shape.rowMajor_val_two, Shape.rowMajor_val_one]
  show m.val = q.val * 2 + o
  omega

/-- Column `o` of each row of a [4096 × 2048] matrix read as 1024 pairs: entry (k, q) is entry (k, 2q + o). -/
theorem deint_mat (o : Nat) (ho : o < 2) (Z : (⟨2, ![4096, 2048]⟩ : Shape).Idx → α)
    (hc1 : (⟨2, ![4096, 2048]⟩ : Shape).ShapeCasts ⟨3, ![4096, 1024, 2]⟩)
    (hs : (⟨3, ![4096, 1024, 2]⟩ : Shape).Slices ![0, 0, o] ⟨3, ![4096, 1024, 1]⟩)
    (hc2 : (⟨3, ![4096, 1024, 1]⟩ : Shape).ShapeCasts ⟨2, ![4096, 1024]⟩)
    (k : Fin 4096) (q : Fin 1024) (m : Fin 2048) (hm : m.val = 2 * q.val + o) :
    shapeCast ⟨2, ![4096, 1024]⟩ (extractStridedSlice ⟨3, ![4096, 1024, 1]⟩ ![0, 0, o] (shapeCast ⟨3, ![4096, 1024, 2]⟩ Z hc1) hs) hc2 (ix2 k q)
      = Z (ix2 k m) := by
  refine (shapeCast_apply _ hc2 (ix2 k q) (ix3 k q (0 : Fin 1)) ?_).trans ?_
  · rw [Shape.rowMajor_val_three, Shape.rowMajor_val_two]
    show (k.val * 1024 + q.val) * 1 + 0 = k.val * 1024 + q.val
    omega
  refine (extractStridedSlice_apply _ _ hs (ix3 k q (0 : Fin 1)) (ix3 k q (⟨o, ho⟩ : Fin 2)) (fun ax => by
    match ax with
    | ⟨0, _⟩ => exact (Nat.zero_add _).symm
    | ⟨1, _⟩ => exact (Nat.zero_add _).symm
    | ⟨2, _⟩ => show o = o + 0; omega)).trans ?_
  refine shapeCast_apply Z hc1 (ix3 k q (⟨o, ho⟩ : Fin 2)) (ix2 k m) ?_
  rw [Shape.rowMajor_val_two, Shape.rowMajor_val_three]
  show k.val * 2048 + m.val = (k.val * 1024 + q.val) * 2 + o
  omega

theorem unperm_lt {n : Fin 2048} (h : n.val < 1024) : (unperm n).val = 2 * n.val := by
  unfold unperm; rw [dif_pos h]

theorem unperm_ge {n : Fin 2048} (h : ¬ n.val < 1024) : (unperm n).val = 2 * (n.val - 1024) + 1 := by
  unfold unperm; rw [dif_neg h]

/-- The even entries followed by the odd entries of a vector: entry n is entry `unperm n`. -/
theorem regroup_vec (Z : (⟨1, ![2048]⟩ : Shape).Idx → α)
    (hc1 : (⟨1, ![2048]⟩ : Shape).ShapeCasts ⟨2, ![1024, 2]⟩)
    (hs0 : (⟨2, ![1024, 2]⟩ : Shape).Slices ![0, 0] ⟨2, ![1024, 1]⟩)
    (hs1 : (⟨2, ![1024, 2]⟩ : Shape).Slices ![0, 1] ⟨2, ![1024, 1]⟩)
    (hc2 : (⟨2, ![1024, 1]⟩ : Shape).ShapeCasts ⟨1, ![1024]⟩)
    (hcat : Shape.Concatenates [(⟨1, ![1024]⟩ : Shape), ⟨1, ![1024]⟩] ⟨1, ![2048]⟩ 0) (n : Fin 2048) :
    concatenate ⟨1, ![2048]⟩ 0
      [⟨⟨1, ![1024]⟩, shapeCast ⟨1, ![1024]⟩ (extractStridedSlice ⟨2, ![1024, 1]⟩ ![0, 0] (shapeCast ⟨2, ![1024, 2]⟩ Z hc1) hs0) hc2⟩,
       ⟨⟨1, ![1024]⟩, shapeCast ⟨1, ![1024]⟩ (extractStridedSlice ⟨2, ![1024, 1]⟩ ![0, 1] (shapeCast ⟨2, ![1024, 2]⟩ Z hc1) hs1) hc2⟩]
      hcat (ix1 n) = Z (ix1 (unperm n)) := by
  by_cases h : n.val < 1024
  · refine (concatenate_pair_apply_left (0 : Fin (⟨1, ![2048]⟩ : Shape).rank) _ _ hcat (ix1 n) rfl
      (ix1 (⟨n.val, h⟩ : Fin 1024)) (fun b => by match b with | ⟨0, _⟩ => rfl)).trans ?_
    exact deint_vec 0 (by omega) Z hc1 hs0 hc2 ⟨n.val, h⟩ (unperm n) (by rw [unperm_lt h]; rfl)
  · have hn := n.isLt
    refine (concatenate_pair_apply_right (0 : Fin (⟨1, ![2048]⟩ : Shape).rank) _ _ hcat (ix1 n) rfl rfl
      (ix1 (⟨n.val - 1024, by omega⟩ : Fin 1024)) (fun b hb => by match b with | ⟨0, _⟩ => exact absurd rfl hb) ?_).trans ?_
    · show n.val - 1024 + 1024 = n.val; omega
    exact deint_vec 1 (by omega) Z hc1 hs1 hc2 ⟨n.val - 1024, by omega⟩ (unperm n) (by rw [unperm_ge h])

/-- The even columns followed by the odd columns of a matrix: column n is column `unperm n`. -/
theorem regroup_mat (Z : (⟨2, ![4096, 2048]⟩ : Shape).Idx → α)
    (hc1 : (⟨2, ![4096, 2048]⟩ : Shape).ShapeCasts ⟨3, ![4096, 1024, 2]⟩)
    (hs0 : (⟨3, ![4096, 1024, 2]⟩ : Shape).Slices ![0, 0, 0] ⟨3, ![4096, 1024, 1]⟩)
    (hs1 : (⟨3, ![4096, 1024, 2]⟩ : Shape).Slices ![0, 0, 1] ⟨3, ![4096, 1024, 1]⟩)
    (hc2 : (⟨3, ![4096, 1024, 1]⟩ : Shape).ShapeCasts ⟨2, ![4096, 1024]⟩)
    (hcat : Shape.Concatenates [(⟨2, ![4096, 1024]⟩ : Shape), ⟨2, ![4096, 1024]⟩] ⟨2, ![4096, 2048]⟩ 1) (k : Fin 4096) (n : Fin 2048) :
    concatenate ⟨2, ![4096, 2048]⟩ 1
      [⟨⟨2, ![4096, 1024]⟩, shapeCast ⟨2, ![4096, 1024]⟩ (extractStridedSlice ⟨3, ![4096, 1024, 1]⟩ ![0, 0, 0] (shapeCast ⟨3, ![4096, 1024, 2]⟩ Z hc1) hs0) hc2⟩,
       ⟨⟨2, ![4096, 1024]⟩, shapeCast ⟨2, ![4096, 1024]⟩ (extractStridedSlice ⟨3, ![4096, 1024, 1]⟩ ![0, 0, 1] (shapeCast ⟨3, ![4096, 1024, 2]⟩ Z hc1) hs1) hc2⟩]
      hcat (ix2 k n) = Z (ix2 k (unperm n)) := by
  by_cases h : n.val < 1024
  · refine (concatenate_pair_apply_left (1 : Fin (⟨2, ![4096, 2048]⟩ : Shape).rank) _ _ hcat (ix2 k n) rfl
      (ix2 k (⟨n.val, h⟩ : Fin 1024)) (fun b => by match b with | ⟨0, _⟩ => rfl | ⟨1, _⟩ => rfl)).trans ?_
    exact deint_mat 0 (by omega) Z hc1 hs0 hc2 k ⟨n.val, h⟩ (unperm n) (by rw [unperm_lt h]; rfl)
  · have hn := n.isLt
    refine (concatenate_pair_apply_right (1 : Fin (⟨2, ![4096, 2048]⟩ : Shape).rank) _ _ hcat (ix2 k n) rfl rfl
      (ix2 k (⟨n.val - 1024, by omega⟩ : Fin 1024)) (fun b hb => by
        match b with
        | ⟨0, _⟩ => rfl
        | ⟨1, _⟩ => exact absurd rfl hb) ?_).trans ?_
    · show n.val - 1024 + 1024 = n.val; omega
    exact deint_mat 1 (by omega) Z hc1 hs1 hc2 k ⟨n.val - 1024, by omega⟩ (unperm n) (by rw [unperm_ge h])

end Regroup

/-! ## Selection matrices and their row sums -/

section Sel

/-- A vector laid along the columns of a [2048 × 1024] rectangle reads, at (r, q), the vector at q. -/
theorem bcast_cols_apply {α : Type} (v : (⟨1, ![1024]⟩ : Shape).Idx → α)
    (h1 : (⟨1, ![1024]⟩ : Shape).BroadcastsInDim ⟨2, ![1, 1024]⟩ ![1])
    (h2 : (⟨2, ![1, 1024]⟩ : Shape).BroadcastsInDim ⟨2, ![2048, 1024]⟩ ![0, 1]) (r : Fin 2048) (q : Fin 1024) :
    broadcastInDim ⟨2, ![2048, 1024]⟩ ![0, 1] h2 (broadcastInDim ⟨2, ![1, 1024]⟩ ![1] h1 v) (ix2 r q) = v (ix1 q) := by
  refine (broadcastInDim_apply _ h2 _ (ix2 r q) (ix2 (0 : Fin 1) q) (fun a => ?_)).trans
    (broadcastInDim_apply _ h1 v (ix2 (0 : Fin 1) q) (ix1 q) (fun a => ?_))
  · match a with
    | ⟨0, _⟩ => rfl
    | ⟨1, _⟩ => rfl
  · match a with
    | ⟨0, _⟩ => rfl

/-- Two row numbers below 2048, compared as 32-bit words and the bit read as a number: 1 if they are equal, else 0. -/
theorem sel_word (r c : Fin 2048) :
    FloatOps.uitofp (F := Ideal) .bf16 (IntOp.cmpi .eq (BitVec.ofNat 32 r.val) (BitVec.ofNat 32 c.val))
      = (if r = c then (1 : EReal) else 0) := by
  by_cases h : r = c
  · subst h
    rw [if_pos rfl, (StableHlo.Predicate.cmpi_eq_iff).mpr rfl]
    show (((1#1 : BitVec 1).toNat : ℝ) : EReal) = 1
    simp
  · rw [if_neg h]
    have hne : ¬ IntOp.cmpi .eq (BitVec.ofNat 32 r.val) (BitVec.ofNat 32 c.val) = 1#1 := by
      rw [StableHlo.Predicate.cmpi_eq_iff]
      intro he
      apply h
      have h2 := congrArg BitVec.toNat he
      have hr := r.isLt
      have hc := c.isLt
      rw [BitVec.toNat_ofNat, BitVec.toNat_ofNat, Nat.mod_eq_of_lt (by omega), Nat.mod_eq_of_lt (by omega)] at h2
      exact Fin.ext h2
    rw [eq_zero_of_ne_one hne]
    show (((0#1 : BitVec 1).toNat : ℝ) : EReal) = 0
    simp

/-- The 0/1 matrix whose column q has its one in the row that row 1 of the index array `A` names,
    rows being numbered by the table `T`. -/
abbrev selOfRow1 (T : IVec S2048x1024 32) (A : IVec S2x1024 32) : FVec Ideal S2048x1024 .bf16 :=
  uitofp .bf16 (cmpi .eq T
    (broadcastInDim S2048x1024 ![0, 1] bcast_S1x1024_S2048x1024_0_1
      (broadcastInDim S1x1024 ![1] bcast_S1024_S1x1024_1
        (shapeCast S1024 (extractStridedSlice S1x1024 ![1, 0] A slices_S2x1024_S1x1024_1_0) shapeCasts_S1x1024_S1024))))

/-- With the true row numbers as the table it selects column `f 1 q` in column q. -/
theorem selOf_isSel (T : IVec S2048x1024 32) (A : IVec S2x1024 32) (f : Fin 2 → Fin 1024 → Fin 2048)
    (hA : IdxIs A f) (hT : T = iotaInDim S2048x1024 32 0) : IsSel (selOfRow1 T A : Mat 2048 1024) (f 1) := by
  intro r q
  show FloatOps.uitofp (F := Ideal) .bf16 (IntOp.cmpi .eq (T (ix2 r q))
    (broadcastInDim S2048x1024 ![0, 1] bcast_S1x1024_S2048x1024_0_1
      (broadcastInDim S1x1024 ![1] bcast_S1024_S1x1024_1
        (shapeCast S1024 (extractStridedSlice S1x1024 ![1, 0] A slices_S2x1024_S1x1024_1_0) shapeCasts_S1x1024_S1024)) (ix2 r q))) = _
  rw [bcast_cols_apply, row1_apply, hA 1 q, hT]
  exact sel_word r (f 1 q)

/-- The host's sum along the rows of a [2048 × 1024] matrix from a zero start, as a one-row matrix: entry r is the sum of row r. -/
theorem rowsum_apply (X : FVec Ideal ⟨2, ![2048, 1024]⟩ .f32)
    (hR : (⟨2, ![2048, 1024]⟩ : Shape).ReducesTo [1] ⟨1, ![2048]⟩) (hu : 0 < (⟨0, ![]⟩ : Shape).numel)
    (hc : (⟨1, ![2048]⟩ : Shape).ShapeCasts ⟨2, ![1, 2048]⟩) (r : Fin 2048) :
    shapeCast ⟨2, ![1, 2048]⟩ (Host.reduceAdd X (constant (F := Ideal) ⟨0, ![]⟩ .f32 0x00000000#32) hR hu) hc (ix2 0 r)
      = ∑ q : Fin 1024, X (ix2 r q) := by
  refine (shapeCast_a_1a_apply _ hc 0 r).trans ?_
  have hR' : (⟨2, ![2048, 1024]⟩ : Shape).Reduces [1] ⟨1, ![2048]⟩ := by decide
  rw [hostReduceAdd_apply, Ideal.hostReduceAdd_single hR hR']
  rw [show constant (F := Ideal) ⟨0, ![]⟩ .f32 0x00000000#32 (Shape.Idx.first hu) = (0 : EReal) from Ideal.ofBits_zero_f32, zero_add]
  show ∑ k : Fin 1024, X (hR'.lift (ix1 r) k) = ∑ q : Fin 1024, X (ix2 r q)
  refine Finset.sum_congr rfl (fun k _ => congrArg X ?_)
  funext a
  match a with
  | ⟨0, _⟩ => rfl
  | ⟨1, _⟩ => rfl

end Sel

-- the TensorCore's buffers at some contents (a boundary of @main)
variable (W : Valuation τ sig (Elt Ideal))

local notation "W3'" => StableHlo.after (hostOps3 (F := Ideal)) W
local notation "W4'" => StableHlo.after (hostOps4 (F := Ideal)) W
local notation "W6'" => StableHlo.after (hostOps6 (F := Ideal)) W

/-! ## The buffers of the third stretch that hold the selection matrices and the mask, as terms of the incoming contents -/

theorem v54_eq : (W3' (Proc.devRef .tc main_v54) : Mat 2048 1024)
    = selOfRow1 (W (Proc.devRef .tc main_v1)) (W (Proc.devRef .tc main_arg2)) := by
  show StableHlo.after hostOps3 W (Proc.devRef .tc main_v54) = _
  after_results
  rfl

theorem v60_eq : (W3' (Proc.devRef .tc main_v60) : Mat 2048 1024)
    = selOfRow1 (W (Proc.devRef .tc main_v1)) (W (Proc.devRef .tc main_arg3)) := by
  show StableHlo.after hostOps3 W (Proc.devRef .tc main_v60) = _
  after_results
  rfl

theorem v63_eq : (W3' (Proc.devRef .tc main_v63) : Mat 1 2048)
    = shapeCast S1x2048 (Host.reduceAdd
        (extf .f32 (selOfRow1 (W (Proc.devRef .tc main_v1)) (W (Proc.devRef .tc main_arg3))) bitsLt_bf16_f32 : FVec Ideal S2048x1024 .f32)
        (constant (F := Ideal) S_ .f32 0x00000000#32) reducesTo_S2048x1024_S2048_d1 h_S_) shapeCasts_S2048_S1x2048 := by
  show StableHlo.after hostOps3 W (Proc.devRef .tc main_v63) = _
  after_results
  rfl

/-! ## The statements -/

/-- Block 1's first selection matrix: column q selects column id 1 q (the row-number table is read from the incoming contents). -/
theorem ho3_pid (id : Fin 2 → Fin 1024 → Fin 2048) (hid : IdxIs (W (Proc.devRef .tc main_arg2)) id)
    (hiota : W (Proc.devRef .tc main_v1) = iotaInDim S2048x1024 32 0) :
    IsSel (W3' (Proc.devRef .tc main_v54)) (id 1) := by
  rw [v54_eq]
  exact selOf_isSel _ _ id hid hiota

/-- Block 1's second selection matrix: column q selects column tr 1 q. -/
theorem ho3_ptr (tr : Fin 2 → Fin 1024 → Fin 2048) (htr : IdxIs (W (Proc.devRef .tc main_arg3)) tr)
    (hiota : W (Proc.devRef .tc main_v1) = iotaInDim S2048x1024 32 0) :
    IsSel (W3' (Proc.devRef .tc main_v60)) (tr 1) := by
  rw [v60_eq]
  exact selOf_isSel _ _ tr htr hiota

/-- Block 1's mask is the row sums of its second selection matrix. -/
theorem ho3_mask (r : Fin 2048) :
    (W3' (Proc.devRef .tc main_v63) : Mat 1 2048) (ix2 0 r)
      = @Finset.sum (Fin 1024) EReal _ Finset.univ (fun q => (W3' (Proc.devRef .tc main_v60) : Mat 2048 1024) (ix2 r q)) := by
  rw [v63_eq, v60_eq]
  exact rowsum_apply _ _ _ _ r

/-- The regrouped third-layer weights of block 1. -/
theorem ho3_w3 (k : Fin 4096) (n : Fin 2048) :
    (W3' (Proc.devRef .tc main_v72) : Mat 4096 2048) (ix2 k n) = (W (Proc.devRef .tc main_arg8) : Mat3 2 4096 2048) (ix3 1 k (unperm n)) := by
  have e : (W3' (Proc.devRef .tc main_v72) : Mat 4096 2048)
      = (truncf .bf16 (concatenate S4096x2048 1
          [⟨S4096x1024, shapeCast S4096x1024 (extractStridedSlice S4096x1024x1 ![0, 0, 0]
              (shapeCast S4096x1024x2 (shapeCast S4096x2048 (extractStridedSlice S1x4096x2048 ![1, 0, 0]
                (W (Proc.devRef .tc main_arg8) : FVec Ideal S2x4096x2048 .f32) slices_S2x4096x2048_S1x4096x2048_1_0_0)
                shapeCasts_S1x4096x2048_S4096x2048) shapeCasts_S4096x2048_S4096x1024x2)
              slices_S4096x1024x2_S4096x1024x1_0_0_0) shapeCasts_S4096x1024x1_S4096x1024⟩,
           ⟨S4096x1024, shapeCast S4096x1024 (extractStridedSlice S4096x1024x1 ![0, 0, 1]
              (shapeCast S4096x1024x2 (shapeCast S4096x2048 (extractStridedSlice S1x4096x2048 ![1, 0, 0]
                (W (Proc.devRef .tc main_arg8) : FVec Ideal S2x4096x2048 .f32) slices_S2x4096x2048_S1x4096x2048_1_0_0)
                shapeCasts_S1x4096x2048_S4096x2048) shapeCasts_S4096x2048_S4096x1024x2)
              slices_S4096x1024x2_S4096x1024x1_0_0_1) shapeCasts_S4096x1024x1_S4096x1024⟩]
          concatenates_S4096x1024_S4096x1024_S4096x2048_d1 : FVec Ideal S4096x2048 .f32) bitsLt_bf16_f32 : FVec Ideal S4096x2048 .bf16) := by
    show StableHlo.after hostOps3 W (Proc.devRef .tc main_v72) = _
    after_results_simp
    rfl
  rw [e]
  refine (truncf_apply (φ := .f32) (ψ := .bf16) _ bitsLt_bf16_f32 (ix2 k n)).trans ?_
  refine (regroup_mat _ _ _ _ _ _ k n).trans ?_
  exact mat1_apply _ _ _ k (unperm n)

/-- The regrouped third-layer bias of block 1. -/
theorem ho3_b3 (n : Fin 2048) :
    (W3' (Proc.devRef .tc main_v81) : Mat 1 2048) (ix2 0 n) = (W (Proc.devRef .tc main_arg9) : Mat 2 2048) (ix2 1 (unperm n)) := by
  have e : (W3' (Proc.devRef .tc main_v81) : Mat 1 2048)
      = shapeCast S1x2048 (concatenate S2048 0
          [⟨S1024, shapeCast S1024 (extractStridedSlice S1024x1 ![0, 0]
              (shapeCast S1024x2 (shapeCast S2048 (extractStridedSlice S1x2048 ![1, 0]
                (W (Proc.devRef .tc main_arg9) : FVec Ideal S2x2048 .f32) slices_S2x2048_S1x2048_1_0)
                shapeCasts_S1x2048_S2048) shapeCasts_S2048_S1024x2)
              slices_S1024x2_S1024x1_0_0) shapeCasts_S1024x1_S1024⟩,
           ⟨S1024, shapeCast S1024 (extractStridedSlice S1024x1 ![0, 1]
              (shapeCast S1024x2 (shapeCast S2048 (extractStridedSlice S1x2048 ![1, 0]
                (W (Proc.devRef .tc main_arg9) : FVec Ideal S2x2048 .f32) slices_S2x2048_S1x2048_1_0)
                shapeCasts_S1x2048_S2048) shapeCasts_S2048_S1024x2)
              slices_S1024x2_S1024x1_0_1) shapeCasts_S1024x1_S1024⟩]
          concatenates_S1024_S1024_S2048_d0) shapeCasts_S2048_S1x2048 := by
    show StableHlo.after hostOps3 W (Proc.devRef .tc main_v81) = _
    after_results_simp
    rfl
  rw [e]
  refine (shapeCast_a_1a_apply _ _ 0 n).trans ?_
  refine (regroup_vec _ _ _ _ _ _ n).trans ?_
  exact row1_apply _ _ _ (unperm n)

/-- Block 1's first-layer weights. -/
theorem ho3_w1 (k : Fin 1088) (n : Fin 4096) :
    (W3' (Proc.devRef .tc main_v83) : Mat 1088 4096) (ix2 k n) = (W (Proc.devRef .tc main_arg4) : Mat3 2 1088 4096) (ix3 1 k n) := by
  have e : (W3' (Proc.devRef .tc main_v83) : Mat 1088 4096)
      = shapeCast S1088x4096 (extractStridedSlice S1x1088x4096 ![1, 0, 0] (W (Proc.devRef .tc main_arg4) : Mat3 2 1088 4096)
          slices_S2x1088x4096_S1x1088x4096_1_0_0) shapeCasts_S1x1088x4096_S1088x4096 := by
    show StableHlo.after hostOps3 W (Proc.devRef .tc main_v83) = _
    after_results
    rfl
  rw [e]
  exact mat1_apply _ _ _ k n

/-- Block 1's first-layer bias, as a row. -/
theorem ho3_b1 (n : Fin 4096) :
    (W3' (Proc.devRef .tc main_v86) : Mat 1 4096) (ix2 0 n) = (W (Proc.devRef .tc main_arg5) : Mat 2 4096) (ix2 1 n) := by
  have e : (W3' (Proc.devRef .tc main_v86) : Mat 1 4096)
      = shapeCast S1x4096 (shapeCast S4096 (extractStridedSlice S1x4096 ![1, 0] (W (Proc.devRef .tc main_arg5) : Mat 2 4096)
          slices_S2x4096_S1x4096_1_0) shapeCasts_S1x4096_S4096) shapeCasts_S4096_S1x4096 := by
    show StableHlo.after hostOps3 W (Proc.devRef .tc main_v86) = _
    after_results
    rfl
  rw [e]
  exact row1_row_apply _ _ _ _ 0 n

/-- The log-determinant after block 0: the starting value plus block 0's term. -/
theorem ho3_ld (j : (⟨2, ![8192, 1]⟩ : Shape).Idx) :
    (W3' (Proc.devRef .tc main_v48) : Mat 8192 1) j
      = @HAdd.hAdd EReal EReal EReal _ ((W (Proc.devRef .tc main_v0) : Mat 8192 1) j) ((W (Proc.devRef .tc main_v47_1) : Mat 8192 1) j) := by
  have e : (W3' (Proc.devRef .tc main_v48) : Mat 8192 1)
      = (addf (W (Proc.devRef .tc main_v0) : FVec Ideal S8192x1 .f32) (W (Proc.devRef .tc main_v47_1) : FVec Ideal S8192x1 .f32) : FVec Ideal S8192x1 .f32) := by
    show StableHlo.after hostOps3 W (Proc.devRef .tc main_v48) = _
    after_results
  rw [e]; rfl

/-- Block 1's second-layer weights. -/
theorem ho4_w2 (k : Fin 4096) (n : Fin 4096) :
    (W4' (Proc.devRef .tc main_v89) : Mat 4096 4096) (ix2 k n) = (W (Proc.devRef .tc main_arg6) : Mat3 2 4096 4096) (ix3 1 k n) := by
  have e : (W4' (Proc.devRef .tc main_v89) : Mat 4096 4096)
      = shapeCast S4096x4096 (extractStridedSlice S1x4096x4096 ![1, 0, 0] (W (Proc.devRef .tc main_arg6) : Mat3 2 4096 4096)
          slices_S2x4096x4096_S1x4096x4096_1_0_0) shapeCasts_S1x4096x4096_S4096x4096 := by
    show StableHlo.after hostOps4 W (Proc.devRef .tc main_v89) = _
    after_results
    rfl
  rw [e]
  exact mat1_apply _ _ _ k n

/-- Block 1's second-layer bias, as a row. -/
theorem ho4_b2 (n : Fin 4096) :
    (W4' (Proc.devRef .tc main_v92) : Mat 1 4096) (ix2 0 n) = (W (Proc.devRef .tc main_arg7) : Mat 2 4096) (ix2 1 n) := by
  have e : (W4' (Proc.devRef .tc main_v92) : Mat 1 4096)
      = shapeCast S1x4096 (shapeCast S4096 (extractStridedSlice S1x4096 ![1, 0] (W (Proc.devRef .tc main_arg7) : Mat 2 4096)
          slices_S2x4096_S1x4096_1_0) shapeCasts_S1x4096_S4096) shapeCasts_S4096_S1x4096 := by
    show StableHlo.after hostOps4 W (Proc.devRef .tc main_v92) = _
    after_results
    rfl
  rw [e]
  exact row1_row_apply _ _ _ _ 0 n

/-- The final log-determinant: the value after block 0 plus block 1's term. -/
theorem ho6_ld (j : (⟨2, ![8192, 1]⟩ : Shape).Idx) :
    (W6' (Proc.devRef .tc main_v95) : Mat 8192 1) j
      = @HAdd.hAdd EReal EReal EReal _ ((W (Proc.devRef .tc main_v48) : Mat 8192 1) j) ((W (Proc.devRef .tc main_v94_1) : Mat 8192 1) j) := by
  have e : (W6' (Proc.devRef .tc main_v95) : Mat 8192 1)
      = (addf (W (Proc.devRef .tc main_v48) : FVec Ideal S8192x1 .f32) (W (Proc.devRef .tc main_v94_1) : FVec Ideal S8192x1 .f32) : FVec Ideal S8192x1 .f32) := by
    show StableHlo.after hostOps6 W (Proc.devRef .tc main_v95) = _
    after_results
  rw [e]; rfl

end Cert.KernelIdeal.Val

end
-- ==== Proof.BlockAlg.lean ====
/-
  One coupling block: the three kernels composed are the block of the specification.

  With P a 0/1 selection matrix of the column map sel, the selection product (x · P)[b, q] is x[b, sel q]: every other
  term of the sum is x · 0 = 0, and that holds for every extended real. With sel injective, row r of P has at most one
  1, so the mask 1 − ∑ q, P[r, q] is 0 exactly on the selected columns, and x ∘ (1 − mask) + nv · Pᵀ keeps x off them and
  holds nv[b, q] at column sel q. The regrouped third-layer weights put the reference's even columns first, so the
  kernel's halves S and T are the reference's even and odd columns.
-/
import proofs.«427001_j89833535963578_2_alg».proof.Proof.RegionSpec
import proofs.«427001_j89833535963578_2_alg».proof.Proof.Index

noncomputable section

namespace Cert.Coupling

open Idealize.ShloMosaic Idealize.ShloMosaic.ValueIdx

/-- The selection product picks the selected column. -/
theorem selAt_of_isSel (x : Mat 8192 2048) {P : Mat 2048 1024} {sel : Fin 1024 → Fin 2048} (hP : IsSel P sel)
    (b : Fin 8192) (q : Fin 1024) : selAt x P b q = x (ix2 b (sel q)) := by
  unfold selAt
  rw [Finset.sum_eq_single (sel q)]
  · rw [hP (sel q) q, if_pos rfl, mul_one]
  · intro r _ hr
    rw [hP r q, if_neg hr, mul_zero]
  · intro h
    exact absurd (Finset.mem_univ _) h

/-- The first kernel's matmul input is the perceptron's input: the gathered columns, then the condition columns. -/
theorem mm1In_eq (x : Mat 8192 2048) (cond : Mat 8192 64) {P : Mat 2048 1024} {sel : Fin 1024 → Fin 2048}
    (hP : IsSel P sel) (b : Fin 8192) (k : Fin 1088) : mm1In x P cond b k = hinAt x cond sel b k := by
  unfold mm1In hinAt
  by_cases h : k.val < 1024
  · rw [dif_pos h, dif_pos h, selAt_of_isSel x hP]
  · rw [dif_neg h, dif_neg h]

/-- The first kernel on block i's slices of the first-layer weights is the first layer. -/
theorem mm1_eq (x : Mat 8192 2048) (cond : Mat 8192 64) {P : Mat 2048 1024} {sel : Fin 1024 → Fin 2048}
    (hP : IsSel P sel) (W1 : Mat3 2 1088 4096) (b1 : Mat 2 4096) (i : Fin 2)
    (w1 : Mat 1088 4096) (hw1 : ∀ (k : Fin 1088) (n : Fin 4096), w1 (ix2 k n) = W1 (ix3 i k n))
    (c1 : Mat 1 4096) (hc1 : ∀ n : Fin 4096, c1 (ix2 0 n) = b1 (ix2 i n)) (b : Fin 8192) (n : Fin 4096) :
    mm1 x P cond w1 c1 (ix2 b n) = h1At x cond sel W1 b1 i b n := by
  show max ((∑ k : Fin 1088, mm1In x P cond b k * w1 (ix2 k n)) + c1 (ix2 0 n)) 0 = _
  unfold h1At
  have hs : (∑ k : Fin 1088, mm1In x P cond b k * w1 (ix2 k n))
      = ∑ k : Fin 1088, hinAt x cond sel b k * W1 (ix3 i k n) :=
    Finset.sum_congr rfl fun k _ => by rw [mm1In_eq x cond hP b k, hw1 k n]
  rw [hs, hc1 n]

/-- The second kernel on block i's slices, over an array that holds first-layer activations, is the second layer. -/
theorem mm2_eq (a : Mat 8192 4096) (h1 : Fin 8192 → Fin 4096 → EReal) (ha : ∀ (b : Fin 8192) (k : Fin 4096), a (ix2 b k) = h1 b k)
    (W2 : Mat3 2 4096 4096) (b2 : Mat 2 4096) (i : Fin 2)
    (w2 : Mat 4096 4096) (hw2 : ∀ (k : Fin 4096) (n : Fin 4096), w2 (ix2 k n) = W2 (ix3 i k n))
    (c2 : Mat 1 4096) (hc2 : ∀ n : Fin 4096, c2 (ix2 0 n) = b2 (ix2 i n)) (b : Fin 8192) (n : Fin 4096) :
    mm2 a w2 c2 (ix2 b n) = h2At h1 W2 b2 i b n := by
  show max ((∑ k : Fin 4096, a (ix2 b k) * w2 (ix2 k n)) + c2 (ix2 0 n)) 0 = _
  unfold h2At
  have hs : (∑ k : Fin 4096, a (ix2 b k) * w2 (ix2 k n)) = ∑ k : Fin 4096, h1 b k * W2 (ix3 i k n) :=
    Finset.sum_congr rfl fun k _ => by rw [ha b k, hw2 k n]
  rw [hs, hc2 n]

/-- The third kernel's accumulator at column n is the third layer at the column the regrouping took n from. -/
theorem mm3Acc_eq (a : Mat 8192 4096) (h2 : Fin 8192 → Fin 4096 → EReal) (ha : ∀ (b : Fin 8192) (k : Fin 4096), a (ix2 b k) = h2 b k)
    (W3 : Mat3 2 4096 2048) (b3 : Mat 2 2048) (i : Fin 2)
    (w3 : Mat 4096 2048) (hw3 : ∀ (k : Fin 4096) (n : Fin 2048), w3 (ix2 k n) = W3 (ix3 i k (unperm n)))
    (c3 : Mat 1 2048) (hc3 : ∀ n : Fin 2048, c3 (ix2 0 n) = b3 (ix2 i (unperm n))) (b : Fin 8192) (n : Fin 2048) :
    mm3Acc a w3 c3 b n = oAt h2 W3 b3 i b (unperm n) := by
  unfold mm3Acc oAt
  have hs : (∑ k : Fin 4096, a (ix2 b k) * w3 (ix2 k n)) = ∑ k : Fin 4096, h2 b k * W3 (ix3 i k (unperm n)) :=
    Finset.sum_congr rfl fun k _ => by rw [ha b k, hw3 k n]
  rw [hs, hc3 n]

/-- The regrouping took column q < 1024 from the even column 2q. -/
theorem unperm_lo (q : Fin 1024) (h : q.val < 2048) :
    unperm ⟨q.val, h⟩ = ⟨2 * q.val, by have := q.isLt; omega⟩ := by
  have hq : (⟨q.val, h⟩ : Fin 2048).val < 1024 := q.isLt
  unfold unperm
  rw [dif_pos hq]

/-- The regrouping took column 1024 + q from the odd column 2q + 1. -/
theorem unperm_hi (q : Fin 1024) (h : q.val + 1024 < 2048) :
    unperm ⟨q.val + 1024, h⟩ = ⟨2 * q.val + 1, by have := q.isLt; omega⟩ := by
  have hq : ¬ (⟨q.val + 1024, h⟩ : Fin 2048).val < 1024 := by
    show ¬ q.val + 1024 < 1024
    omega
  unfold unperm
  rw [dif_neg hq]
  apply Fin.ext
  show 2 * (q.val + 1024 - 1024) + 1 = 2 * q.val + 1
  omega

section Block
variable (a : Mat 8192 4096) (h2 : Fin 8192 → Fin 4096 → EReal) (ha : ∀ (b : Fin 8192) (k : Fin 4096), a (ix2 b k) = h2 b k)
  (W3 : Mat3 2 4096 2048) (b3 : Mat 2 2048) (i : Fin 2)
  (w3 : Mat 4096 2048) (hw3 : ∀ (k : Fin 4096) (n : Fin 2048), w3 (ix2 k n) = W3 (ix3 i k (unperm n)))
  (c3 : Mat 1 2048) (hc3 : ∀ n : Fin 2048, c3 (ix2 0 n) = b3 (ix2 i (unperm n)))
include ha hw3 hc3

/-- The kernel's scale half is the third layer's even columns. -/
theorem mm3S_eq (b : Fin 8192) (q : Fin 1024) : mm3S a w3 c3 b q = sAt (oAt h2 W3 b3 i) b q := by
  unfold mm3S sAt
  rw [mm3Acc_eq a h2 ha W3 b3 i w3 hw3 c3 hc3, unperm_lo]

/-- The kernel's translation half is the third layer's odd columns. -/
theorem mm3T_eq (b : Fin 8192) (q : Fin 1024) : mm3T a w3 c3 b q = tAt (oAt h2 W3 b3 i) b q := by
  unfold mm3T tAt
  rw [mm3Acc_eq a h2 ha W3 b3 i w3 hw3 c3 hc3, unperm_hi]

/-- The kernel's transformed values are the specification's. -/
theorem mm3Nv_eq (x : Mat 8192 2048) {P : Mat 2048 1024} {tr : Fin 1024 → Fin 2048} (hP : IsSel P tr)
    (b : Fin 8192) (q : Fin 1024) : mm3Nv a w3 c3 x P b q = nvAt x tr (oAt h2 W3 b3 i) b q := by
  unfold mm3Nv nvAt
  rw [selAt_of_isSel x hP, mm3S_eq a h2 ha W3 b3 i w3 hw3 c3 hc3, mm3T_eq a h2 ha W3 b3 i w3 hw3 c3 hc3]

end Block

/-- One minus one is zero in the extended reals. -/
theorem one_sub_one_ereal : (1 : EReal) - 1 = 0 := by
  rw [← EReal.coe_one, ← EReal.coe_sub, sub_self, EReal.coe_zero]

/-- Masking and scattering: with P the selection matrix of an injective column map tr and the mask its row sums,
    x ∘ (1 − mask) + nv · Pᵀ holds nv at the q with tr q = r where there is one, and x elsewhere. -/
theorem mix_eq (x : Mat 8192 2048) {P : Mat 2048 1024} {tr : Fin 1024 → Fin 2048} (htr : Function.Injective tr)
    (hP : IsSel P tr) (mask : Mat 1 2048) (hmask : ∀ r : Fin 2048, mask (ix2 0 r) = ∑ q : Fin 1024, P (ix2 r q))
    (nv : Fin 1024 → EReal) (b : Fin 8192) (r : Fin 2048) :
    x (ix2 b r) * (1 - mask (ix2 0 r)) + ∑ q : Fin 1024, nv q * P (ix2 r q)
      = if h : ∃ q, tr q = r then nv h.choose else x (ix2 b r) := by
  rw [hmask r]
  by_cases h : ∃ q, tr q = r
  · rw [dif_pos h]
    have hq0 : tr h.choose = r := h.choose_spec
    have hP0 : ∀ q : Fin 1024, P (ix2 r q) = if q = h.choose then 1 else 0 := by
      intro q
      rw [hP r q]
      by_cases hq : q = h.choose
      · rw [if_pos hq, if_pos (by rw [hq, hq0])]
      · rw [if_neg hq, if_neg]
        intro hr
        exact hq (htr (by rw [hq0, ← hr]))
    have hm : (∑ q : Fin 1024, P (ix2 r q)) = 1 := by
      rw [Finset.sum_eq_single h.choose]
      · rw [hP0, if_pos rfl]
      · intro q _ hq
        rw [hP0, if_neg hq]
      · intro hh
        exact absurd (Finset.mem_univ _) hh
    have hs : (∑ q : Fin 1024, nv q * P (ix2 r q)) = nv h.choose := by
      rw [Finset.sum_eq_single h.choose]
      · rw [hP0, if_pos rfl, mul_one]
      · intro q _ hq
        rw [hP0, if_neg hq, mul_zero]
      · intro hh
        exact absurd (Finset.mem_univ _) hh
    rw [hm, hs, one_sub_one_ereal, mul_zero, zero_add]
  · rw [dif_neg h]
    have hP0 : ∀ q : Fin 1024, P (ix2 r q) = 0 := by
      intro q
      rw [hP r q, if_neg]
      intro hr
      exact h ⟨q, hr.symm⟩
    have hm : (∑ q : Fin 1024, P (ix2 r q)) = 0 := Finset.sum_eq_zero fun q _ => hP0 q
    have hs : (∑ q : Fin 1024, nv q * P (ix2 r q)) = 0 := Finset.sum_eq_zero fun q _ => by rw [hP0 q, mul_zero]
    rw [hm, hs, sub_zero, mul_one, add_zero]

/-- One block: the three kernels composed, on operands that are the block's slices of the arguments, give the
    specification's new activations and its log-determinant term. -/
theorem block_eq (cond : Mat 8192 64) (W1 : Mat3 2 1088 4096) (b1 : Mat 2 4096) (W2 : Mat3 2 4096 4096) (b2 : Mat 2 4096)
    (W3 : Mat3 2 4096 2048) (b3 : Mat 2 2048) (id tr : Fin 2 → Fin 1024 → Fin 2048) (i : Fin 2)
    (htr : Function.Injective (tr i))
    (x : Mat 8192 2048) (Pid Ptr : Mat 2048 1024) (hPid : IsSel Pid (id i)) (hPtr : IsSel Ptr (tr i))
    (mask : Mat 1 2048) (hmask : ∀ r : Fin 2048, mask (ix2 0 r) = ∑ q : Fin 1024, Ptr (ix2 r q))
    (w1 : Mat 1088 4096) (hw1 : ∀ (k : Fin 1088) (n : Fin 4096), w1 (ix2 k n) = W1 (ix3 i k n))
    (c1 : Mat 1 4096) (hc1 : ∀ n : Fin 4096, c1 (ix2 0 n) = b1 (ix2 i n))
    (w2 : Mat 4096 4096) (hw2 : ∀ (k : Fin 4096) (n : Fin 4096), w2 (ix2 k n) = W2 (ix3 i k n))
    (c2 : Mat 1 4096) (hc2 : ∀ n : Fin 4096, c2 (ix2 0 n) = b2 (ix2 i n))
    (w3 : Mat 4096 2048) (hw3 : ∀ (k : Fin 4096) (n : Fin 2048), w3 (ix2 k n) = W3 (ix3 i k (unperm n)))
    (c3 : Mat 1 2048) (hc3 : ∀ n : Fin 2048, c3 (ix2 0 n) = b3 (ix2 i (unperm n))) :
    mm3X (mm2 (mm1 x Pid cond w1 c1) w2 c2) w3 c3 x Ptr mask = blockX cond W1 b1 W2 b2 W3 b3 id tr x i
    ∧ mm3Ld (mm2 (mm1 x Pid cond w1 c1) w2 c2) w3 c3
        = fun j => ldAt (blockO cond W1 b1 W2 b2 W3 b3 id x i) (j 0) := by
  have e1 : ∀ (b : Fin 8192) (n : Fin 4096), mm1 x Pid cond w1 c1 (ix2 b n) = h1At x cond (id i) W1 b1 i b n :=
    fun b n => mm1_eq x cond hPid W1 b1 i w1 hw1 c1 hc1 b n
  have e2 : ∀ (b : Fin 8192) (n : Fin 4096),
      mm2 (mm1 x Pid cond w1 c1) w2 c2 (ix2 b n) = h2At (h1At x cond (id i) W1 b1 i) W2 b2 i b n :=
    fun b n => mm2_eq (mm1 x Pid cond w1 c1) (h1At x cond (id i) W1 b1 i) e1 W2 b2 i w2 hw2 c2 hc2 b n
  have eO : blockO cond W1 b1 W2 b2 W3 b3 id x i = oAt (h2At (h1At x cond (id i) W1 b1 i) W2 b2 i) W3 b3 i := rfl
  constructor
  · funext j
    obtain ⟨b, r, rfl⟩ : ∃ b r, j = ix2 b r := ⟨j 0, j 1, eq_ix2 j⟩
    show x (ix2 b r) * (1 - mask (ix2 0 r))
        + ∑ q : Fin 1024, mm3Nv (mm2 (mm1 x Pid cond w1 c1) w2 c2) w3 c3 x Ptr b q * Ptr (ix2 r q)
      = xnewAt x (tr i) (blockO cond W1 b1 W2 b2 W3 b3 id x i) b r
    have hs : (∑ q : Fin 1024, mm3Nv (mm2 (mm1 x Pid cond w1 c1) w2 c2) w3 c3 x Ptr b q * Ptr (ix2 r q))
        = ∑ q : Fin 1024, nvAt x (tr i) (blockO cond W1 b1 W2 b2 W3 b3 id x i) b q * Ptr (ix2 r q) :=
      Finset.sum_congr rfl fun q _ => by
        rw [mm3Nv_eq (mm2 (mm1 x Pid cond w1 c1) w2 c2) _ e2 W3 b3 i w3 hw3 c3 hc3 x hPtr b q, eO]
    rw [hs]
    exact mix_eq x htr hPtr mask hmask (nvAt x (tr i) (blockO cond W1 b1 W2 b2 W3 b3 id x i) b) b r
  · funext j
    show (∑ q : Fin 1024, mm3S (mm2 (mm1 x Pid cond w1 c1) w2 c2) w3 c3 (j 0) q)
      = ldAt (blockO cond W1 b1 W2 b2 W3 b3 id x i) (j 0)
    unfold ldAt
    exact Finset.sum_congr rfl fun q _ => by
      rw [mm3S_eq (mm2 (mm1 x Pid cond w1 c1) w2 c2) _ e2 W3 b3 i w3 hw3 c3 hc3 (j 0) q, eO]

end Cert.Coupling

end
-- ==== Proof.Thread.lean ====
/-
  The kernel program's two results as functions of its arguments: the fold through @main's eleven segments, read back.

  Each pallas_call's output array is the whole-array function of its operand arrays; each operand is either an argument,
  a host-computed table (a selection matrix, the mask, a regrouped or sliced weight) or an earlier call's output,
  carried unchanged through the segments that do not write it. Composed, block by block, the activations are the
  specification's layer and the log-determinant its sum of the two blocks' terms.
-/
import proofs.«427001_j89833535963578_2_alg».proof.Proof.Gen.KernelIdeal.Frame
import proofs.«427001_j89833535963578_2_alg».proof.Proof.Region0
import proofs.«427001_j89833535963578_2_alg».proof.Proof.Region1
import proofs.«427001_j89833535963578_2_alg».proof.Proof.Region2
import proofs.«427001_j89833535963578_2_alg».proof.Proof.Region3
import proofs.«427001_j89833535963578_2_alg».proof.Proof.Region4
import proofs.«427001_j89833535963578_2_alg».proof.Proof.Region5
import proofs.«427001_j89833535963578_2_alg».proof.Proof.KernelHost0
import proofs.«427001_j89833535963578_2_alg».proof.Proof.KernelHost1
import proofs.«427001_j89833535963578_2_alg».proof.Proof.BlockAlg

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Coupling

section Thread
variable (m : (ℓ : Loc nD τ sig) → Buf (Elt Ideal) ℓ) (ρ : Dev nD → PrngReg)

/-- No operation of a stretch of host operations writes the buffer: one inequality of references per operation. -/
local macro "host_nw " h:ident : tactic => `(tactic| (
  refine List.forall_iff_forall_mem.mp ?_
  simp only [$h:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

namespace Fold
variable (c : Dev nD)

-- the launch contents of a buffer, and its contents at each boundary of the fold
set_option quotPrecheck false in
local notation "A[" b "]" => m ((c : Thread nD τ).loc b)
set_option quotPrecheck false in
local notation "B1[" b "]" => W1 (F := Ideal) m ρ c (Proc.devRef .tc b)
set_option quotPrecheck false in
local notation "B2[" b "]" => W2 (F := Ideal) m ρ c (Proc.devRef .tc b)
set_option quotPrecheck false in
local notation "B3[" b "]" => W3 (F := Ideal) m ρ c (Proc.devRef .tc b)
set_option quotPrecheck false in
local notation "B4[" b "]" => W4 (F := Ideal) m ρ c (Proc.devRef .tc b)
set_option quotPrecheck false in
local notation "B5[" b "]" => W5 (F := Ideal) m ρ c (Proc.devRef .tc b)
set_option quotPrecheck false in
local notation "B6[" b "]" => W6 (F := Ideal) m ρ c (Proc.devRef .tc b)
set_option quotPrecheck false in
local notation "B7[" b "]" => W7 (F := Ideal) m ρ c (Proc.devRef .tc b)
set_option quotPrecheck false in
local notation "B8[" b "]" => W8 (F := Ideal) m ρ c (Proc.devRef .tc b)
set_option quotPrecheck false in
local notation "B9[" b "]" => W9 (F := Ideal) m ρ c (Proc.devRef .tc b)
set_option quotPrecheck false in
local notation "B10[" b "]" => W10 (F := Ideal) m ρ c (Proc.devRef .tc b)
set_option quotPrecheck false in
local notation "B11[" b "]" => W11 (F := Ideal) m ρ c (Proc.devRef .tc b)

/-! ## Buffers carried unchanged through the segments that do not write them -/

/-- After the first host stretch a buffer it does not write still holds the launch contents. -/
theorem W1_keep (b : Ref sig .tc)
    (h0 : ∀ op ∈ (hostOps0 (F := Ideal)), (Proc.devRef .tc b : DevRef τ sig) ∉ op.writes) :
    B1[b] = A[b] :=
  StableHlo.after_of_forall_not_mem _ _ h0

/-- From the first call's exit back to the launch, for a buffer outside the call's windows. -/
theorem W2_keep (b : Ref sig .tc)
    (h0 : ∀ op ∈ (hostOps0 (F := Ideal)), (Proc.devRef .tc b : DevRef τ sig) ∉ op.writes)
    (r0 : ∀ w, Pipeline.arrRef spec0 w ≠ b) :
    B2[b] = A[b] :=
  (W2_of_ne m ρ c b r0).trans (W1_keep m ρ c b h0)

/-- From the second call's exit back to the first call's entry. -/
theorem W4_W1 (b : Ref sig .tc)
    (r0 : ∀ w, Pipeline.arrRef spec0 w ≠ b)
    (h1 : ∀ op ∈ (hostOps1 (F := Ideal)), (Proc.devRef .tc b : DevRef τ sig) ∉ op.writes)
    (r1 : ∀ w, Pipeline.arrRef spec1 w ≠ b) :
    B4[b] = B1[b] :=
  (W4_of_ne m ρ c b r1).trans ((StableHlo.after_of_forall_not_mem _ _ h1).trans (W2_of_ne m ρ c b r0))

/-- From the third call's exit back to the first call's entry. -/
theorem W5_W1 (b : Ref sig .tc)
    (r0 : ∀ w, Pipeline.arrRef spec0 w ≠ b)
    (h1 : ∀ op ∈ (hostOps1 (F := Ideal)), (Proc.devRef .tc b : DevRef τ sig) ∉ op.writes)
    (r1 : ∀ w, Pipeline.arrRef spec1 w ≠ b) (r2 : ∀ w, Pipeline.arrRef spec2 w ≠ b) :
    B5[b] = B1[b] :=
  (W5_of_ne m ρ c b r2).trans (W4_W1 m ρ c b r0 h1 r1)

/-- An argument no segment up to the third call's exit writes or reads through a window holds its launch contents there. -/
theorem W5_keep (b : Ref sig .tc)
    (h0 : ∀ op ∈ (hostOps0 (F := Ideal)), (Proc.devRef .tc b : DevRef τ sig) ∉ op.writes)
    (r0 : ∀ w, Pipeline.arrRef spec0 w ≠ b)
    (h1 : ∀ op ∈ (hostOps1 (F := Ideal)), (Proc.devRef .tc b : DevRef τ sig) ∉ op.writes)
    (r1 : ∀ w, Pipeline.arrRef spec1 w ≠ b) (r2 : ∀ w, Pipeline.arrRef spec2 w ≠ b) :
    B5[b] = A[b] :=
  (W5_W1 m ρ c b r0 h1 r1 r2).trans (W1_keep m ρ c b h0)

/-- The activations argument at the third call's entry: read by the first call through an input window, written by nothing. -/
theorem W4_arg0 : B4[main_arg0] = A[main_arg0] :=
  calc B4[main_arg0]
    _ = B3[main_arg0] := W4_of_ne m ρ c main_arg0 (by decide)
    _ = B2[main_arg0] := StableHlo.after_of_forall_not_mem _ _ (by host_nw hostOps1)
    _ = B1[main_arg0] := (W2_arr m ρ c 0).trans (((dat0 (V1 m ρ) c).arrAt_in 0 rfl _).trans (A_eq0 (V1 m ρ) c 0))
    _ = A[main_arg0] := W1_keep m ρ c main_arg0 (by host_nw hostOps0)

/-! ## Block 0: the three calls composed -/

/-- The first call's output array. -/
theorem b0_h1 :
    (B2[main_v40] : Mat 8192 4096) = mm1 A[main_arg0] B1[main_v7] A[main_arg1] B1[main_v36] B1[main_v39] := by
  have e : (B2[main_v40] : Mat 8192 4096) = mm1 B1[main_arg0] B1[main_v7] B1[main_arg1] B1[main_v36] B1[main_v39] :=
    (W2_arr (F := Ideal) m ρ c 5).trans (region0_value (V1 (F := Ideal) m ρ) c)
  rw [W1_keep m ρ c main_arg0 (by host_nw hostOps0), W1_keep m ρ c main_arg1 (by host_nw hostOps0)] at e
  exact e

/-- The second call's output array. -/
theorem b0_h2 :
    (B4[main_v46] : Mat 8192 4096) = mm2 B2[main_v40] B3[main_v42] B3[main_v45] := by
  have e : (B4[main_v46] : Mat 8192 4096) = mm2 B3[main_v40] B3[main_v42] B3[main_v45] :=
    (W4_arr (F := Ideal) m ρ c 3).trans (region1_value (V3 (F := Ideal) m ρ) c)
  rw [show B3[main_v40] = B2[main_v40] from StableHlo.after_of_forall_not_mem _ _ (by host_nw hostOps1)] at e
  exact e

/-- The third call's first output array. -/
theorem b0_x :
    (B5[main_v47_0] : Mat 8192 2048)
      = mm3X B4[main_v46] B1[main_v25] B1[main_v34] A[main_arg0] B1[main_v13] B1[main_v16] := by
  have e : (B5[main_v47_0] : Mat 8192 2048)
      = mm3X B4[main_v46] B4[main_v25] B4[main_v34] B4[main_arg0] B4[main_v13] B4[main_v16] :=
    (W5_arr (F := Ideal) m ρ c 6).trans (region2_value_x (V4 (F := Ideal) m ρ) c)
  rw [W4_W1 m ρ c main_v25 (by decide) (by host_nw hostOps1) (by decide),
    W4_W1 m ρ c main_v34 (by decide) (by host_nw hostOps1) (by decide),
    W4_W1 m ρ c main_v13 (by decide) (by host_nw hostOps1) (by decide),
    W4_W1 m ρ c main_v16 (by decide) (by host_nw hostOps1) (by decide), W4_arg0 m ρ c] at e
  exact e

/-- The third call's second output array. -/
theorem b0_ld :
    (B5[main_v47_1] : Mat 8192 1) = mm3Ld B4[main_v46] B1[main_v25] B1[main_v34] := by
  have e : (B5[main_v47_1] : Mat 8192 1) = mm3Ld B4[main_v46] B4[main_v25] B4[main_v34] :=
    (W5_arr (F := Ideal) m ρ c 7).trans (region2_value_ld (V4 (F := Ideal) m ρ) c)
  rw [W4_W1 m ρ c main_v25 (by decide) (by host_nw hostOps1) (by decide),
    W4_W1 m ρ c main_v34 (by decide) (by host_nw hostOps1) (by decide)] at e
  exact e

/-- Block 0 of the program is block 0 of the specification. -/
theorem block0 (id tr : Fin 2 → Fin 1024 → Fin 2048) (hid : IdxIs A[main_arg2] id) (htr : IdxIs A[main_arg3] tr)
    (hinj : Function.Injective (tr 0)) :
    (B5[main_v47_0] : Mat 8192 2048)
        = blockX A[main_arg1] A[main_arg4] A[main_arg5] A[main_arg6] A[main_arg7] A[main_arg8] A[main_arg9] id tr A[main_arg0] 0
    ∧ (B5[main_v47_1] : Mat 8192 1)
        = fun j => ldAt (blockO A[main_arg1] A[main_arg4] A[main_arg5] A[main_arg6] A[main_arg7] A[main_arg8] A[main_arg9] id A[main_arg0] 0) (j 0) := by
  have a6 : B2[main_arg6] = A[main_arg6] := W2_keep m ρ c main_arg6 (by host_nw hostOps0) (by decide)
  have a7 : B2[main_arg7] = A[main_arg7] := W2_keep m ρ c main_arg7 (by host_nw hostOps0) (by decide)
  have hw2 : ∀ (k : Fin 4096) (n : Fin 4096), (B3[main_v42] : Mat 4096 4096) (ix2 k n) = (A[main_arg6] : Mat3 2 4096 4096) (ix3 0 k n) :=
    fun k n => (ho1_w2 (W2 (F := Ideal) m ρ c) k n).trans (by rw [a6])
  have hb2 : ∀ n : Fin 4096, (B3[main_v45] : Mat 1 4096) (ix2 0 n) = (A[main_arg7] : Mat 2 4096) (ix2 0 n) :=
    fun n => (ho1_b2 (W2 (F := Ideal) m ρ c) n).trans (by rw [a7])
  obtain ⟨bx, bl⟩ := block_eq A[main_arg1] A[main_arg4] A[main_arg5] A[main_arg6] A[main_arg7] A[main_arg8] A[main_arg9] id tr 0 hinj
    A[main_arg0] B1[main_v7] B1[main_v13] (ho0_pid (W0 (F := Ideal) m ρ c) id hid) (ho0_ptr (W0 (F := Ideal) m ρ c) tr htr)
    B1[main_v16] (ho0_mask (W0 (F := Ideal) m ρ c))
    B1[main_v36] (ho0_w1 (W0 (F := Ideal) m ρ c)) B1[main_v39] (ho0_b1 (W0 (F := Ideal) m ρ c))
    B3[main_v42] hw2 B3[main_v45] hb2
    B1[main_v25] (ho0_w3 (W0 (F := Ideal) m ρ c)) B1[main_v34] (ho0_b3 (W0 (F := Ideal) m ρ c))
  constructor
  · rw [b0_x m ρ c, b0_h2 m ρ c, b0_h1 m ρ c]; exact bx
  · rw [b0_ld m ρ c, b0_h2 m ρ c, b0_h1 m ρ c]; exact bl

/-! ## Block 1: the carries, then the three calls composed -/

/-- From the fifth call's exit back to the fourth call's entry. -/
theorem W9_W6 (b : Ref sig .tc)
    (r3 : ∀ w, Pipeline.arrRef spec3 w ≠ b)
    (h4 : ∀ op ∈ (hostOps4 (F := Ideal)), (Proc.devRef .tc b : DevRef τ sig) ∉ op.writes)
    (r4 : ∀ w, Pipeline.arrRef spec4 w ≠ b) :
    B9[b] = B6[b] :=
  (W9_of_ne m ρ c b r4).trans ((StableHlo.after_of_forall_not_mem _ _ h4).trans (W7_of_ne m ρ c b r3))

/-- An argument no segment up to the fourth call's exit writes or reads through a window holds its launch contents there. -/
theorem W7_keep (b : Ref sig .tc)
    (h0 : ∀ op ∈ (hostOps0 (F := Ideal)), (Proc.devRef .tc b : DevRef τ sig) ∉ op.writes)
    (r0 : ∀ w, Pipeline.arrRef spec0 w ≠ b)
    (h1 : ∀ op ∈ (hostOps1 (F := Ideal)), (Proc.devRef .tc b : DevRef τ sig) ∉ op.writes)
    (r1 : ∀ w, Pipeline.arrRef spec1 w ≠ b) (r2 : ∀ w, Pipeline.arrRef spec2 w ≠ b)
    (h3 : ∀ op ∈ (hostOps3 (F := Ideal)), (Proc.devRef .tc b : DevRef τ sig) ∉ op.writes)
    (r3 : ∀ w, Pipeline.arrRef spec3 w ≠ b) :
    B7[b] = A[b] :=
  (W7_of_ne m ρ c b r3).trans ((StableHlo.after_of_forall_not_mem _ _ h3).trans (W5_keep m ρ c b h0 r0 h1 r1 r2))

/-- The condition argument at the fourth call's entry: read by the first call through an input window, written by nothing. -/
theorem W6_arg1 : B6[main_arg1] = A[main_arg1] :=
  calc B6[main_arg1]
    _ = B5[main_arg1] := StableHlo.after_of_forall_not_mem _ _ (by host_nw hostOps3)
    _ = B4[main_arg1] := W5_of_ne m ρ c main_arg1 (by decide)
    _ = B3[main_arg1] := W4_of_ne m ρ c main_arg1 (by decide)
    _ = B2[main_arg1] := StableHlo.after_of_forall_not_mem _ _ (by host_nw hostOps1)
    _ = B1[main_arg1] := (W2_arr m ρ c 2).trans (((dat0 (V1 m ρ) c).arrAt_in 2 rfl _).trans (A_eq0 (V1 m ρ) c 2))
    _ = A[main_arg1] := W1_keep m ρ c main_arg1 (by host_nw hostOps0)

/-- Block 0's activations at the sixth call's entry: read by the fourth call through an input window, written by nothing since. -/
theorem W9_x1 : B9[main_v47_0] = B5[main_v47_0] :=
  calc B9[main_v47_0]
    _ = B8[main_v47_0] := W9_of_ne m ρ c main_v47_0 (by decide)
    _ = B7[main_v47_0] := StableHlo.after_of_forall_not_mem _ _ (by host_nw hostOps4)
    _ = B6[main_v47_0] := (W7_arr m ρ c 0).trans (((dat3 (V6 m ρ) c).arrAt_in 0 rfl _).trans (A_eq3 (V6 m ρ) c 0))
    _ = B5[main_v47_0] := StableHlo.after_of_forall_not_mem _ _ (by host_nw hostOps3)

/-- The fourth call's output array. -/
theorem b1_h1 :
    (B7[main_v87] : Mat 8192 4096) = mm1 B5[main_v47_0] B6[main_v54] A[main_arg1] B6[main_v83] B6[main_v86] := by
  have e : (B7[main_v87] : Mat 8192 4096) = mm1 B6[main_v47_0] B6[main_v54] B6[main_arg1] B6[main_v83] B6[main_v86] :=
    (W7_arr (F := Ideal) m ρ c 5).trans (region3_value (V6 (F := Ideal) m ρ) c)
  rw [show B6[main_v47_0] = B5[main_v47_0] from StableHlo.after_of_forall_not_mem _ _ (by host_nw hostOps3),
    W6_arg1 m ρ c] at e
  exact e

/-- The fifth call's output array. -/
theorem b1_h2 :
    (B9[main_v93] : Mat 8192 4096) = mm2 B7[main_v87] B8[main_v89] B8[main_v92] := by
  have e : (B9[main_v93] : Mat 8192 4096) = mm2 B8[main_v87] B8[main_v89] B8[main_v92] :=
    (W9_arr (F := Ideal) m ρ c 3).trans (region4_value (V8 (F := Ideal) m ρ) c)
  rw [show B8[main_v87] = B7[main_v87] from StableHlo.after_of_forall_not_mem _ _ (by host_nw hostOps4)] at e
  exact e

/-- The sixth call's first output array. -/
theorem b1_x :
    (B10[main_v94_0] : Mat 8192 2048)
      = mm3X B9[main_v93] B6[main_v72] B6[main_v81] B5[main_v47_0] B6[main_v60] B6[main_v63] := by
  have e : (B10[main_v94_0] : Mat 8192 2048)
      = mm3X B9[main_v93] B9[main_v72] B9[main_v81] B9[main_v47_0] B9[main_v60] B9[main_v63] :=
    (W10_arr (F := Ideal) m ρ c 6).trans (region5_value_x (V9 (F := Ideal) m ρ) c)
  rw [W9_W6 m ρ c main_v72 (by decide) (by host_nw hostOps4) (by decide),
    W9_W6 m ρ c main_v81 (by decide) (by host_nw hostOps4) (by decide),
    W9_W6 m ρ c main_v60 (by decide) (by host_nw hostOps4) (by decide),
    W9_W6 m ρ c main_v63 (by decide) (by host_nw hostOps4) (by decide), W9_x1 m ρ c] at e
  exact e

/-- The sixth call's second output array. -/
theorem b1_ld :
    (B10[main_v94_1] : Mat 8192 1) = mm3Ld B9[main_v93] B6[main_v72] B6[main_v81] := by
  have e : (B10[main_v94_1] : Mat 8192 1) = mm3Ld B9[main_v93] B9[main_v72] B9[main_v81] :=
    (W10_arr (F := Ideal) m ρ c 7).trans (region5_value_ld (V9 (F := Ideal) m ρ) c)
  rw [W9_W6 m ρ c main_v72 (by decide) (by host_nw hostOps4) (by decide),
    W9_W6 m ρ c main_v81 (by decide) (by host_nw hostOps4) (by decide)] at e
  exact e

/-- Block 1 of the program is block 1 of the specification, on the activations block 0 left. -/
theorem block1 (id tr : Fin 2 → Fin 1024 → Fin 2048) (hid : IdxIs A[main_arg2] id) (htr : IdxIs A[main_arg3] tr)
    (hinj : Function.Injective (tr 1)) :
    (B10[main_v94_0] : Mat 8192 2048)
        = blockX A[main_arg1] A[main_arg4] A[main_arg5] A[main_arg6] A[main_arg7] A[main_arg8] A[main_arg9] id tr B5[main_v47_0] 1
    ∧ (B10[main_v94_1] : Mat 8192 1)
        = fun j => ldAt (blockO A[main_arg1] A[main_arg4] A[main_arg5] A[main_arg6] A[main_arg7] A[main_arg8] A[main_arg9] id B5[main_v47_0] 1) (j 0) := by
  have a2 : B5[main_arg2] = A[main_arg2] := W5_keep m ρ c main_arg2 (by host_nw hostOps0) (by decide) (by host_nw hostOps1) (by decide) (by decide)
  have a3 : B5[main_arg3] = A[main_arg3] := W5_keep m ρ c main_arg3 (by host_nw hostOps0) (by decide) (by host_nw hostOps1) (by decide) (by decide)
  have a4 : B5[main_arg4] = A[main_arg4] := W5_keep m ρ c main_arg4 (by host_nw hostOps0) (by decide) (by host_nw hostOps1) (by decide) (by decide)
  have a5 : B5[main_arg5] = A[main_arg5] := W5_keep m ρ c main_arg5 (by host_nw hostOps0) (by decide) (by host_nw hostOps1) (by decide) (by decide)
  have a8 : B5[main_arg8] = A[main_arg8] := W5_keep m ρ c main_arg8 (by host_nw hostOps0) (by decide) (by host_nw hostOps1) (by decide) (by decide)
  have a9 : B5[main_arg9] = A[main_arg9] := W5_keep m ρ c main_arg9 (by host_nw hostOps0) (by decide) (by host_nw hostOps1) (by decide) (by decide)
  have a6 : B7[main_arg6] = A[main_arg6] :=
    W7_keep m ρ c main_arg6 (by host_nw hostOps0) (by decide) (by host_nw hostOps1) (by decide) (by decide) (by host_nw hostOps3) (by decide)
  have a7 : B7[main_arg7] = A[main_arg7] :=
    W7_keep m ρ c main_arg7 (by host_nw hostOps0) (by decide) (by host_nw hostOps1) (by decide) (by decide) (by host_nw hostOps3) (by decide)
  have hiota : B5[main_v1] = iotaInDim S2048x1024 32 0 :=
    (W5_W1 m ρ c main_v1 (by decide) (by host_nw hostOps1) (by decide) (by decide)).trans (ho0_iota (W0 (F := Ideal) m ρ c))
  have hid5 : IdxIs B5[main_arg2] id := by rw [a2]; exact hid
  have htr5 : IdxIs B5[main_arg3] tr := by rw [a3]; exact htr
  have hw1 : ∀ (k : Fin 1088) (n : Fin 4096), (B6[main_v83] : Mat 1088 4096) (ix2 k n) = (A[main_arg4] : Mat3 2 1088 4096) (ix3 1 k n) :=
    fun k n => (ho3_w1 (W5 (F := Ideal) m ρ c) k n).trans (by rw [a4])
  have hb1 : ∀ n : Fin 4096, (B6[main_v86] : Mat 1 4096) (ix2 0 n) = (A[main_arg5] : Mat 2 4096) (ix2 1 n) :=
    fun n => (ho3_b1 (W5 (F := Ideal) m ρ c) n).trans (by rw [a5])
  have hw2 : ∀ (k : Fin 4096) (n : Fin 4096), (B8[main_v89] : Mat 4096 4096) (ix2 k n) = (A[main_arg6] : Mat3 2 4096 4096) (ix3 1 k n) :=
    fun k n => (ho4_w2 (W7 (F := Ideal) m ρ c) k n).trans (by rw [a6])
  have hb2 : ∀ n : Fin 4096, (B8[main_v92] : Mat 1 4096) (ix2 0 n) = (A[main_arg7] : Mat 2 4096) (ix2 1 n) :=
    fun n => (ho4_b2 (W7 (F := Ideal) m ρ c) n).trans (by rw [a7])
  have hw3 : ∀ (k : Fin 4096) (n : Fin 2048), (B6[main_v72] : Mat 4096 2048) (ix2 k n) = (A[main_arg8] : Mat3 2 4096 2048) (ix3 1 k (unperm n)) :=
    fun k n => (ho3_w3 (W5 (F := Ideal) m ρ c) k n).trans (by rw [a8])
  have hb3 : ∀ n : Fin 2048, (B6[main_v81] : Mat 1 2048) (ix2 0 n) = (A[main_arg9] : Mat 2 2048) (ix2 1 (unperm n)) :=
    fun n => (ho3_b3 (W5 (F := Ideal) m ρ c) n).trans (by rw [a9])
  obtain ⟨bx, bl⟩ := block_eq A[main_arg1] A[main_arg4] A[main_arg5] A[main_arg6] A[main_arg7] A[main_arg8] A[main_arg9] id tr 1 hinj
    B5[main_v47_0] B6[main_v54] B6[main_v60]
    (ho3_pid (W5 (F := Ideal) m ρ c) id hid5 hiota) (ho3_ptr (W5 (F := Ideal) m ρ c) tr htr5 hiota)
    B6[main_v63] (ho3_mask (W5 (F := Ideal) m ρ c))
    B6[main_v83] hw1 B6[main_v86] hb1
    B8[main_v89] hw2 B8[main_v92] hb2
    B6[main_v72] hw3 B6[main_v81] hb3
  constructor
  · rw [b1_x m ρ c, b1_h2 m ρ c, b1_h1 m ρ c]; exact bx
  · rw [b1_ld m ρ c, b1_h2 m ρ c, b1_h1 m ρ c]; exact bl

/-! ## The two results -/

/-- Both blocks composed: the final activations and the accumulated log-determinant. -/
theorem results_eq_aux (id tr : Fin 2 → Fin 1024 → Fin 2048) (hid : IdxIs A[main_arg2] id) (htr : IdxIs A[main_arg3] tr)
    (hinj : ∀ i, Function.Injective (tr i)) :
    (B11[main_v94_0] : Mat 8192 2048)
        = layerX A[main_arg1] A[main_arg4] A[main_arg5] A[main_arg6] A[main_arg7] A[main_arg8] A[main_arg9] id tr A[main_arg0]
    ∧ (B11[main_v95] : Mat 8192 1)
        = layerLd A[main_arg1] A[main_arg4] A[main_arg5] A[main_arg6] A[main_arg7] A[main_arg8] A[main_arg9] id tr A[main_arg0] := by
  obtain ⟨x0, l0⟩ := block0 m ρ c id tr hid htr (hinj 0)
  obtain ⟨x1, l1⟩ := block1 m ρ c id tr hid htr (hinj 1)
  constructor
  · have e : B11[main_v94_0] = B10[main_v94_0] := StableHlo.after_of_forall_not_mem _ _ (by host_nw hostOps6)
    rw [e, x1, x0]
    rfl
  · funext j
    have e48 : B10[main_v48] = B6[main_v48] :=
      (W10_of_ne m ρ c main_v48 (by decide)).trans (W9_W6 m ρ c main_v48 (by decide) (by host_nw hostOps4) (by decide))
    have e0 : B5[main_v0] = B1[main_v0] := W5_W1 m ρ c main_v0 (by decide) (by host_nw hostOps1) (by decide) (by decide)
    have h6 : (B11[main_v95] : Mat 8192 1) j
        = @HAdd.hAdd EReal EReal EReal _ ((B10[main_v48] : Mat 8192 1) j) ((B10[main_v94_1] : Mat 8192 1) j) :=
      ho6_ld (W10 (F := Ideal) m ρ c) j
    have h3 : (B6[main_v48] : Mat 8192 1) j
        = @HAdd.hAdd EReal EReal EReal _ ((B5[main_v0] : Mat 8192 1) j) ((B5[main_v47_1] : Mat 8192 1) j) :=
      ho3_ld (W5 (F := Ideal) m ρ c) j
    have h0 : (B1[main_v0] : Mat 8192 1) j = (0 : EReal) := ho0_zero (W0 (F := Ideal) m ρ c) j
    rw [h6, e48, h3, e0, h0, l1, l0, x0]
    rfl

end Fold

/-- The contents of the two result buffers at the last boundary of @main are the specification's layer of the
    arguments, when the index arguments name the column maps id, tr and each tr i is injective. -/
theorem results_eq (c : Dev nD) (id tr : Fin 2 → Fin 1024 → Fin 2048)
    (hid : IdxIs (m ((c : Thread nD τ).loc main_arg2)) id) (htr : IdxIs (m ((c : Thread nD τ).loc main_arg3)) tr)
    (hinj : ∀ i, Function.Injective (tr i)) :
    (W11 (F := Ideal) m ρ c (Proc.devRef .tc main_v94_0) : Mat 8192 2048)
        = layerX (m ((c : Thread nD τ).loc main_arg1)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) id tr (m ((c : Thread nD τ).loc main_arg0))
    ∧ (W11 (F := Ideal) m ρ c (Proc.devRef .tc main_v95) : Mat 8192 1)
        = layerLd (m ((c : Thread nD τ).loc main_arg1)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) id tr (m ((c : Thread nD τ).loc main_arg0)) :=
  Fold.results_eq_aux m ρ c id tr hid htr hinj

end Thread

end Cert.KernelIdeal.Val

end
-- ==== Proof.ColOps.lean ====
/-
  A gather and a set-scatter of COLUMNS of a matrix, read at an index.

  The gather x[:, idx] of 1024 columns out of 2048 (start indices [1024 × 1], the row axis an offset axis, the column axis
  collapsed) reads, at (b, q), the entry of row b in the column idx[q] names, read signed and clamped into [0, 2047].
  The scatter x.at[:, idx].set(u) walks the updates in row-major order, each replacing the entry of its row in the column
  its index names (dropped when out of range). When the indices name pairwise distinct columns in range, no entry is
  written twice, so the result at (b, r) is u[b, q] for the one q with idx[q] = r, and x[b, r] when there is none.
-/
import proofs.«427001_j89833535963578_2_alg».proof.Proof.Index
import Idealize.ShloMosaic.PureOps.ShapeOps
import Idealize.ShloMosaic.PureOps.Dims
import Mathlib.Data.List.Induction

noncomputable section

namespace Cert.Coupling

open Idealize.ShloMosaic Idealize.ShloMosaic.ValueIdx

/-- Gather columns: operand [8192, 2048], start indices [1024, 1], result [8192, 1024]. -/
abbrev gathCol (wf : GatherDims.WF ⟨2, ![8192, 2048]⟩ ⟨2, ![1024, 1]⟩ ⟨2, ![8192, 1024]⟩ [0] [1] [] [1] [] 1 ![8192, 1]) :
    GatherDims ⟨2, ![8192, 2048]⟩ ⟨2, ![1024, 1]⟩ ⟨2, ![8192, 1024]⟩ where
  offsetDims := [0]
  collapsedSliceDims := [1]
  operandBatchingDims := []
  startIndicesBatchingDims := []
  startIndexMap := [1]
  indexVectorDim := 1
  sliceSizes := ![8192, 1]
  wf := wf

/-- Scatter columns: operand [8192, 2048], scatter indices [1024, 1], updates [8192, 1024]. -/
abbrev scatCol (wf : ScatterDims.WF ⟨2, ![8192, 2048]⟩ ⟨2, ![1024, 1]⟩ ⟨2, ![8192, 1024]⟩ [0] [1] [1] 1) :
    ScatterDims ⟨2, ![8192, 2048]⟩ ⟨2, ![1024, 1]⟩ ⟨2, ![8192, 1024]⟩ where
  updateWindowDims := [0]
  insertedWindowDims := [1]
  scatterDimsToOperandDims := [1]
  indexVectorDim := 1
  wf := wf

/-- The column gather at (b, q), when index q names column sel q: the entry of row b in that column. -/
theorem gathCol_apply {α : Type} (wf) (x : (⟨2, ![8192, 2048]⟩ : Shape).Idx → α) (idx : IVec ⟨2, ![1024, 1]⟩ 32)
    (sel : Fin 1024 → Fin 2048) (hsel : ∀ q : Fin 1024, (idx (ix2 q (0 : Fin 1))).toInt = ((sel q).val : Int))
    (b : Fin 8192) (q : Fin 1024) :
    Host.gather (gathCol wf) x idx (ix2 b q) = x (ix2 b (sel q)) := by
  unfold Host.gather
  congr 1
  funext a
  refine Fin.ext ?_
  match a with
  | ⟨0, _⟩ =>
    -- the row axis: an offset axis the start index map does not name, so start 0 plus the result's row
    show (gathCol wf).start (ix2 b q) idx 0 + (gathCol wf).batchCoord (ix2 b q) 0 + (gathCol wf).offCoord (ix2 b q) 0 = b.val
    rw [GatherDims.batchCoord_eq_zero _ _ _ List.not_mem_nil]
    have hs : (gathCol wf).start (ix2 b q) idx 0 = 0 := by
      unfold GatherDims.start
      rw [dif_neg (show (0 : Fin 2) ∉ ([1] : List (Fin 2)) by decide)]
    rw [hs]
    have hk : (0 : Fin 2) ∈ (gathCol wf).sKept :=
      (GatherDims.mem_sKept _ _).mpr ⟨show (0 : Fin 2) ∉ ([1] : List (Fin 2)) by decide, List.not_mem_nil⟩
    unfold GatherDims.offCoord
    rw [dif_pos hk]
    simp only [Nat.zero_add]
    rfl
  | ⟨1, _⟩ =>
    -- the column axis: collapsed, named by the start index's one component, read signed and clamped
    show (gathCol wf).start (ix2 b q) idx 1 + (gathCol wf).batchCoord (ix2 b q) 1 + (gathCol wf).offCoord (ix2 b q) 1 = (sel q).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ (gathCol wf).startIndexMap from List.mem_singleton.mpr rfl)]
    have hsi : (gathCol wf).siIdx (ix2 b q) ⟨List.idxOf (1 : Fin 2) (gathCol wf).startIndexMap,
        List.idxOf_lt_length_iff.2 (List.mem_singleton.mpr rfl)⟩ = ix2 q (0 : Fin 1) := by
      funext c; refine Fin.ext ?_
      match c with
      | ⟨0, _⟩ => rfl
      | ⟨1, _⟩ => rfl
    rw [hsi, hsel q]
    show min ((sel q).val : Int).toNat (2048 - 1) + 0 + 0 = (sel q).val
    have := (sel q).isLt
    omega

/-- A left fold of point updates, read at one place k. Each step either leaves the array alone (its element has no
    target) or replaces the one entry at its target by that element's value. When at most one element of the list
    targets k, the fold at k is that element's value, and the starting array's entry when no element targets k. -/
private theorem foldl_point_set {ι κ β : Type} (tgt : ι → Option κ) (val : ι → β)
    (step : (κ → β) → ι → (κ → β))
    (hhit : ∀ r n i, tgt n = some i → step r n i = val n)
    (hmiss : ∀ r n i k, tgt n = some i → k ≠ i → step r n k = r k)
    (hnone : ∀ r n, tgt n = none → step r n = r) (x : κ → β) (k : κ) :
    ∀ l : List ι, (∀ m ∈ l, ∀ n ∈ l, tgt m = some k → tgt n = some k → m = n) →
      (∀ n ∈ l, tgt n = some k → l.foldl step x k = val n) ∧
        ((∀ n ∈ l, tgt n ≠ some k) → l.foldl step x k = x k) := by
  intro l
  induction l using List.reverseRecOn with
  | nil => intro _; exact ⟨fun n hn => absurd hn List.not_mem_nil, fun _ => rfl⟩
  | append_singleton l a ih =>
    intro hinj
    have ih' := ih fun m hm n hn => hinj m (List.mem_append_left _ hm) n (List.mem_append_left _ hn)
    have ha : a ∈ l ++ [a] := List.mem_append_right _ (List.mem_singleton.2 rfl)
    rw [List.foldl_append, List.foldl_cons, List.foldl_nil]
    cases hta : tgt a with
    | none =>
      -- the last element is dropped: the fold at k is the fold of the elements before it
      rw [hnone _ _ hta]
      refine ⟨fun n hn hn' => ?_, fun hno => ih'.2 fun n hn => hno n (List.mem_append_left _ hn)⟩
      rcases List.mem_append.1 hn with hn | hn
      · exact ih'.1 n hn hn'
      · rw [List.mem_singleton.1 hn, hta] at hn'; cases hn'
    | some i =>
      by_cases hik : k = i
      · -- the last element writes k: it is the only one that targets k
        subst hik
        rw [hhit _ _ _ hta]
        refine ⟨fun n hn hn' => ?_, fun hno => absurd hta (hno a ha)⟩
        rw [hinj n hn a ha hn' hta]
      · -- the last element writes elsewhere
        rw [hmiss _ _ _ _ hta hik]
        refine ⟨fun n hn hn' => ?_, fun hno => ih'.2 fun n hn => hno n (List.mem_append_left _ hn)⟩
        rcases List.mem_append.1 hn with hn | hn
        · exact ih'.1 n hn hn'
        · rw [List.mem_singleton.1 hn, hta] at hn'
          exact absurd (Option.some.inj hn').symm hik

/-- On the row axis the scatter's start is 0: the map from index components to operand axes does not name it. -/
private theorem scatCol_start0 (wf) (idx : IVec ⟨2, ![1024, 1]⟩ 32) (b : Fin 8192) (q : Fin 1024) :
    (scatCol wf).start (ix2 b q) idx 0 = 0 := by
  unfold ScatterDims.start
  rw [dif_neg (show (0 : Fin 2) ∉ ([1] : List (Fin 2)) by decide)]

/-- On the column axis the scatter's start is index q's one component, read signed. -/
private theorem scatCol_start1 (wf) (idx : IVec ⟨2, ![1024, 1]⟩ 32) (b : Fin 8192) (q : Fin 1024) :
    (scatCol wf).start (ix2 b q) idx 1 = (idx (ix2 q (0 : Fin 1))).toInt := by
  unfold ScatterDims.start
  rw [dif_pos (show (1 : Fin 2) ∈ (scatCol wf).scatterDimsToOperandDims from List.mem_singleton.mpr rfl)]
  have hsi : (scatCol wf).siIdx (ix2 b q) ⟨List.idxOf (1 : Fin 2) (scatCol wf).scatterDimsToOperandDims,
      List.idxOf_lt_length_iff.2 (List.mem_singleton.mpr rfl)⟩ = ix2 q (0 : Fin 1) := by
    funext c; refine Fin.ext ?_
    match c with
    | ⟨0, _⟩ => rfl
    | ⟨1, _⟩ => rfl
  rw [hsi]

/-- On the row axis the window coordinate is the update's row. -/
private theorem scatCol_window0 (wf) (b : Fin 8192) (q : Fin 1024) :
    (scatCol wf).window (ix2 b q) 0 = b.val := by
  have hk : (0 : Fin 2) ∈ (scatCol wf).sKept := by
    show (0 : Fin 2) ∈ Shape.kept ⟨2, ![8192, 2048]⟩ [1]
    decide
  unfold ScatterDims.window
  rw [dif_pos hk]
  rfl

/-- On the column axis, an inserted one, the window coordinate is 0. -/
private theorem scatCol_window1 (wf) (b : Fin 8192) (q : Fin 1024) :
    (scatCol wf).window (ix2 b q) 1 = 0 := by
  have hk : (1 : Fin 2) ∉ (scatCol wf).sKept := by
    show (1 : Fin 2) ∉ Shape.kept ⟨2, ![8192, 2048]⟩ [1]
    decide
  unfold ScatterDims.window
  rw [dif_neg hk]

/-- Update (b, q) lands on the operand's entry of row b in column sel q: in range on both axes. -/
private theorem scatCol_lands (wf) (idx : IVec ⟨2, ![1024, 1]⟩ 32) (sel : Fin 1024 → Fin 2048)
    (hsel : ∀ q : Fin 1024, (idx (ix2 q (0 : Fin 1))).toInt = ((sel q).val : Int)) (b : Fin 8192) (q : Fin 1024) :
    (scatCol wf).resultIdx? (ix2 b q) idx = some (ix2 b (sel q)) := by
  have h0 : (scatCol wf).start (ix2 b q) idx 0 + (((scatCol wf).window (ix2 b q) 0 : Nat) : Int) = (b.val : Int) := by
    rw [scatCol_start0, scatCol_window0, Int.zero_add]
  have h1 : (scatCol wf).start (ix2 b q) idx 1 + (((scatCol wf).window (ix2 b q) 1 : Nat) : Int) = ((sel q).val : Int) := by
    rw [scatCol_start1, scatCol_window1, hsel q]
    omega
  have hin : ∀ a, 0 ≤ (scatCol wf).start (ix2 b q) idx a + (scatCol wf).window (ix2 b q) a ∧
      (scatCol wf).start (ix2 b q) idx a + (scatCol wf).window (ix2 b q) a < (⟨2, ![8192, 2048]⟩ : Shape).size a := by
    intro a
    match a with
    | ⟨0, _⟩ =>
      show 0 ≤ (scatCol wf).start (ix2 b q) idx 0 + (((scatCol wf).window (ix2 b q) 0 : Nat) : Int) ∧
        (scatCol wf).start (ix2 b q) idx 0 + (((scatCol wf).window (ix2 b q) 0 : Nat) : Int) < ((8192 : Nat) : Int)
      rw [h0]
      have := b.isLt
      omega
    | ⟨1, _⟩ =>
      show 0 ≤ (scatCol wf).start (ix2 b q) idx 1 + (((scatCol wf).window (ix2 b q) 1 : Nat) : Int) ∧
        (scatCol wf).start (ix2 b q) idx 1 + (((scatCol wf).window (ix2 b q) 1 : Nat) : Int) < ((2048 : Nat) : Int)
      rw [h1]
      have := (sel q).isLt
      omega
  unfold ScatterDims.resultIdx?
  rw [dif_pos hin]
  congr 1
  funext a
  refine Fin.ext ?_
  match a with
  | ⟨0, _⟩ =>
    show ((scatCol wf).start (ix2 b q) idx 0 + (((scatCol wf).window (ix2 b q) 0 : Nat) : Int)).toNat = b.val
    rw [h0]
    exact Int.toNat_natCast _
  | ⟨1, _⟩ =>
    show ((scatCol wf).start (ix2 b q) idx 1 + (((scatCol wf).window (ix2 b q) 1 : Nat) : Int)).toNat = (sel q).val
    rw [h1]
    exact Int.toNat_natCast _

/-- The fold of the scatter's steps over all update positions in row-major order, read at (b, r), for any step
    function that behaves as a point update at the position's target: distinct updates land on distinct entries, so
    the entry is the update of the one q with sel q = r, or the operand's when no q has. -/
private theorem scatCol_fold {α : Type} (wf) (x : (⟨2, ![8192, 2048]⟩ : Shape).Idx → α) (idx : IVec ⟨2, ![1024, 1]⟩ 32)
    (upd : (⟨2, ![8192, 1024]⟩ : Shape).Idx → α)
    (sel : Fin 1024 → Fin 2048) (hsel : ∀ q : Fin 1024, (idx (ix2 q (0 : Fin 1))).toInt = ((sel q).val : Int))
    (hinj : Function.Injective sel) (b : Fin 8192) (r : Fin 2048)
    (step : ((⟨2, ![8192, 2048]⟩ : Shape).Idx → α) → Fin (⟨2, ![8192, 1024]⟩ : Shape).numel →
      ((⟨2, ![8192, 2048]⟩ : Shape).Idx → α))
    (hhit : ∀ y n i, (scatCol wf).resultIdx? ((⟨2, ![8192, 1024]⟩ : Shape).rowMajor.symm n) idx = some i →
      step y n i = upd ((⟨2, ![8192, 1024]⟩ : Shape).rowMajor.symm n))
    (hmiss : ∀ y n i k, (scatCol wf).resultIdx? ((⟨2, ![8192, 1024]⟩ : Shape).rowMajor.symm n) idx = some i →
      k ≠ i → step y n k = y k)
    (hnone : ∀ y n, (scatCol wf).resultIdx? ((⟨2, ![8192, 1024]⟩ : Shape).rowMajor.symm n) idx = none → step y n = y) :
    List.foldl step x (List.finRange (⟨2, ![8192, 1024]⟩ : Shape).numel) (ix2 b r)
      = if h : ∃ q, sel q = r then upd (ix2 b h.choose) else x (ix2 b r) := by
  -- every update position is some (b', q'), and lands on (b', sel q')
  have lands : ∀ n : Fin (⟨2, ![8192, 1024]⟩ : Shape).numel, ∃ (b' : Fin 8192) (q' : Fin 1024),
      (⟨2, ![8192, 1024]⟩ : Shape).rowMajor.symm n = ix2 b' q' ∧
      (scatCol wf).resultIdx? ((⟨2, ![8192, 1024]⟩ : Shape).rowMajor.symm n) idx = some (ix2 b' (sel q')) := by
    intro n
    obtain ⟨b', q', hj⟩ : ∃ (b' : Fin 8192) (q' : Fin 1024),
        (⟨2, ![8192, 1024]⟩ : Shape).rowMajor.symm n = ix2 b' q' := ⟨_, _, eq_ix2 _⟩
    exact ⟨b', q', hj, by rw [hj]; exact scatCol_lands wf idx sel hsel b' q'⟩
  have key := foldl_point_set
    (fun n : Fin (⟨2, ![8192, 1024]⟩ : Shape).numel =>
      (scatCol wf).resultIdx? ((⟨2, ![8192, 1024]⟩ : Shape).rowMajor.symm n) idx)
    (fun n => upd ((⟨2, ![8192, 1024]⟩ : Shape).rowMajor.symm n)) step hhit hmiss hnone x (ix2 b r)
    (List.finRange (⟨2, ![8192, 1024]⟩ : Shape).numel) (by
      -- two positions landing on (b, r) have the same row b and, sel being injective, the same q
      intro m _ n _ hm hn
      obtain ⟨b1, q1, hj1, hl1⟩ := lands m
      obtain ⟨b2, q2, hj2, hl2⟩ := lands n
      have e1 : ix2 b1 (sel q1) = ix2 b r := Option.some.inj (hl1.symm.trans hm)
      have e2 : ix2 b2 (sel q2) = ix2 b r := Option.some.inj (hl2.symm.trans hn)
      have hb1 : b1 = b := congrFun e1 0
      have hq1 : sel q1 = r := congrFun e1 1
      have hb2 : b2 = b := congrFun e2 0
      have hq2 : sel q2 = r := congrFun e2 1
      have hq : q1 = q2 := hinj (hq1.trans hq2.symm)
      have hmn : (⟨2, ![8192, 1024]⟩ : Shape).rowMajor.symm m = (⟨2, ![8192, 1024]⟩ : Shape).rowMajor.symm n := by
        rw [hj1, hj2, hb1, hb2, hq]
      exact (⟨2, ![8192, 1024]⟩ : Shape).rowMajor.symm.injective hmn)
  by_cases h : ∃ q, sel q = r
  · rw [dif_pos h]
    have hq : sel h.choose = r := h.choose_spec
    have hn0 := key.1 ((⟨2, ![8192, 1024]⟩ : Shape).rowMajor (ix2 b h.choose)) (List.mem_finRange _) (by
      show (scatCol wf).resultIdx? ((⟨2, ![8192, 1024]⟩ : Shape).rowMajor.symm
        ((⟨2, ![8192, 1024]⟩ : Shape).rowMajor (ix2 b h.choose))) idx = some (ix2 b r)
      rw [Equiv.symm_apply_apply, scatCol_lands wf idx sel hsel, hq])
    rw [hn0]
    show upd ((⟨2, ![8192, 1024]⟩ : Shape).rowMajor.symm ((⟨2, ![8192, 1024]⟩ : Shape).rowMajor (ix2 b h.choose))) = _
    rw [Equiv.symm_apply_apply]
  · rw [dif_neg h]
    refine key.2 fun n _ hn => ?_
    obtain ⟨b1, q1, _, hl1⟩ := lands n
    have e1 : ix2 b1 (sel q1) = ix2 b r := Option.some.inj (hl1.symm.trans hn)
    exact h ⟨q1, congrFun e1 1⟩

/-- The column set-scatter at (b, r), when the indices name the pairwise distinct columns sel q. -/
theorem scatCol_set_apply {α : Type} (wf) (x : (⟨2, ![8192, 2048]⟩ : Shape).Idx → α) (idx : IVec ⟨2, ![1024, 1]⟩ 32)
    (upd : (⟨2, ![8192, 1024]⟩ : Shape).Idx → α)
    (sel : Fin 1024 → Fin 2048) (hsel : ∀ q : Fin 1024, (idx (ix2 q (0 : Fin 1))).toInt = ((sel q).val : Int))
    (hinj : Function.Injective sel) (b : Fin 8192) (r : Fin 2048) :
    Host.scatter (scatCol wf) (fun _ u => u) x idx upd (ix2 b r)
      = if h : ∃ q, sel q = r then upd (ix2 b h.choose) else x (ix2 b r) := by
  unfold Host.scatter
  refine scatCol_fold wf x idx upd sel hsel hinj b r _ ?_ ?_ ?_
  · intro y n i h
    simp only [h]
    exact if_pos trivial
  · intro y n i k h hk
    simp only [h]
    exact if_neg hk
  · intro y n h
    simp only [h]

end Cert.Coupling

end
-- ==== Proof.RefBlock0.lean ====
/-
  The reference program's first coupling block, read stage by stage: its scattered activations and its log-determinant term are the specification's block 0.
-/
import proofs.«427001_j89833535963578_2_alg».proof.Proof.RefRead
import proofs.«427001_j89833535963578_2_alg».proof.Proof.ColOps
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP Cert.Coupling

-- the ten argument arrays, at any contents
variable (x0 : (⟨S8192x2048, .f32⟩ : BufTy).Contents (Elt Ideal)) (x1 : (⟨S8192x64, .f32⟩ : BufTy).Contents (Elt Ideal))
  (x2 x3 : (⟨S2x1024, .i32⟩ : BufTy).Contents (Elt Ideal)) (x4 : (⟨S2x1088x4096, .f32⟩ : BufTy).Contents (Elt Ideal))
  (x5 : (⟨S2x4096, .f32⟩ : BufTy).Contents (Elt Ideal)) (x6 : (⟨S2x4096x4096, .f32⟩ : BufTy).Contents (Elt Ideal))
  (x7 : (⟨S2x4096, .f32⟩ : BufTy).Contents (Elt Ideal)) (x8 : (⟨S2x4096x2048, .f32⟩ : BufTy).Contents (Elt Ideal))
  (x9 : (⟨S2x2048, .f32⟩ : BufTy).Contents (Elt Ideal))

/-! ## The index words -/

/-- A column number below 2048, held as a 32-bit word, is not negative, so the wrap-around of negative indices leaves it as it is. -/
theorem wrap_word (n : Nat) (hn : n < 2048) :
    Scalar.select (IntOp.cmpi .slt (BitVec.ofNat 32 n) 0#32) (IntOp.addi (BitVec.ofNat 32 n) 2048#32) (BitVec.ofNat 32 n)
      = BitVec.ofNat 32 n := by
  have h : IntOp.cmpi .slt (BitVec.ofNat 32 n) 0#32 = 0#1 := by
    apply eq_zero_of_ne_one
    show ¬ BitVec.ofBool ((BitVec.ofNat 32 n).slt (BitVec.ofNat 32 0)) = 1#1
    rw [StableHlo.Predicate.slt_ofNat_iff n 0 (by omega) (by omega)]
    omega
  rw [h, select_zero]

/-- The start index the first gather reads for position q is the word of the identity column id 0 q. -/
theorem word_v8 (id : Fin 2 → Fin 1024 → Fin 2048) (hid : IdxIs x2 id) (q : Fin 1024) :
    val_main_v8 (F := Ideal) x2 (ix2 q (0 : Fin 1)) = BitVec.ofNat 32 (id 0 q).val := by
  have e : idx_main_v1 (idx_main_v2 (idx_main_v8 (ix2 q (0 : Fin 1)))) = ix2 (0 : Fin 2) q :=
    funext fun a => Fin.ext (by
      match a with
      | ⟨0, _⟩ => rfl
      | ⟨1, _⟩ => show q.val % 1024 = q.val; omega)
  rw [val_main_v8_apply, val_main_v7_apply, val_main_v4_apply, val_main_v6_apply, val_main_v2_apply, val_main_v1_apply, e, hid 0 q,
    val_main_v3_apply, val_main_c_apply, val_main_v5_apply, val_main_c_0_apply]
  exact wrap_word _ (id 0 q).isLt

/-- The start index the second gather reads for position q is the word of the transformed column tr 0 q. -/
theorem word_v51 (tr : Fin 2 → Fin 1024 → Fin 2048) (htr : IdxIs x3 tr) (q : Fin 1024) :
    val_main_v51 (F := Ideal) x3 (ix2 q (0 : Fin 1)) = BitVec.ofNat 32 (tr 0 q).val := by
  have e : idx_main_v44 (idx_main_v45 (idx_main_v51 (ix2 q (0 : Fin 1)))) = ix2 (0 : Fin 2) q :=
    funext fun a => Fin.ext (by
      match a with
      | ⟨0, _⟩ => rfl
      | ⟨1, _⟩ => show q.val % 1024 = q.val; omega)
  rw [val_main_v51_apply, val_main_v50_apply, val_main_v47_apply, val_main_v49_apply, val_main_v45_apply, val_main_v44_apply, e, htr 0 q,
    val_main_v46_apply, val_main_c_1_apply, val_main_v48_apply, val_main_c_2_apply]
  exact wrap_word _ (tr 0 q).isLt

/-- The scatter index for position q is the word of the transformed column tr 0 q. -/
theorem word_v61 (tr : Fin 2 → Fin 1024 → Fin 2048) (htr : IdxIs x3 tr) (q : Fin 1024) :
    val_main_v61 (F := Ideal) x3 (ix2 q (0 : Fin 1)) = BitVec.ofNat 32 (tr 0 q).val := by
  have e : idx_main_v42 (idx_main_v43 (idx_main_v61 (ix2 q (0 : Fin 1)))) = ix2 (0 : Fin 2) q :=
    funext fun a => Fin.ext (by
      match a with
      | ⟨0, _⟩ => rfl
      | ⟨1, _⟩ => show q.val % 1024 = q.val; omega)
  rw [val_main_v61_apply, val_main_v60_apply, val_main_v57_apply, val_main_v59_apply, val_main_v43_apply, val_main_v42_apply, e, htr 0 q,
    val_main_v56_apply, val_main_c_3_apply, val_main_v58_apply, val_main_c_4_apply]
  exact wrap_word _ (tr 0 q).isLt

/-- A column number below 2048, as a word read signed, is the number. -/
theorem toInt_col (c : Fin 2048) : (BitVec.ofNat 32 c.val).toInt = (c.val : Int) :=
  StableHlo.Predicate.toInt_ofNat_small _ (by have := c.isLt; omega)

/-! ## The perceptron's input -/

/-- The first gather at (b, q) reads row b of the input in the identity column id 0 q. -/
theorem v9_at (id : Fin 2 → Fin 1024 → Fin 2048) (hid : IdxIs x2 id) (b : Fin 8192) (q : Fin 1024) :
    val_main_v9 (F := Ideal) x0 x2 (ix2 b q) = x0 (ix2 b (id 0 q)) := by
  unfold val_main_v9
  exact gathCol_apply gather_S8192x2048_S1024x1_S8192x1024_0_1_n_n_1_1_81921.wf x0 (val_main_v8 (F := Ideal) x2) (id 0)
    (fun q' => by rw [word_v8 x2 id hid q']; exact toInt_col _) b q

/-- The second gather at (b, q) reads row b of the input in the transformed column tr 0 q. -/
theorem v52_at (tr : Fin 2 → Fin 1024 → Fin 2048) (htr : IdxIs x3 tr) (b : Fin 8192) (q : Fin 1024) :
    val_main_v52 (F := Ideal) x0 x3 (ix2 b q) = x0 (ix2 b (tr 0 q)) := by
  unfold val_main_v52
  exact gathCol_apply gather_S8192x2048_S1024x1_S8192x1024_0_1_n_n_1_1_81921.wf x0 (val_main_v51 (F := Ideal) x3) (tr 0)
    (fun q' => by rw [word_v51 x3 tr htr q']; exact toInt_col _) b q

/-- The concatenation at (b, k) is the perceptron's input: a gathered identity column for k < 1024, else a condition column. -/
theorem v10_at (id : Fin 2 → Fin 1024 → Fin 2048) (hid : IdxIs x2 id) (b : Fin 8192) (k : Fin 1088) :
    val_main_v10 (F := Ideal) x0 x1 x2 (ix2 b k) = hinAt x0 x1 (id 0) b k := by
  unfold val_main_v10 hinAt
  by_cases h : k.val < 1024
  · rw [dif_pos h, ← v9_at x0 x2 id hid b ⟨k.val, h⟩]
    exact concatenate_pair_apply_left (t := S8192x1088) (s₁ := S8192x1024) (s₂ := S8192x64) _ _ _ _ (ix2 b k)
      (rfl : S8192x1024.rank = S8192x1088.rank) (ix2 b (⟨k.val, h⟩ : Fin 1024)) (fun a => by
      match a with
      | ⟨0, _⟩ => rfl
      | ⟨1, _⟩ => rfl)
  · rw [dif_neg h]
    exact concatenate_pair_apply_right (t := S8192x1088) (s₁ := S8192x1024) (s₂ := S8192x64) _ _ _ _ (ix2 b k)
      (rfl : S8192x1024.rank = S8192x1088.rank) (rfl : S8192x64.rank = S8192x1088.rank)
      (ix2 b (⟨k.val - 1024, by have := k.isLt; omega⟩ : Fin 64)) (fun a ha => by
      match a, ha with
      | ⟨0, _⟩, _ => rfl
      | ⟨1, _⟩, ha => exact absurd rfl ha) (by show (k.val - 1024) + 1024 = k.val; omega)

/-! ## The three layers -/

/-- The rectifier's zero splat is the extended real 0 (first call). -/
theorem relu0_zero (i : S8192x4096.Idx) : val_main_call0_v0 (F := Ideal) i = (0 : EReal) := by
  rw [val_main_call0_v0_apply, val_main_call0_cst_apply]; exact Ideal.ofBits_zero_f32

/-- The rectifier's zero splat is the extended real 0 (second call). -/
theorem relu1_zero (i : S8192x4096.Idx) : val_main_call1_v0 (F := Ideal) i = (0 : EReal) := by
  rw [val_main_call1_v0_apply, val_main_call1_cst_apply]; exact Ideal.ofBits_zero_f32

/-- Block 0's first-layer weights at (k, n). -/
theorem v12_at (k : Fin 1088) (n : Fin 4096) : val_main_v12 (F := Ideal) x4 (ix2 k n) = x4 (ix3 (0 : Fin 2) k n) := by
  have e : idx_main_v11 (idx_main_v12 (ix2 k n)) = ix3 (0 : Fin 2) k n :=
    funext fun a => Fin.ext (by
      have hk := k.isLt; have hn := n.isLt
      match a with
      | ⟨0, _⟩ => rfl
      | ⟨1, _⟩ => show (k.val * 4096 + n.val) / 4096 % 1088 = k.val; omega
      | ⟨2, _⟩ => show (k.val * 4096 + n.val) % 4096 = n.val; omega)
  rw [val_main_v12_apply, val_main_v11_apply, e]

/-- Block 0's first-layer bias, broadcast over the rows, at (b, n). -/
theorem v17_at (b : Fin 8192) (n : Fin 4096) : val_main_v17 (F := Ideal) x5 (ix2 b n) = x5 (ix2 (0 : Fin 2) n) := by
  have e : idx_main_v14 (idx_main_v15 (idx_main_v16 (idx_main_v17 (ix2 b n)))) = ix2 (0 : Fin 2) n :=
    funext fun a => Fin.ext (by
      have hn := n.isLt
      match a with
      | ⟨0, _⟩ => rfl
      | ⟨1, _⟩ => show n.val % 4096 = n.val; omega)
  rw [val_main_v17_apply, val_main_v16_apply, val_main_v15_apply, val_main_v14_apply, e]

/-- The first layer at (b, n). -/
theorem v19_at (id : Fin 2 → Fin 1024 → Fin 2048) (hid : IdxIs x2 id) (b : Fin 8192) (n : Fin 4096) :
    val_main_v19 (F := Ideal) x0 x1 x2 x4 x5 (ix2 b n) = h1At x0 x1 (id 0) x4 x5 0 b n := by
  have el : ∀ k : Fin 1088, lidx_main_v13 (ix2 b n) k = ix2 b k := fun k =>
    funext fun a => Fin.ext (by match a with | ⟨0, _⟩ => rfl | ⟨1, _⟩ => rfl)
  have er : ∀ k : Fin 1088, ridx_main_v13 (ix2 b n) k = ix2 k n := fun k =>
    funext fun a => Fin.ext (by match a with | ⟨0, _⟩ => rfl | ⟨1, _⟩ => rfl)
  rw [val_main_v19_apply, val_main_v18_apply, val_main_v13_apply, relu0_zero, v17_at]
  unfold h1At
  rw [Ideal.maximumf_def, Ideal.addf_def]
  congr 2
  refine Finset.sum_congr rfl fun k _ => ?_
  rw [el, er, v10_at x0 x1 x2 id hid, v12_at]

/-- Block 0's second-layer weights at (k, n). -/
theorem v21_at (k : Fin 4096) (n : Fin 4096) : val_main_v21 (F := Ideal) x6 (ix2 k n) = x6 (ix3 (0 : Fin 2) k n) := by
  have e : idx_main_v20 (idx_main_v21 (ix2 k n)) = ix3 (0 : Fin 2) k n :=
    funext fun a => Fin.ext (by
      have hk := k.isLt; have hn := n.isLt
      match a with
      | ⟨0, _⟩ => rfl
      | ⟨1, _⟩ => show (k.val * 4096 + n.val) / 4096 % 4096 = k.val; omega
      | ⟨2, _⟩ => show (k.val * 4096 + n.val) % 4096 = n.val; omega)
  rw [val_main_v21_apply, val_main_v20_apply, e]

/-- Block 0's second-layer bias, broadcast over the rows, at (b, n). -/
theorem v26_at (b : Fin 8192) (n : Fin 4096) : val_main_v26 (F := Ideal) x7 (ix2 b n) = x7 (ix2 (0 : Fin 2) n) := by
  have e : idx_main_v23 (idx_main_v24 (idx_main_v25 (idx_main_v26 (ix2 b n)))) = ix2 (0 : Fin 2) n :=
    funext fun a => Fin.ext (by
      have hn := n.isLt
      match a with
      | ⟨0, _⟩ => rfl
      | ⟨1, _⟩ => show n.val % 4096 = n.val; omega)
  rw [val_main_v26_apply, val_main_v25_apply, val_main_v24_apply, val_main_v23_apply, e]

/-- The second layer at (b, n). -/
theorem v28_at (id : Fin 2 → Fin 1024 → Fin 2048) (hid : IdxIs x2 id) (b : Fin 8192) (n : Fin 4096) :
    val_main_v28 (F := Ideal) x0 x1 x2 x4 x5 x6 x7 (ix2 b n) = h2At (h1At x0 x1 (id 0) x4 x5 0) x6 x7 0 b n := by
  have el : ∀ k : Fin 4096, lidx_main_v22 (ix2 b n) k = ix2 b k := fun k =>
    funext fun a => Fin.ext (by match a with | ⟨0, _⟩ => rfl | ⟨1, _⟩ => rfl)
  have er : ∀ k : Fin 4096, ridx_main_v22 (ix2 b n) k = ix2 k n := fun k =>
    funext fun a => Fin.ext (by match a with | ⟨0, _⟩ => rfl | ⟨1, _⟩ => rfl)
  rw [val_main_v28_apply, val_main_v27_apply, val_main_v22_apply, relu1_zero, v26_at]
  unfold h2At
  rw [Ideal.maximumf_def, Ideal.addf_def]
  congr 2
  refine Finset.sum_congr rfl fun k _ => ?_
  rw [el, er, v19_at x0 x1 x2 x4 x5 id hid, v21_at]

/-- Block 0's third-layer weights at (k, n). -/
theorem v30_at (k : Fin 4096) (n : Fin 2048) : val_main_v30 (F := Ideal) x8 (ix2 k n) = x8 (ix3 (0 : Fin 2) k n) := by
  have e : idx_main_v29 (idx_main_v30 (ix2 k n)) = ix3 (0 : Fin 2) k n :=
    funext fun a => Fin.ext (by
      have hk := k.isLt; have hn := n.isLt
      match a with
      | ⟨0, _⟩ => rfl
      | ⟨1, _⟩ => show (k.val * 2048 + n.val) / 2048 % 4096 = k.val; omega
      | ⟨2, _⟩ => show (k.val * 2048 + n.val) % 2048 = n.val; omega)
  rw [val_main_v30_apply, val_main_v29_apply, e]

/-- Block 0's third-layer bias, broadcast over the rows, at (b, n). -/
theorem v35_at (b : Fin 8192) (n : Fin 2048) : val_main_v35 (F := Ideal) x9 (ix2 b n) = x9 (ix2 (0 : Fin 2) n) := by
  have e : idx_main_v32 (idx_main_v33 (idx_main_v34 (idx_main_v35 (ix2 b n)))) = ix2 (0 : Fin 2) n :=
    funext fun a => Fin.ext (by
      have hn := n.isLt
      match a with
      | ⟨0, _⟩ => rfl
      | ⟨1, _⟩ => show n.val % 2048 = n.val; omega)
  rw [val_main_v35_apply, val_main_v34_apply, val_main_v33_apply, val_main_v32_apply, e]

/-- The third layer at (b, n) is the specification's. -/
theorem v36_at (id : Fin 2 → Fin 1024 → Fin 2048) (hid : IdxIs x2 id) (b : Fin 8192) (n : Fin 2048) :
    val_main_v36 (F := Ideal) x0 x1 x2 x4 x5 x6 x7 x8 x9 (ix2 b n) = blockO x1 x4 x5 x6 x7 x8 x9 id x0 0 b n := by
  have el : ∀ k : Fin 4096, lidx_main_v31 (ix2 b n) k = ix2 b k := fun k =>
    funext fun a => Fin.ext (by match a with | ⟨0, _⟩ => rfl | ⟨1, _⟩ => rfl)
  have er : ∀ k : Fin 4096, ridx_main_v31 (ix2 b n) k = ix2 k n := fun k =>
    funext fun a => Fin.ext (by match a with | ⟨0, _⟩ => rfl | ⟨1, _⟩ => rfl)
  rw [val_main_v36_apply, val_main_v31_apply, v35_at]
  unfold blockO oAt
  rw [Ideal.addf_def]
  congr 1
  refine Finset.sum_congr rfl fun k _ => ?_
  rw [el, er, v28_at x0 x1 x2 x4 x5 x6 x7 id hid, v30_at]

/-! ## Scale logits, translations, the transformed values -/

/-- The scale logits at (b, q): the third layer's even column 2q. -/
theorem v39_at (id : Fin 2 → Fin 1024 → Fin 2048) (hid : IdxIs x2 id) (b : Fin 8192) (q : Fin 1024) :
    val_main_v39 (F := Ideal) x0 x1 x2 x4 x5 x6 x7 x8 x9 (ix2 b q) = sAt (blockO x1 x4 x5 x6 x7 x8 x9 id x0 0) b q := by
  have e : idx_main_v37 (idx_main_v38 (idx_main_v39 (ix2 b q))) = ix2 b (⟨2 * q.val, by have := q.isLt; omega⟩ : Fin 2048) :=
    funext fun a => Fin.ext (by
      have hb := b.isLt; have hq := q.isLt
      match a with
      | ⟨0, _⟩ => show ((((b.val * 1024 + q.val) / 1024) * 1024 + (b.val * 1024 + q.val) / 1 % 1024) * 2 + 0) / 2048 = b.val; omega
      | ⟨1, _⟩ => show ((((b.val * 1024 + q.val) / 1024) * 1024 + (b.val * 1024 + q.val) / 1 % 1024) * 2 + 0) % 2048 = 2 * q.val; omega)
  rw [val_main_v39_apply, val_main_v38_apply, val_main_v37_apply, e, v36_at x0 x1 x2 x4 x5 x6 x7 x8 x9 id hid]
  rfl

/-- The translations at (b, q): the third layer's odd column 2q + 1. -/
theorem v41_at (id : Fin 2 → Fin 1024 → Fin 2048) (hid : IdxIs x2 id) (b : Fin 8192) (q : Fin 1024) :
    val_main_v41 (F := Ideal) x0 x1 x2 x4 x5 x6 x7 x8 x9 (ix2 b q) = tAt (blockO x1 x4 x5 x6 x7 x8 x9 id x0 0) b q := by
  have e : idx_main_v37 (idx_main_v40 (idx_main_v41 (ix2 b q))) = ix2 b (⟨2 * q.val + 1, by have := q.isLt; omega⟩ : Fin 2048) :=
    funext fun a => Fin.ext (by
      have hb := b.isLt; have hq := q.isLt
      match a with
      | ⟨0, _⟩ => show ((((b.val * 1024 + q.val) / 1024) * 1024 + (b.val * 1024 + q.val) / 1 % 1024) * 2 + (1 + 0)) / 2048 = b.val; omega
      | ⟨1, _⟩ => show ((((b.val * 1024 + q.val) / 1024) * 1024 + (b.val * 1024 + q.val) / 1 % 1024) * 2 + (1 + 0)) % 2048 = 2 * q.val + 1; omega)
  rw [val_main_v41_apply, val_main_v40_apply, val_main_v37_apply, e, v36_at x0 x1 x2 x4 x5 x6 x7 x8 x9 id hid]
  rfl

/-- The update at (b, q) is the transformed value of column tr 0 q. -/
theorem v55_at (id tr : Fin 2 → Fin 1024 → Fin 2048) (hid : IdxIs x2 id) (htr : IdxIs x3 tr) (b : Fin 8192) (q : Fin 1024) :
    val_main_v55 (F := Ideal) x0 x1 x2 x3 x4 x5 x6 x7 x8 x9 (ix2 b q)
      = nvAt x0 (tr 0) (blockO x1 x4 x5 x6 x7 x8 x9 id x0 0) b q := by
  rw [val_main_v55_apply, val_main_v54_apply, val_main_v53_apply, v52_at x0 x3 tr htr,
    v39_at x0 x1 x2 x4 x5 x6 x7 x8 x9 id hid, v41_at x0 x1 x2 x4 x5 x6 x7 x8 x9 id hid]
  rfl

/-- The activations after the reference's first scatter are the specification's block 0 on the input. -/
theorem ref_block0_x (id tr : Fin 2 → Fin 1024 → Fin 2048) (hid : IdxIs x2 id) (htr : IdxIs x3 tr)
    (hinj : Function.Injective (tr 0)) :
    (val_main_v62 (F := Ideal) x0 x1 x2 x3 x4 x5 x6 x7 x8 x9 : Mat 8192 2048)
      = blockX x1 x4 x5 x6 x7 x8 x9 id tr x0 0 := by
  funext j
  obtain ⟨b, r, rfl⟩ : ∃ (b : Fin 8192) (r : Fin 2048), j = ix2 b r := ⟨j 0, j 1, eq_ix2 j⟩
  show val_main_v62 (F := Ideal) x0 x1 x2 x3 x4 x5 x6 x7 x8 x9 (ix2 b r)
    = xnewAt x0 (tr 0) (blockO x1 x4 x5 x6 x7 x8 x9 id x0 0) b r
  unfold val_main_v62
  refine (scatCol_set_apply scatter_S8192x2048_S1024x1_S8192x1024_0_1_1_1.wf x0 (val_main_v61 (F := Ideal) x3)
    (val_main_v55 (F := Ideal) x0 x1 x2 x3 x4 x5 x6 x7 x8 x9) (tr 0)
    (fun q' => by rw [word_v61 x3 tr htr q']; exact toInt_col _) hinj b r).trans ?_
  unfold xnewAt
  by_cases h : ∃ q, tr 0 q = r
  · rw [dif_pos h, dif_pos h, v55_at x0 x1 x2 x3 x4 x5 x6 x7 x8 x9 id tr hid htr]
  · rw [dif_neg h, dif_neg h]

/-- The log-determinant after the reference's first block: zero plus block 0's term. -/
theorem ref_block0_ld (id : Fin 2 → Fin 1024 → Fin 2048) (hid : IdxIs x2 id) (j : (⟨2, ![8192, 1]⟩ : Shape).Idx) :
    (val_main_v65 (F := Ideal) x0 x1 x2 x4 x5 x6 x7 x8 x9 : Mat 8192 1) j
      = (0 : EReal) + ldAt (blockO x1 x4 x5 x6 x7 x8 x9 id x0 0) (j 0) := by
  have e : ∀ k : Fin 1024, idx_main_v63 (idx_main_v64 j) k = ix2 (n0 := 8192) (j 0) k := fun k =>
    funext fun a => Fin.ext (by match a with | ⟨0, _⟩ => rfl | ⟨1, _⟩ => rfl)
  have z : FloatOps.ofBits (F := Ideal) .f32 0x00000000#32 = (0 : EReal) := Ideal.ofBits_zero_f32
  rw [val_main_v65_apply, val_main_v0_apply, val_main_cst_apply, val_main_v64_apply, val_main_v63_apply, val_main_cst_5_apply,
    Ideal.addf_def, z, zero_add]
  unfold ldAt
  congr 1
  refine Finset.sum_congr rfl fun k _ => ?_
  rw [e]
  exact v39_at x0 x1 x2 x4 x5 x6 x7 x8 x9 id hid (j 0) k

end Cert.ReferenceIdeal.RefValue

end
-- ==== Proof.RefBlock1.lean ====
/-
  The reference program's second coupling block, read stage by stage over whatever the first block left: its scattered activations and its log-determinant term are the specification's block 1.
-/
import proofs.«427001_j89833535963578_2_alg».proof.Proof.RefRead
import proofs.«427001_j89833535963578_2_alg».proof.Proof.ColOps
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP Cert.Coupling

-- the ten argument arrays, at any contents
variable (x0 : (⟨S8192x2048, .f32⟩ : BufTy).Contents (Elt Ideal)) (x1 : (⟨S8192x64, .f32⟩ : BufTy).Contents (Elt Ideal))
  (x2 x3 : (⟨S2x1024, .i32⟩ : BufTy).Contents (Elt Ideal)) (x4 : (⟨S2x1088x4096, .f32⟩ : BufTy).Contents (Elt Ideal))
  (x5 : (⟨S2x4096, .f32⟩ : BufTy).Contents (Elt Ideal)) (x6 : (⟨S2x4096x4096, .f32⟩ : BufTy).Contents (Elt Ideal))
  (x7 : (⟨S2x4096, .f32⟩ : BufTy).Contents (Elt Ideal)) (x8 : (⟨S2x4096x2048, .f32⟩ : BufTy).Contents (Elt Ideal))
  (x9 : (⟨S2x2048, .f32⟩ : BufTy).Contents (Elt Ideal))

/-! ## The index words

An index argument holds column numbers below 2048 as 32-bit words; such a word is not negative, so the program's
wrap-around (add 2048 to a negative index) leaves it alone, and read signed it is the column number. -/

/-- A column number below 2048, as a 32-bit word, passes the wrap-around unchanged and reads signed as itself. -/
theorem wrap_word_b1 (n : Nat) (hn : n < 2048) :
    (Scalar.select (IntOp.cmpi .slt (BitVec.ofNat 32 n) 0#32) (IntOp.addi (BitVec.ofNat 32 n) 2048#32) (BitVec.ofNat 32 n)).toInt
      = (n : Int) := by
  have h0 : IntOp.cmpi .slt (BitVec.ofNat 32 n) 0#32 = 0#1 := by
    apply eq_zero_of_ne_one
    unfold IntOp.cmpi
    intro h
    have := (StableHlo.Predicate.slt_ofNat_iff n 0 (by omega) (by omega)).mp h
    omega
  rw [h0, select_zero]
  exact StableHlo.Predicate.toInt_ofNat_small n (by omega)

/-- The start indices of the gather of block 1's identity columns name the columns id 1 q. -/
theorem idStart_toInt_b1 (id : Fin 2 → Fin 1024 → Fin 2048) (hid : IdxIs x2 id) (q : Fin 1024) :
    BitVec.toInt (val_main_v73 (F := Ideal) x2 (ix2 q (0 : Fin 1))) = ((id 1 q).val : Int) := by
  have e : idx_main_v66 (idx_main_v67 (idx_main_v73 (ix2 q (0 : Fin 1)))) = ix2 (1 : Fin 2) q :=
    funext fun a => Fin.ext (by
      match a with
      | ⟨0, _⟩ => rfl
      | ⟨1, _⟩ => show q.val % 1024 = q.val; exact Nat.mod_eq_of_lt q.isLt)
  rw [val_main_v73_apply, val_main_v72_apply, val_main_v69_apply, val_main_v71_apply, val_main_v67_apply,
    val_main_v66_apply, val_main_v68_apply, val_main_c_6_apply, val_main_v70_apply, val_main_c_7_apply, e, hid 1 q]
  exact wrap_word_b1 _ (id 1 q).isLt

/-- The start indices of the gather of block 1's transformed columns name the columns tr 1 q. -/
theorem trGatherStart_toInt_b1 (tr : Fin 2 → Fin 1024 → Fin 2048) (htr : IdxIs x3 tr) (q : Fin 1024) :
    BitVec.toInt (val_main_v116 (F := Ideal) x3 (ix2 q (0 : Fin 1))) = ((tr 1 q).val : Int) := by
  have e : idx_main_v109 (idx_main_v110 (idx_main_v116 (ix2 q (0 : Fin 1)))) = ix2 (1 : Fin 2) q :=
    funext fun a => Fin.ext (by
      match a with
      | ⟨0, _⟩ => rfl
      | ⟨1, _⟩ => show q.val % 1024 = q.val; exact Nat.mod_eq_of_lt q.isLt)
  rw [val_main_v116_apply, val_main_v115_apply, val_main_v112_apply, val_main_v114_apply, val_main_v110_apply,
    val_main_v109_apply, val_main_v111_apply, val_main_c_8_apply, val_main_v113_apply, val_main_c_9_apply, e, htr 1 q]
  exact wrap_word_b1 _ (tr 1 q).isLt

/-- The scatter indices of block 1's update name the columns tr 1 q. -/
theorem trScatterStart_toInt_b1 (tr : Fin 2 → Fin 1024 → Fin 2048) (htr : IdxIs x3 tr) (q : Fin 1024) :
    BitVec.toInt (val_main_v126 (F := Ideal) x3 (ix2 q (0 : Fin 1))) = ((tr 1 q).val : Int) := by
  have e : idx_main_v107 (idx_main_v108 (idx_main_v126 (ix2 q (0 : Fin 1)))) = ix2 (1 : Fin 2) q :=
    funext fun a => Fin.ext (by
      match a with
      | ⟨0, _⟩ => rfl
      | ⟨1, _⟩ => show q.val % 1024 = q.val; exact Nat.mod_eq_of_lt q.isLt)
  rw [val_main_v126_apply, val_main_v125_apply, val_main_v122_apply, val_main_v124_apply, val_main_v108_apply,
    val_main_v107_apply, val_main_v121_apply, val_main_c_10_apply, val_main_v123_apply, val_main_c_11_apply, e, htr 1 q]
  exact wrap_word_b1 _ (tr 1 q).isLt

/-! ## The perceptron's input -/

/-- The gathered identity columns at (b, q): the first block's output in column id 1 q. -/
theorem idCols_at_b1 (id : Fin 2 → Fin 1024 → Fin 2048) (hid : IdxIs x2 id) (X : Mat 8192 2048)
    (hX : (val_main_v62 (F := Ideal) x0 x1 x2 x3 x4 x5 x6 x7 x8 x9 : Mat 8192 2048) = X) (b : Fin 8192) (q : Fin 1024) :
    val_main_v74 (F := Ideal) x0 x1 x2 x3 x4 x5 x6 x7 x8 x9 (ix2 b q) = X (ix2 b (id 1 q)) := by
  unfold val_main_v74
  rw [hX]
  exact gathCol_apply gather_S8192x2048_S1024x1_S8192x1024_0_1_n_n_1_1_81921.wf X (val_main_v73 (F := Ideal) x2) (id 1)
    (idStart_toInt_b1 x2 id hid) b q

/-- The concatenation at (b, k): a gathered identity column for k < 1024, else a condition column. -/
theorem hin_at_b1 (id : Fin 2 → Fin 1024 → Fin 2048) (hid : IdxIs x2 id) (X : Mat 8192 2048)
    (hX : (val_main_v62 (F := Ideal) x0 x1 x2 x3 x4 x5 x6 x7 x8 x9 : Mat 8192 2048) = X) (b : Fin 8192) (k : Fin 1088) :
    val_main_v75 (F := Ideal) x0 x1 x2 x3 x4 x5 x6 x7 x8 x9 (ix2 b k) = hinAt X x1 (id 1) b k := by
  unfold val_main_v75 hinAt
  by_cases h : k.val < 1024
  · rw [dif_pos h]
    refine (concatenate_pair_apply_left (s₁ := S8192x1024) (s₂ := S8192x64) 1 _ _ _ (ix2 b k) rfl (ix2 b (⟨k.val, h⟩ : Fin 1024)) (fun a => by
      match a with
      | ⟨0, _⟩ => rfl
      | ⟨1, _⟩ => rfl)).trans ?_
    exact idCols_at_b1 x0 x1 x2 x3 x4 x5 x6 x7 x8 x9 id hid X hX b ⟨k.val, h⟩
  · rw [dif_neg h]
    exact concatenate_pair_apply_right (s₁ := S8192x1024) (s₂ := S8192x64) 1 _ _ _ (ix2 b k) rfl rfl
      (ix2 b (⟨k.val - 1024, by have := k.isLt; omega⟩ : Fin 64))
      (fun a ha => by
        match a with
        | ⟨0, _⟩ => rfl
        | ⟨1, _⟩ => exact absurd rfl ha)
      (by show k.val - 1024 + 1024 = k.val; omega)

/-! ## The three layers -/

/-- Block 1's first weight matrix at (k, n). -/
theorem w1_at_b1 (k : Fin 1088) (n : Fin 4096) :
    val_main_v77 (F := Ideal) x4 (ix2 k n) = x4 (ix3 (1 : Fin 2) k n) := by
  rw [val_main_v77_apply, val_main_v76_apply]
  refine congrArg x4 (funext fun a => Fin.ext ?_)
  have hk := k.isLt
  have hn := n.isLt
  match a with
  | ⟨0, _⟩ => rfl
  | ⟨1, _⟩ => show (k.val * 4096 + n.val) / 4096 % 1088 = k.val; omega
  | ⟨2, _⟩ => show (k.val * 4096 + n.val) % 4096 = n.val; omega

/-- Block 1's first bias, broadcast down the rows, at (b, n). -/
theorem bias1_at_b1 (b : Fin 8192) (n : Fin 4096) :
    val_main_v82 (F := Ideal) x5 (ix2 b n) = x5 (ix2 (1 : Fin 2) n) := by
  rw [val_main_v82_apply, val_main_v81_apply, val_main_v80_apply, val_main_v79_apply]
  refine congrArg x5 (funext fun a => Fin.ext ?_)
  match a with
  | ⟨0, _⟩ => rfl
  | ⟨1, _⟩ => show n.val % 4096 = n.val; exact Nat.mod_eq_of_lt n.isLt

/-- The first layer at (b, n). -/
theorem h1_at_b1 (id : Fin 2 → Fin 1024 → Fin 2048) (hid : IdxIs x2 id) (X : Mat 8192 2048)
    (hX : (val_main_v62 (F := Ideal) x0 x1 x2 x3 x4 x5 x6 x7 x8 x9 : Mat 8192 2048) = X) (b : Fin 8192) (n : Fin 4096) :
    val_main_v84 (F := Ideal) x0 x1 x2 x3 x4 x5 x6 x7 x8 x9 (ix2 b n) = h1At X x1 (id 1) x4 x5 1 b n := by
  have hsum : (∑ k : Fin 1088, val_main_v75 (F := Ideal) x0 x1 x2 x3 x4 x5 x6 x7 x8 x9 (lidx_main_v78 (ix2 b n) k)
        * val_main_v77 (F := Ideal) x4 (ridx_main_v78 (ix2 b n) k))
      = ∑ k : Fin 1088, hinAt X x1 (id 1) b k * (x4 : Mat3 2 1088 4096) (ix3 (1 : Fin 2) k n) :=
    Finset.sum_congr rfl fun k _ => by
      have el : lidx_main_v78 (ix2 b n) k = ix2 b k :=
        funext fun a => Fin.ext (by match a with | ⟨0, _⟩ => rfl | ⟨1, _⟩ => rfl)
      have er : ridx_main_v78 (ix2 b n) k = ix2 k n :=
        funext fun a => Fin.ext (by match a with | ⟨0, _⟩ => rfl | ⟨1, _⟩ => rfl)
      rw [el, er, hin_at_b1 x0 x1 x2 x3 x4 x5 x6 x7 x8 x9 id hid X hX b k, w1_at_b1 x4 k n]
  rw [val_main_v84_apply, val_main_v83_apply, val_main_v78_apply, hsum, bias1_at_b1 x5 b n, val_main_call2_v0_apply,
    val_main_call2_cst_apply]
  unfold h1At
  simp only [Ideal.maximumf_def, Ideal.addf_def, Ideal.ofBits_def, Ideal.ofBits_zero_f32]

/-- Block 1's second weight matrix at (k, n). -/
theorem w2_at_b1 (k : Fin 4096) (n : Fin 4096) :
    val_main_v86 (F := Ideal) x6 (ix2 k n) = x6 (ix3 (1 : Fin 2) k n) := by
  rw [val_main_v86_apply, val_main_v85_apply]
  refine congrArg x6 (funext fun a => Fin.ext ?_)
  have hk := k.isLt
  have hn := n.isLt
  match a with
  | ⟨0, _⟩ => rfl
  | ⟨1, _⟩ => show (k.val * 4096 + n.val) / 4096 % 4096 = k.val; omega
  | ⟨2, _⟩ => show (k.val * 4096 + n.val) % 4096 = n.val; omega

/-- Block 1's second bias, broadcast down the rows, at (b, n). -/
theorem bias2_at_b1 (b : Fin 8192) (n : Fin 4096) :
    val_main_v91 (F := Ideal) x7 (ix2 b n) = x7 (ix2 (1 : Fin 2) n) := by
  rw [val_main_v91_apply, val_main_v90_apply, val_main_v89_apply, val_main_v88_apply]
  refine congrArg x7 (funext fun a => Fin.ext ?_)
  match a with
  | ⟨0, _⟩ => rfl
  | ⟨1, _⟩ => show n.val % 4096 = n.val; exact Nat.mod_eq_of_lt n.isLt

/-- The second layer at (b, n). -/
theorem h2_at_b1 (id : Fin 2 → Fin 1024 → Fin 2048) (hid : IdxIs x2 id) (X : Mat 8192 2048)
    (hX : (val_main_v62 (F := Ideal) x0 x1 x2 x3 x4 x5 x6 x7 x8 x9 : Mat 8192 2048) = X) (b : Fin 8192) (n : Fin 4096) :
    val_main_v93 (F := Ideal) x0 x1 x2 x3 x4 x5 x6 x7 x8 x9 (ix2 b n) = h2At (h1At X x1 (id 1) x4 x5 1) x6 x7 1 b n := by
  have hsum : (∑ k : Fin 4096, val_main_v84 (F := Ideal) x0 x1 x2 x3 x4 x5 x6 x7 x8 x9 (lidx_main_v87 (ix2 b n) k)
        * val_main_v86 (F := Ideal) x6 (ridx_main_v87 (ix2 b n) k))
      = ∑ k : Fin 4096, h1At X x1 (id 1) x4 x5 1 b k * (x6 : Mat3 2 4096 4096) (ix3 (1 : Fin 2) k n) :=
    Finset.sum_congr rfl fun k _ => by
      have el : lidx_main_v87 (ix2 b n) k = ix2 b k :=
        funext fun a => Fin.ext (by match a with | ⟨0, _⟩ => rfl | ⟨1, _⟩ => rfl)
      have er : ridx_main_v87 (ix2 b n) k = ix2 k n :=
        funext fun a => Fin.ext (by match a with | ⟨0, _⟩ => rfl | ⟨1, _⟩ => rfl)
      rw [el, er, h1_at_b1 x0 x1 x2 x3 x4 x5 x6 x7 x8 x9 id hid X hX b k, w2_at_b1 x6 k n]
  rw [val_main_v93_apply, val_main_v92_apply, val_main_v87_apply, hsum, bias2_at_b1 x7 b n, val_main_call3_v0_apply,
    val_main_call3_cst_apply]
  unfold h2At
  simp only [Ideal.maximumf_def, Ideal.addf_def, Ideal.ofBits_def, Ideal.ofBits_zero_f32]

/-- Block 1's third weight matrix at (k, n). -/
theorem w3_at_b1 (k : Fin 4096) (n : Fin 2048) :
    val_main_v95 (F := Ideal) x8 (ix2 k n) = x8 (ix3 (1 : Fin 2) k n) := by
  rw [val_main_v95_apply, val_main_v94_apply]
  refine congrArg x8 (funext fun a => Fin.ext ?_)
  have hk := k.isLt
  have hn := n.isLt
  match a with
  | ⟨0, _⟩ => rfl
  | ⟨1, _⟩ => show (k.val * 2048 + n.val) / 2048 % 4096 = k.val; omega
  | ⟨2, _⟩ => show (k.val * 2048 + n.val) % 2048 = n.val; omega

/-- Block 1's third bias, broadcast down the rows, at (b, n). -/
theorem bias3_at_b1 (b : Fin 8192) (n : Fin 2048) :
    val_main_v100 (F := Ideal) x9 (ix2 b n) = x9 (ix2 (1 : Fin 2) n) := by
  rw [val_main_v100_apply, val_main_v99_apply, val_main_v98_apply, val_main_v97_apply]
  refine congrArg x9 (funext fun a => Fin.ext ?_)
  match a with
  | ⟨0, _⟩ => rfl
  | ⟨1, _⟩ => show n.val % 2048 = n.val; exact Nat.mod_eq_of_lt n.isLt

/-- The third layer at (b, n): the specification's block 1 on X. -/
theorem o_at_b1 (id : Fin 2 → Fin 1024 → Fin 2048) (hid : IdxIs x2 id) (X : Mat 8192 2048)
    (hX : (val_main_v62 (F := Ideal) x0 x1 x2 x3 x4 x5 x6 x7 x8 x9 : Mat 8192 2048) = X) (b : Fin 8192) (n : Fin 2048) :
    val_main_v101 (F := Ideal) x0 x1 x2 x3 x4 x5 x6 x7 x8 x9 (ix2 b n) = blockO x1 x4 x5 x6 x7 x8 x9 id X 1 b n := by
  have hsum : (∑ k : Fin 4096, val_main_v93 (F := Ideal) x0 x1 x2 x3 x4 x5 x6 x7 x8 x9 (lidx_main_v96 (ix2 b n) k)
        * val_main_v95 (F := Ideal) x8 (ridx_main_v96 (ix2 b n) k))
      = ∑ k : Fin 4096, h2At (h1At X x1 (id 1) x4 x5 1) x6 x7 1 b k * (x8 : Mat3 2 4096 2048) (ix3 (1 : Fin 2) k n) :=
    Finset.sum_congr rfl fun k _ => by
      have el : lidx_main_v96 (ix2 b n) k = ix2 b k :=
        funext fun a => Fin.ext (by match a with | ⟨0, _⟩ => rfl | ⟨1, _⟩ => rfl)
      have er : ridx_main_v96 (ix2 b n) k = ix2 k n :=
        funext fun a => Fin.ext (by match a with | ⟨0, _⟩ => rfl | ⟨1, _⟩ => rfl)
      rw [el, er, h2_at_b1 x0 x1 x2 x3 x4 x5 x6 x7 x8 x9 id hid X hX b k, w3_at_b1 x8 k n]
  rw [val_main_v101_apply, val_main_v96_apply, hsum, bias3_at_b1 x9 b n]
  unfold blockO oAt
  simp only [Ideal.addf_def]

/-! ## Scale logits and translations

The third layer [8192 × 2048] is viewed as [8192 × 1024 × 2]: entry (b, q, e) is column 2q + e. -/

/-- The pair view's index (b, q, e) is column 2q + e of row b. -/
theorem pair_idx0_b1 (b : Fin 8192) (q : Fin 1024) :
    idx_main_v102 (ix3 b q (0 : Fin 2)) = ix2 b (⟨2 * q.val, by have := q.isLt; omega⟩ : Fin 2048) :=
  funext fun a => Fin.ext (by
    have hb := b.isLt
    have hq := q.isLt
    match a with
    | ⟨0, _⟩ => show ((b.val * 1024 + q.val) * 2 + 0) / 2048 = b.val; omega
    | ⟨1, _⟩ => show ((b.val * 1024 + q.val) * 2 + 0) % 2048 = 2 * q.val; omega)

theorem pair_idx1_b1 (b : Fin 8192) (q : Fin 1024) :
    idx_main_v102 (ix3 b q (1 : Fin 2)) = ix2 b (⟨2 * q.val + 1, by have := q.isLt; omega⟩ : Fin 2048) :=
  funext fun a => Fin.ext (by
    have hb := b.isLt
    have hq := q.isLt
    match a with
    | ⟨0, _⟩ => show ((b.val * 1024 + q.val) * 2 + 1) / 2048 = b.val; omega
    | ⟨1, _⟩ => show ((b.val * 1024 + q.val) * 2 + 1) % 2048 = 2 * q.val + 1; omega)

/-- Dropping the unit axis: (b, q) of the [8192 × 1024] view is (b, q, 0) of the [8192 × 1024 × 1] one. -/
theorem unit_idx_b1 (b : Fin 8192) (q : Fin 1024) : idx_main_v104 (ix2 b q) = ix3 b q (0 : Fin 1) :=
  funext fun a => Fin.ext (by
    have hb := b.isLt
    have hq := q.isLt
    match a with
    | ⟨0, _⟩ => show (b.val * 1024 + q.val) / 1024 = b.val; omega
    | ⟨1, _⟩ => show (b.val * 1024 + q.val) / 1 % 1024 = q.val; omega
    | ⟨2, _⟩ => rfl)

/-- The scale logits at (b, q): the third layer's even column 2q. -/
theorem s_at_b1 (id : Fin 2 → Fin 1024 → Fin 2048) (hid : IdxIs x2 id) (X : Mat 8192 2048)
    (hX : (val_main_v62 (F := Ideal) x0 x1 x2 x3 x4 x5 x6 x7 x8 x9 : Mat 8192 2048) = X) (b : Fin 8192) (q : Fin 1024) :
    val_main_v104 (F := Ideal) x0 x1 x2 x3 x4 x5 x6 x7 x8 x9 (ix2 b q) = sAt (blockO x1 x4 x5 x6 x7 x8 x9 id X 1) b q := by
  have e3 : idx_main_v103 (ix3 b q (0 : Fin 1)) = ix3 b q (0 : Fin 2) :=
    funext fun a => Fin.ext (by match a with | ⟨0, _⟩ => rfl | ⟨1, _⟩ => rfl | ⟨2, _⟩ => rfl)
  rw [val_main_v104_apply, unit_idx_b1 b q, val_main_v103_apply, e3, val_main_v102_apply, pair_idx0_b1 b q,
    o_at_b1 x0 x1 x2 x3 x4 x5 x6 x7 x8 x9 id hid X hX]
  rfl

/-- The translations at (b, q): the third layer's odd column 2q + 1. -/
theorem t_at_b1 (id : Fin 2 → Fin 1024 → Fin 2048) (hid : IdxIs x2 id) (X : Mat 8192 2048)
    (hX : (val_main_v62 (F := Ideal) x0 x1 x2 x3 x4 x5 x6 x7 x8 x9 : Mat 8192 2048) = X) (b : Fin 8192) (q : Fin 1024) :
    val_main_v106 (F := Ideal) x0 x1 x2 x3 x4 x5 x6 x7 x8 x9 (ix2 b q) = tAt (blockO x1 x4 x5 x6 x7 x8 x9 id X 1) b q := by
  have e6 : idx_main_v106 (ix2 b q) = ix3 b q (0 : Fin 1) := unit_idx_b1 b q
  have e5 : idx_main_v105 (ix3 b q (0 : Fin 1)) = ix3 b q (1 : Fin 2) :=
    funext fun a => Fin.ext (by match a with | ⟨0, _⟩ => rfl | ⟨1, _⟩ => rfl | ⟨2, _⟩ => rfl)
  rw [val_main_v106_apply, e6, val_main_v105_apply, e5, val_main_v102_apply, pair_idx1_b1 b q,
    o_at_b1 x0 x1 x2 x3 x4 x5 x6 x7 x8 x9 id hid X hX]
  rfl

/-! ## The update and the scatter -/

/-- The gathered transformed columns at (b, q): the first block's output in column tr 1 q. -/
theorem trCols_at_b1 (tr : Fin 2 → Fin 1024 → Fin 2048) (htr : IdxIs x3 tr) (X : Mat 8192 2048)
    (hX : (val_main_v62 (F := Ideal) x0 x1 x2 x3 x4 x5 x6 x7 x8 x9 : Mat 8192 2048) = X) (b : Fin 8192) (q : Fin 1024) :
    val_main_v117 (F := Ideal) x0 x1 x2 x3 x4 x5 x6 x7 x8 x9 (ix2 b q) = X (ix2 b (tr 1 q)) := by
  unfold val_main_v117
  rw [hX]
  exact gathCol_apply gather_S8192x2048_S1024x1_S8192x1024_0_1_n_n_1_1_81921.wf X (val_main_v116 (F := Ideal) x3) (tr 1)
    (trGatherStart_toInt_b1 x3 tr htr) b q

/-- The update at (b, q): the transformed value x · exp S + T. -/
theorem upd_at_b1 (id tr : Fin 2 → Fin 1024 → Fin 2048) (hid : IdxIs x2 id) (htr : IdxIs x3 tr) (X : Mat 8192 2048)
    (hX : (val_main_v62 (F := Ideal) x0 x1 x2 x3 x4 x5 x6 x7 x8 x9 : Mat 8192 2048) = X) (b : Fin 8192) (q : Fin 1024) :
    val_main_v120 (F := Ideal) x0 x1 x2 x3 x4 x5 x6 x7 x8 x9 (ix2 b q) = nvAt X (tr 1) (blockO x1 x4 x5 x6 x7 x8 x9 id X 1) b q := by
  rw [val_main_v120_apply, val_main_v119_apply, val_main_v118_apply, trCols_at_b1 x0 x1 x2 x3 x4 x5 x6 x7 x8 x9 tr htr X hX b q,
    s_at_b1 x0 x1 x2 x3 x4 x5 x6 x7 x8 x9 id hid X hX b q, t_at_b1 x0 x1 x2 x3 x4 x5 x6 x7 x8 x9 id hid X hX b q]
  rfl

/-! ## The two results -/

/-- The activations after the reference's second scatter are the specification's block 1 on the first block's output X. -/
theorem ref_block1_x (id tr : Fin 2 → Fin 1024 → Fin 2048) (hid : IdxIs x2 id) (htr : IdxIs x3 tr)
    (hinj : Function.Injective (tr 1)) (X : Mat 8192 2048)
    (hX : (val_main_v62 (F := Ideal) x0 x1 x2 x3 x4 x5 x6 x7 x8 x9 : Mat 8192 2048) = X) :
    (val_main_v127 (F := Ideal) x0 x1 x2 x3 x4 x5 x6 x7 x8 x9 : Mat 8192 2048)
      = blockX x1 x4 x5 x6 x7 x8 x9 id tr X 1 := by
  funext j
  obtain ⟨b, r, rfl⟩ : ∃ (b : Fin 8192) (r : Fin 2048), j = ix2 b r := ⟨j 0, j 1, eq_ix2 j⟩
  unfold val_main_v127
  rw [hX]
  refine (scatCol_set_apply scatter_S8192x2048_S1024x1_S8192x1024_0_1_1_1.wf X (val_main_v126 (F := Ideal) x3)
    (val_main_v120 (F := Ideal) x0 x1 x2 x3 x4 x5 x6 x7 x8 x9) (tr 1) (trScatterStart_toInt_b1 x3 tr htr) hinj b r).trans ?_
  show _ = xnewAt X (tr 1) (blockO x1 x4 x5 x6 x7 x8 x9 id X 1) b r
  unfold xnewAt
  by_cases h : ∃ q, tr 1 q = r
  · rw [dif_pos h, dif_pos h]
    exact upd_at_b1 x0 x1 x2 x3 x4 x5 x6 x7 x8 x9 id tr hid htr X hX b h.choose
  · rw [dif_neg h, dif_neg h]

/-- The reference's second log-determinant term is block 1's, on the first block's output X. -/
theorem ref_block1_ld (id : Fin 2 → Fin 1024 → Fin 2048) (hid : IdxIs x2 id) (X : Mat 8192 2048)
    (hX : (val_main_v62 (F := Ideal) x0 x1 x2 x3 x4 x5 x6 x7 x8 x9 : Mat 8192 2048) = X)
    (j : (⟨2, ![8192, 1]⟩ : Shape).Idx) :
    (val_main_v129 (F := Ideal) x0 x1 x2 x3 x4 x5 x6 x7 x8 x9 : Mat 8192 1) j
      = ldAt (blockO x1 x4 x5 x6 x7 x8 x9 id X 1) (j 0) := by
  obtain ⟨b, z, rfl⟩ : ∃ (b : Fin 8192) (z : Fin 1), j = ix2 b z := ⟨j 0, j 1, eq_ix2 j⟩
  rw [val_main_v129_apply, val_main_v128_apply, val_main_cst_12_apply]
  show FloatOps.ofBits (F := Ideal) .f32 0x00000000#32 + _ = ldAt (blockO x1 x4 x5 x6 x7 x8 x9 id X 1) b
  unfold ldAt
  rw [Ideal.ofBits_def, Ideal.ofBits_zero_f32, zero_add]
  refine Finset.sum_congr rfl fun q _ => ?_
  have e : idx_main_v128 (idx_main_v129 (ix2 b z)) q = ix2 b q :=
    funext fun a => Fin.ext (by match a with | ⟨0, _⟩ => rfl | ⟨1, _⟩ => rfl)
  rw [e]
  exact s_at_b1 x0 x1 x2 x3 x4 x5 x6 x7 x8 x9 id hid X hX b q

end Cert.ReferenceIdeal.RefValue

end
-- ==== Proof.RefValue.lean ====
/-
  The reference program's two results as functions of its arguments: the specification's layer.

  The second scatter's stage is block 1 applied to block 0's output, and the returned log-determinant's stage is
  (0 + block 0's term) + block 1's term.
-/
import proofs.«427001_j89833535963578_2_alg».proof.Proof.RefBlock0
import proofs.«427001_j89833535963578_2_alg».proof.Proof.RefBlock1

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP Cert.Coupling

variable (m : (ℓ : Loc nD τ sig) → Buf (Elt Ideal) ℓ)

/-- The two result stages are the specification's layer of the arguments, when the index arguments name the column
    maps id, tr and each tr i is injective. -/
theorem results_eq (c : Dev nD) (id tr : Fin 2 → Fin 1024 → Fin 2048)
    (hid : IdxIs (m ((c.tc : Thread nD τ).loc main_arg2)) id) (htr : IdxIs (m ((c.tc : Thread nD τ).loc main_arg3)) tr)
    (hinj : ∀ i, Function.Injective (tr i)) :
    (val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) : Mat 8192 2048)
        = layerX (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) id tr (m ((c.tc : Thread nD τ).loc main_arg0))
    ∧ (val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) : Mat 8192 1)
        = layerLd (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) id tr (m ((c.tc : Thread nD τ).loc main_arg0)) := by
  have hX := ref_block0_x (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) id tr hid htr (hinj 0)
  refine ⟨?_, ?_⟩
  · exact ref_block1_x _ _ _ _ _ _ _ _ _ _ id tr hid htr (hinj 1) _ hX
  · funext j
    rw [val_main_v130_apply]
    refine (congrArg₂ (fun a b : EReal => a + b)
      (ref_block0_ld _ _ _ _ _ _ _ _ _ id hid j) (ref_block1_ld _ _ _ _ _ _ _ _ _ _ id hid _ hX j)).trans ?_
    rfl

end Cert.ReferenceIdeal.RefValue

end
-- ==== Proof.PreDecode.lean ====
/-
  What the precondition says about the two index arguments.

  The printed predicate is a conjunction (a chain of 1-bit ands): the eight finiteness tests of the float arguments, then
  "every entry of idx_id lies in [0, 2048)", the same for idx_tr, and for each block "the 1024 entries of idx_tr's row
  are pairwise distinct" (entry (j, k) of a 1024 × 1024 table: r[j] ≠ r[k] or j = k). Read back: each index array names
  column maps id, tr : block → position → column, and each tr i is injective.
-/
import proofs.«427001_j89833535963578_2_alg».proof.Pre_finite_inputs
import proofs.«427001_j89833535963578_2_alg».proof.Proof.Index
import Idealize.ShloMosaic.Lib.ReduceAll
import Idealize.ShloMosaic.Lib.StableHlo.Predicate
import Idealize.ShloMosaic.Lib.Pipeline.Value
import Idealize.ShloMosaic.Lib.ValueIdx

noncomputable section

namespace Cert.Coupling

open Idealize.ShloMosaic Idealize.ShloMosaic.ValueIdx
open Idealize.ShloMosaic.StableHlo.Predicate (ij bcast_rows bcast_cols iota_apply)

/-- A 32-bit word that tests signed-nonnegative and signed-below 2048 has unsigned value below 2048. -/
theorem word_range (w : BitVec 32) (h0 : IntOp.cmpi .sge w 0#32 = 1#1) (h1 : IntOp.cmpi .slt w 2048#32 = 1#1) :
    w.toNat < 2048 := by
  have e0 := IntOp.cmpi_sge.1 h0
  have e1 := IntOp.cmpi_slt.1 h1
  rw [show (0#32 : BitVec 32).toInt = 0 from by decide] at e0
  rw [show (2048#32 : BitVec 32).toInt = 2048 from by decide] at e1
  rw [BitVec.toInt_eq_toNat_cond] at e0 e1
  have hlt := w.isLt
  split at e0 <;> omega

/-- A word is the 32-bit word of its own unsigned value. -/
theorem word_eq_ofNat (w : BitVec 32) : w = BitVec.ofNat 32 w.toNat := by
  apply BitVec.eq_of_toNat_eq
  rw [BitVec.toNat_ofNat, Nat.mod_eq_of_lt w.isLt]

/-- The distinctness table of a row r of n words: entry (j, k) is "r j ≠ r k, or j = k" (the positions compared as
    32-bit words). If the and over all its entries is one, the row's words are pairwise distinct. -/
theorem distinct_of_table {n : Nat} (hn : n ≤ 2 ^ 32)
    (b1 : (⟨1, ![n]⟩ : Shape).BroadcastsInDim ⟨2, ![n, 1]⟩ ![0])
    (b2 : (⟨1, ![n]⟩ : Shape).BroadcastsInDim ⟨2, ![1, n]⟩ ![1])
    (b3 : (⟨2, ![n, 1]⟩ : Shape).BroadcastsInDim ⟨2, ![n, n]⟩ ![0, 1])
    (b4 : (⟨2, ![1, n]⟩ : Shape).BroadcastsInDim ⟨2, ![n, n]⟩ ![0, 1])
    {t u : Shape} [Subsingleton t.Idx] (hr : (⟨2, ![n, n]⟩ : Shape).ReducesTo [0, 1] t) (hu : 0 < u.numel)
    (init : IVec u 1) (r : IVec ⟨1, ![n]⟩ 32) (j0 : t.Idx)
    (h : Host.reduce IntOp.andi
          (ori
            (cmpi .ne (broadcastInDim ⟨2, ![n, n]⟩ ![0, 1] b3 (broadcastInDim ⟨2, ![n, 1]⟩ ![0] b1 r))
              (broadcastInDim ⟨2, ![n, n]⟩ ![0, 1] b4 (broadcastInDim ⟨2, ![1, n]⟩ ![1] b2 r)))
            (cmpi .eq (broadcastInDim ⟨2, ![n, n]⟩ ![0, 1] b3 (broadcastInDim ⟨2, ![n, 1]⟩ ![0] b1 (iotaInDim ⟨1, ![n]⟩ 32 0)))
              (broadcastInDim ⟨2, ![n, n]⟩ ![0, 1] b4 (broadcastInDim ⟨2, ![1, n]⟩ ![1] b2 (iotaInDim ⟨1, ![n]⟩ 32 0)))))
          init hr hu j0 = 1#1) :
    ∀ j k : Fin n, j ≠ k → r (Shape.Idx.ofFin j) ≠ r (Shape.Idx.ofFin k) := by
  intro j k hjk
  have e := Host.reduce_andi_all _ init hr hu j0 h (ij j k)
  rcases IntOp.ori_eq_one.1 e with e1 | e2
  · have e1' := IntOp.cmpi_ne.1 e1
    rw [bcast_rows b1 b3 r j k, bcast_cols b2 b4 r j k] at e1'
    exact e1'
  · have e2' := IntOp.cmpi_eq.1 e2
    rw [bcast_rows b1 b3 _ j k, bcast_cols b2 b4 _ j k, iota_apply, iota_apply] at e2'
    exfalso
    apply hjk
    apply Fin.ext
    have := congrArg BitVec.toNat e2'
    rw [BitVec.toNat_ofNat, BitVec.toNat_ofNat, Nat.mod_eq_of_lt (by have := j.isLt; omega),
      Nat.mod_eq_of_lt (by have := k.isLt; omega)] at this
    exact this

/-- Row i of a [2 × 1024] array, cut out as a [1 × 1024] slice at offset (i, 0) and reshaped to [1024], reads at q the
    array at (i, q). -/
theorem row_read {α : Type} (a : (⟨2, ![2, 1024]⟩ : Shape).Idx → α) (i : Fin 2) (off : Fin 2 → Nat)
    (hs : (⟨2, ![2, 1024]⟩ : Shape).Slices off ⟨2, ![1, 1024]⟩) (hoff0 : off 0 = i.val) (hoff1 : off 1 = 0)
    (hc : (⟨2, ![1, 1024]⟩ : Shape).ShapeCasts ⟨1, ![1024]⟩) (q : Fin 1024) :
    shapeCast ⟨1, ![1024]⟩ (extractStridedSlice ⟨2, ![1, 1024]⟩ off a hs) hc (Shape.Idx.ofFin q) = a (ix2 i q) := by
  refine (shapeCast_apply _ hc _ (ix2 (0 : Fin 1) q) ?_).trans ?_
  · rw [Shape.rowMajor_val_two, Shape.rowMajor_val_one]
    show (0 : Nat) * 1024 + q.val = q.val
    omega
  · refine extractStridedSlice_apply off a hs _ (ix2 i q) fun b => ?_
    match b with
    | ⟨0, _⟩ => show i.val = off 0 + 0; omega
    | ⟨1, _⟩ => show q.val = off 1 + q.val; omega

variable [Cert.Pre_finite_inputs.Facts]

/-- An and of two 1-bit scalars that is one at the scalar's index: both are. -/
theorem andi_ix0 {s : Shape} {x y : IVec s 1} {j : s.Idx} (h : andi x y j = 1#1) : x j = 1#1 ∧ y j = 1#1 :=
  IntOp.andi_eq_one.1 h

open Cert.Pre_finite_inputs in
/-- If the printed precondition of the ten argument arrays is all ones, the two index arrays name column maps into
    [0, 2048), and each block's transformed columns are pairwise distinct. -/
theorem idx_of_pre (a0 : FVec Ideal S8192x2048 .f32) (a1 : FVec Ideal S8192x64 .f32) (a2 a3 : IVec S2x1024 32)
    (a4 : FVec Ideal S2x1088x4096 .f32) (a5 : FVec Ideal S2x4096 .f32) (a6 : FVec Ideal S2x4096x4096 .f32)
    (a7 : FVec Ideal S2x4096 .f32) (a8 : FVec Ideal S2x4096x2048 .f32) (a9 : FVec Ideal S2x2048 .f32)
    (h : Cert.Pre_finite_inputs.fn (F := Ideal) a0 a1 a2 a3 a4 a5 a6 a7 a8 a9 = fun _ => 1#1) :
    ∃ id tr : Fin 2 → Fin 1024 → Fin 2048, IdxIs a2 id ∧ IdxIs a3 tr ∧ ∀ i, Function.Injective (tr i) := by
  haveI : Subsingleton S_.Idx := ⟨fun a b => funext fun d => d.elim0⟩
  have h0 := congrFun h ValueIdx.ix0
  dsimp only [Cert.Pre_finite_inputs.fn, fn_part1, fn_part2, fn_part3, fn_part4] at h0
  obtain ⟨h68, h83⟩ := andi_ix0 h0
  obtain ⟨h52, h67⟩ := andi_ix0 h68
  obtain ⟨h45, h51⟩ := andi_ix0 h52
  obtain ⟨h38, h44⟩ := andi_ix0 h45
  clear h38 h45 h52 h68 h0
  -- the two range tables, read at an index
  have r2 : ∀ (i : Fin 2) (q : Fin 1024), (a2 (ix2 i q)).toNat < 2048 := fun i q => by
    obtain ⟨e1, e2⟩ := andi_ix0 (Host.reduce_andi_all _ _ _ _ _ h44 (ix2 i q))
    exact word_range _ e1 e2
  have r3 : ∀ (i : Fin 2) (q : Fin 1024), (a3 (ix2 i q)).toNat < 2048 := fun i q => by
    obtain ⟨e1, e2⟩ := andi_ix0 (Host.reduce_andi_all _ _ _ _ _ h51 (ix2 i q))
    exact word_range _ e1 e2
  -- the two distinctness tables
  have d0 := distinct_of_table (by decide) _ _ _ _ _ _ _ _ _ h67
  have d1 := distinct_of_table (by decide) _ _ _ _ _ _ _ _ _ h83
  have dd0 : ∀ j k : Fin 1024, j ≠ k → a3 (ix2 (0 : Fin 2) j) ≠ a3 (ix2 (0 : Fin 2) k) := fun j k hjk => by
    have e := d0 j k hjk
    rwa [row_read a3 0 ![0, 0] Facts.slices_S2x1024_S1x1024_0_0 rfl rfl Facts.shapeCasts_S1x1024_S1024 j,
      row_read a3 0 ![0, 0] Facts.slices_S2x1024_S1x1024_0_0 rfl rfl Facts.shapeCasts_S1x1024_S1024 k] at e
  have dd1 : ∀ j k : Fin 1024, j ≠ k → a3 (ix2 (1 : Fin 2) j) ≠ a3 (ix2 (1 : Fin 2) k) := fun j k hjk => by
    have e := d1 j k hjk
    rwa [row_read a3 1 ![1, 0] Facts.slices_S2x1024_S1x1024_1_0 rfl rfl Facts.shapeCasts_S1x1024_S1024 j,
      row_read a3 1 ![1, 0] Facts.slices_S2x1024_S1x1024_1_0 rfl rfl Facts.shapeCasts_S1x1024_S1024 k] at e
  have dd : ∀ (i : Fin 2) (j k : Fin 1024), j ≠ k → a3 (ix2 i j) ≠ a3 (ix2 i k) := fun i =>
    match i with
    | ⟨0, _⟩ => dd0
    | ⟨1, _⟩ => dd1
  refine ⟨fun i q => ⟨(a2 (ix2 i q)).toNat, r2 i q⟩, fun i q => ⟨(a3 (ix2 i q)).toNat, r3 i q⟩,
    fun i q => word_eq_ofNat _, fun i q => word_eq_ofNat _, fun i j k hjk => ?_⟩
  by_contra hne
  have e := congrArg Fin.val hjk
  exact dd i j k hne (BitVec.eq_of_toNat_eq e)

end Cert.Coupling

end
-- ==== Proof.lean ====
/-
  The certificate of an affine coupling layer of two blocks, whose kernel does the reference's column gather and
  set-scatter by 0/1 selection matrices.

  Both programs compute, over the extended reals, the specification of Proof/Spec.lean: per block, gather the
  identity columns and append the condition, a three-layer perceptron, split its output into scale logits S and
  translations T, replace each transformed column by x · exp S + T, add the row sums of S to the log-determinant.
  The kernel program gathers by the product x · P with P[r, q] = [r = idx[q]] and scatters by
  x ∘ (1 − rowsum P) + nv · Pᵀ; that is the reference's gather and set-scatter exactly when every index is a column
  number and the scattered columns of a block are pairwise distinct, which the precondition states (beside the
  finiteness of the float arguments, which this proof never opens: x · 0 = 0 for every extended real).
  The three frames are the generated ones (the reference's: its run with the results dropped); the ideal pass
  rewrote nothing, so the preservation claim is trivial.
-/
import proofs.«427001_j89833535963578_2_alg».proof.Defs
import proofs.«427001_j89833535963578_2_alg».proof.Proof.Gen.Kernel
import proofs.«427001_j89833535963578_2_alg».proof.Proof.Gen.Kernel.Skeleton
import proofs.«427001_j89833535963578_2_alg».proof.Proof.Gen.Kernel.Launch
import proofs.«427001_j89833535963578_2_alg».proof.Proof.Gen.Kernel.Points
import proofs.«427001_j89833535963578_2_alg».proof.Proof.Gen.Kernel.Frame
import proofs.«427001_j89833535963578_2_alg».proof.Proof.Gen.KernelIdeal
import proofs.«427001_j89833535963578_2_alg».proof.Proof.Gen.KernelIdeal.Skeleton
import proofs.«427001_j89833535963578_2_alg».proof.Proof.Gen.KernelIdeal.Launch
import proofs.«427001_j89833535963578_2_alg».proof.Proof.Gen.KernelIdeal.Points
import proofs.«427001_j89833535963578_2_alg».proof.Proof.Gen.KernelIdeal.Frame
import proofs.«427001_j89833535963578_2_alg».proof.Proof.Gen.ReferenceIdeal
import proofs.«427001_j89833535963578_2_alg».proof.Proof.Gen.Pre_finite_inputs
import proofs.«427001_j89833535963578_2_alg».proof.Proof.KernelRun
import proofs.«427001_j89833535963578_2_alg».proof.Proof.Thread
import proofs.«427001_j89833535963578_2_alg».proof.Proof.RefValue
import proofs.«427001_j89833535963578_2_alg».proof.Proof.RefRunStages
import proofs.«427001_j89833535963578_2_alg».proof.Proof.PreDecode
import Idealize.ShloMosaic.Adequacy
import Idealize.ShloMosaic.Init

noncomputable section

namespace Cert.Proof

open Idealize.ShloMosaic Idealize.ShloMosaic.TcCoe Idealize.SL.Sem Cert.Coupling

theorem frame_k : Cert.frame_Kernel := fun m ρ _ => Cert.Kernel.Gen.frame m ρ

theorem frame_ki : Cert.frame_KernelIdeal := fun m ρ _ => Cert.KernelIdeal.Gen.frame m ρ

/-- The reference's frame: its run over the stages, the two results dropped. -/
theorem frame_ri : Cert.frame_ReferenceIdeal := fun m ρ _ =>
  (θ_run Cert.ReferenceIdeal.defs _ _).mono (fun _ h c => (h c).2.2) (Cert.ReferenceIdeal.RefValue.run_stages (F := Ideal) m ρ)

/-- The ideal pass rewrote no operation. -/
theorem preserves : Cert.preserves_Kernel_KernelIdeal := trivial

/-- From memories agreeing on the arguments both programs end with the specification's layer of the arguments: the
    column maps are read off the precondition on each device, the kernel's results off the fold through its
    segments, the reference's off its run's stages. -/
theorem algebraic : Cert.algebraic_KernelIdeal_ReferenceIdeal := by
  intro m ρ m' ρ' hpre hagree
  have hidx := fun c => Cert.Coupling.idx_of_pre _ _ _ _ _ _ _ _ _ _ (hpre c)
  choose id tr hid htr hinj using hidx
  refine ⟨fun c => layerX (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (id c) (tr c) (m ((c.tc : Thread Cert.KernelIdeal.nD Cert.KernelIdeal.τ).loc Cert.KernelIdeal.main_arg0)),
    fun c => layerLd (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (id c) (tr c) (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.ValRun.run_results (F := Ideal) m ρ)
    obtain ⟨h0, h1, hargs⟩ := h c
    have hk := Cert.KernelIdeal.Val.results_eq m ρ c (id c) (tr c) (hid c) (htr c) (hinj c)
    exact ⟨h0.trans hk.1, h1.trans hk.2, hargs⟩
  · refine (θ_run Cert.ReferenceIdeal.defs _ _).mono (fun r h c => ?_) (Cert.ReferenceIdeal.RefValue.run_stages (F := Ideal) m' ρ')
    obtain ⟨h0, h1, hargs⟩ := h c
    obtain ⟨e0, e1, e2, e3, e4, e5, e6, e7, e8, e9⟩ := hagree c
    have hr := Cert.ReferenceIdeal.RefValue.results_eq m' c (id c) (tr c) (by rw [e2]; exact hid c) (by rw [e3]; exact htr c) (hinj c)
    refine ⟨h0.trans (hr.1.trans ?_), h1.trans (hr.2.trans ?_), hargs⟩
    · rw [e0, e1, e4, e5, e6, e7, e8, e9]
    · rw [e0, e1, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
